-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S1x2048x1024 : Shape := ⟨3, ![1, 2048, 1024]⟩
abbrev S2048x512 : Shape := ⟨2, ![2048, 512]⟩
abbrev S1024x1024 : Shape := ⟨2, ![1024, 1024]⟩
abbrev S1024x512 : Shape := ⟨2, ![1024, 512]⟩
abbrev S16 : Shape := ⟨1, ![16]⟩
abbrev S1 : Shape := ⟨1, ![1]⟩
abbrev S_ : Shape := ⟨0, ![]⟩
abbrev S64x512 : Shape := ⟨2, ![64, 512]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .bf16⟩
  | .local _ .vmem, ⟨0, _⟩ => ⟨S1024x1024, .f32⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  (ofTc nBuf bufTy 1 112 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_4 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v6 : BitVec 32 := Scalar.muli v2 c1024_i32
  let v10 : BitVec 32 := Scalar.addi v6 c0_i32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_2 v5
  let c512_i32_3 : BitVec 32 := 512#32
  let v9 : BitVec 32 := Scalar.muli v8 c512_i32_3
  ![0, v10.toNat, v9.toNat]
def k0_off2 (d0 : Dev nD) (c0_i32_56 : BitVec 32) : Fin 3 → Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v6 : BitVec 32 := Scalar.muli v2 c1024_i32
  let v106 : BitVec 32 := Scalar.addi v6 c0_i32_56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v7 : BitVec 32 := Scalar.muli v5 c512_i32
  ![0, v106.toNat, v7.toNat]
def k0_dev1 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v204 : BitVec 32 := Scalar.muli v2 c2_i32_138
  let v205 : BitVec 32 := Scalar.addi c0_i32_139 v204
  let c1_i32_136 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v203 : BitVec 32 := Scalar.subi c1_i32_136 v5
  let c1_i32_140 : BitVec 32 := 1#32
  let v206 : BitVec 32 := Scalar.muli v203 c1_i32_140
  let v207 : BitVec 32 := Scalar.addi v205 v206
  v207.toNat
def k0_dev2 (d0 : Dev nD) : Nat :=
  let c0_i32_144 : BitVec 32 := 0#32
  let c1_i32_141 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v208 : BitVec 32 := Scalar.subi c1_i32_141 v2
  let c2_i32_143 : BitVec 32 := 2#32
  let v209 : BitVec 32 := Scalar.muli v208 c2_i32_143
  let v210 : BitVec 32 := Scalar.addi c0_i32_144 v209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_145 : BitVec 32 := 1#32
  let v211 : BitVec 32 := Scalar.muli v5 c1_i32_145
  let v212 : BitVec 32 := Scalar.addi v210 v211
  v212.toNat
def k0_dev3 (d0 : Dev nD) : Nat :=
  let c0_i32_157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_156 : BitVec 32 := 2#32
  let v224 : BitVec 32 := Scalar.muli v2 c2_i32_156
  let v225 : BitVec 32 := Scalar.addi c0_i32_157 v224
  let c1_i32_153 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v223 : BitVec 32 := Scalar.subi c1_i32_153 v5
  let c1_i32_158 : BitVec 32 := 1#32
  let v226 : BitVec 32 := Scalar.muli v223 c1_i32_158
  let v227 : BitVec 32 := Scalar.addi v225 v226
  v227.toNat
def k0_dev4 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v245 : BitVec 32 := Scalar.muli v2 c2_i32_173
  let v246 : BitVec 32 := Scalar.addi c0_i32_174 v245
  let c1_i32_170 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v244 : BitVec 32 := Scalar.subi c1_i32_170 v5
  let c1_i32_175 : BitVec 32 := 1#32
  let v247 : BitVec 32 := Scalar.muli v244 c1_i32_175
  let v248 : BitVec 32 := Scalar.addi v246 v247
  v248.toNat
def k0_dev5 (d0 : Dev nD) : Nat :=
  let c0_i32_191 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_190 : BitVec 32 := 2#32
  let v266 : BitVec 32 := Scalar.muli v2 c2_i32_190
  let v267 : BitVec 32 := Scalar.addi c0_i32_191 v266
  let c1_i32_187 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v265 : BitVec 32 := Scalar.subi c1_i32_187 v5
  let c1_i32_192 : BitVec 32 := 1#32
  let v268 : BitVec 32 := Scalar.muli v265 c1_i32_192
  let v269 : BitVec 32 := Scalar.addi v267 v268
  v269.toNat
def k0_dev6 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v287 : BitVec 32 := Scalar.muli v2 c2_i32_207
  let v288 : BitVec 32 := Scalar.addi c0_i32_208 v287
  let c1_i32_204 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v286 : BitVec 32 := Scalar.subi c1_i32_204 v5
  let c1_i32_209 : BitVec 32 := 1#32
  let v289 : BitVec 32 := Scalar.muli v286 c1_i32_209
  let v290 : BitVec 32 := Scalar.addi v288 v289
  v290.toNat
def k0_dev7 (d0 : Dev nD) : Nat :=
  let c0_i32_225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_224 : BitVec 32 := 2#32
  let v308 : BitVec 32 := Scalar.muli v2 c2_i32_224
  let v309 : BitVec 32 := Scalar.addi c0_i32_225 v308
  let c1_i32_221 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v307 : BitVec 32 := Scalar.subi c1_i32_221 v5
  let c1_i32_226 : BitVec 32 := 1#32
  let v310 : BitVec 32 := Scalar.muli v307 c1_i32_226
  let v311 : BitVec 32 := Scalar.addi v309 v310
  v311.toNat
def k0_dev8 (d0 : Dev nD) : Nat :=
  let c0_i32_242 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_241 : BitVec 32 := 2#32
  let v329 : BitVec 32 := Scalar.muli v2 c2_i32_241
  let v330 : BitVec 32 := Scalar.addi c0_i32_242 v329
  let c1_i32_238 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v328 : BitVec 32 := Scalar.subi c1_i32_238 v5
  let c1_i32_243 : BitVec 32 := 1#32
  let v331 : BitVec 32 := Scalar.muli v328 c1_i32_243
  let v332 : BitVec 32 := Scalar.addi v330 v331
  v332.toNat
def k0_dev9 (d0 : Dev nD) : Nat :=
  let c0_i32_259 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_258 : BitVec 32 := 2#32
  let v350 : BitVec 32 := Scalar.muli v2 c2_i32_258
  let v351 : BitVec 32 := Scalar.addi c0_i32_259 v350
  let c1_i32_255 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v349 : BitVec 32 := Scalar.subi c1_i32_255 v5
  let c1_i32_260 : BitVec 32 := 1#32
  let v352 : BitVec 32 := Scalar.muli v349 c1_i32_260
  let v353 : BitVec 32 := Scalar.addi v351 v352
  v353.toNat
def k0_dev10 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_275 : BitVec 32 := 2#32
  let v371 : BitVec 32 := Scalar.muli v2 c2_i32_275
  let v372 : BitVec 32 := Scalar.addi c0_i32_276 v371
  let c1_i32_272 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v370 : BitVec 32 := Scalar.subi c1_i32_272 v5
  let c1_i32_277 : BitVec 32 := 1#32
  let v373 : BitVec 32 := Scalar.muli v370 c1_i32_277
  let v374 : BitVec 32 := Scalar.addi v372 v373
  v374.toNat
def k0_dev11 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v392 : BitVec 32 := Scalar.muli v2 c2_i32_293
  let v393 : BitVec 32 := Scalar.addi c0_i32_294 v392
  let c1_i32_290 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v391 : BitVec 32 := Scalar.subi c1_i32_290 v5
  let c1_i32_295 : BitVec 32 := 1#32
  let v394 : BitVec 32 := Scalar.muli v391 c1_i32_295
  let v395 : BitVec 32 := Scalar.addi v393 v394
  v395.toNat
def k0_dev12 (d0 : Dev nD) : Nat :=
  let c0_i32_311 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_310 : BitVec 32 := 2#32
  let v413 : BitVec 32 := Scalar.muli v2 c2_i32_310
  let v414 : BitVec 32 := Scalar.addi c0_i32_311 v413
  let c1_i32_307 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v412 : BitVec 32 := Scalar.subi c1_i32_307 v5
  let c1_i32_312 : BitVec 32 := 1#32
  let v415 : BitVec 32 := Scalar.muli v412 c1_i32_312
  let v416 : BitVec 32 := Scalar.addi v414 v415
  v416.toNat
def k0_dev13 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v434 : BitVec 32 := Scalar.muli v2 c2_i32_327
  let v435 : BitVec 32 := Scalar.addi c0_i32_328 v434
  let c1_i32_324 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v433 : BitVec 32 := Scalar.subi c1_i32_324 v5
  let c1_i32_329 : BitVec 32 := 1#32
  let v436 : BitVec 32 := Scalar.muli v433 c1_i32_329
  let v437 : BitVec 32 := Scalar.addi v435 v436
  v437.toNat
def k0_dev14 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v455 : BitVec 32 := Scalar.muli v2 c2_i32_344
  let v456 : BitVec 32 := Scalar.addi c0_i32_345 v455
  let c1_i32_341 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v454 : BitVec 32 := Scalar.subi c1_i32_341 v5
  let c1_i32_346 : BitVec 32 := 1#32
  let v457 : BitVec 32 := Scalar.muli v454 c1_i32_346
  let v458 : BitVec 32 := Scalar.addi v456 v457
  v458.toNat
def k0_dev15 (d0 : Dev nD) : Nat :=
  let c0_i32_362 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_361 : BitVec 32 := 2#32
  let v476 : BitVec 32 := Scalar.muli v2 c2_i32_361
  let v477 : BitVec 32 := Scalar.addi c0_i32_362 v476
  let c1_i32_358 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v475 : BitVec 32 := Scalar.subi c1_i32_358 v5
  let c1_i32_363 : BitVec 32 := 1#32
  let v478 : BitVec 32 := Scalar.muli v475 c1_i32_363
  let v479 : BitVec 32 := Scalar.addi v477 v478
  v479.toNat
def k0_dev16 (d0 : Dev nD) : Nat :=
  let c0_i32_379 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_378 : BitVec 32 := 2#32
  let v497 : BitVec 32 := Scalar.muli v2 c2_i32_378
  let v498 : BitVec 32 := Scalar.addi c0_i32_379 v497
  let c1_i32_375 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v496 : BitVec 32 := Scalar.subi c1_i32_375 v5
  let c1_i32_380 : BitVec 32 := 1#32
  let v499 : BitVec 32 := Scalar.muli v496 c1_i32_380
  let v500 : BitVec 32 := Scalar.addi v498 v499
  v500.toNat
def k0_dev17 (d0 : Dev nD) : Nat :=
  let c0_i32_396 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_395 : BitVec 32 := 2#32
  let v518 : BitVec 32 := Scalar.muli v2 c2_i32_395
  let v519 : BitVec 32 := Scalar.addi c0_i32_396 v518
  let c1_i32_392 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v517 : BitVec 32 := Scalar.subi c1_i32_392 v5
  let c1_i32_397 : BitVec 32 := 1#32
  let v520 : BitVec 32 := Scalar.muli v517 c1_i32_397
  let v521 : BitVec 32 := Scalar.addi v519 v520
  v521.toNat
def k0_dev18 (d0 : Dev nD) : Nat :=
  let c0_i32_413 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_412 : BitVec 32 := 2#32
  let v539 : BitVec 32 := Scalar.muli v2 c2_i32_412
  let v540 : BitVec 32 := Scalar.addi c0_i32_413 v539
  let c1_i32_409 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v538 : BitVec 32 := Scalar.subi c1_i32_409 v5
  let c1_i32_414 : BitVec 32 := 1#32
  let v541 : BitVec 32 := Scalar.muli v538 c1_i32_414
  let v542 : BitVec 32 := Scalar.addi v540 v541
  v542.toNat
def k0_off3 (d0 : Dev nD) (c0_i32_438 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v6 : BitVec 32 := Scalar.muli v2 c1024_i32
  let v569 : BitVec 32 := Scalar.addi v6 c0_i32_438
  let c0_i32_440 : BitVec 32 := 0#32
  ![v569.toNat, 0]
def k0_dev19 (d0 : Dev nD) : Nat :=
  let c0_i32_448 : BitVec 32 := 0#32
  let c1_i32_444 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v575 : BitVec 32 := Scalar.subi c1_i32_444 v2
  let c2_i32_447 : BitVec 32 := 2#32
  let v576 : BitVec 32 := Scalar.muli v575 c2_i32_447
  let v577 : BitVec 32 := Scalar.addi c0_i32_448 v576
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_449 : BitVec 32 := 1#32
  let v578 : BitVec 32 := Scalar.muli v5 c1_i32_449
  let v579 : BitVec 32 := Scalar.addi v577 v578
  v579.toNat
def k0_dev20 (d0 : Dev nD) : Nat :=
  let c0_i32_482 : BitVec 32 := 0#32
  let c1_i32_478 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v612 : BitVec 32 := Scalar.subi c1_i32_478 v2
  let c2_i32_481 : BitVec 32 := 2#32
  let v613 : BitVec 32 := Scalar.muli v612 c2_i32_481
  let v614 : BitVec 32 := Scalar.addi c0_i32_482 v613
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_483 : BitVec 32 := 1#32
  let v615 : BitVec 32 := Scalar.muli v5 c1_i32_483
  let v616 : BitVec 32 := Scalar.addi v614 v615
  v616.toNat
def k0_dev21 (d0 : Dev nD) : Nat :=
  let c0_i32_516 : BitVec 32 := 0#32
  let c1_i32_512 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v649 : BitVec 32 := Scalar.subi c1_i32_512 v2
  let c2_i32_515 : BitVec 32 := 2#32
  let v650 : BitVec 32 := Scalar.muli v649 c2_i32_515
  let v651 : BitVec 32 := Scalar.addi c0_i32_516 v650
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_517 : BitVec 32 := 1#32
  let v652 : BitVec 32 := Scalar.muli v5 c1_i32_517
  let v653 : BitVec 32 := Scalar.addi v651 v652
  v653.toNat
def k0_dev22 (d0 : Dev nD) : Nat :=
  let c0_i32_550 : BitVec 32 := 0#32
  let c1_i32_546 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v686 : BitVec 32 := Scalar.subi c1_i32_546 v2
  let c2_i32_549 : BitVec 32 := 2#32
  let v687 : BitVec 32 := Scalar.muli v686 c2_i32_549
  let v688 : BitVec 32 := Scalar.addi c0_i32_550 v687
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_551 : BitVec 32 := 1#32
  let v689 : BitVec 32 := Scalar.muli v5 c1_i32_551
  let v690 : BitVec 32 := Scalar.addi v688 v689
  v690.toNat
def k0_dev23 (d0 : Dev nD) : Nat :=
  let c0_i32_584 : BitVec 32 := 0#32
  let c1_i32_580 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v723 : BitVec 32 := Scalar.subi c1_i32_580 v2
  let c2_i32_583 : BitVec 32 := 2#32
  let v724 : BitVec 32 := Scalar.muli v723 c2_i32_583
  let v725 : BitVec 32 := Scalar.addi c0_i32_584 v724
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_585 : BitVec 32 := 1#32
  let v726 : BitVec 32 := Scalar.muli v5 c1_i32_585
  let v727 : BitVec 32 := Scalar.addi v725 v726
  v727.toNat
def k0_dev24 (d0 : Dev nD) : Nat :=
  let c0_i32_618 : BitVec 32 := 0#32
  let c1_i32_614 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v760 : BitVec 32 := Scalar.subi c1_i32_614 v2
  let c2_i32_617 : BitVec 32 := 2#32
  let v761 : BitVec 32 := Scalar.muli v760 c2_i32_617
  let v762 : BitVec 32 := Scalar.addi c0_i32_618 v761
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_619 : BitVec 32 := 1#32
  let v763 : BitVec 32 := Scalar.muli v5 c1_i32_619
  let v764 : BitVec 32 := Scalar.addi v762 v763
  v764.toNat
def k0_dev25 (d0 : Dev nD) : Nat :=
  let c0_i32_652 : BitVec 32 := 0#32
  let c1_i32_648 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v797 : BitVec 32 := Scalar.subi c1_i32_648 v2
  let c2_i32_651 : BitVec 32 := 2#32
  let v798 : BitVec 32 := Scalar.muli v797 c2_i32_651
  let v799 : BitVec 32 := Scalar.addi c0_i32_652 v798
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_653 : BitVec 32 := 1#32
  let v800 : BitVec 32 := Scalar.muli v5 c1_i32_653
  let v801 : BitVec 32 := Scalar.addi v799 v800
  v801.toNat
def k0_dev26 (d0 : Dev nD) : Nat :=
  let c0_i32_686 : BitVec 32 := 0#32
  let c1_i32_682 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v834 : BitVec 32 := Scalar.subi c1_i32_682 v2
  let c2_i32_685 : BitVec 32 := 2#32
  let v835 : BitVec 32 := Scalar.muli v834 c2_i32_685
  let v836 : BitVec 32 := Scalar.addi c0_i32_686 v835
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_687 : BitVec 32 := 1#32
  let v837 : BitVec 32 := Scalar.muli v5 c1_i32_687
  let v838 : BitVec 32 := Scalar.addi v836 v837
  v838.toNat
def k0_dev27 (d0 : Dev nD) : Nat :=
  let c0_i32_720 : BitVec 32 := 0#32
  let c1_i32_716 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v871 : BitVec 32 := Scalar.subi c1_i32_716 v2
  let c2_i32_719 : BitVec 32 := 2#32
  let v872 : BitVec 32 := Scalar.muli v871 c2_i32_719
  let v873 : BitVec 32 := Scalar.addi c0_i32_720 v872
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_721 : BitVec 32 := 1#32
  let v874 : BitVec 32 := Scalar.muli v5 c1_i32_721
  let v875 : BitVec 32 := Scalar.addi v873 v874
  v875.toNat
def k0_dev28 (d0 : Dev nD) : Nat :=
  let c0_i32_754 : BitVec 32 := 0#32
  let c1_i32_750 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v908 : BitVec 32 := Scalar.subi c1_i32_750 v2
  let c2_i32_753 : BitVec 32 := 2#32
  let v909 : BitVec 32 := Scalar.muli v908 c2_i32_753
  let v910 : BitVec 32 := Scalar.addi c0_i32_754 v909
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_755 : BitVec 32 := 1#32
  let v911 : BitVec 32 := Scalar.muli v5 c1_i32_755
  let v912 : BitVec 32 := Scalar.addi v910 v911
  v912.toNat
def k0_dev29 (d0 : Dev nD) : Nat :=
  let c0_i32_788 : BitVec 32 := 0#32
  let c1_i32_784 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v945 : BitVec 32 := Scalar.subi c1_i32_784 v2
  let c2_i32_787 : BitVec 32 := 2#32
  let v946 : BitVec 32 := Scalar.muli v945 c2_i32_787
  let v947 : BitVec 32 := Scalar.addi c0_i32_788 v946
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_789 : BitVec 32 := 1#32
  let v948 : BitVec 32 := Scalar.muli v5 c1_i32_789
  let v949 : BitVec 32 := Scalar.addi v947 v948
  v949.toNat
def k0_dev30 (d0 : Dev nD) : Nat :=
  let c0_i32_822 : BitVec 32 := 0#32
  let c1_i32_818 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v982 : BitVec 32 := Scalar.subi c1_i32_818 v2
  let c2_i32_821 : BitVec 32 := 2#32
  let v983 : BitVec 32 := Scalar.muli v982 c2_i32_821
  let v984 : BitVec 32 := Scalar.addi c0_i32_822 v983
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_823 : BitVec 32 := 1#32
  let v985 : BitVec 32 := Scalar.muli v5 c1_i32_823
  let v986 : BitVec 32 := Scalar.addi v984 v985
  v986.toNat
def k0_dev31 (d0 : Dev nD) : Nat :=
  let c0_i32_856 : BitVec 32 := 0#32
  let c1_i32_852 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1019 : BitVec 32 := Scalar.subi c1_i32_852 v2
  let c2_i32_855 : BitVec 32 := 2#32
  let v1020 : BitVec 32 := Scalar.muli v1019 c2_i32_855
  let v1021 : BitVec 32 := Scalar.addi c0_i32_856 v1020
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_857 : BitVec 32 := 1#32
  let v1022 : BitVec 32 := Scalar.muli v5 c1_i32_857
  let v1023 : BitVec 32 := Scalar.addi v1021 v1022
  v1023.toNat
def k0_dev32 (d0 : Dev nD) : Nat :=
  let c0_i32_890 : BitVec 32 := 0#32
  let c1_i32_886 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1056 : BitVec 32 := Scalar.subi c1_i32_886 v2
  let c2_i32_889 : BitVec 32 := 2#32
  let v1057 : BitVec 32 := Scalar.muli v1056 c2_i32_889
  let v1058 : BitVec 32 := Scalar.addi c0_i32_890 v1057
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_891 : BitVec 32 := 1#32
  let v1059 : BitVec 32 := Scalar.muli v5 c1_i32_891
  let v1060 : BitVec 32 := Scalar.addi v1058 v1059
  v1060.toNat
def k0_dev33 (d0 : Dev nD) : Nat :=
  let c0_i32_924 : BitVec 32 := 0#32
  let c1_i32_920 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1093 : BitVec 32 := Scalar.subi c1_i32_920 v2
  let c2_i32_923 : BitVec 32 := 2#32
  let v1094 : BitVec 32 := Scalar.muli v1093 c2_i32_923
  let v1095 : BitVec 32 := Scalar.addi c0_i32_924 v1094
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_925 : BitVec 32 := 1#32
  let v1096 : BitVec 32 := Scalar.muli v5 c1_i32_925
  let v1097 : BitVec 32 := Scalar.addi v1095 v1096
  v1097.toNat
def k0_dev34 (d0 : Dev nD) : Nat :=
  let c0_i32_958 : BitVec 32 := 0#32
  let c1_i32_954 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1130 : BitVec 32 := Scalar.subi c1_i32_954 v2
  let c2_i32_957 : BitVec 32 := 2#32
  let v1131 : BitVec 32 := Scalar.muli v1130 c2_i32_957
  let v1132 : BitVec 32 := Scalar.addi c0_i32_958 v1131
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_959 : BitVec 32 := 1#32
  let v1133 : BitVec 32 := Scalar.muli v5 c1_i32_959
  let v1134 : BitVec 32 := Scalar.addi v1132 v1133
  v1134.toNat

class Facts₀ : Prop where
  inb_S16_S1_0 : ∀ a, (![0] : Fin 1 → Nat) a + S1.size a ≤ S16.size a
  squeezes_S1_S_ : S1.Squeezes S_
  inb_S1024x1024_S64x512_0_512 : ∀ a, (![0, 512] : Fin 2 → Nat) a + S64x512.size a ≤ S1024x1024.size a
  squeezes_S1x64x512_S64x512 : S1x64x512.Squeezes S64x512
  inb_S16_S1_1 : ∀ a, (![1] : Fin 1 → Nat) a + S1.size a ≤ S16.size a
  inb_S1024x1024_S64x512_64_512 : ∀ a, (![64, 512] : Fin 2 → Nat) a + S64x512.size a ≤ S1024x1024.size a
  inb_S16_S1_2 : ∀ a, (![2] : Fin 1 → Nat) a + S1.size a ≤ S16.size a
  inb_S1024x1024_S64x512_128_512 : ∀ a, (![128, 512] : Fin 2 → Nat) a + S64x512.size a ≤ S1024x1024.size a
  inb_S16_S1_3 : ∀ a, (![3] : Fin 1 → Nat) a + S1.size a ≤ S16.size a
  inb_S1024x1024_S64x512_192_512 : ∀ a, (![192, 512] : Fin 2 → Nat) a + S64x512.size a ≤ S1024x1024.size a
  inb_S16_S1_4 : ∀ a, (![4] : Fin 1 → Nat) a + S1.size a ≤ S16.size a
  inb_S1024x1024_S64x512_256_512 : ∀ a, (![256, 512] : Fin 2 → Nat) a + S64x512.size a ≤ S1024x1024.size a
  inb_S16_S1_5 : ∀ a, (![5] : Fin 1 → Nat) a + S1.size a ≤ S16.size a
  inb_S1024x1024_S64x512_320_512 : ∀ a, (![320, 512] : Fin 2 → Nat) a + S64x512.size a ≤ S1024x1024.size a
  inb_S16_S1_6 : ∀ a, (![6] : Fin 1 → Nat) a + S1.size a ≤ S16.size a
  inb_S1024x1024_S64x512_384_512 : ∀ a, (![384, 512] : Fin 2 → Nat) a + S64x512.size a ≤ S1024x1024.size a
  inb_S16_S1_7 : ∀ a, (![7] : Fin 1 → Nat) a + S1.size a ≤ S16.size a
  inb_S1024x1024_S64x512_448_512 : ∀ a, (![448, 512] : Fin 2 → Nat) a + S64x512.size a ≤ S1024x1024.size a
  inb_S16_S1_8 : ∀ a, (![8] : Fin 1 → Nat) a + S1.size a ≤ S16.size a
  inb_S1024x1024_S64x512_512_512 : ∀ a, (![512, 512] : Fin 2 → Nat) a + S64x512.size a ≤ S1024x1024.size a
  inb_S16_S1_9 : ∀ a, (![9] : Fin 1 → Nat) a + S1.size a ≤ S16.size a
  inb_S1024x1024_S64x512_576_512 : ∀ a, (![576, 512] : Fin 2 → Nat) a + S64x512.size a ≤ S1024x1024.size a
  inb_S16_S1_10 : ∀ a, (![10] : Fin 1 → Nat) a + S1.size a ≤ S16.size a
  inb_S1024x1024_S64x512_640_512 : ∀ a, (![640, 512] : Fin 2 → Nat) a + S64x512.size a ≤ S1024x1024.size a
  inb_S16_S1_11 : ∀ a, (![11] : Fin 1 → Nat) a + S1.size a ≤ S16.size a
  inb_S1024x1024_S64x512_704_512 : ∀ a, (![704, 512] : Fin 2 → Nat) a + S64x512.size a ≤ S1024x1024.size a
  inb_S16_S1_12 : ∀ a, (![12] : Fin 1 → Nat) a + S1.size a ≤ S16.size a
  inb_S1024x1024_S64x512_768_512 : ∀ a, (![768, 512] : Fin 2 → Nat) a + S64x512.size a ≤ S1024x1024.size a
  inb_S16_S1_13 : ∀ a, (![13] : Fin 1 → Nat) a + S1.size a ≤ S16.size a
  inb_S1024x1024_S64x512_832_512 : ∀ a, (![832, 512] : Fin 2 → Nat) a + S64x512.size a ≤ S1024x1024.size a
  inb_S16_S1_14 : ∀ a, (![14] : Fin 1 → Nat) a + S1.size a ≤ S16.size a
  inb_S1024x1024_S64x512_896_512 : ∀ a, (![896, 512] : Fin 2 → Nat) a + S64x512.size a ≤ S1024x1024.size a
  inb_S16_S1_15 : ∀ a, (![15] : Fin 1 → Nat) a + S1.size a ≤ S16.size a
  inb_S1024x1024_S64x512_960_512 : ∀ a, (![960, 512] : Fin 2 → Nat) a + S64x512.size a ≤ S1024x1024.size a
  inb_S1024x1024_S64x512_0_0 : ∀ a, (![0, 0] : Fin 2 → Nat) a + S64x512.size a ≤ S1024x1024.size a
  inb_S1024x1024_S64x512_64_0 : ∀ a, (![64, 0] : Fin 2 → Nat) a + S64x512.size a ≤ S1024x1024.size a
  inb_S1024x1024_S64x512_128_0 : ∀ a, (![128, 0] : Fin 2 → Nat) a + S64x512.size a ≤ S1024x1024.size a
  inb_S1024x1024_S64x512_192_0 : ∀ a, (![192, 0] : Fin 2 → Nat) a + S64x512.size a ≤ S1024x1024.size a
  inb_S1024x1024_S64x512_256_0 : ∀ a, (![256, 0] : Fin 2 → Nat) a + S64x512.size a ≤ S1024x1024.size a
  inb_S1024x1024_S64x512_320_0 : ∀ a, (![320, 0] : Fin 2 → Nat) a + S64x512.size a ≤ S1024x1024.size a
  inb_S1024x1024_S64x512_384_0 : ∀ a, (![384, 0] : Fin 2 → Nat) a + S64x512.size a ≤ S1024x1024.size a
  inb_S1024x1024_S64x512_448_0 : ∀ a, (![448, 0] : Fin 2 → Nat) a + S64x512.size a ≤ S1024x1024.size a
  inb_S1024x1024_S64x512_512_0 : ∀ a, (![512, 0] : Fin 2 → Nat) a + S64x512.size a ≤ S1024x1024.size a
  inb_S1024x1024_S64x512_576_0 : ∀ a, (![576, 0] : Fin 2 → Nat) a + S64x512.size a ≤ S1024x1024.size a
  inb_S1024x1024_S64x512_640_0 : ∀ a, (![640, 0] : Fin 2 → Nat) a + S64x512.size a ≤ S1024x1024.size a
  inb_S1024x1024_S64x512_704_0 : ∀ a, (![704, 0] : Fin 2 → Nat) a + S64x512.size a ≤ S1024x1024.size a
  inb_S1024x1024_S64x512_768_0 : ∀ a, (![768, 0] : Fin 2 → Nat) a + S64x512.size a ≤ S1024x1024.size a
  inb_S1024x1024_S64x512_832_0 : ∀ a, (![832, 0] : Fin 2 → Nat) a + S64x512.size a ≤ S1024x1024.size a
  inb_S1024x1024_S64x512_896_0 : ∀ a, (![896, 0] : Fin 2 → Nat) a + S64x512.size a ≤ S1024x1024.size a
  inb_S1024x1024_S64x512_960_0 : ∀ a, (![960, 0] : Fin 2 → Nat) a + S64x512.size a ≤ S1024x1024.size a
  hamt_1 : (1#32 : BitVec 32).msb = false
  hamt_2 : (2#32 : BitVec 32).msb = false
  h_S64x512 : 0 < S64x512.numel
  bitsLt_bf16_f32 : FTy.bits .bf16 < FTy.bits .f32
  inb_S1024x512_S64x512_0_0 : ∀ a, (![0, 0] : Fin 2 → Nat) a + S64x512.size a ≤ S1024x512.size a
  shapeCasts_S64x512_S64x512 : S64x512.ShapeCasts S64x512
  packedbf16_S1024x512_S64x512_0_0 : (Rect.unit (s := S1024x512) ![0, 0] S64x512.size inb_S1024x512_S64x512_0_0).PackedRows (EltTy.packing .bf16)
  wordsbf16_S1024x512_S64x512_0_0 : (Rect.unit (s := S1024x512) ![0, 0] S64x512.size inb_S1024x512_S64x512_0_0).WholeWords (EltTy.packing .bf16)
  inb_S1024x512_S64x512_64_0 : ∀ a, (![64, 0] : Fin 2 → Nat) a + S64x512.size a ≤ S1024x512.size a
  packedbf16_S1024x512_S64x512_64_0 : (Rect.unit (s := S1024x512) ![64, 0] S64x512.size inb_S1024x512_S64x512_64_0).PackedRows (EltTy.packing .bf16)
  wordsbf16_S1024x512_S64x512_64_0 : (Rect.unit (s := S1024x512) ![64, 0] S64x512.size inb_S1024x512_S64x512_64_0).WholeWords (EltTy.packing .bf16)
  inb_S1024x512_S64x512_128_0 : ∀ a, (![128, 0] : Fin 2 → Nat) a + S64x512.size a ≤ S1024x512.size a
  packedbf16_S1024x512_S64x512_128_0 : (Rect.unit (s := S1024x512) ![128, 0] S64x512.size inb_S1024x512_S64x512_128_0).PackedRows (EltTy.packing .bf16)
  wordsbf16_S1024x512_S64x512_128_0 : (Rect.unit (s := S1024x512) ![128, 0] S64x512.size inb_S1024x512_S64x512_128_0).WholeWords (EltTy.packing .bf16)
  inb_S1024x512_S64x512_192_0 : ∀ a, (![192, 0] : Fin 2 → Nat) a + S64x512.size a ≤ S1024x512.size a
  packedbf16_S1024x512_S64x512_192_0 : (Rect.unit (s := S1024x512) ![192, 0] S64x512.size inb_S1024x512_S64x512_192_0).PackedRows (EltTy.packing .bf16)
  wordsbf16_S1024x512_S64x512_192_0 : (Rect.unit (s := S1024x512) ![192, 0] S64x512.size inb_S1024x512_S64x512_192_0).WholeWords (EltTy.packing .bf16)
  inb_S1024x512_S64x512_256_0 : ∀ a, (![256, 0] : Fin 2 → Nat) a + S64x512.size a ≤ S1024x512.size a
  packedbf16_S1024x512_S64x512_256_0 : (Rect.unit (s := S1024x512) ![256, 0] S64x512.size inb_S1024x512_S64x512_256_0).PackedRows (EltTy.packing .bf16)
  wordsbf16_S1024x512_S64x512_256_0 : (Rect.unit (s := S1024x512) ![256, 0] S64x512.size inb_S1024x512_S64x512_256_0).WholeWords (EltTy.packing .bf16)
  inb_S1024x512_S64x512_320_0 : ∀ a, (![320, 0] : Fin 2 → Nat) a + S64x512.size a ≤ S1024x512.size a
  packedbf16_S1024x512_S64x512_320_0 : (Rect.unit (s := S1024x512) ![320, 0] S64x512.size inb_S1024x512_S64x512_320_0).PackedRows (EltTy.packing .bf16)
  wordsbf16_S1024x512_S64x512_320_0 : (Rect.unit (s := S1024x512) ![320, 0] S64x512.size inb_S1024x512_S64x512_320_0).WholeWords (EltTy.packing .bf16)
  inb_S1024x512_S64x512_384_0 : ∀ a, (![384, 0] : Fin 2 → Nat) a + S64x512.size a ≤ S1024x512.size a
  packedbf16_S1024x512_S64x512_384_0 : (Rect.unit (s := S1024x512) ![384, 0] S64x512.size inb_S1024x512_S64x512_384_0).PackedRows (EltTy.packing .bf16)
  wordsbf16_S1024x512_S64x512_384_0 : (Rect.unit (s := S1024x512) ![384, 0] S64x512.size inb_S1024x512_S64x512_384_0).WholeWords (EltTy.packing .bf16)
  inb_S1024x512_S64x512_448_0 : ∀ a, (![448, 0] : Fin 2 → Nat) a + S64x512.size a ≤ S1024x512.size a
  packedbf16_S1024x512_S64x512_448_0 : (Rect.unit (s := S1024x512) ![448, 0] S64x512.size inb_S1024x512_S64x512_448_0).PackedRows (EltTy.packing .bf16)
  wordsbf16_S1024x512_S64x512_448_0 : (Rect.unit (s := S1024x512) ![448, 0] S64x512.size inb_S1024x512_S64x512_448_0).WholeWords (EltTy.packing .bf16)
  inb_S1024x512_S64x512_512_0 : ∀ a, (![512, 0] : Fin 2 → Nat) a + S64x512.size a ≤ S1024x512.size a
  packedbf16_S1024x512_S64x512_512_0 : (Rect.unit (s := S1024x512) ![512, 0] S64x512.size inb_S1024x512_S64x512_512_0).PackedRows (EltTy.packing .bf16)
  wordsbf16_S1024x512_S64x512_512_0 : (Rect.unit (s := S1024x512) ![512, 0] S64x512.size inb_S1024x512_S64x512_512_0).WholeWords (EltTy.packing .bf16)
  inb_S1024x512_S64x512_576_0 : ∀ a, (![576, 0] : Fin 2 → Nat) a + S64x512.size a ≤ S1024x512.size a
  packedbf16_S1024x512_S64x512_576_0 : (Rect.unit (s := S1024x512) ![576, 0] S64x512.size inb_S1024x512_S64x512_576_0).PackedRows (EltTy.packing .bf16)
  wordsbf16_S1024x512_S64x512_576_0 : (Rect.unit (s := S1024x512) ![576, 0] S64x512.size inb_S1024x512_S64x512_576_0).WholeWords (EltTy.packing .bf16)
  inb_S1024x512_S64x512_640_0 : ∀ a, (![640, 0] : Fin 2 → Nat) a + S64x512.size a ≤ S1024x512.size a
  packedbf16_S1024x512_S64x512_640_0 : (Rect.unit (s := S1024x512) ![640, 0] S64x512.size inb_S1024x512_S64x512_640_0).PackedRows (EltTy.packing .bf16)
  wordsbf16_S1024x512_S64x512_640_0 : (Rect.unit (s := S1024x512) ![640, 0] S64x512.size inb_S1024x512_S64x512_640_0).WholeWords (EltTy.packing .bf16)
  inb_S1024x512_S64x512_704_0 : ∀ a, (![704, 0] : Fin 2 → Nat) a + S64x512.size a ≤ S1024x512.size a
  packedbf16_S1024x512_S64x512_704_0 : (Rect.unit (s := S1024x512) ![704, 0] S64x512.size inb_S1024x512_S64x512_704_0).PackedRows (EltTy.packing .bf16)
  wordsbf16_S1024x512_S64x512_704_0 : (Rect.unit (s := S1024x512) ![704, 0] S64x512.size inb_S1024x512_S64x512_704_0).WholeWords (EltTy.packing .bf16)
  inb_S1024x512_S64x512_768_0 : ∀ a, (![768, 0] : Fin 2 → Nat) a + S64x512.size a ≤ S1024x512.size a
  packedbf16_S1024x512_S64x512_768_0 : (Rect.unit (s := S1024x512) ![768, 0] S64x512.size inb_S1024x512_S64x512_768_0).PackedRows (EltTy.packing .bf16)
  wordsbf16_S1024x512_S64x512_768_0 : (Rect.unit (s := S1024x512) ![768, 0] S64x512.size inb_S1024x512_S64x512_768_0).WholeWords (EltTy.packing .bf16)
  inb_S1024x512_S64x512_832_0 : ∀ a, (![832, 0] : Fin 2 → Nat) a + S64x512.size a ≤ S1024x512.size a
  packedbf16_S1024x512_S64x512_832_0 : (Rect.unit (s := S1024x512) ![832, 0] S64x512.size inb_S1024x512_S64x512_832_0).PackedRows (EltTy.packing .bf16)
  wordsbf16_S1024x512_S64x512_832_0 : (Rect.unit (s := S1024x512) ![832, 0] S64x512.size inb_S1024x512_S64x512_832_0).WholeWords (EltTy.packing .bf16)
  inb_S1024x512_S64x512_896_0 : ∀ a, (![896, 0] : Fin 2 → Nat) a + S64x512.size a ≤ S1024x512.size a
  packedbf16_S1024x512_S64x512_896_0 : (Rect.unit (s := S1024x512) ![896, 0] S64x512.size inb_S1024x512_S64x512_896_0).PackedRows (EltTy.packing .bf16)
  wordsbf16_S1024x512_S64x512_896_0 : (Rect.unit (s := S1024x512) ![896, 0] S64x512.size inb_S1024x512_S64x512_896_0).WholeWords (EltTy.packing .bf16)
  inb_S1024x512_S64x512_960_0 : ∀ a, (![960, 0] : Fin 2 → Nat) a + S64x512.size a ≤ S1024x512.size a
  packedbf16_S1024x512_S64x512_960_0 : (Rect.unit (s := S1024x512) ![960, 0] S64x512.size inb_S1024x512_S64x512_960_0).PackedRows (EltTy.packing .bf16)
  wordsbf16_S1024x512_S64x512_960_0 : (Rect.unit (s := S1024x512) ![960, 0] S64x512.size inb_S1024x512_S64x512_960_0).WholeWords (EltTy.packing .bf16)
  hcc0_scratch4 : 0 + S16.numel ≤ 112
  hcc0_scratch5 : 16 + S16.numel ≤ 112
  hcc0_scratch6 : 32 + S16.numel ≤ 112
  hcc0_scratch7 : 48 + S16.numel ≤ 112
  hcc0_scratch8 : 64 + S16.numel ≤ 112
  hcc0_scratch9 : 80 + S16.numel ≤ 112
  hcc0_scratch10 : 96 + S16.numel ≤ 112
  k0_off1_inb : ∀ d0 : Dev nD, ∀ (r : Fin 16), ∀ a, (k0_off1 d0 (BitVec.ofNat 32 (64 * r.val))) a + S1x64x512.size a ≤ S1x2048x1024.size a
  k0_off2_inb : ∀ d0 : Dev nD, ∀ (r : Fin 16), ∀ a, (k0_off2 d0 (BitVec.ofNat 32 (64 * r.val))) a + S1x64x512.size a ≤ S1x2048x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ (r : Fin 16), ∀ a, (k0_off3 d0 (BitVec.ofNat 32 (64 * r.val))) a + S64x512.size a ≤ S2048x512.size a
  k0_off3_wordsbf16 : ∀ d0 : Dev nD, ∀ (r : Fin 16), (Rect.unit (s := S2048x512) (k0_off3 d0 (BitVec.ofNat 32 (64 * r.val))) S64x512.size (k0_off3_inb d0 r)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD

variable [Facts₀]

abbrev cc0_scratch4 : DmaSems sig S16 := SemArray.consecutive 0 S16 hcc0_scratch4
abbrev cc0_scratch5 : DmaSems sig S16 := SemArray.consecutive 16 S16 hcc0_scratch5
abbrev cc0_scratch6 : DmaSems sig S16 := SemArray.consecutive 32 S16 hcc0_scratch6
abbrev cc0_scratch7 : DmaSems sig S16 := SemArray.consecutive 48 S16 hcc0_scratch7
abbrev cc0_scratch8 : DmaSems sig S16 := SemArray.consecutive 64 S16 hcc0_scratch8
abbrev cc0_scratch9 : DmaSems sig S16 := SemArray.consecutive 80 S16 hcc0_scratch9
abbrev cc0_scratch10 : DmaSems sig S16 := SemArray.consecutive 96 S16 hcc0_scratch10

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | .hbm, ⟨3, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x2048x1024_S2048x1024_d0 : S2x2048x1024.ReducesTo [0] S2048x1024
  h_S_ : 0 < S_.numel
  bitsLt_bf16_f32 : FTy.bits .bf16 < FTy.bits .f32

variable [Facts₀]

class Facts : Prop extends Facts₀ where

variable [Facts]
-- ==== Proof.Base.lean ====
/-
  Names shared by the modules of this proof: the mesh's two neighbours of a device, the buffers and their
  sixteen 64-row chunks, the seven families of sixteen DMA semaphores, the barrier semaphore, and the cells.

  The mesh is 2 × 2: device `c` sits at `x = c / 2`, `y = c % 2`. Its y-neighbour `yP c` shares `x`, its
  x-neighbour `xP c` shares `y`. Device `c` works on rows `1024·x + 64·k …` (chunk `k`) of its argument block:
  the columns of the OTHER y go to the y-neighbour (which adds them to its own), the sums go to the x-neighbour.
-/
import proofs.«900304_g7700000000000305_dist_rs_v7x_xy2x2_y_m2048_n512_bf16_1_alg».proof.Proof.Gen.KernelIdeal
import proofs.«900304_g7700000000000305_dist_rs_v7x_xy2x2_y_m2048_n512_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds' (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two neighbours -/

/-- The device with the same `x` and the other `y`. -/
def yP (c : Dev nD) : Dev nD := ⟨2 * (c.val / 2) + 1 - c.val % 2, by revert c; decide⟩
/-- The device with the same `y` and the other `x`. -/
def xP (c : Dev nD) : Dev nD := ⟨c.val % 2 + 2 - 2 * (c.val / 2), by revert c; decide⟩

theorem yP_yP (c : Dev nD) : yP (yP c) = c := by revert c; decide
theorem xP_xP (c : Dev nD) : xP (xP c) = c := by revert c; decide
theorem yP_ne (c : Dev nD) : yP c ≠ c := by revert c; decide
theorem xP_ne (c : Dev nD) : xP c ≠ c := by revert c; decide
theorem xP_ne_yP (c : Dev nD) : xP c ≠ yP c := by revert c; decide
/-- The y-neighbour sits in the same row half; the x-neighbour in the other. -/
theorem yP_x (c : Dev nD) : (yP c).val / 2 = c.val / 2 := by revert c; decide
theorem yP_y (c : Dev nD) : (yP c).val % 2 = 1 - c.val % 2 := by revert c; decide
theorem xP_x (c : Dev nD) : (xP c).val / 2 = 1 - c.val / 2 := by revert c; decide
theorem xP_y (c : Dev nD) : (xP c).val % 2 = c.val % 2 := by revert c; decide

def yEquiv : Dev nD ≃ Dev nD := ⟨yP, yP, yP_yP, yP_yP⟩
def xEquiv : Dev nD ≃ Dev nD := ⟨xP, xP, xP_xP, xP_xP⟩

/-! ## The buffers and their chunks -/

abbrev aW : Memref sig .tc .hbm S1x2048x1024 .f32 := Memref.whole main_arg0
abbrev oW : Memref sig .tc .hbm S2048x512 .bf16 := Memref.whole main_v1
abbrev xsW : Memref sig .tc .vmem S1024x1024 .f32 := Memref.whole cc0_scratch0
abbrev ysW : Memref sig .tc .vmem S1024x512 .bf16 := Memref.whole cc0_scratch1
abbrev yrW : Memref sig .tc .vmem S1024x512 .bf16 := Memref.whole cc0_scratch2
abbrev oaW : Memref sig .tc .vmem S1024x512 .bf16 := Memref.whole cc0_scratch3

theorem inb_xR (k : Fin 16) : ∀ a, (![64 * k.val, 512] : Fin 2 → Nat) a + S64x512.size a ≤ S1024x1024.size a := by revert k; decide
theorem inb_xL (k : Fin 16) : ∀ a, (![64 * k.val, 0] : Fin 2 → Nat) a + S64x512.size a ≤ S1024x1024.size a := by revert k; decide
theorem inb_ch (k : Fin 16) : ∀ a, (![64 * k.val, 0] : Fin 2 → Nat) a + S64x512.size a ≤ S1024x512.size a := by revert k; decide
theorem inb_sem (k : Fin 16) : ∀ a, (![k.val] : Fin 1 → Nat) a + S1.size a ≤ S16.size a := by revert k; decide

/-- Rows `64·k …` of the staging buffer, right half (the y-neighbour's columns) and left half (this device's). -/
abbrev rXR (k : Fin 16) : Rect S1024x1024 := Rect.unit (s := S1024x1024) ![64 * k.val, 512] S64x512.size (inb_xR k)
abbrev rXL (k : Fin 16) : Rect S1024x1024 := Rect.unit (s := S1024x1024) ![64 * k.val, 0] S64x512.size (inb_xL k)
/-- Rows `64·k …` of a 1024 × 512 scratch buffer. -/
abbrev rCh (k : Fin 16) : Rect S1024x512 := Rect.unit (s := S1024x512) ![64 * k.val, 0] S64x512.size (inb_ch k)

abbrev xsR (k : Fin 16) : Memref sig .tc .vmem S64x512 .f32 := xsW.slice (rXR k) (fun _ => rfl)
abbrev xsL (k : Fin 16) : Memref sig .tc .vmem S64x512 .f32 := xsW.slice (rXL k) (fun _ => rfl)
abbrev ysC (k : Fin 16) : Memref sig .tc .vmem S64x512 .bf16 := ysW.slice (rCh k) (fun _ => rfl)
abbrev yrC (k : Fin 16) : Memref sig .tc .vmem S64x512 .bf16 := yrW.slice (rCh k) (fun _ => rfl)
abbrev oaC (k : Fin 16) : Memref sig .tc .vmem S64x512 .bf16 := oaW.slice (rCh k) (fun _ => rfl)

/-- Chunk `k` of device `c`'s row half of its argument block: the y-neighbour's columns, and its own. -/
abbrev aPr (c : Dev nD) (k : Fin 16) : Memref sig .tc .hbm S64x512 .f32 :=
  (aW.slice (Rect.unit (s := S1x2048x1024) (k0_off1 c (BitVec.ofNat 32 (64 * k.val))) S1x64x512.size (k0_off1_inb c k)) (fun _ => rfl)).squeeze S64x512 squeezes_S1x64x512_S64x512
abbrev aMn (c : Dev nD) (k : Fin 16) : Memref sig .tc .hbm S64x512 .f32 :=
  (aW.slice (Rect.unit (s := S1x2048x1024) (k0_off2 c (BitVec.ofNat 32 (64 * k.val))) S1x64x512.size (k0_off2_inb c k)) (fun _ => rfl)).squeeze S64x512 squeezes_S1x64x512_S64x512
/-- Chunk `k` of device `c`'s row half of a RESULT buffer (its own, or its x-neighbour's). -/
abbrev oC (c : Dev nD) (k : Fin 16) : Memref sig .tc .hbm S64x512 .bf16 :=
  oW.slice (Rect.unit (s := S2048x512) (k0_off3 c (BitVec.ofNat 32 (64 * k.val))) S64x512.size (k0_off3_inb c k)) (fun _ => rfl)

/-! ## The semaphores and the cells -/

/-- The seven families of sixteen DMA semaphores, in the order of the kernel's scratch operands: the two local
    loads (neighbour's columns, own columns), the y-exchange's send and receive, the x-exchange's send and receive,
    the local store. -/
abbrev semArr : Fin 7 → DmaSems sig S16 := ![cc0_scratch4, cc0_scratch5, cc0_scratch6, cc0_scratch7, cc0_scratch8, cc0_scratch9, cc0_scratch10]

abbrev dsem (j : Fin 7) (k : Fin 16) : DmaSem sig :=
  (((semArr j).slice (Rect.unit (s := S16) ![k.val] S1.size (inb_sem k))).squeeze S_ squeezes_S1_S_).sem

theorem dsem_val (j : Fin 7) (k : Fin 16) : (dsem j k).val = 16 * j.val + k.val := by revert j k; decide

theorem dsem_injective : Function.Injective (fun jk : Fin 7 × Fin 16 => dsem jk.1 jk.2) := by
  rintro ⟨j, k⟩ ⟨j', k'⟩ h
  have h' : 16 * j.val + k.val = 16 * j'.val + k'.val := by rw [← dsem_val, ← dsem_val]; exact congrArg Fin.val h
  have hj : j = j' := Fin.ext (by omega)
  have hk : k = k' := Fin.ext (by omega)
  rw [hj, hk]

abbrev jPeer : Fin 7 := 0
abbrev jMine : Fin 7 := 1
abbrev jYS : Fin 7 := 2
abbrev jYR : Fin 7 := 3
abbrev jXS : Fin 7 := 4
abbrev jXR : Fin 7 := 5
abbrev jSt : Fin 7 := 6

/-- The runtime's barrier semaphore of collective id 0. -/
abbrev barS : Sem sig := (SemArray.scalar (sig.barrier 0 rfl) : Sems sig S_).sem

abbrev barCell (c : Dev nD) : GSem nD τ sig := ((c : Thread nD τ), .reg barS)
abbrev dCell (c : Dev nD) (j : Fin 7) (k : Fin 16) : GSem nD τ sig := ((c : Thread nD τ), .dma (dsem j k))

theorem dma_ne_bar (s : DmaSem sig) : (SemLoc.dma s : SemLoc sig) ≠ .reg barS := fun h => by cases h

theorem dCell_eq_iff {c c' : Dev nD} {j j' : Fin 7} {k k' : Fin 16} : dCell c j k = dCell c' j' k' ↔ c = c' ∧ j = j' ∧ k = k' := by
  constructor
  · intro h
    have h1 : c = c' := Fin.ext (congrArg (fun g : GSem nD τ sig => g.1.1.val) h)
    have h2 : (SemLoc.dma (dsem j k) : SemLoc sig) = .dma (dsem j' k') := congrArg Prod.snd h
    have h3 : dsem j k = dsem j' k' := by injection h2
    have h4 := dsem_injective (a₁ := (j, k)) (a₂ := (j', k')) h3
    exact ⟨h1, congrArg Prod.fst h4, congrArg Prod.snd h4⟩
  · rintro ⟨rfl, rfl, rfl⟩; rfl

theorem barCell_eq_iff {c c' : Dev nD} : barCell c = barCell c' ↔ c = c' :=
  ⟨fun h => Fin.ext (congrArg (fun g : GSem nD τ sig => g.1.1.val) h), fun h => h ▸ rfl⟩

theorem dCell_ne_bar (c c' : Dev nD) (j : Fin 7) (k : Fin 16) : dCell c j k ≠ barCell c' :=
  fun h => dma_ne_bar _ (congrArg Prod.snd h)

/-- The credit of a 64 × 512 chunk of f32 and of bf16. -/
abbrev NF : ℕ := (xsR 0).view.dmaCredit
abbrev NB : ℕ := (ysC 0).view.dmaCredit
theorem NF_pos : 0 < NF := View.dmaCredit_pos _ (by decide)
theorem NB_pos : 0 < NB := View.dmaCredit_pos _ (by decide)

/-- What a cell of family `j` counts: f32 chunks on the two load families, bf16 chunks on the others. -/
def amt (j : Fin 7) : ℕ := if j.val < 2 then NF else NB
theorem amt_pos (j : Fin 7) : 0 < amt j := by unfold amt; split; exact NF_pos; exact NB_pos

end Cert.KernelIdealProof

end
-- ==== Proof.Vals.lean ====
/-
  What every buffer holds at the end of the kernel, as explicit functions of the devices' argument blocks.

  Chunk `k` (rows `64·k …`) of a device's row half: `vPeer` is the y-neighbour's columns of it, `vMine` the device's
  own columns; `ysVec` is `vPeer` narrowed to bf16 (what the device sends its y-neighbour), and `oaVec` is `vMine` narrowed
  plus what the y-neighbour sent (its `ysVec`): the chunk of the reduced result. The result buffer holds the device's own
  sixteen `oaVec`s in its row half and the x-neighbour's in the other.
-/
import proofs.«900304_g7700000000000305_dist_rs_v7x_xy2x2_y_m2048_n512_bf16_1_alg».proof.Proof.Base
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-- The value the first exchange stores: a chunk narrowed to bf16. -/
def ysVal (v : Vec F S64x512 .f32) : FVec F S64x512 .bf16 :=
  shapeCast S64x512 (truncf .bf16 v bitsLt_bf16_f32) shapeCasts_S64x512_S64x512
/-- The value the second exchange stores: a chunk narrowed to bf16 plus the received chunk. -/
def oaVal (v : Vec F S64x512 .f32) (w : Vec F S64x512 .bf16) : FVec F S64x512 .bf16 :=
  shapeCast S64x512 (addf (truncf .bf16 v bitsLt_bf16_f32) w) shapeCasts_S64x512_S64x512

/-- Which chunk a row of a 1024-row buffer lies in, and where in the chunk. -/
def chunkOf {n1 : Nat} (i : (⟨2, ![1024, n1]⟩ : Shape).Idx) : Fin 16 := ⟨(i 0).val / 64, by have := idx2_lt0 i; omega⟩
def rowIn {n1 : Nat} (i : (⟨2, ![1024, n1]⟩ : Shape).Idx) : Fin 64 := ⟨(i 0).val % 64, Nat.mod_lt _ (by decide)⟩

/-- A 1024 × 512 buffer from its sixteen 64 × 512 chunks. -/
def chunked {α : Type} (g : Fin 16 → S64x512.Idx → α) : S1024x512.Idx → α := fun i => g (chunkOf i) (ix2 (rowIn i) (i 1))

variable (m : (ℓ : Loc nD τ sig) → Buf (Elt F) ℓ)

/-- Device `c`'s argument block. -/
def argOf (c : Dev nD) : Buf (Elt F) ((c : Thread nD τ).loc main_arg0) := m ((c : Thread nD τ).loc main_arg0)

def vPeer (c : Dev nD) (k : Fin 16) : Vec F S64x512 .f32 := (aPr c k).view.read (Elt F) (argOf m c)
def vMine (c : Dev nD) (k : Fin 16) : Vec F S64x512 .f32 := (aMn c k).view.read (Elt F) (argOf m c)
def ysVec (c : Dev nD) (k : Fin 16) : FVec F S64x512 .bf16 := ysVal (vPeer m c k)
def oaVec (c : Dev nD) (k : Fin 16) : FVec F S64x512 .bf16 := oaVal (vMine m c k) (ysVec m (yP c) k)

/-- The staging buffer: own columns on the left, the y-neighbour's on the right. -/
def xsFin (c : Dev nD) : (cc0_scratch0 : Ref sig .tc).ty.Contents (Elt F) := fun i =>
  if h : (i 1).val < 512 then vMine m c (chunkOf i) (ix2 (rowIn i) ⟨(i 1).val, h⟩)
  else vPeer m c (chunkOf i) (ix2 (rowIn i) ⟨(i 1).val - 512, by have := idx2_lt1 i; omega⟩)
def ysFin (c : Dev nD) : (cc0_scratch1 : Ref sig .tc).ty.Contents (Elt F) := chunked (ysVec m c)
def yrFin (c : Dev nD) : (cc0_scratch2 : Ref sig .tc).ty.Contents (Elt F) := chunked (ysVec m (yP c))
def oaFin (c : Dev nD) : (cc0_scratch3 : Ref sig .tc).ty.Contents (Elt F) := chunked (oaVec m c)

/-- The result buffer: row half `X` holds the sixteen reduced chunks of the device at `(X, y)`. -/
def outFin (c : Dev nD) : (main_v1 : Ref sig .tc).ty.Contents (Elt F) := fun i =>
  oaVec m (if (i 0).val / 1024 = c.val / 2 then c else xP c) ⟨(i 0).val % 1024 / 64, by omega⟩
    (ix2 ⟨(i 0).val % 64, Nat.mod_lt _ (by decide)⟩ (i 1))

/-- The elements of a device's argument block that none of its thirty-two chunk loads reads (the other row half). -/
def argRest (c : Dev nD) : Finset (Idx ((c : Thread nD τ).loc main_arg0)) :=
  Finset.univ \ (Finset.univ.biUnion fun k : Fin 16 => (aPr c k).view.set ∪ (aMn c k).view.set)

end Cert.KernelIdealProof

end
-- ==== Proof.Sched.lean ====
/-
  The protocol as a schedule of rounds. Every cell has one round.

  A DMA cell has one duty (`false`): the copy that completes on it, whose payload is what the copy leaves — the
  destination chunk at its final contents and, where the copy's source must come back to the device, the source.
  The barrier cell of device `c` has two duties of one unit each: `false`, the y-neighbour's signal, which hands `c` the
  y-neighbour's receive buffer chunk by chunk; `true`, the x-neighbour's signal, which hands `c` its own row half of the
  x-neighbour's result buffer chunk by chunk; each with the fact that the neighbour's receive cells are at round 0.

  Levels: the barrier cells below the y-exchange's receive cells below the x-exchange's; everything a device waits
  for while it still owes sits below what it owes.
-/
import proofs.«900304_g7700000000000305_dist_rs_v7x_xy2x2_y_m2048_n512_bf16_1_alg».proof.Proof.Vals

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Decoding a DMA semaphore: its family and its chunk -/

def famOf (s : DmaSem sig) : Fin 7 := ⟨s.val / 16, by have := s.isLt; have h : sig.nDmaSem = 112 := rfl; omega⟩
def chOf (s : DmaSem sig) : Fin 16 := ⟨s.val % 16, Nat.mod_lt _ (by decide)⟩
theorem famOf_dsem (j : Fin 7) (k : Fin 16) : famOf (dsem j k) = j := Fin.ext (by show (dsem j k).val / 16 = j.val; rw [dsem_val]; omega)
theorem chOf_dsem (j : Fin 7) (k : Fin 16) : chOf (dsem j k) = k := Fin.ext (by show (dsem j k).val % 16 = k.val; rw [dsem_val]; omega)

/-! ## What each copy leaves -/

/-- Chunk `k` of a buffer of device `c` at the buffer's final contents. -/
def xsRPts (c : Dev nD) (k : Fin 16) : sProp 𝕄 := (xsR k).view.loc (c : Thread nD τ) ↦[(xsR k).view.set]{fullShare} xsFin m c
def xsLPts (c : Dev nD) (k : Fin 16) : sProp 𝕄 := (xsL k).view.loc (c : Thread nD τ) ↦[(xsL k).view.set]{fullShare} xsFin m c
def ysPts (c : Dev nD) (k : Fin 16) : sProp 𝕄 := (ysC k).view.loc (c : Thread nD τ) ↦[(ysC k).view.set]{fullShare} ysFin m c
def yrPts (c : Dev nD) (k : Fin 16) : sProp 𝕄 := (yrC k).view.loc (c : Thread nD τ) ↦[(yrC k).view.set]{fullShare} yrFin m c
def oaPts (q : PosShare TreeShare) (c : Dev nD) (k : Fin 16) : sProp 𝕄 := (oaC k).view.loc (c : Thread nD τ) ↦[(oaC k).view.set]{q} oaFin m c
/-- Chunk `k` of device `d`'s row half of device `c`'s result buffer, at the final contents. -/
def outPts (c d : Dev nD) (k : Fin 16) : sProp 𝕄 := (oC d k).view.loc (c : Thread nD τ) ↦[(oC d k).view.set]{fullShare} outFin m c
/-- The two chunks of the argument block a device reads for chunk `k`, unchanged. -/
def aPrPts (c : Dev nD) (k : Fin 16) : sProp 𝕄 := (aPr c k).view.loc (c : Thread nD τ) ↦[(aPr c k).view.set]{fullShare} argOf m c
def aMnPts (c : Dev nD) (k : Fin 16) : sProp 𝕄 := (aMn c k).view.loc (c : Thread nD τ) ↦[(aMn c k).view.set]{fullShare} argOf m c

/-- Chunk `k` of a scratch or result buffer at SOME contents. -/
def yrAny (c : Dev nD) (k : Fin 16) : sProp 𝕄 := iprop(∃ f, (yrC k).view.loc (c : Thread nD τ) ↦[(yrC k).view.set]{fullShare} f)
def outAny (c d : Dev nD) (k : Fin 16) : sProp 𝕄 := iprop(∃ f, (oC d k).view.loc (c : Thread nD τ) ↦[(oC d k).view.set]{fullShare} f)

/-- The payload of the one duty of DMA cell `(c, family j, chunk k)`. -/
def famPay (c : Dev nD) (j : Fin 7) (k : Fin 16) : sProp 𝕄 :=
  match j with
  | 0 => iprop(xsRPts m c k ∗ aPrPts m c k)
  | 1 => iprop(xsLPts m c k ∗ aMnPts m c k)
  | 2 => ysPts m c k
  | 3 => yrPts m c k
  | 4 => oaPts m fullShare.right c k
  | 5 => outPts m c (xP c) k
  | 6 => iprop(outPts m c c k ∗ oaPts m fullShare.left c k)

/-- What the y-neighbour's barrier signal hands `c`: the neighbour's receive buffer by chunks, its receive cells at round 0. -/
def barPayY (c : Dev nD) : sProp 𝕄 :=
  iprop((bigSep Finset.univ fun k : Fin 16 => yrAny (F := F) (yP c) k) ∗ bigSep Finset.univ fun k : Fin 16 => reached ER (dCell (yP c) jYR k) 0)
/-- What the x-neighbour's barrier signal hands `c`: `c`'s row half of the neighbour's result buffer by chunks, the
    neighbour's receive cells at round 0. -/
def barPayX (c : Dev nD) : sProp 𝕄 :=
  iprop((bigSep Finset.univ fun k : Fin 16 => outAny (F := F) (xP c) c k) ∗ bigSep Finset.univ fun k : Fin 16 => reached ER (dCell (xP c) jXR k) 0)

/-! ## The schedule -/

def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt (famOf s)
  payload g _ d := match g.2 with
    | .reg _ => if d then barPayX g.1.1 else barPayY g.1.1
    | .dma s => famPay m g.1.1 (famOf s) (chOf s)
  amount_pos g _ _ _ := by
    cases h : g.2 with
    | reg s => simp only [h]; exact Nat.one_pos
    | dma s => simp only [h]; exact amt_pos _

instance famPay_storable (c : Dev nD) (j : Fin 7) (k : Fin 16) : BI.Storable (upEmb : UEmb _ 𝕄) (famPay m c j k) := by
  unfold famPay xsRPts xsLPts ysPts yrPts oaPts outPts aPrPts aMnPts
  split <;> infer_instance
instance barPayY_storable (c : Dev nD) : BI.Storable (upEmb : UEmb _ 𝕄) (barPayY (F := F) c) := by unfold barPayY yrAny; infer_instance
instance barPayX_storable (c : Dev nD) : BI.Storable (upEmb : UEmb _ 𝕄) (barPayX (F := F) c) := by unfold barPayX outAny; infer_instance

instance ringRd_payload_storable (g : GSem nD τ sig) (r : ℕ) (d : Bool) :
    BI.Storable (upEmb : UEmb _ 𝕄) ((ringRd (F := F) m).payload g r d) := by
  show BI.Storable upEmb (match g.2 with
    | .reg _ => if d then barPayX g.1.1 else barPayY g.1.1
    | .dma s => famPay m g.1.1 (famOf s) (chOf s))
  split
  · split <;> infer_instance
  · infer_instance

/-! ## Levels, and what each device owes at launch -/

def L (g : GSem nD τ sig) : Finset Unit := if g.1.2 = .tc then {()} else ∅
/-- Barrier cells at 1, the y-exchange's receive cells at 2, the x-exchange's at 3, all other cells at 0. -/
def lv (g : GSem nD τ sig) (_ : Unit) : ℕ :=
  match g.2 with
  | .reg _ => 1
  | .dma s => if famOf s = jYR then 2 else if famOf s = jXR then 3 else 0

/-- The credit device `c` owes its y-neighbour's receive cells of chunks `k, k+1, …`; likewise its x-neighbour's. -/
def owedY (c : Dev nD) (k : ℕ) : CellTallies nD τ sig Unit := ∑ j ∈ Finset.univ.filter (fun j : Fin 16 => k ≤ j.val), tallyAt (dCell (yP c) jYR j) () NB
def owedX (c : Dev nD) (k : ℕ) : CellTallies nD τ sig Unit := ∑ j ∈ Finset.univ.filter (fun j : Fin 16 => k ≤ j.val), tallyAt (dCell (xP c) jXR j) () NB

/-- At launch: every receive credit of both exchanges and one unit to each neighbour's barrier cell; the first
    signal (to the y-neighbour) peels the last summand, the second (to the x-neighbour) the one before. -/
def O₂ (c : Dev nD) : CellTallies nD τ sig Unit := owedX c 0 + owedY c 0
def O₁ (c : Dev nD) : CellTallies nD τ sig Unit := O₂ c + tallyAt (barCell (xP c)) () 1
def O₀ (c : Dev nD) : CellTallies nD τ sig Unit := O₁ c + tallyAt (barCell (yP c)) () 1

end Cert.KernelIdealProof

end
-- ==== Proof.State.lean ====
/-
  The state of one device between the kernel's statements, chunk by chunk.

  Each of the sixteen chunks passes through seven stages: before anything (`T0`), its neighbour-columns load issued
  (`T1`), its own-columns load issued (`T2`), after the barrier, holding the two neighbours' landing chunks (`T3`),
  narrowed and sent to the y-neighbour (`T4`), reduced, stored locally and sent to the x-neighbour (`T5`), and with
  all four completions awaited (`T6`). A loop of the kernel moves the chunks from one stage to the next in order, so
  between its iterations the chunks below the counter are at the later stage and the others at the earlier (`LS`).
-/
import proofs.«900304_g7700000000000305_dist_rs_v7x_xy2x2_y_m2048_n512_bf16_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## All cells, and the invariants' names -/

/-- A cell of a device: the barrier cell (`none`) or the DMA cell of a family and a chunk. -/
abbrev CI : Type := Option (Fin 7 × Fin 16)
abbrev kcell (ck : Dev nD × CI) : GSem nD τ sig :=
  match ck.2 with
  | none => barCell ck.1
  | some jk => dCell ck.1 jk.1 jk.2

/-- Every cell's invariant at its name, and that round 0 of every cell is reached: what every device knows. -/
def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) :
    (bigSep Finset.univ fun ck : Dev nD × CI => (cellInv ER (ringRd m) (K ck) (kcell ck) : sProp 𝕄)) ⊢ cellInv ER (ringRd m) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)

theorem inv_bar (K : Dev nD × CI → ℕ) (c : Dev nD) : records m K ⊢ cellInv ER (ringRd m) (K (c, none)) (barCell c) := by
  unfold records; iintro ⟨H, -⟩; iapply (inv_at m K (c, none)); iexact H
theorem inv_dma (K : Dev nD × CI → ℕ) (c : Dev nD) (j : Fin 7) (k : Fin 16) :
    records m K ⊢ cellInv ER (ringRd m) (K (c, some (j, k))) (dCell c j k) := by
  unfold records; iintro ⟨H, -⟩; iapply (inv_at m K (c, some (j, k))); iexact H
theorem reached_bar (K : Dev nD × CI → ℕ) (c : Dev nD) : records m K ⊢ reached ER (barCell c) 0 := by
  unfold records; iintro ⟨-, H⟩; iapply (reached_at (F := F) (c, none)); iexact H
theorem reached_dma (K : Dev nD × CI → ℕ) (c : Dev nD) (j : Fin 7) (k : Fin 16) : records m K ⊢ reached ER (dCell c j k) 0 := by
  unfold records; iintro ⟨-, H⟩; iapply (reached_at (F := F) (c, some (j, k))); iexact H

/-! ## One chunk's resources, stage by stage -/

section Chunk
variable (c : Dev nD) (k : Fin 16)

def anyAt {sp : Space} {s : Shape} {e : EltTy} (M : Memref sig .tc sp s e) (c : Dev nD) : sProp 𝕄 :=
  iprop(∃ f, M.view.loc (c : Thread nD τ) ↦[M.view.set]{fullShare} f)

/-- The owner's position on the seven cells of chunk `k`, family `j` at round `r j`. -/
def posAt (r : Fin 7 → ℕ) : sProp 𝕄 :=
  iprop(atPos ER (dCell c 0 k) (r 0) ∅ 0 ∗ atPos ER (dCell c 1 k) (r 1) ∅ 0 ∗ atPos ER (dCell c 2 k) (r 2) ∅ 0 ∗ atPos ER (dCell c 3 k) (r 3) ∅ 0
    ∗ atPos ER (dCell c 4 k) (r 4) ∅ 0 ∗ atPos ER (dCell c 5 k) (r 5) ∅ 0 ∗ atPos ER (dCell c 6 k) (r 6) ∅ 0)

abbrev tok (g : GSem nD τ sig) : sProp 𝕄 := dutyTok ER g 0 false

/-- Before anything: the chunk's scratch and result pieces at some contents, the two argument pieces, the positions,
    the seven duty tokens the device pays for this chunk, and the two receive credits dealt at launch. -/
def T0 : sProp 𝕄 :=
  iprop(anyAt (F := F) (xsR k) c ∗ anyAt (F := F) (xsL k) c ∗ anyAt (F := F) (ysC k) c ∗ anyAt (F := F) (oaC k) c ∗ outAny (F := F) c c k
    ∗ aPrPts m c k ∗ aMnPts m c k ∗ posAt c k (fun _ => 0)
    ∗ tok (dCell c jPeer k) ∗ tok (dCell c jMine k) ∗ tok (dCell c jSt k) ∗ tok (dCell c jYS k) ∗ tok (dCell c jXS k)
    ∗ tok (dCell (yP c) jYR k) ∗ tok (dCell (xP c) jXR k)
    ∗ cred (tallyAt (dCell c jYR k) () NB) ∗ cred (tallyAt (dCell c jXR k) () NB))

/-- The neighbour-columns load issued: its destination, source and token gone, its credit in hand. -/
def T1 : sProp 𝕄 :=
  iprop(cred (tallyAt (dCell c jPeer k) () NF)
    ∗ anyAt (F := F) (xsL k) c ∗ anyAt (F := F) (ysC k) c ∗ anyAt (F := F) (oaC k) c ∗ outAny (F := F) c c k
    ∗ aMnPts m c k ∗ posAt c k (fun _ => 0)
    ∗ tok (dCell c jMine k) ∗ tok (dCell c jSt k) ∗ tok (dCell c jYS k) ∗ tok (dCell c jXS k)
    ∗ tok (dCell (yP c) jYR k) ∗ tok (dCell (xP c) jXR k)
    ∗ cred (tallyAt (dCell c jYR k) () NB) ∗ cred (tallyAt (dCell c jXR k) () NB))

/-- Both loads issued. (Nothing here depends on the contents `m`: `T2` and `T3` take no `m`.) -/
def T2 : sProp 𝕄 :=
  iprop(cred (tallyAt (dCell c jPeer k) () NF) ∗ cred (tallyAt (dCell c jMine k) () NF)
    ∗ anyAt (F := F) (ysC k) c ∗ anyAt (F := F) (oaC k) c ∗ outAny (F := F) c c k
    ∗ posAt c k (fun _ => 0)
    ∗ tok (dCell c jSt k) ∗ tok (dCell c jYS k) ∗ tok (dCell c jXS k)
    ∗ tok (dCell (yP c) jYR k) ∗ tok (dCell (xP c) jXR k)
    ∗ cred (tallyAt (dCell c jYR k) () NB) ∗ cred (tallyAt (dCell c jXR k) () NB))

/-- After the barrier: with the y-neighbour's landing chunk and this device's chunk of the x-neighbour's result. -/
def T3 : sProp 𝕄 := iprop(T2 (F := F) c k ∗ yrAny (F := F) (yP c) k ∗ outAny (F := F) (xP c) c k)

/-- The neighbour-columns load awaited, the chunk narrowed and on its way to the y-neighbour. -/
def T4 : sProp 𝕄 :=
  iprop(xsRPts m c k ∗ aPrPts m c k ∗ cred (tallyAt (dCell c jYS k) () NB)
    ∗ cred (tallyAt (dCell c jMine k) () NF)
    ∗ anyAt (F := F) (oaC k) c ∗ outAny (F := F) c c k ∗ outAny (F := F) (xP c) c k
    ∗ posAt c k (fun j => if j = jPeer then 1 else 0)
    ∗ tok (dCell c jSt k) ∗ tok (dCell c jXS k) ∗ tok (dCell (xP c) jXR k)
    ∗ cred (tallyAt (dCell c jYR k) () NB) ∗ cred (tallyAt (dCell c jXR k) () NB))

/-- Own-columns load and the y-neighbour's chunk awaited, the sum stored, its local store and its way to the
    x-neighbour issued. -/
def T5 : sProp 𝕄 :=
  iprop(xsRPts m c k ∗ aPrPts m c k ∗ xsLPts m c k ∗ aMnPts m c k ∗ yrPts m c k
    ∗ cred (tallyAt (dCell c jYS k) () NB) ∗ cred (tallyAt (dCell c jSt k) () NB) ∗ cred (tallyAt (dCell c jXS k) () NB)
    ∗ posAt c k (fun j => if j = jPeer ∨ j = jMine ∨ j = jYR then 1 else 0)
    ∗ cred (tallyAt (dCell c jXR k) () NB))

/-- Everything awaited: every piece of the chunk at its final contents, every cell at round 1. -/
def T6 : sProp 𝕄 :=
  iprop(xsRPts m c k ∗ aPrPts m c k ∗ xsLPts m c k ∗ aMnPts m c k ∗ yrPts m c k
    ∗ ysPts m c k ∗ oaPts m fullShare.left c k ∗ oaPts m fullShare.right c k ∗ outPts m c c k ∗ outPts m c (xP c) k
    ∗ posAt c k (fun _ => 1))

end Chunk

/-! ## A loop's state -/

/-- Chunks below `n` at the later stage `A`, the others at the earlier `B`, and what the device owes. -/
def LS (c : Dev nD) (A B : Fin 16 → sProp 𝕄) (O : CellTallies nD τ sig Unit) (n : ℕ) : sProp 𝕄 :=
  iprop((∃ W, owes (c : Thread nD τ) O W) ∗ bigSep Finset.univ fun j : Fin 16 => if j.val < n then A j else B j)

/-- The barrier's own resources on device `c`: its position and two units of credit on its own cell, the tokens of
    the duties it pays on the neighbours' cells, and what its two signals hand over. -/
def barRes (c : Dev nD) : sProp 𝕄 :=
  iprop(atPos ER (barCell c) 0 ∅ 0 ∗ cred (tallyAt (barCell c) () 2)
    ∗ dutyTok ER (barCell (yP c)) 0 false ∗ dutyTok ER (barCell (xP c)) 0 true
    ∗ (bigSep Finset.univ fun k : Fin 16 => yrAny (F := F) c k) ∗ (bigSep Finset.univ fun k : Fin 16 => outAny (F := F) c (xP c) k))

/-- The part of the argument block no chunk reads. -/
def argRestPts (c : Dev nD) : sProp 𝕄 :=
  (c : Thread nD τ).loc main_arg0 ↦[argRest c]{fullShare} argOf m c

/-- At entry. -/
def start (K : Dev nD × CI → ℕ) (c : Dev nD) : sProp 𝕄 :=
  iprop(records m K ∗ levAts L lv ∗ barRes (F := F) c ∗ argRestPts m c ∗ bigSep Finset.univ fun k : Fin 16 => T0 m c k)

/-- At exit: every own semaphore at zero and every buffer whole at its final contents. -/
def finish (c : Dev nD) : sProp 𝕄 :=
  iprop((bigSep Finset.univ fun jk : Fin 7 × Fin 16 => semVal (dCell c jk.1 jk.2) 0)
    ∗ ((c : Thread nD τ).loc main_arg0 ↦{fullShare} argOf m c) ∗ ((c : Thread nD τ).loc main_v1 ↦{fullShare} outFin m c)
    ∗ ((c : Thread nD τ).loc cc0_scratch0 ↦{fullShare} xsFin m c) ∗ ((c : Thread nD τ).loc cc0_scratch1 ↦{fullShare} ysFin m c)
    ∗ ((c : Thread nD τ).loc cc0_scratch2 ↦{fullShare} yrFin m c) ∗ ((c : Thread nD τ).loc cc0_scratch3 ↦{fullShare} oaFin m c))

/-! ## The pipeline's proof data: no windows, one point -/

def Φ₀ (c : Dev nD) : sProp 𝕄 := iprop(∃ K, start m K c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => finish m c
  q _ := fullShare
  owed t := match t with
    | ⟨0, _⟩ => O₀ c
    | ⟨_ + 1, _⟩ => 0

abbrev 𝒱₀ : Variants := Variants.none

end Cert.KernelIdealProof

end
-- ==== Proof.LibSepFin.lean ====
import Idealize.SL.ProofMode.BigOp
import Idealize.ShloMosaic.Rules.PointsTo

/-!
# Separating conjunctions over `Fin n` that advance one member at a time,
and regions tiled by a pairwise-disjoint family

Two groups of general lemmas about the iterated separating conjunction
`bigSep`.

* A family over `Fin n` whose members below a cursor `k` are in a new
  state `A` and the others still in the old state `B`: at `k = 0` it is
  the family `B`, at `k = n` the family `A`, and one step takes out
  `B k` and, given `A k`, gives back the family with the cursor at
  `k + 1`.
* A region assertion over a union of pairwise-disjoint index sets is the
  separating conjunction of the region assertions over the members
  (`is_biUnion`, for any unit-preserving embedding of the region algebra);
  the same for the points-to `ℓ ↦[S]{q} f`, as a bi-entailment, in each
  direction, and for a set given as equal to the union (`pointsTo_tiled`).
-/

namespace Cert.LibSepFin

open Idealize.SL Idealize.SL.BI Idealize.SL.RA Idealize.SL.ProofMode
open BIBase Laws

universe u

section Prefix

/-- With the cursor at `0` no member has advanced: the family is `B`. -/
theorem bigSep_prefix_zero {M : Type u} [URA M] {n : ℕ} (A B : Fin n → sProp M) :
    bigSep Finset.univ (fun j : Fin n => if j.val < 0 then A j else B j) = bigSep Finset.univ B :=
  bigSep_congr fun j _ => if_neg (Nat.not_lt_zero j.val)

/-- With the cursor at `n` every member has advanced: the family is `A`. -/
theorem bigSep_prefix_full {M : Type u} [URA M] {n : ℕ} (A B : Fin n → sProp M) :
    bigSep Finset.univ (fun j : Fin n => if j.val < n then A j else B j) = bigSep Finset.univ A :=
  bigSep_congr fun j _ => if_pos j.isLt

/-- Entailment form of `bigSep_prefix_zero`, from the family `B`. -/
theorem bigSep_prefix_zero_intro {M : Type u} [URA M] {n : ℕ} (A B : Fin n → sProp M) :
    bigSep Finset.univ B ⊢ bigSep Finset.univ (fun j : Fin n => if j.val < 0 then A j else B j) := by
  rw [bigSep_prefix_zero]

/-- Entailment form of `bigSep_prefix_zero`, to the family `B`. -/
theorem bigSep_prefix_zero_elim {M : Type u} [URA M] {n : ℕ} (A B : Fin n → sProp M) :
    bigSep Finset.univ (fun j : Fin n => if j.val < 0 then A j else B j) ⊢ bigSep Finset.univ B := by
  rw [bigSep_prefix_zero]

/-- Entailment form of `bigSep_prefix_full`, to the family `A`. -/
theorem bigSep_prefix_full_elim {M : Type u} [URA M] {n : ℕ} (A B : Fin n → sProp M) :
    bigSep Finset.univ (fun j : Fin n => if j.val < n then A j else B j) ⊢ bigSep Finset.univ A := by
  rw [bigSep_prefix_full]

/-- Entailment form of `bigSep_prefix_full`, from the family `A`. -/
theorem bigSep_prefix_full_intro {M : Type u} [URA M] {n : ℕ} (A B : Fin n → sProp M) :
    bigSep Finset.univ A ⊢ bigSep Finset.univ (fun j : Fin n => if j.val < n then A j else B j) := by
  rw [bigSep_prefix_full]

/-- One step of the cursor: the member at `k` is still `B k`; taking it out
    and putting `A k` back gives the family with the cursor at `k + 1`,
    because every other member compares with `k` and with `k + 1` alike. -/
theorem bigSep_prefix_take {M : Type u} [URA M] {n : ℕ} (A B : Fin n → sProp M) (k : ℕ) (h : k < n) :
    bigSep Finset.univ (fun j : Fin n => if j.val < k then A j else B j)
      ⊢ iprop(B ⟨k, h⟩ ∗ (A ⟨k, h⟩ -∗
          bigSep Finset.univ (fun j : Fin n => if j.val < k + 1 then A j else B j))) := by
  have hne : ∀ j : Fin n, j ≠ ⟨k, h⟩ →
      (if j.val < k + 1 then A j else B j) = (if j.val < k then A j else B j) := by
    intro j hj
    have hjk : j.val ≠ k := fun e => hj (Fin.ext e)
    by_cases hlt : j.val < k
    · rw [if_pos hlt, if_pos (Nat.lt_succ_of_lt hlt)]
    · rw [if_neg hlt, if_neg (fun h' => hlt (lt_of_le_of_ne (Nat.lt_succ_iff.mp h') hjk))]
  have step := bigSep_univ_update
    (Φ := fun j : Fin n => if j.val < k then A j else B j)
    (Ψ := fun j : Fin n => if j.val < k + 1 then A j else B j) (⟨k, h⟩ : Fin n) hne
  simpa only [lt_irrefl, if_false, Nat.lt_succ_self, if_true] using step

end Prefix

section Tiling

/-- Over no indices a region assertion is `emp`: the fragment it owns is the unit. -/
theorem is_empty {K : Type} [DecidableEq K] {Ix : K → Type} [∀ k, DecidableEq (Ix k)] {V : K → Type}
    {M : Type u} [URA M] (ι : UEmb (Auth (Region.Carrier Ix fun k => Ag (V k))) M)
    (k : K) (q : PosShare TreeShare) (f : Ix k → V k) :
    BI.Region.is ι.toEmb k ∅ q f = (iprop(emp) : sProp M) := by
  unfold BI.Region.is BI.Region.held Region.part
  rw [Region.cells_empty, IProd.single_one, Auth.frag_one]
  show BI.own (ι 1) = BI.emp
  rw [ι.map_one]; exact BI.own_one

/-- A region assertion over the union of a pairwise-disjoint family of index
    sets is the separating conjunction of the region assertions over the
    members: by induction on the family, splitting off one member at a time
    along a disjoint union. -/
theorem is_biUnion {K : Type} [DecidableEq K] {Ix : K → Type} [∀ k, DecidableEq (Ix k)] {V : K → Type}
    {M : Type u} [URA M] (ι : UEmb (Auth (Region.Carrier Ix fun k => Ag (V k))) M)
    {T : Type} (s : Finset T) (k : K) (S : T → Finset (Ix k)) (q : PosShare TreeShare) (f : Ix k → V k)
    (hd : ∀ i ∈ s, ∀ j ∈ s, i ≠ j → Disjoint (S i) (S j)) :
    BI.Region.is ι.toEmb k (s.biUnion S) q f = bigSep s fun i => BI.Region.is ι.toEmb k (S i) q f := by
  classical
  induction s using Finset.induction_on with
  | empty => rw [Finset.biUnion_empty, is_empty, bigSep_empty]; rfl
  | insert t s ht ih =>
    have hts : Disjoint (S t) (s.biUnion S) :=
      (Finset.disjoint_biUnion_right _ _ _).mpr fun t' ht' =>
        hd t (Finset.mem_insert_self _ _) t' (Finset.mem_insert_of_mem ht') fun e => ht (e ▸ ht')
    have hu := BI.Region.is_union (ι := ι.toEmb) (k := k) (q := q) (f := f) hts
    rw [Finset.biUnion_insert, bigSep_insert ht, BI.equiv_iff.mp ⟨hu.1, hu.2⟩,
      ih fun i hi j hj => hd i (Finset.mem_insert_of_mem hi) j (Finset.mem_insert_of_mem hj)]
    rfl

end Tiling

section PointsTo

open Idealize.ShloMosaic
open scoped Idealize.ShloMosaic

/-- A points-to over the union of a pairwise-disjoint family of element sets
    is the separating conjunction of the points-to assertions over the
    members. -/
theorem pointsTo_biUnion {nD : Nat} {τ : Topo} {sig : RefSig} {Ix : Type} [DecidableEq Ix]
    {Val : EltTy → Type} {Name : Type} [DecidableEq Name] {U : Type} [URA U] {Lvl : Type}
    {ℓ : Loc nD τ sig} {T : Type} (s : Finset T) (S : T → Finset (Idx ℓ))
    (q : PosShare TreeShare) (f : Buf Val ℓ)
    (hd : ∀ i ∈ s, ∀ j ∈ s, i ≠ j → Disjoint (S i) (S j)) :
    (ℓ ↦[s.biUnion S]{q} f : sProp (MT nD τ sig Ix Val Name U Lvl))
      ⊣⊢ bigSep s fun i => ℓ ↦[S i]{q} f :=
  by rw [Idealize.ShloMosaic.pointsTo_biUnion s S hd]

/-- Splitting direction of `pointsTo_biUnion`. -/
theorem pointsTo_biUnion_split {nD : Nat} {τ : Topo} {sig : RefSig} {Ix : Type} [DecidableEq Ix]
    {Val : EltTy → Type} {Name : Type} [DecidableEq Name] {U : Type} [URA U] {Lvl : Type}
    {ℓ : Loc nD τ sig} {T : Type} (s : Finset T) (S : T → Finset (Idx ℓ))
    (q : PosShare TreeShare) (f : Buf Val ℓ)
    (hd : ∀ i ∈ s, ∀ j ∈ s, i ≠ j → Disjoint (S i) (S j)) :
    (ℓ ↦[s.biUnion S]{q} f : sProp (MT nD τ sig Ix Val Name U Lvl))
      ⊢ bigSep s fun i => ℓ ↦[S i]{q} f :=
  (pointsTo_biUnion s S q f hd).1

/-- Joining direction of `pointsTo_biUnion`. -/
theorem pointsTo_biUnion_merge {nD : Nat} {τ : Topo} {sig : RefSig} {Ix : Type} [DecidableEq Ix]
    {Val : EltTy → Type} {Name : Type} [DecidableEq Name] {U : Type} [URA U] {Lvl : Type}
    {ℓ : Loc nD τ sig} {T : Type} (s : Finset T) (S : T → Finset (Idx ℓ))
    (q : PosShare TreeShare) (f : Buf Val ℓ)
    (hd : ∀ i ∈ s, ∀ j ∈ s, i ≠ j → Disjoint (S i) (S j)) :
    (bigSep s fun i => (ℓ ↦[S i]{q} f : sProp (MT nD τ sig Ix Val Name U Lvl)))
      ⊢ ℓ ↦[s.biUnion S]{q} f :=
  (pointsTo_biUnion s S q f hd).2

/-- A points-to over a set `R` that a pairwise-disjoint family tiles is the
    separating conjunction of the points-to assertions over the tiles. -/
theorem pointsTo_tiled {nD : Nat} {τ : Topo} {sig : RefSig} {Ix : Type} [DecidableEq Ix]
    {Val : EltTy → Type} {Name : Type} [DecidableEq Name] {U : Type} [URA U] {Lvl : Type}
    {ℓ : Loc nD τ sig} {T : Type} (s : Finset T) (S : T → Finset (Idx ℓ)) (R : Finset (Idx ℓ))
    (q : PosShare TreeShare) (f : Buf Val ℓ)
    (hd : ∀ i ∈ s, ∀ j ∈ s, i ≠ j → Disjoint (S i) (S j)) (hR : s.biUnion S = R) :
    (ℓ ↦[R]{q} f : sProp (MT nD τ sig Ix Val Name U Lvl))
      ⊣⊢ bigSep s fun i => ℓ ↦[S i]{q} f :=
  hR ▸ pointsTo_biUnion s S q f hd

/-- Splitting direction of `pointsTo_tiled`. -/
theorem pointsTo_tiled_split {nD : Nat} {τ : Topo} {sig : RefSig} {Ix : Type} [DecidableEq Ix]
    {Val : EltTy → Type} {Name : Type} [DecidableEq Name] {U : Type} [URA U] {Lvl : Type}
    {ℓ : Loc nD τ sig} {T : Type} (s : Finset T) (S : T → Finset (Idx ℓ)) (R : Finset (Idx ℓ))
    (q : PosShare TreeShare) (f : Buf Val ℓ)
    (hd : ∀ i ∈ s, ∀ j ∈ s, i ≠ j → Disjoint (S i) (S j)) (hR : s.biUnion S = R) :
    (ℓ ↦[R]{q} f : sProp (MT nD τ sig Ix Val Name U Lvl))
      ⊢ bigSep s fun i => ℓ ↦[S i]{q} f :=
  (pointsTo_tiled s S R q f hd hR).1

/-- Joining direction of `pointsTo_tiled`. -/
theorem pointsTo_tiled_merge {nD : Nat} {τ : Topo} {sig : RefSig} {Ix : Type} [DecidableEq Ix]
    {Val : EltTy → Type} {Name : Type} [DecidableEq Name] {U : Type} [URA U] {Lvl : Type}
    {ℓ : Loc nD τ sig} {T : Type} (s : Finset T) (S : T → Finset (Idx ℓ)) (R : Finset (Idx ℓ))
    (q : PosShare TreeShare) (f : Buf Val ℓ)
    (hd : ∀ i ∈ s, ∀ j ∈ s, i ≠ j → Disjoint (S i) (S j)) (hR : s.biUnion S = R) :
    (bigSep s fun i => (ℓ ↦[S i]{q} f : sProp (MT nD τ sig Ix Val Name U Lvl)))
      ⊢ ℓ ↦[R]{q} f :=
  (pointsTo_tiled s S R q f hd hR).2

end PointsTo

/-- info: 'Cert.LibSepFin.bigSep_prefix_take' depends on axioms: [propext, Classical.choice, Quot.sound] -/
#guard_msgs in #print axioms bigSep_prefix_take

/-- info: 'Cert.LibSepFin.is_biUnion' depends on axioms: [propext, Classical.choice, Quot.sound] -/
#guard_msgs in #print axioms is_biUnion

/-- info: 'Cert.LibSepFin.pointsTo_tiled' depends on axioms: [propext, Classical.choice, Quot.sound] -/
#guard_msgs in #print axioms pointsTo_tiled

end Cert.LibSepFin
-- ==== Proof.Geom.lean ====
/-
  The geometry of the buffers: how each whole buffer is tiled by its sixteen 64-row chunks, what a transfer
  into a chunk credits, and what each chunk holds once the copy into it has landed, once it has been stored,
  and when it is loaded, in terms of the closed-form contents of `Vals`.

  Rows `64·k …` of a 1024-row scratch buffer are chunk `k`; the staging buffer's chunk has a right half (columns
  `512 …`, the y-neighbour's columns of the argument) and a left half (columns `0 …`, the device's own); the
  result buffer's 2048 rows are the row half of a device and the row half of its x-neighbour, sixteen chunks each.
-/
import proofs.«900304_g7700000000000305_dist_rs_v7x_xy2x2_y_m2048_n512_bf16_1_alg».proof.Proof.Vals
import proofs.«900304_g7700000000000305_dist_rs_v7x_xy2x2_y_m2048_n512_bf16_1_alg».proof.Proof.LibSepFin
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-! ## Coordinates -/

/-- An index of a 1024-row buffer at row `64·k + r`, `r < 64`, lies in chunk `k` at row `r`. -/
theorem chunkOf_eq {n1 : Nat} (i : (⟨2, ![1024, n1]⟩ : Shape).Idx) (k : Fin 16) (r : Nat) (hr : r < 64)
    (h0 : (i 0).val = 64 * k.val + r) : chunkOf i = k :=
  Fin.ext (by show (i 0).val / 64 = k.val; omega)

theorem rowIn_val {n1 : Nat} (i : (⟨2, ![1024, n1]⟩ : Shape).Idx) (k : Fin 16) (r : Nat) (hr : r < 64)
    (h0 : (i 0).val = 64 * k.val + r) : (rowIn i).val = r := by
  show (i 0).val % 64 = r; omega

/-- A chunked buffer at row `64·k + y₀`, column `y₁`, is chunk `k` at `(y₀, y₁)`. -/
theorem chunked_at {α : Type} (g : Fin 16 → S64x512.Idx → α) (i : S1024x512.Idx) (k : Fin 16) (y : S64x512.Idx)
    (h0 : (i 0).val = 64 * k.val + 1 * (y 0).val) (h1 : (i 1).val = 0 + 1 * (y 1).val) : chunked g i = g k y := by
  have hy0 := idx2_lt0 y
  have hk : chunkOf i = k := chunkOf_eq i k (y 0).val hy0 (by omega)
  have hy : ix2 (rowIn i) (i 1) = y :=
    Shape.idx_ext₂ (by show (rowIn i).val = (y 0).val; rw [rowIn_val i k (y 0).val hy0 (by omega)]) (by show (i 1).val = (y 1).val; omega)
  have key : ∀ (k' : Fin 16) (y' : S64x512.Idx), k' = k → y' = y → g k' y' = g k y := by
    rintro _ _ rfl rfl; rfl
  exact key _ _ hk hy

/-- The staging buffer's final contents at row `64·k + y₀`, column `512 + y₁`: the y-neighbour's columns of chunk `k`. -/
theorem xsFin_right (m : (ℓ : Loc nD τ sig) → Buf (Elt F) ℓ) (c : Dev nD) (i : S1024x1024.Idx) (k : Fin 16) (y : S64x512.Idx)
    (h0 : (i 0).val = 64 * k.val + 1 * (y 0).val) (h1 : (i 1).val = 512 + 1 * (y 1).val) : xsFin m c i = vPeer m c k y := by
  have hy0 := idx2_lt0 y
  have hlt : ¬ (i 1).val < 512 := by omega
  have key : ∀ (k' : Fin 16) (y' : S64x512.Idx), k' = k → y' = y → vPeer m c k' y' = vPeer m c k y := by
    rintro _ _ rfl rfl; rfl
  unfold xsFin
  rw [dif_neg hlt]
  refine key _ _ (chunkOf_eq i k (y 0).val hy0 (by omega)) (Shape.idx_ext₂ ?_ ?_)
  · show (rowIn i).val = (y 0).val; rw [rowIn_val i k (y 0).val hy0 (by omega)]
  · show (i 1).val - 512 = (y 1).val; omega

/-- At column `y₁ < 512`: the device's own columns of chunk `k`. -/
theorem xsFin_left (m : (ℓ : Loc nD τ sig) → Buf (Elt F) ℓ) (c : Dev nD) (i : S1024x1024.Idx) (k : Fin 16) (y : S64x512.Idx)
    (h0 : (i 0).val = 64 * k.val + 1 * (y 0).val) (h1 : (i 1).val = 0 + 1 * (y 1).val) : xsFin m c i = vMine m c k y := by
  have hy0 := idx2_lt0 y
  have hy1 := idx2_lt1 y
  have hlt : (i 1).val < 512 := by omega
  have key : ∀ (k' : Fin 16) (y' : S64x512.Idx), k' = k → y' = y → vMine m c k' y' = vMine m c k y := by
    rintro _ _ rfl rfl; rfl
  unfold xsFin
  rw [dif_pos hlt]
  refine key _ _ (chunkOf_eq i k (y 0).val hy0 (by omega)) (Shape.idx_ext₂ ?_ ?_)
  · show (rowIn i).val = (y 0).val; rw [rowIn_val i k (y 0).val hy0 (by omega)]
  · show (i 1).val = (y 1).val; omega

/-- The result's final contents on device `c` at row `1024·x + 64·k + y₀` where `x` is the row half of `d`, `d` being
    `c` or its x-neighbour: the reduced chunk `k` of `d`. -/
theorem outFin_at (m : (ℓ : Loc nD τ sig) → Buf (Elt F) ℓ) (c d : Dev nD) (hd : d = c ∨ d = xP c) (i : S2048x512.Idx) (k : Fin 16)
    (y : S64x512.Idx) (h0 : (i 0).val = 1024 * (d.val / 2) + 64 * k.val + 1 * (y 0).val) (h1 : (i 1).val = 0 + 1 * (y 1).val) :
    outFin m c i = oaVec m d k y := by
  have hy0 := idx2_lt0 y
  have hd4 : d.val < 4 := d.isLt
  have hc4 : c.val < 4 := c.isLt
  have key : ∀ (d' : Dev nD) (k' : Fin 16) (y' : S64x512.Idx), d' = d → k' = k → y' = y → oaVec m d' k' y' = oaVec m d k y := by
    rintro _ _ _ rfl rfl rfl; rfl
  unfold outFin
  refine key _ _ _ ?_ (Fin.ext ?_) (Shape.idx_ext₂ ?_ ?_)
  · have hq : (i 0).val / 1024 = d.val / 2 := by omega
    rcases hd with rfl | rfl
    · rw [if_pos hq]
    · rw [if_neg (by rw [hq, xP_x]; omega)]
  · show (i 0).val % 1024 / 64 = k.val; omega
  · show (i 0).val % 64 = (y 0).val; omega
  · show (i 1).val = (y 1).val; omega

/-! ## G2. Amounts -/

/-- A transfer into a right half of a staging chunk credits a DMA semaphore by the f32 chunk's amount. -/
theorem xsR_amount (k : Fin 16) (s : DmaSem sig) : (xsR k).view.amount (.dma s) = NF := rfl
/-- So does one into a left half. -/
theorem xsL_amount (k : Fin 16) (s : DmaSem sig) : (xsL k).view.amount (.dma s) = NF := rfl
/-- A transfer into a chunk of a bf16 scratch buffer credits a DMA semaphore by the bf16 chunk's amount. -/
theorem ysC_amount (k : Fin 16) (s : DmaSem sig) : (ysC k).view.amount (.dma s) = NB := rfl
theorem yrC_amount (k : Fin 16) (s : DmaSem sig) : (yrC k).view.amount (.dma s) = NB := rfl
theorem oaC_amount (k : Fin 16) (s : DmaSem sig) : (oaC k).view.amount (.dma s) = NB := rfl
/-- So does one into a chunk of the result buffer. -/
theorem oC_amount (d : Dev nD) (k : Fin 16) (s : DmaSem sig) : (oC d k).view.amount (.dma s) = NB := rfl

/-! ## G3. Contents -/

/-- The view a store at a chunk's rectangle of the first exchange's send buffer goes through is the chunk's. -/
theorem access_ys (k : Fin 16) : (ysW.access (rCh k) : View sig .tc _ _ _) = (ysC k).view := rfl
theorem access_oa (k : Fin 16) : (oaW.access (rCh k) : View sig .tc _ _ _) = (oaC k).view := rfl
theorem access_set_ys (k : Fin 16) : (ysW.access (rCh k) : View sig .tc _ _ _).set = (ysC k).view.set := rfl
theorem access_set_oa (k : Fin 16) : (oaW.access (rCh k) : View sig .tc _ _ _).set = (oaC k).view.set := rfl

/-- A write on every index through a view leaves, under the view, any contents that hold the payload at each of the
    view's indices. -/
theorem pointsTo_write_univ_eq {sp : Space} {s : Shape} {e : EltTy} (c : Dev nD) (v : View sig .tc sp s e) (q : PosShare TreeShare)
    (fd g : v.ty.Contents (Elt F)) (w : s.Idx → Elt F e)
    (h : ∀ y : s.Idx, g (v.emb y) = _root_.cast (congrArg (Elt F) v.elt_eq.symm) (w y)) :
    (v.loc (c : Thread nD τ) ↦[v.set]{q} v.write (Elt F) fd w Finset.univ : sProp 𝕄) = (v.loc (c : Thread nD τ) ↦[v.set]{q} g) := by
  refine BI.Region.is_congr fun i hi => ?_
  obtain ⟨y, rfl⟩ := View.exists_emb_of_mem_set v hi
  rw [View.write_emb_of_mem _ _ (Finset.mem_univ y)]; exact (h y).symm

/-- The row offset of a result chunk, in closed form. -/
theorem off3_row (d : Dev nD) (k : Fin 16) : (k0_off3 d (BitVec.ofNat 32 (64 * k.val))) 0 = 1024 * (d.val / 2) + 64 * k.val := by
  rw [k0_off3_eq d k]; rfl
theorem off3_col (d : Dev nD) (k : Fin 16) : (k0_off3 d (BitVec.ofNat 32 (64 * k.val))) 1 = 0 := by
  rw [k0_off3_eq d k]; rfl

/-- The final result on device `c` under the chunk `k` of the row half of `d` (`c` itself or its x-neighbour). -/
theorem outFin_chunk (m : (ℓ : Loc nD τ sig) → Buf (Elt F) ℓ) (c d : Dev nD) (hd : d = c ∨ d = xP c) (k : Fin 16) (y : S64x512.Idx) :
    outFin m c ((oC d k).view.emb y) = oaVec m d k y :=
  outFin_at m c d hd _ k y
    (by show (k0_off3 d (BitVec.ofNat 32 (64 * k.val))) 0 + 1 * (y 0).val = _; rw [off3_row])
    (by show (k0_off3 d (BitVec.ofNat 32 (64 * k.val))) 1 + 1 * (y 1).val = _; rw [off3_col])

/-- The local copy of the y-neighbour's columns of chunk `k` lands the final contents of the staging buffer's right half. -/
theorem xsR_landed (m : (ℓ : Loc nD τ sig) → Buf (Elt F) ℓ) (c : Dev nD) (k : Fin 16)
    (fd : Buf (Elt F) ((c : Thread nD τ).loc cc0_scratch0)) (q : PosShare TreeShare) :
    ((xsR k).view.loc (c : Thread nD τ) ↦[(xsR k).view.set]{q}
        (xsR k).view.write (Elt F) fd ((aPr c k).view.read (Elt F) (argOf m c)) Finset.univ : sProp 𝕄)
      = ((xsR k).view.loc (c : Thread nD τ) ↦[(xsR k).view.set]{q} xsFin m c) :=
  pointsTo_write_univ_eq c (xsR k).view q fd (xsFin m c) _ fun y => xsFin_right m c _ k y rfl rfl

/-- The local copy of the device's own columns of chunk `k` lands the final contents of the left half. -/
theorem xsL_landed (m : (ℓ : Loc nD τ sig) → Buf (Elt F) ℓ) (c : Dev nD) (k : Fin 16)
    (fd : Buf (Elt F) ((c : Thread nD τ).loc cc0_scratch0)) (q : PosShare TreeShare) :
    ((xsL k).view.loc (c : Thread nD τ) ↦[(xsL k).view.set]{q}
        (xsL k).view.write (Elt F) fd ((aMn c k).view.read (Elt F) (argOf m c)) Finset.univ : sProp 𝕄)
      = ((xsL k).view.loc (c : Thread nD τ) ↦[(xsL k).view.set]{q} xsFin m c) :=
  pointsTo_write_univ_eq c (xsL k).view q fd (xsFin m c) _ fun y => xsFin_left m c _ k y rfl rfl

/-- On device `c`, the chunk its y-neighbour sent lands the final contents of the receive buffer. -/
theorem yr_landed (m : (ℓ : Loc nD τ sig) → Buf (Elt F) ℓ) (c : Dev nD) (k : Fin 16)
    (fd : Buf (Elt F) ((c : Thread nD τ).loc cc0_scratch2)) (q : PosShare TreeShare) :
    ((yrC k).view.loc (c : Thread nD τ) ↦[(yrC k).view.set]{q}
        (yrC k).view.write (Elt F) fd ((ysC k).view.read (Elt F) (ysFin m (yP c))) Finset.univ : sProp 𝕄)
      = ((yrC k).view.loc (c : Thread nD τ) ↦[(yrC k).view.set]{q} yrFin m c) :=
  pointsTo_write_univ_eq c (yrC k).view q fd (yrFin m c) _ fun y =>
    (chunked_at (ysVec m (yP c)) ((yrC k).view.emb y) k y rfl rfl).trans
      (chunked_at (ysVec m (yP c)) ((ysC k).view.emb y) k y rfl rfl).symm

/-- The local copy of a reduced chunk into the device's own row half of the result lands the final result. -/
theorem out_own_landed (m : (ℓ : Loc nD τ sig) → Buf (Elt F) ℓ) (c : Dev nD) (k : Fin 16)
    (fd : Buf (Elt F) ((c : Thread nD τ).loc main_v1)) (q : PosShare TreeShare) :
    ((oC c k).view.loc (c : Thread nD τ) ↦[(oC c k).view.set]{q}
        (oC c k).view.write (Elt F) fd ((oaC k).view.read (Elt F) (oaFin m c)) Finset.univ : sProp 𝕄)
      = ((oC c k).view.loc (c : Thread nD τ) ↦[(oC c k).view.set]{q} outFin m c) :=
  pointsTo_write_univ_eq c (oC c k).view q fd (outFin m c) _ fun y =>
    (outFin_chunk m c c (.inl rfl) k y).trans (chunked_at (oaVec m c) ((oaC k).view.emb y) k y rfl rfl).symm

/-- On device `c`, the reduced chunk its x-neighbour sent into the neighbour's row half lands the final result. -/
theorem out_peer_landed (m : (ℓ : Loc nD τ sig) → Buf (Elt F) ℓ) (c : Dev nD) (k : Fin 16)
    (fd : Buf (Elt F) ((c : Thread nD τ).loc main_v1)) (q : PosShare TreeShare) :
    ((oC (xP c) k).view.loc (c : Thread nD τ) ↦[(oC (xP c) k).view.set]{q}
        (oC (xP c) k).view.write (Elt F) fd ((oaC k).view.read (Elt F) (oaFin m (xP c))) Finset.univ : sProp 𝕄)
      = ((oC (xP c) k).view.loc (c : Thread nD τ) ↦[(oC (xP c) k).view.set]{q} outFin m c) :=
  pointsTo_write_univ_eq c (oC (xP c) k).view q fd (outFin m c) _ fun y =>
    (outFin_chunk m c (xP c) (.inr rfl) k y).trans (chunked_at (oaVec m (xP c)) ((oaC k).view.emb y) k y rfl rfl).symm

/-- A load of the right half of staging chunk `k`, from contents that agree with the final ones there, reads the
    y-neighbour's columns of the chunk. -/
theorem read_xsR (m : (ℓ : Loc nD τ sig) → Buf (Elt F) ℓ) (c : Dev nD) (k : Fin 16)
    (f : (cc0_scratch0 : Ref sig .tc).ty.Contents (Elt F)) (h : ∀ i ∈ (xsR k).view.set, f i = xsFin m c i) :
    xsW.view.readAt (Elt F) (rXR k).toLoadRect f = vPeer m c k :=
  (View.read_congr (v := (xsR k).view) h).trans (funext fun y => xsFin_right m c ((xsR k).view.emb y) k y rfl rfl)

/-- A load of the left half reads the device's own columns of the chunk. -/
theorem read_xsL (m : (ℓ : Loc nD τ sig) → Buf (Elt F) ℓ) (c : Dev nD) (k : Fin 16)
    (f : (cc0_scratch0 : Ref sig .tc).ty.Contents (Elt F)) (h : ∀ i ∈ (xsL k).view.set, f i = xsFin m c i) :
    xsW.view.readAt (Elt F) (rXL k).toLoadRect f = vMine m c k :=
  (View.read_congr (v := (xsL k).view) h).trans (funext fun y => xsFin_left m c ((xsL k).view.emb y) k y rfl rfl)

/-- A load of chunk `k` of the receive buffer reads what the y-neighbour narrowed and sent. -/
theorem read_yr (m : (ℓ : Loc nD τ sig) → Buf (Elt F) ℓ) (c : Dev nD) (k : Fin 16)
    (f : (cc0_scratch2 : Ref sig .tc).ty.Contents (Elt F)) (h : ∀ i ∈ (yrC k).view.set, f i = yrFin m c i) :
    yrW.view.readAt (Elt F) (rCh k).toLoadRect f = ysVec m (yP c) k :=
  (View.read_congr (v := (yrC k).view) h).trans
    (funext fun y => chunked_at (ysVec m (yP c)) ((yrC k).view.emb y) k y rfl rfl)

/-- After the store of the narrowed chunk, chunk `k` of the first exchange's send buffer holds its final contents. -/
theorem ys_stored (m : (ℓ : Loc nD τ sig) → Buf (Elt F) ℓ) (c : Dev nD) (k : Fin 16)
    (f : Buf (Elt F) ((c : Thread nD τ).loc cc0_scratch1)) (q : PosShare TreeShare) :
    ((ysC k).view.loc (c : Thread nD τ) ↦[(ysC k).view.set]{q}
        (ysW.access (rCh k) : View sig .tc _ _ _).write (Elt F) f (ysVal (vPeer m c k)) Finset.univ : sProp 𝕄)
      = ((ysC k).view.loc (c : Thread nD τ) ↦[(ysC k).view.set]{q} ysFin m c) :=
  pointsTo_write_univ_eq c (ysC k).view q f (ysFin m c) _ fun y =>
    chunked_at (ysVec m c) ((ysC k).view.emb y) k y rfl rfl

/-- After the store of the reduced chunk, chunk `k` of the second exchange's send buffer holds its final contents. -/
theorem oa_stored (m : (ℓ : Loc nD τ sig) → Buf (Elt F) ℓ) (c : Dev nD) (k : Fin 16)
    (f : Buf (Elt F) ((c : Thread nD τ).loc cc0_scratch3)) (q : PosShare TreeShare) :
    ((oaC k).view.loc (c : Thread nD τ) ↦[(oaC k).view.set]{q}
        (oaW.access (rCh k) : View sig .tc _ _ _).write (Elt F) f (oaVal (vMine m c k) (ysVec m (yP c) k)) Finset.univ : sProp 𝕄)
      = ((oaC k).view.loc (c : Thread nD τ) ↦[(oaC k).view.set]{q} oaFin m c) :=
  pointsTo_write_univ_eq c (oaC k).view q f (oaFin m c) _ fun y =>
    chunked_at (oaVec m c) ((oaC k).view.emb y) k y rfl rfl

/-! ## G1. Tilings -/

/-- Equal assertions entail each other. -/
theorem biEntails_of_eq {P Q : sProp 𝕄} (h : P = Q) : P ⊣⊢ Q := h ▸ ⟨.rfl, .rfl⟩

/-- A whole buffer is the separating conjunction over any pairwise-disjoint family of element sets that covers it. -/
theorem whole_tiled {T : Type} [Fintype T] (c : Dev nD) (b : Ref sig .tc) (q : PosShare TreeShare)
    (f : Buf (Elt F) ((c : Thread nD τ).loc b)) (S : T → Finset (Idx ((c : Thread nD τ).loc b)))
    (hd : ∀ t t', t ≠ t' → Disjoint (S t) (S t')) (hcov : ∀ i, ∃ t, i ∈ S t) :
    ((c : Thread nD τ).loc b ↦{q} f : sProp 𝕄) = bigSep Finset.univ fun t => (c : Thread nD τ).loc b ↦[S t]{q} f := by
  have hU : Finset.univ.biUnion S = Finset.univ :=
    Finset.eq_univ_iff_forall.mpr fun i => let ⟨t, ht⟩ := hcov i; Finset.mem_biUnion.mpr ⟨t, Finset.mem_univ t, ht⟩
  have h : ((c : Thread nD τ).loc b ↦[Finset.univ.biUnion S]{q} f : sProp 𝕄)
      = bigSep Finset.univ fun t => (c : Thread nD τ).loc b ↦[S t]{q} f :=
    pointsTo_biUnion Finset.univ S (fun t _ t' _ h => hd t t' h)
  rw [hU] at h; exact h

/-- Chunks of a 1024 × 512 buffer at different `k` share no row. -/
theorem rCh_disjoint {k k' : Fin 16} (h : k ≠ k') : Disjoint (rCh k).set (rCh k').set :=
  Rect.unit_disjoint 0 (by
    show 64 * k.val + 64 ≤ 64 * k'.val ∨ 64 * k'.val + 64 ≤ 64 * k.val
    have : k.val ≠ k'.val := fun e => h (Fin.ext e)
    omega)

/-- Every element of a 1024 × 512 buffer lies in the chunk of its row. -/
theorem rCh_cover (i : S1024x512.Idx) : ∃ k : Fin 16, i ∈ (rCh k).set := by
  have h0 := idx2_lt0 i
  have h1 := idx2_lt1 i
  refine ⟨⟨(i 0).val / 64, by omega⟩, Rect.mem_set_unit.mpr fun a => ?_⟩
  match a with
  | ⟨0, _⟩ => exact ⟨by show 64 * ((i 0).val / 64) ≤ (i 0).val; omega, by show (i 0).val < 64 * ((i 0).val / 64) + 64; omega⟩
  | ⟨1, _⟩ => exact ⟨by show 0 ≤ (i 1).val; omega, by show (i 1).val < 0 + 512; omega⟩

/-- The first exchange's send buffer is its sixteen chunks. -/
theorem ys_tiling (c : Dev nD) (f : Buf (Elt F) ((c : Thread nD τ).loc cc0_scratch1)) :
    ((c : Thread nD τ).loc cc0_scratch1 ↦{fullShare} f : sProp 𝕄)
      ⊣⊢ bigSep Finset.univ fun k : Fin 16 => (ysC k).view.loc (c : Thread nD τ) ↦[(ysC k).view.set]{fullShare} f := by
  have e : ∀ k, (ysC k).view.set = (rCh k).set := fun k => View.set_slice_whole cc0_scratch1 (rCh k)
  exact biEntails_of_eq (whole_tiled c cc0_scratch1 fullShare f (fun k : Fin 16 => (ysC k).view.set)
    (fun k k' h => by show Disjoint (ysC k).view.set (ysC k').view.set; rw [e k, e k']; exact rCh_disjoint h)
    (fun i => let ⟨k, hk⟩ := rCh_cover i; ⟨k, by show i ∈ (ysC k).view.set; rw [e k]; exact hk⟩))

/-- The first exchange's receive buffer is its sixteen chunks. -/
theorem yr_tiling (c : Dev nD) (f : Buf (Elt F) ((c : Thread nD τ).loc cc0_scratch2)) :
    ((c : Thread nD τ).loc cc0_scratch2 ↦{fullShare} f : sProp 𝕄)
      ⊣⊢ bigSep Finset.univ fun k : Fin 16 => (yrC k).view.loc (c : Thread nD τ) ↦[(yrC k).view.set]{fullShare} f := by
  have e : ∀ k, (yrC k).view.set = (rCh k).set := fun k => View.set_slice_whole cc0_scratch2 (rCh k)
  exact biEntails_of_eq (whole_tiled c cc0_scratch2 fullShare f (fun k : Fin 16 => (yrC k).view.set)
    (fun k k' h => by show Disjoint (yrC k).view.set (yrC k').view.set; rw [e k, e k']; exact rCh_disjoint h)
    (fun i => let ⟨k, hk⟩ := rCh_cover i; ⟨k, by show i ∈ (yrC k).view.set; rw [e k]; exact hk⟩))

/-- The second exchange's send buffer is its sixteen chunks. -/
theorem oa_tiling (c : Dev nD) (f : Buf (Elt F) ((c : Thread nD τ).loc cc0_scratch3)) :
    ((c : Thread nD τ).loc cc0_scratch3 ↦{fullShare} f : sProp 𝕄)
      ⊣⊢ bigSep Finset.univ fun k : Fin 16 => (oaC k).view.loc (c : Thread nD τ) ↦[(oaC k).view.set]{fullShare} f := by
  have e : ∀ k, (oaC k).view.set = (rCh k).set := fun k => View.set_slice_whole cc0_scratch3 (rCh k)
  exact biEntails_of_eq (whole_tiled c cc0_scratch3 fullShare f (fun k : Fin 16 => (oaC k).view.set)
    (fun k k' h => by show Disjoint (oaC k).view.set (oaC k').view.set; rw [e k, e k']; exact rCh_disjoint h)
    (fun i => let ⟨k, hk⟩ := rCh_cover i; ⟨k, by show i ∈ (oaC k).view.set; rw [e k]; exact hk⟩))

/-- Right halves of staging chunks at different `k` share no row; so do left halves; a right and a left half share no column. -/
theorem rXR_disjoint {k k' : Fin 16} (h : k ≠ k') : Disjoint (rXR k).set (rXR k').set :=
  Rect.unit_disjoint 0 (by
    show 64 * k.val + 64 ≤ 64 * k'.val ∨ 64 * k'.val + 64 ≤ 64 * k.val
    have : k.val ≠ k'.val := fun e => h (Fin.ext e)
    omega)
theorem rXL_disjoint {k k' : Fin 16} (h : k ≠ k') : Disjoint (rXL k).set (rXL k').set :=
  Rect.unit_disjoint 0 (by
    show 64 * k.val + 64 ≤ 64 * k'.val ∨ 64 * k'.val + 64 ≤ 64 * k.val
    have : k.val ≠ k'.val := fun e => h (Fin.ext e)
    omega)
theorem rXR_rXL_disjoint (k k' : Fin 16) : Disjoint (rXR k).set (rXL k').set :=
  Rect.unit_disjoint 1 (by show 512 + 512 ≤ 0 ∨ 0 + 512 ≤ 512; omega)

/-- Every element of the staging buffer lies in the right or the left half of the chunk of its row. -/
theorem rX_cover (i : S1024x1024.Idx) : (∃ k : Fin 16, i ∈ (rXR k).set) ∨ (∃ k : Fin 16, i ∈ (rXL k).set) := by
  have h0 := idx2_lt0 i
  have h1 := idx2_lt1 i
  by_cases hc : (i 1).val < 512
  · refine .inr ⟨⟨(i 0).val / 64, by omega⟩, Rect.mem_set_unit.mpr fun a => ?_⟩
    match a with
    | ⟨0, _⟩ => exact ⟨by show 64 * ((i 0).val / 64) ≤ (i 0).val; omega, by show (i 0).val < 64 * ((i 0).val / 64) + 64; omega⟩
    | ⟨1, _⟩ => exact ⟨by show 0 ≤ (i 1).val; omega, by show (i 1).val < 0 + 512; omega⟩
  · refine .inl ⟨⟨(i 0).val / 64, by omega⟩, Rect.mem_set_unit.mpr fun a => ?_⟩
    match a with
    | ⟨0, _⟩ => exact ⟨by show 64 * ((i 0).val / 64) ≤ (i 0).val; omega, by show (i 0).val < 64 * ((i 0).val / 64) + 64; omega⟩
    | ⟨1, _⟩ => exact ⟨by show 512 ≤ (i 1).val; omega, by show (i 1).val < 512 + 512; omega⟩

/-- The staging buffer is the sixteen right halves and the sixteen left halves of its chunks. -/
theorem xs_tiling (c : Dev nD) (f : Buf (Elt F) ((c : Thread nD τ).loc cc0_scratch0)) :
    ((c : Thread nD τ).loc cc0_scratch0 ↦{fullShare} f : sProp 𝕄)
      ⊣⊢ iprop((bigSep Finset.univ fun k : Fin 16 => (xsR k).view.loc (c : Thread nD τ) ↦[(xsR k).view.set]{fullShare} f)
          ∗ (bigSep Finset.univ fun k : Fin 16 => (xsL k).view.loc (c : Thread nD τ) ↦[(xsL k).view.set]{fullShare} f)) := by
  have eR : ∀ k, (xsR k).view.set = (rXR k).set := fun k => View.set_slice_whole cc0_scratch0 (rXR k)
  have eL : ∀ k, (xsL k).view.set = (rXL k).set := fun k => View.set_slice_whole cc0_scratch0 (rXL k)
  refine biEntails_of_eq ((whole_tiled c cc0_scratch0 fullShare f
    (Sum.elim (fun k : Fin 16 => (xsR k).view.set) (fun k : Fin 16 => (xsL k).view.set)) ?_ ?_).trans (bigSep_univ_sum _))
  · rintro (k | k) (k' | k') hne
    · show Disjoint (xsR k).view.set (xsR k').view.set
      rw [eR k, eR k']; exact rXR_disjoint fun e => hne (congrArg Sum.inl e)
    · show Disjoint (xsR k).view.set (xsL k').view.set
      rw [eR k, eL k']; exact rXR_rXL_disjoint k k'
    · show Disjoint (xsL k).view.set (xsR k').view.set
      rw [eL k, eR k']; exact (rXR_rXL_disjoint k' k).symm
    · show Disjoint (xsL k).view.set (xsL k').view.set
      rw [eL k, eL k']; exact rXL_disjoint fun e => hne (congrArg Sum.inr e)
  · intro i
    rcases rX_cover i with ⟨k, hk⟩ | ⟨k, hk⟩
    · exact ⟨.inl k, by show i ∈ (xsR k).view.set; rw [eR k]; exact hk⟩
    · exact ⟨.inr k, by show i ∈ (xsL k).view.set; rw [eL k]; exact hk⟩

/-- The elements of a result chunk: the 64 rows from `1024·(d / 2) + 64·k`, every column. -/
theorem mem_oC_set (d : Dev nD) (k : Fin 16) (i : S2048x512.Idx) :
    i ∈ (oC d k).view.set ↔ 1024 * (d.val / 2) + 64 * k.val ≤ (i 0).val ∧ (i 0).val < 1024 * (d.val / 2) + 64 * k.val + 64 := by
  have e : (oC d k).view.set
      = (Rect.unit (s := S2048x512) (k0_off3 d (BitVec.ofNat 32 (64 * k.val))) S64x512.size (k0_off3_inb d k)).set :=
    View.set_slice_whole main_v1 _
  have h1 := idx2_lt1 i
  rw [e, Rect.mem_set_unit]
  constructor
  · intro h
    have h0 := h 0
    rw [off3_row] at h0
    exact h0
  · intro h a
    match a with
    | ⟨0, _⟩ =>
      show (k0_off3 d (BitVec.ofNat 32 (64 * k.val))) 0 ≤ (i 0).val ∧ (i 0).val < (k0_off3 d (BitVec.ofNat 32 (64 * k.val))) 0 + 64
      rw [off3_row]; exact h
    | ⟨1, _⟩ =>
      show (k0_off3 d (BitVec.ofNat 32 (64 * k.val))) 1 ≤ (i 1).val ∧ (i 1).val < (k0_off3 d (BitVec.ofNat 32 (64 * k.val))) 1 + 512
      rw [off3_col]; omega

/-- The result buffer on any device `c` is the sixteen chunks of a device `d`'s row half and the sixteen of
    its x-neighbour's. -/
theorem out_tiling (c d : Dev nD) (f : Buf (Elt F) ((c : Thread nD τ).loc main_v1)) :
    ((c : Thread nD τ).loc main_v1 ↦{fullShare} f : sProp 𝕄)
      ⊣⊢ iprop((bigSep Finset.univ fun k : Fin 16 => (oC d k).view.loc (c : Thread nD τ) ↦[(oC d k).view.set]{fullShare} f)
          ∗ (bigSep Finset.univ fun k : Fin 16 => (oC (xP d) k).view.loc (c : Thread nD τ) ↦[(oC (xP d) k).view.set]{fullShare} f)) := by
  have hd4 : d.val < 4 := d.isLt
  have hx := xP_x d
  refine biEntails_of_eq ((whole_tiled c main_v1 fullShare f
    (Sum.elim (fun k : Fin 16 => (oC d k).view.set) (fun k : Fin 16 => (oC (xP d) k).view.set)) ?_ ?_).trans (bigSep_univ_sum _))
  · rintro (k | k) (k' | k') hne
    · have : k.val ≠ k'.val := fun e => hne (congrArg Sum.inl (Fin.ext e))
      refine Finset.disjoint_left.mpr fun i hi hj => ?_
      have hi' := (mem_oC_set d k i).mp hi
      have hj' := (mem_oC_set d k' i).mp hj
      omega
    · refine Finset.disjoint_left.mpr fun i hi hj => ?_
      have hi' := (mem_oC_set d k i).mp hi
      have hj' := (mem_oC_set (xP d) k' i).mp hj
      have hk := k.isLt; have hk' := k'.isLt
      omega
    · refine Finset.disjoint_left.mpr fun i hi hj => ?_
      have hi' := (mem_oC_set (xP d) k i).mp hi
      have hj' := (mem_oC_set d k' i).mp hj
      have hk := k.isLt; have hk' := k'.isLt
      omega
    · have : k.val ≠ k'.val := fun e => hne (congrArg Sum.inr (Fin.ext e))
      refine Finset.disjoint_left.mpr fun i hi hj => ?_
      have hi' := (mem_oC_set (xP d) k i).mp hi
      have hj' := (mem_oC_set (xP d) k' i).mp hj
      omega
  · intro i
    have h0 := idx2_lt0 i
    have hk : (i 0).val % 1024 / 64 < 16 := by omega
    by_cases hq : (i 0).val / 1024 = d.val / 2
    · refine ⟨.inl ⟨(i 0).val % 1024 / 64, hk⟩, ?_⟩
      show i ∈ (oC d ⟨(i 0).val % 1024 / 64, hk⟩).view.set
      rw [mem_oC_set]
      show 1024 * (d.val / 2) + 64 * ((i 0).val % 1024 / 64) ≤ (i 0).val
        ∧ (i 0).val < 1024 * (d.val / 2) + 64 * ((i 0).val % 1024 / 64) + 64
      omega
    · refine ⟨.inr ⟨(i 0).val % 1024 / 64, hk⟩, ?_⟩
      show i ∈ (oC (xP d) ⟨(i 0).val % 1024 / 64, hk⟩).view.set
      rw [mem_oC_set]
      show 1024 * ((xP d).val / 2) + 64 * ((i 0).val % 1024 / 64) ≤ (i 0).val
        ∧ (i 0).val < 1024 * ((xP d).val / 2) + 64 * ((i 0).val % 1024 / 64) + 64
      omega

/-- The elements of a chunk of the y-neighbour's columns of the argument block, in closed form. -/
theorem mem_aPr_set (c : Dev nD) (k : Fin 16) (i : S1x2048x1024.Idx) :
    i ∈ (aPr c k).view.set
      ↔ (1024 * (c.val / 2) + 64 * k.val ≤ (i 1).val ∧ (i 1).val < 1024 * (c.val / 2) + 64 * k.val + 64)
        ∧ (512 - 512 * (c.val % 2) ≤ (i 2).val ∧ (i 2).val < 512 - 512 * (c.val % 2) + 512) := by
  have e : (aPr c k).view.set
      = (Rect.unit (s := S1x2048x1024) (k0_off1 c (BitVec.ofNat 32 (64 * k.val))) S1x64x512.size (k0_off1_inb c k)).set :=
    (View.set_reshape _ _).trans (View.set_slice_whole main_arg0 _)
  have o0 : (k0_off1 c (BitVec.ofNat 32 (64 * k.val))) 0 = 0 := by rw [k0_off1_eq c k]; rfl
  have o1 : (k0_off1 c (BitVec.ofNat 32 (64 * k.val))) 1 = 1024 * (c.val / 2) + 64 * k.val := by rw [k0_off1_eq c k]; rfl
  have o2 : (k0_off1 c (BitVec.ofNat 32 (64 * k.val))) 2 = 512 - 512 * (c.val % 2) := by rw [k0_off1_eq c k]; rfl
  rw [e, Rect.mem_set_unit]
  constructor
  · intro h
    have h1 := h 1
    have h2 := h 2
    rw [o1] at h1; rw [o2] at h2
    exact ⟨h1, h2⟩
  · intro h a
    match a with
    | ⟨0, _⟩ =>
      show (k0_off1 c (BitVec.ofNat 32 (64 * k.val))) 0 ≤ (i 0).val ∧ (i 0).val < (k0_off1 c (BitVec.ofNat 32 (64 * k.val))) 0 + 1
      have : (i 0).val < 1 := (i 0).isLt
      rw [o0]; omega
    | ⟨1, _⟩ =>
      show (k0_off1 c (BitVec.ofNat 32 (64 * k.val))) 1 ≤ (i 1).val ∧ (i 1).val < (k0_off1 c (BitVec.ofNat 32 (64 * k.val))) 1 + 64
      rw [o1]; exact h.1
    | ⟨2, _⟩ =>
      show (k0_off1 c (BitVec.ofNat 32 (64 * k.val))) 2 ≤ (i 2).val ∧ (i 2).val < (k0_off1 c (BitVec.ofNat 32 (64 * k.val))) 2 + 512
      rw [o2]; exact h.2

/-- The elements of a chunk of the device's own columns of the argument block, in closed form. -/
theorem mem_aMn_set (c : Dev nD) (k : Fin 16) (i : S1x2048x1024.Idx) :
    i ∈ (aMn c k).view.set
      ↔ (1024 * (c.val / 2) + 64 * k.val ≤ (i 1).val ∧ (i 1).val < 1024 * (c.val / 2) + 64 * k.val + 64)
        ∧ (512 * (c.val % 2) ≤ (i 2).val ∧ (i 2).val < 512 * (c.val % 2) + 512) := by
  have e : (aMn c k).view.set
      = (Rect.unit (s := S1x2048x1024) (k0_off2 c (BitVec.ofNat 32 (64 * k.val))) S1x64x512.size (k0_off2_inb c k)).set :=
    (View.set_reshape _ _).trans (View.set_slice_whole main_arg0 _)
  have o0 : (k0_off2 c (BitVec.ofNat 32 (64 * k.val))) 0 = 0 := by rw [k0_off2_eq c k]; rfl
  have o1 : (k0_off2 c (BitVec.ofNat 32 (64 * k.val))) 1 = 1024 * (c.val / 2) + 64 * k.val := by rw [k0_off2_eq c k]; rfl
  have o2 : (k0_off2 c (BitVec.ofNat 32 (64 * k.val))) 2 = 512 * (c.val % 2) := by rw [k0_off2_eq c k]; rfl
  rw [e, Rect.mem_set_unit]
  constructor
  · intro h
    have h1 := h 1
    have h2 := h 2
    rw [o1] at h1; rw [o2] at h2
    exact ⟨h1, h2⟩
  · intro h a
    match a with
    | ⟨0, _⟩ =>
      show (k0_off2 c (BitVec.ofNat 32 (64 * k.val))) 0 ≤ (i 0).val ∧ (i 0).val < (k0_off2 c (BitVec.ofNat 32 (64 * k.val))) 0 + 1
      have : (i 0).val < 1 := (i 0).isLt
      rw [o0]; omega
    | ⟨1, _⟩ =>
      show (k0_off2 c (BitVec.ofNat 32 (64 * k.val))) 1 ≤ (i 1).val ∧ (i 1).val < (k0_off2 c (BitVec.ofNat 32 (64 * k.val))) 1 + 64
      rw [o1]; exact h.1
    | ⟨2, _⟩ =>
      show (k0_off2 c (BitVec.ofNat 32 (64 * k.val))) 2 ≤ (i 2).val ∧ (i 2).val < (k0_off2 c (BitVec.ofNat 32 (64 * k.val))) 2 + 512
      rw [o2]; exact h.2

/-- The thirty-two chunk sets of a device's argument block, as one family. -/
abbrev argFam (c : Dev nD) : Fin 16 ⊕ Fin 16 → Finset (Idx ((c : Thread nD τ).loc main_arg0)) :=
  Sum.elim (fun k => (aPr c k).view.set) (fun k => (aMn c k).view.set)

/-- A device's argument block is the sixteen chunks of the y-neighbour's columns, the sixteen of its own, and the rest. -/
theorem arg_tiling (c : Dev nD) (f : Buf (Elt F) ((c : Thread nD τ).loc main_arg0)) :
    ((c : Thread nD τ).loc main_arg0 ↦{fullShare} f : sProp 𝕄)
      ⊣⊢ iprop((bigSep Finset.univ fun k : Fin 16 => (aPr c k).view.loc (c : Thread nD τ) ↦[(aPr c k).view.set]{fullShare} f)
          ∗ (bigSep Finset.univ fun k : Fin 16 => (aMn c k).view.loc (c : Thread nD τ) ↦[(aMn c k).view.set]{fullShare} f)
          ∗ ((c : Thread nD τ).loc main_arg0 ↦[argRest c]{fullShare} f)) := by
  have hdis : ∀ t t' : Fin 16 ⊕ Fin 16, t ≠ t' →
      Disjoint (argFam c t)
        (argFam c t') := by
    rintro (k | k) (k' | k') hne <;> refine Finset.disjoint_left.mpr fun i hi hj => ?_
    · have hi' := (mem_aPr_set c k i).mp hi
      have hj' := (mem_aPr_set c k' i).mp hj
      have : k.val ≠ k'.val := fun e => hne (congrArg Sum.inl (Fin.ext e))
      omega
    · have hi' := (mem_aPr_set c k i).mp hi
      have hj' := (mem_aMn_set c k' i).mp hj
      omega
    · have hi' := (mem_aMn_set c k i).mp hi
      have hj' := (mem_aPr_set c k' i).mp hj
      omega
    · have hi' := (mem_aMn_set c k i).mp hi
      have hj' := (mem_aMn_set c k' i).mp hj
      have : k.val ≠ k'.val := fun e => hne (congrArg Sum.inr (Fin.ext e))
      omega
  have hU : (Finset.univ : Finset (Fin 16 ⊕ Fin 16)).biUnion
        (argFam c)
      = Finset.univ.biUnion fun k : Fin 16 => (aPr c k).view.set ∪ (aMn c k).view.set := by
    ext i
    simp only [argFam, Finset.mem_biUnion, Finset.mem_univ, true_and, Finset.mem_union, Sum.exists, Sum.elim_inl, Sum.elim_inr]
    constructor
    · rintro (⟨k, h⟩ | ⟨k, h⟩)
      · exact ⟨k, .inl h⟩
      · exact ⟨k, .inr h⟩
    · rintro ⟨k, h | h⟩
      · exact .inl ⟨k, h⟩
      · exact .inr ⟨k, h⟩
  have e2 : ((c : Thread nD τ).loc main_arg0
        ↦[Finset.univ.biUnion fun k : Fin 16 => (aPr c k).view.set ∪ (aMn c k).view.set]{fullShare} f : sProp 𝕄)
      = bigSep Finset.univ fun t : Fin 16 ⊕ Fin 16 => (c : Thread nD τ).loc main_arg0
          ↦[argFam c t]{fullShare} f := by
    rw [← hU]
    exact pointsTo_biUnion Finset.univ _ (fun t _ t' _ h => hdis t t' h)
  have e1 : ((c : Thread nD τ).loc main_arg0 ↦{fullShare} f : sProp 𝕄)
      ⊣⊢ iprop(((c : Thread nD τ).loc main_arg0
            ↦[Finset.univ.biUnion fun k : Fin 16 => (aPr c k).view.set ∪ (aMn c k).view.set]{fullShare} f)
          ∗ ((c : Thread nD τ).loc main_arg0 ↦[argRest c]{fullShare} f)) :=
    pointsTo_split_subset (Finset.subset_univ _)
  rw [e2, bigSep_univ_sum] at e1
  exact e1.trans Laws.sep_assoc

/-- A chunk of the second exchange's send buffer, held in full, is its two half shares. -/
theorem oa_halves (c : Dev nD) (k : Fin 16) (f : Buf (Elt F) ((c : Thread nD τ).loc cc0_scratch3)) :
    ((oaC k).view.loc (c : Thread nD τ) ↦[(oaC k).view.set]{fullShare} f : sProp 𝕄)
      ⊣⊢ iprop(((oaC k).view.loc (c : Thread nD τ) ↦[(oaC k).view.set]{fullShare.left} f)
          ∗ ((oaC k).view.loc (c : Thread nD τ) ↦[(oaC k).view.set]{fullShare.right} f)) :=
  pointsTo_share (PosShare.mem_left_op_right fullShare)

/-- info: 'Cert.KernelIdealProof.ys_tiling' depends on axioms: [propext, Classical.choice, Quot.sound] -/
#guard_msgs in #print axioms ys_tiling

/-- info: 'Cert.KernelIdealProof.yr_tiling' depends on axioms: [propext, Classical.choice, Quot.sound] -/
#guard_msgs in #print axioms yr_tiling

/-- info: 'Cert.KernelIdealProof.oa_tiling' depends on axioms: [propext, Classical.choice, Quot.sound] -/
#guard_msgs in #print axioms oa_tiling

/-- info: 'Cert.KernelIdealProof.xs_tiling' depends on axioms: [propext, Classical.choice, Quot.sound] -/
#guard_msgs in #print axioms xs_tiling

/-- info: 'Cert.KernelIdealProof.out_tiling' depends on axioms: [propext, Classical.choice, Quot.sound] -/
#guard_msgs in #print axioms out_tiling

/-- info: 'Cert.KernelIdealProof.arg_tiling' depends on axioms: [propext, Classical.choice, Quot.sound] -/
#guard_msgs in #print axioms arg_tiling

/-- info: 'Cert.KernelIdealProof.oa_halves' depends on axioms: [propext, Classical.choice, Quot.sound] -/
#guard_msgs in #print axioms oa_halves

/-- info: 'Cert.KernelIdealProof.xsR_landed' depends on axioms: [propext, Classical.choice, Quot.sound] -/
#guard_msgs in #print axioms xsR_landed

/-- info: 'Cert.KernelIdealProof.xsL_landed' depends on axioms: [propext, Classical.choice, Quot.sound] -/
#guard_msgs in #print axioms xsL_landed

/-- info: 'Cert.KernelIdealProof.yr_landed' depends on axioms: [propext, Classical.choice, Quot.sound] -/
#guard_msgs in #print axioms yr_landed

/-- info: 'Cert.KernelIdealProof.out_own_landed' depends on axioms: [propext, Classical.choice, Quot.sound] -/
#guard_msgs in #print axioms out_own_landed

/-- info: 'Cert.KernelIdealProof.out_peer_landed' depends on axioms: [propext, Classical.choice, Quot.sound] -/
#guard_msgs in #print axioms out_peer_landed

/-- info: 'Cert.KernelIdealProof.read_xsR' depends on axioms: [propext, Classical.choice, Quot.sound] -/
#guard_msgs in #print axioms read_xsR

/-- info: 'Cert.KernelIdealProof.read_xsL' depends on axioms: [propext, Classical.choice, Quot.sound] -/
#guard_msgs in #print axioms read_xsL

/-- info: 'Cert.KernelIdealProof.read_yr' depends on axioms: [propext, Classical.choice, Quot.sound] -/
#guard_msgs in #print axioms read_yr

/-- info: 'Cert.KernelIdealProof.ys_stored' depends on axioms: [propext, Classical.choice, Quot.sound] -/
#guard_msgs in #print axioms ys_stored

/-- info: 'Cert.KernelIdealProof.oa_stored' depends on axioms: [propext, Classical.choice, Quot.sound] -/
#guard_msgs in #print axioms oa_stored

end Cert.KernelIdealProof

end
-- ==== Proof.SchedTab.lean ====
/-
  The schedule's tables, cell by cell: the duties, amounts, expected units and payloads of the barrier cell and of
  the DMA cells; the arithmetic of the credit a device still owes its two neighbours' receive cells; and the level
  facts that let a device wait while it owes.
-/
import proofs.«900304_g7700000000000305_dist_rs_v7x_xy2x2_y_m2048_n512_bf16_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Duties -/

theorem duties_bar (m : (ℓ : Loc nD τ sig) → Buf (Elt F) ℓ) (c : Dev nD) : (ringRd (F := F) m).duties (barCell c) 0 = Finset.univ := by
  dsimp only [ringRd]; exact if_pos ⟨rfl, rfl⟩
theorem duties_dma (m : (ℓ : Loc nD τ sig) → Buf (Elt F) ℓ) (c : Dev nD) (j : Fin 7) (k : Fin 16) : (ringRd (F := F) m).duties (dCell c j k) 0 = {false} := by
  dsimp only [ringRd]; exact if_pos ⟨rfl, rfl⟩
theorem duties_later (m : (ℓ : Loc nD τ sig) → Buf (Elt F) ℓ) (g : GSem nD τ sig) : ∀ r, 1 ≤ r → (ringRd (F := F) m).duties g r = ∅ :=
  fun r hr => by dsimp only [ringRd]; rw [if_neg fun h => by omega]

/-! ## Amounts -/

theorem amount_bar (m : (ℓ : Loc nD τ sig) → Buf (Elt F) ℓ) (c : Dev nD) (b : Bool) : (ringRd (F := F) m).amount (barCell c) 0 b = 1 := rfl
theorem amount_dma (m : (ℓ : Loc nD τ sig) → Buf (Elt F) ℓ) (c : Dev nD) (j : Fin 7) (k : Fin 16) (b : Bool) : (ringRd (F := F) m).amount (dCell c j k) 0 b = amt j := by
  show amt (famOf (dsem j k)) = amt j; rw [famOf_dsem]

theorem amt_peer : amt jPeer = NF := by unfold amt; exact if_pos (by decide)
theorem amt_mine : amt jMine = NF := by unfold amt; exact if_pos (by decide)
theorem amt_ys : amt jYS = NB := by unfold amt; exact if_neg (by decide)
theorem amt_yr : amt jYR = NB := by unfold amt; exact if_neg (by decide)
theorem amt_xs : amt jXS = NB := by unfold amt; exact if_neg (by decide)
theorem amt_xr : amt jXR = NB := by unfold amt; exact if_neg (by decide)
theorem amt_st : amt jSt = NB := by unfold amt; exact if_neg (by decide)

/-! ## Expected units -/

theorem expect_bar (m : (ℓ : Loc nD τ sig) → Buf (Elt F) ℓ) (c : Dev nD) : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (m : (ℓ : Loc nD τ sig) → Buf (Elt F) ℓ) (c : Dev nD) (j : Fin 7) (k : Fin 16) : (ringRd (F := F) m).expect (dCell c j k) 0 = amt j := by
  unfold Schedule.expect Schedule.amountOf; rw [duties_dma, Finset.sum_singleton, amount_dma]

/-! ## Payloads -/

theorem payload_bar_false (m : (ℓ : Loc nD τ sig) → Buf (Elt F) ℓ) (c : Dev nD) : (ringRd (F := F) m).payload (barCell c) 0 false = barPayY c := by
  dsimp only [ringRd]; exact if_neg Bool.false_ne_true
theorem payload_bar_true (m : (ℓ : Loc nD τ sig) → Buf (Elt F) ℓ) (c : Dev nD) : (ringRd (F := F) m).payload (barCell c) 0 true = barPayX c := by
  dsimp only [ringRd]; exact if_pos rfl
theorem payload_dma (m : (ℓ : Loc nD τ sig) → Buf (Elt F) ℓ) (c : Dev nD) (j : Fin 7) (k : Fin 16) (b : Bool) : (ringRd (F := F) m).payload (dCell c j k) 0 b = famPay m c j k := by
  show famPay m c (famOf (dsem j k)) (chOf (dsem j k)) = famPay m c j k; rw [famOf_dsem, chOf_dsem]

theorem famPay_peer (m : (ℓ : Loc nD τ sig) → Buf (Elt F) ℓ) (c : Dev nD) (k : Fin 16) : famPay m c jPeer k = iprop(xsRPts m c k ∗ aPrPts m c k) := rfl
theorem famPay_mine (m : (ℓ : Loc nD τ sig) → Buf (Elt F) ℓ) (c : Dev nD) (k : Fin 16) : famPay m c jMine k = iprop(xsLPts m c k ∗ aMnPts m c k) := rfl
theorem famPay_ys (m : (ℓ : Loc nD τ sig) → Buf (Elt F) ℓ) (c : Dev nD) (k : Fin 16) : famPay m c jYS k = ysPts m c k := rfl
theorem famPay_yr (m : (ℓ : Loc nD τ sig) → Buf (Elt F) ℓ) (c : Dev nD) (k : Fin 16) : famPay m c jYR k = yrPts m c k := rfl
theorem famPay_xs (m : (ℓ : Loc nD τ sig) → Buf (Elt F) ℓ) (c : Dev nD) (k : Fin 16) : famPay m c jXS k = oaPts m fullShare.right c k := rfl
theorem famPay_xr (m : (ℓ : Loc nD τ sig) → Buf (Elt F) ℓ) (c : Dev nD) (k : Fin 16) : famPay m c jXR k = outPts m c (xP c) k := rfl
theorem famPay_st (m : (ℓ : Loc nD τ sig) → Buf (Elt F) ℓ) (c : Dev nD) (k : Fin 16) : famPay m c jSt k = iprop(outPts m c c k ∗ oaPts m fullShare.left c k) := rfl

/-! ## The rest of a round of which no duty has been taken -/

theorem rest_bar (m : (ℓ : Loc nD τ sig) → Buf (Elt F) ℓ) (c : Dev nD) :
    bigSep ((ringRd (F := F) m).duties (barCell c) 0 \ ∅) (fun d => (ringRd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (m : (ℓ : Loc nD τ sig) → Buf (Elt F) ℓ) (c : Dev nD) (j : Fin 7) (k : Fin 16) :
    bigSep ((ringRd (F := F) m).duties (dCell c j k) 0 \ ∅) (fun d => (ringRd (F := F) m).payload (dCell c j k) 0 d) = famPay m c j k := by
  rw [Finset.sdiff_empty, duties_dma, bigSep_singleton, payload_dma]

/-! ## What is still owed to the neighbours' receive cells -/

/-- The chunks from `n` on are chunk `n` and the chunks from `n + 1` on. -/
theorem filter_ge_succ (n : ℕ) (h : n < 16) :
    Finset.univ.filter (fun j : Fin 16 => n ≤ j.val) = insert (⟨n, h⟩ : Fin 16) (Finset.univ.filter (fun j : Fin 16 => n + 1 ≤ j.val)) := by
  ext j
  simp only [Finset.mem_filter, Finset.mem_univ, true_and, Finset.mem_insert, Fin.ext_iff]
  omega
theorem not_mem_filter_succ (n : ℕ) (h : n < 16) : (⟨n, h⟩ : Fin 16) ∉ Finset.univ.filter (fun j : Fin 16 => n + 1 ≤ j.val) := by
  simp only [Finset.mem_filter, Finset.mem_univ, true_and]; omega
theorem filter_ge_top : Finset.univ.filter (fun j : Fin 16 => 16 ≤ j.val) = ∅ :=
  Finset.filter_eq_empty_iff.mpr fun j _ => by have := j.isLt; omega

theorem owedY_succ (c : Dev nD) (n : ℕ) (h : n < 16) : owedY c n = owedY c (n + 1) + tallyAt (dCell (yP c) jYR ⟨n, h⟩) () NB := by
  unfold owedY; rw [filter_ge_succ n h, Finset.sum_insert (not_mem_filter_succ n h), add_comm]
theorem owedY_top (c : Dev nD) : owedY c 16 = 0 := by unfold owedY; rw [filter_ge_top, Finset.sum_empty]
theorem owedX_succ (c : Dev nD) (n : ℕ) (h : n < 16) : owedX c n = owedX c (n + 1) + tallyAt (dCell (xP c) jXR ⟨n, h⟩) () NB := by
  unfold owedX; rw [filter_ge_succ n h, Finset.sum_insert (not_mem_filter_succ n h), add_comm]
theorem owedX_top (c : Dev nD) : owedX c 16 = 0 := by unfold owedX; rw [filter_ge_top, Finset.sum_empty]

/-! ## What a device owes a cell at launch -/

theorem owedY_apply (c : Dev nD) (n : ℕ) (g : GSem nD τ sig) (u : Unit) :
    owedY c n g u = ∑ j ∈ Finset.univ.filter (fun j : Fin 16 => n ≤ j.val), tallyAt (dCell (yP c) jYR j) () NB g u := by
  unfold owedY; rw [Finset.sum_apply, Finsupp.finsetSum_apply]
theorem owedX_apply (c : Dev nD) (n : ℕ) (g : GSem nD τ sig) (u : Unit) :
    owedX c n g u = ∑ j ∈ Finset.univ.filter (fun j : Fin 16 => n ≤ j.val), tallyAt (dCell (xP c) jXR j) () NB g u := by
  unfold owedX; rw [Finset.sum_apply, Finsupp.finsetSum_apply]

/-- A tally at one DMA cell, read at another: the chunk is compared first. -/
theorem tallyAt_dCell (c c' : Dev nD) (j j' : Fin 7) (k k' : Fin 16) (N : ℕ) :
    (tallyAt (dCell c j k) () N : CellTallies nD τ sig Unit) (dCell c' j' k') () = if k' = k then (if c' = c ∧ j' = j then N else 0) else 0 := by
  rw [tallyAt_apply]
  by_cases h1 : c' = c ∧ j' = j
  · by_cases h2 : k' = k
    · rw [if_pos ⟨dCell_eq_iff.mpr ⟨h1.1, h1.2, h2⟩, rfl⟩, if_pos h2, if_pos h1]
    · rw [if_neg (fun h => h2 (dCell_eq_iff.mp h.1).2.2), if_neg h2]
  · rw [if_neg (fun h => h1 ⟨(dCell_eq_iff.mp h.1).1, (dCell_eq_iff.mp h.1).2.1⟩), if_neg h1, ite_self]

theorem owedY_dma (c c' : Dev nD) (n : ℕ) (j' : Fin 7) (k : Fin 16) :
    owedY c n (dCell c' j' k) () = if n ≤ k.val then (if c' = yP c ∧ j' = jYR then NB else 0) else 0 := by
  rw [owedY_apply, Finset.sum_congr rfl (fun j _ => tallyAt_dCell (yP c) c' jYR j' j k NB), Finset.sum_ite_eq]
  by_cases hn : n ≤ k.val
  · have hm : k ∈ Finset.univ.filter (fun j : Fin 16 => n ≤ j.val) := Finset.mem_filter.mpr ⟨Finset.mem_univ _, hn⟩
    rw [if_pos hm, if_pos hn]
  · have hm : k ∉ Finset.univ.filter (fun j : Fin 16 => n ≤ j.val) := fun h => hn (Finset.mem_filter.mp h).2
    rw [if_neg hm, if_neg hn]
theorem owedX_dma (c c' : Dev nD) (n : ℕ) (j' : Fin 7) (k : Fin 16) :
    owedX c n (dCell c' j' k) () = if n ≤ k.val then (if c' = xP c ∧ j' = jXR then NB else 0) else 0 := by
  rw [owedX_apply, Finset.sum_congr rfl (fun j _ => tallyAt_dCell (xP c) c' jXR j' j k NB), Finset.sum_ite_eq]
  by_cases hn : n ≤ k.val
  · have hm : k ∈ Finset.univ.filter (fun j : Fin 16 => n ≤ j.val) := Finset.mem_filter.mpr ⟨Finset.mem_univ _, hn⟩
    rw [if_pos hm, if_pos hn]
  · have hm : k ∉ Finset.univ.filter (fun j : Fin 16 => n ≤ j.val) := fun h => hn (Finset.mem_filter.mp h).2
    rw [if_neg hm, if_neg hn]

theorem owedY_bar (c c' : Dev nD) (n : ℕ) : owedY c n (barCell c') () = 0 := by
  rw [owedY_apply]; exact Finset.sum_eq_zero fun j _ => by rw [tallyAt_ne_cell (dCell_ne_bar _ _ _ _).symm, Finsupp.zero_apply]
theorem owedX_bar (c c' : Dev nD) (n : ℕ) : owedX c n (barCell c') () = 0 := by
  rw [owedX_apply]; exact Finset.sum_eq_zero fun j _ => by rw [tallyAt_ne_cell (dCell_ne_bar _ _ _ _).symm, Finsupp.zero_apply]

theorem bar_owes_y (d c : Dev nD) : (if barCell c = barCell (yP d) ∧ () = () then (1 : ℕ) else 0) = if d = yP c then 1 else 0 := by
  by_cases h : d = yP c
  · subst h; rw [yP_yP, if_pos ⟨rfl, rfl⟩, if_pos rfl]
  · rw [if_neg (fun h' => h (by rw [barCell_eq_iff.mp h'.1, yP_yP])), if_neg h]
theorem bar_owes_x (d c : Dev nD) : (if barCell c = barCell (xP d) ∧ () = () then (1 : ℕ) else 0) = if d = xP c then 1 else 0 := by
  by_cases h : d = xP c
  · subst h; rw [xP_xP, if_pos ⟨rfl, rfl⟩, if_pos rfl]
  · rw [if_neg (fun h' => h (by rw [barCell_eq_iff.mp h'.1, xP_xP])), if_neg h]

/-- Device `d` owes device `c`'s barrier cell one unit if `c` is its y-neighbour and one if `c` is its x-neighbour. -/
theorem O₀_bar (d c : Dev nD) : O₀ d (barCell c) () = (if d = yP c then 1 else 0) + (if d = xP c then 1 else 0) := by
  unfold O₀ O₁ O₂
  rw [Pi.add_apply, Finsupp.add_apply, Pi.add_apply, Finsupp.add_apply, Pi.add_apply, Finsupp.add_apply, owedX_bar, owedY_bar,
    tallyAt_apply, tallyAt_apply, bar_owes_x, bar_owes_y]
  omega

theorem O₀_dma (d c : Dev nD) (j : Fin 7) (k : Fin 16) :
    O₀ d (dCell c j k) () = (if c = xP d ∧ j = jXR then NB else 0) + (if c = yP d ∧ j = jYR then NB else 0) := by
  unfold O₀ O₁ O₂
  rw [Pi.add_apply, Finsupp.add_apply, Pi.add_apply, Finsupp.add_apply, Pi.add_apply, Finsupp.add_apply, owedX_dma, owedY_dma,
    tallyAt_ne_cell (dCell_ne_bar _ _ _ _), tallyAt_ne_cell (dCell_ne_bar _ _ _ _), Finsupp.zero_apply, Nat.add_zero, Nat.add_zero,
    if_pos (Nat.zero_le _), if_pos (Nat.zero_le _)]

theorem O₀_yr (d c : Dev nD) (k : Fin 16) : O₀ d (dCell c jYR k) () = if d = yP c then NB else 0 := by
  rw [O₀_dma, if_neg (fun h => absurd h.2 (by decide)), Nat.zero_add]
  by_cases h : d = yP c
  · subst h; rw [yP_yP, if_pos ⟨rfl, rfl⟩, if_pos rfl]
  · rw [if_neg (fun h' => h (by rw [h'.1, yP_yP])), if_neg h]
theorem O₀_xr (d c : Dev nD) (k : Fin 16) : O₀ d (dCell c jXR k) () = if d = xP c then NB else 0 := by
  rw [O₀_dma, if_neg (fun h => absurd h.2 (by decide) : ¬ (c = yP d ∧ jXR = jYR)), Nat.add_zero]
  by_cases h : d = xP c
  · subst h; rw [xP_xP, if_pos ⟨rfl, rfl⟩, if_pos rfl]
  · rw [if_neg (fun h' => h (by rw [h'.1, xP_xP])), if_neg h]
theorem O₀_other (d c : Dev nD) (j : Fin 7) (k : Fin 16) (hj : j ≠ jYR ∧ j ≠ jXR) : O₀ d (dCell c j k) () = 0 := by
  rw [O₀_dma, if_neg (fun h => hj.2 h.2), if_neg (fun h => hj.1 h.2)]

/-! ## Where the owed tallies are positive -/

theorem owedX_pos {c : Dev nD} {a : ℕ} {g : GSem nD τ sig} {u : Unit} (h : 0 < owedX c a g u) : ∃ k, g = dCell (xP c) jXR k := by
  unfold owedX at h
  obtain ⟨k, _, hk⟩ := Pipeline.sum_pos_exists h
  rw [tallyAt_apply] at hk
  by_cases hg : g = dCell (xP c) jXR k ∧ u = ()
  · exact ⟨k, hg.1⟩
  · rw [if_neg hg] at hk; exact absurd hk (Nat.lt_irrefl 0)
theorem owedY_pos {c : Dev nD} {a : ℕ} {g : GSem nD τ sig} {u : Unit} (h : 0 < owedY c a g u) : ∃ k, g = dCell (yP c) jYR k := by
  unfold owedY at h
  obtain ⟨k, _, hk⟩ := Pipeline.sum_pos_exists h
  rw [tallyAt_apply] at hk
  by_cases hg : g = dCell (yP c) jYR k ∧ u = ()
  · exact ⟨k, hg.1⟩
  · rw [if_neg hg] at hk; exact absurd hk (Nat.lt_irrefl 0)
theorem owed_pos {c : Dev nD} {a b : ℕ} {g : GSem nD τ sig} {u : Unit} (h : 0 < (owedX c a + owedY c b) g u) :
    (∃ k, g = dCell (yP c) jYR k) ∨ (∃ k, g = dCell (xP c) jXR k) := by
  rcases Pipeline.add_pos_cases h with h | h
  · exact .inr (owedX_pos h)
  · exact .inl (owedY_pos h)

/-! ## Waiting while owing -/

theorem L_tc (c : Dev nD) (sm : SemLoc sig) : L ((c : Thread nD τ), sm) = {()} := if_pos rfl

theorem lv_bar (c : Dev nD) : lv (barCell c) () = 1 := rfl
theorem lv_yr (c : Dev nD) (k : Fin 16) : lv (dCell c jYR k) () = 2 := by
  show (if famOf (dsem jYR k) = jYR then 2 else if famOf (dsem jYR k) = jXR then 3 else 0) = 2
  rw [famOf_dsem, if_pos rfl]
theorem lv_xr (c : Dev nD) (k : Fin 16) : lv (dCell c jXR k) () = 3 := by
  show (if famOf (dsem jXR k) = jYR then 2 else if famOf (dsem jXR k) = jXR then 3 else 0) = 3
  rw [famOf_dsem, if_neg (by decide), if_pos rfl]
theorem lv_low (c : Dev nD) (s : DmaSem sig) (hs : famOf s ≠ jYR ∧ famOf s ≠ jXR) : lv ((c : Thread nD τ), .dma s) () = 0 := by
  show (if famOf s = jYR then 2 else if famOf s = jXR then 3 else 0) = 0
  rw [if_neg hs.1, if_neg hs.2]

omit [FloatOps F] in
/-- The cells of the local copies and of the sends sit at level 0, below every receive cell. -/
theorem mayWait_low (c : Dev nD) (s : DmaSem sig) (hs : famOf s ≠ jYR ∧ famOf s ≠ jXR) (a b : ℕ) :
    (levAts L lv : sProp 𝕄) ⊢ MayWait (c : Thread nD τ) (.dma s) () (owedX c a + owedY c b) :=
  MayOwe.of_cut (L := L) (lev := lv) 0
    (fun p hp => by rw [Finset.mem_singleton.mp hp, L_tc]; exact Finset.mem_singleton_self _)
    (fun g u hg => by rcases owed_pos hg with ⟨k, rfl⟩ | ⟨k, rfl⟩ <;> exact Finset.mem_singleton_self _)
    (fun p hp => by rw [Finset.mem_singleton.mp hp]; exact Nat.le_of_eq (lv_low c s hs))
    (fun g u hg => by
      rcases owed_pos hg with ⟨k, rfl⟩ | ⟨k, rfl⟩
      · rw [lv_yr]; decide
      · rw [lv_xr]; decide)

omit [FloatOps F] in
/-- The barrier cell sits at level 1, below both exchanges' receive cells. -/
theorem mayWait_bar (c : Dev nD) : (levAts L lv : sProp 𝕄) ⊢ MayWait (c : Thread nD τ) (.reg barS) () (O₂ c) :=
  MayOwe.of_cut (L := L) (lev := lv) 1
    (fun p hp => by rw [Finset.mem_singleton.mp hp, L_tc]; exact Finset.mem_singleton_self _)
    (fun g u hg => by rcases owed_pos (a := 0) (b := 0) hg with ⟨k, rfl⟩ | ⟨k, rfl⟩ <;> exact Finset.mem_singleton_self _)
    (fun p hp => by rw [Finset.mem_singleton.mp hp]; exact Nat.le_of_eq (lv_bar c))
    (fun g u hg => by
      rcases owed_pos (a := 0) (b := 0) hg with ⟨k, rfl⟩ | ⟨k, rfl⟩
      · rw [lv_yr]; decide
      · rw [lv_xr]; decide)

omit [FloatOps F] in
/-- The y-exchange's receive cells sit at level 2, below the x-exchange's. -/
theorem mayWait_yr (c : Dev nD) (k : Fin 16) (a : ℕ) :
    (levAts L lv : sProp 𝕄) ⊢ MayWait (c : Thread nD τ) (.dma (dsem jYR k)) () (owedX c a) :=
  MayOwe.of_cut (L := L) (lev := lv) 2
    (fun p hp => by rw [Finset.mem_singleton.mp hp, L_tc]; exact Finset.mem_singleton_self _)
    (fun g u hg => by obtain ⟨k', rfl⟩ := owedX_pos hg; exact Finset.mem_singleton_self _)
    (fun p hp => by rw [Finset.mem_singleton.mp hp]; exact Nat.le_of_eq (lv_yr c k))
    (fun g u hg => by obtain ⟨k', rfl⟩ := owedX_pos hg; rw [lv_xr]; decide)

/-! ## Axioms -/

/-- info: 'Cert.KernelIdealProof.rest_bar' depends on axioms: [propext, Classical.choice, Quot.sound] -/
#guard_msgs in #print axioms rest_bar

/-- info: 'Cert.KernelIdealProof.rest_dma' depends on axioms: [propext, Classical.choice, Quot.sound] -/
#guard_msgs in #print axioms rest_dma

/-- info: 'Cert.KernelIdealProof.expect_bar' depends on axioms: [propext, Classical.choice, Quot.sound] -/
#guard_msgs in #print axioms expect_bar

/-- info: 'Cert.KernelIdealProof.expect_dma' depends on axioms: [propext, Classical.choice, Quot.sound] -/
#guard_msgs in #print axioms expect_dma

/-- info: 'Cert.KernelIdealProof.owedY_succ' depends on axioms: [propext, Classical.choice, Quot.sound] -/
#guard_msgs in #print axioms owedY_succ

/-- info: 'Cert.KernelIdealProof.owedX_succ' depends on axioms: [propext, Classical.choice, Quot.sound] -/
#guard_msgs in #print axioms owedX_succ

/-- info: 'Cert.KernelIdealProof.O₀_bar' depends on axioms: [propext, Classical.choice, Quot.sound] -/
#guard_msgs in #print axioms O₀_bar

/-- info: 'Cert.KernelIdealProof.O₀_yr' depends on axioms: [propext, Classical.choice, Quot.sound] -/
#guard_msgs in #print axioms O₀_yr

/-- info: 'Cert.KernelIdealProof.O₀_xr' depends on axioms: [propext, Classical.choice, Quot.sound] -/
#guard_msgs in #print axioms O₀_xr

/-- info: 'Cert.KernelIdealProof.O₀_other' depends on axioms: [propext, Classical.choice, Quot.sound] -/
#guard_msgs in #print axioms O₀_other

/-- info: 'Cert.KernelIdealProof.owed_pos' depends on axioms: [propext, Classical.choice, Quot.sound] -/
#guard_msgs in #print axioms owed_pos

/-- info: 'Cert.KernelIdealProof.mayWait_low' depends on axioms: [propext, Classical.choice, Quot.sound] -/
#guard_msgs in #print axioms mayWait_low

/-- info: 'Cert.KernelIdealProof.mayWait_bar' depends on axioms: [propext, Classical.choice, Quot.sound] -/
#guard_msgs in #print axioms mayWait_bar

/-- info: 'Cert.KernelIdealProof.mayWait_yr' depends on axioms: [propext, Classical.choice, Quot.sound] -/
#guard_msgs in #print axioms mayWait_yr

end Cert.KernelIdealProof

end
-- ==== Proof.LaunchCred.lean ====
/-
  The credit a device holds at launch: what all devices together owe each of its cells. Two units on its barrier
  cell (one from each neighbour), one chunk's credit on each receive cell of the two exchanges.
-/
import proofs.«900304_g7700000000000305_dist_rs_v7x_xy2x2_y_m2048_n512_bf16_1_alg».proof.Proof.State
import proofs.«900304_g7700000000000305_dist_rs_v7x_xy2x2_y_m2048_n512_bf16_1_alg».proof.Proof.SchedTab

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit of one cell -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (yP c) fun _ => 1, Finset.sum_ite_eq' Finset.univ (xP c) fun _ => 1, if_pos (Finset.mem_univ _), if_pos (Finset.mem_univ _)]

theorem launch_yr (c : Dev nD) (k : Fin 16) :
    tallyOn (dCell c jYR k) (launchCredit (Pipeline.owing O₀) 0 (dCell c jYR k)) = (tallyAt (dCell c jYR k) () NB : CellTallies nD τ sig Unit) := by
  unfold tallyAt; refine congrArg _ (Finsupp.ext fun u => ?_); cases u
  rw [Pipeline.launchCredit_owing, Finsupp.single_eq_same, Finset.sum_congr rfl fun d _ => O₀_yr d c k,
    Finset.sum_ite_eq' Finset.univ (yP c) fun _ => NB, if_pos (Finset.mem_univ _)]

theorem launch_xr (c : Dev nD) (k : Fin 16) :
    tallyOn (dCell c jXR k) (launchCredit (Pipeline.owing O₀) 0 (dCell c jXR k)) = (tallyAt (dCell c jXR k) () NB : CellTallies nD τ sig Unit) := by
  unfold tallyAt; refine congrArg _ (Finsupp.ext fun u => ?_); cases u
  rw [Pipeline.launchCredit_owing, Finsupp.single_eq_same, Finset.sum_congr rfl fun d _ => O₀_xr d c k,
    Finset.sum_ite_eq' Finset.univ (xP c) fun _ => NB, if_pos (Finset.mem_univ _)]

/-! ## The cells that hold credit at launch, out of all of a device's semaphores -/

/-- The barrier semaphore, the sixteen receive semaphores of the y-exchange, the sixteen of the x-exchange. -/
def credSem : Unit ⊕ (Fin 16 ⊕ Fin 16) → Option (SemLoc sig)
  | .inl _ => some (.reg barS)
  | .inr (.inl k) => some (.dma (dsem jYR k))
  | .inr (.inr k) => some (.dma (dsem jXR k))

theorem credSem_inj : ∀ (j j' : Unit ⊕ (Fin 16 ⊕ Fin 16)) (i : SemLoc sig), credSem j = some i → credSem j' = some i → j = j' := by
  intro j j' i h h'
  have e : credSem j = credSem j' := h.trans h'.symm
  rcases j with u | k | k <;> rcases j' with u' | k' | k' <;> simp only [credSem, Option.some.injEq] at e
  · rfl
  · cases e
  · cases e
  · cases e
  · have hk : k = k' := congrArg Prod.snd (dsem_injective (a₁ := (jYR, k)) (a₂ := (jYR, k')) (by injection e)); rw [hk]
  · have hj : jYR = jXR := congrArg Prod.fst (dsem_injective (a₁ := (jYR, k)) (a₂ := (jXR, k')) (by injection e)); exact absurd hj (by decide)
  · cases e
  · have hj : jXR = jYR := congrArg Prod.fst (dsem_injective (a₁ := (jXR, k)) (a₂ := (jYR, k')) (by injection e)); exact absurd hj (by decide)
  · have hk : k = k' := congrArg Prod.snd (dsem_injective (a₁ := (jXR, k)) (a₂ := (jXR, k')) (by injection e)); rw [hk]

/-! ## A device's launch credit -/

omit [FloatOps F] in
/-- Out of a device's launch credit: two units on its barrier cell and a chunk's credit on each of its receive cells. -/
theorem launch_creds (c : Dev nD) :
    (Pipeline.launchCred O₀ c : sProp 𝕄) ⊢ iprop(cred (tallyAt (barCell c) () 2) ∗ (bigSep Finset.univ fun k : Fin 16 => cred (tallyAt (dCell c jYR k) () NB))
      ∗ (bigSep Finset.univ fun k : Fin 16 => cred (tallyAt (dCell c jXR k) () NB))) := by
  unfold Pipeline.launchCred
  refine (bigSep_along credSem credSem_inj _).trans ?_
  rw [bigSep_univ_sum, bigSep_univ_sum, bigSep_univ_of_subsingleton ()]
  refine sep_mono ?_ (sep_mono (bigSep_mono fun k _ => ?_) (bigSep_mono fun k _ => ?_))
  · show cred (tallyOn (barCell c) (launchCredit (Pipeline.owing O₀) 0 (barCell c))) ⊢ _; rw [launch_bar]
  · show cred (tallyOn (dCell c jYR k) (launchCredit (Pipeline.owing O₀) 0 (dCell c jYR k))) ⊢ _; rw [launch_yr]
  · show cred (tallyOn (dCell c jXR k) (launchCredit (Pipeline.owing O₀) 0 (dCell c jXR k))) ⊢ _; rw [launch_xr]

omit [FloatOps F] in
/-- The same with each chunk's two receive credits side by side. -/
theorem launch_creds_paired (c : Dev nD) :
    (Pipeline.launchCred O₀ c : sProp 𝕄) ⊢ iprop(cred (tallyAt (barCell c) () 2)
      ∗ bigSep Finset.univ fun k : Fin 16 => iprop(cred (tallyAt (dCell c jYR k) () NB) ∗ cred (tallyAt (dCell c jXR k) () NB))) := by
  refine (launch_creds c).trans (sep_mono_r ?_)
  have h : bigSep (Finset.univ : Finset (Fin 16)) (fun k => (iprop(cred (tallyAt (dCell c jYR k) () NB) ∗ cred (tallyAt (dCell c jXR k) () NB)) : sProp 𝕄))
      = iprop((bigSep Finset.univ fun k : Fin 16 => cred (tallyAt (dCell c jYR k) () NB)) ∗ (bigSep Finset.univ fun k : Fin 16 => cred (tallyAt (dCell c jXR k) () NB))) :=
    bigSep_sep _ _ _
  rw [h]; exact .refl _

/-! ## Axioms -/

/-- info: 'Cert.KernelIdealProof.launch_bar' depends on axioms: [propext, Classical.choice, Quot.sound] -/
#guard_msgs in #print axioms launch_bar

/-- info: 'Cert.KernelIdealProof.launch_yr' depends on axioms: [propext, Classical.choice, Quot.sound] -/
#guard_msgs in #print axioms launch_yr

/-- info: 'Cert.KernelIdealProof.launch_xr' depends on axioms: [propext, Classical.choice, Quot.sound] -/
#guard_msgs in #print axioms launch_xr

/-- info: 'Cert.KernelIdealProof.launch_creds' depends on axioms: [propext, Classical.choice, Quot.sound] -/
#guard_msgs in #print axioms launch_creds

/-- info: 'Cert.KernelIdealProof.launch_creds_paired' depends on axioms: [propext, Classical.choice, Quot.sound] -/
#guard_msgs in #print axioms launch_creds_paired

end Cert.KernelIdealProof

end
-- ==== Proof.Launch.lean ====
/-
  The launch: the ghost state of all cells allocated at once for the four devices, the duty tokens dealt to the
  devices that pay them, the launch credit, the buffers cut into their chunks, and the run of the program from the
  body's obligation.
-/
import proofs.«900304_g7700000000000305_dist_rs_v7x_xy2x2_y_m2048_n512_bf16_1_alg».proof.Proof.State
import proofs.«900304_g7700000000000305_dist_rs_v7x_xy2x2_y_m2048_n512_bf16_1_alg».proof.Proof.Geom
import proofs.«900304_g7700000000000305_dist_rs_v7x_xy2x2_y_m2048_n512_bf16_1_alg».proof.Proof.SchedTab
import proofs.«900304_g7700000000000305_dist_rs_v7x_xy2x2_y_m2048_n512_bf16_1_alg».proof.Proof.LaunchCred

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

/-- All DMA semaphores are the kernel's scoped scratch. -/
abbrev osem : DmaSem sig → SemLoc sig := fun s => .dma s

theorem ownSemFacts : Pipeline.OwnSemFacts cfg0.spec osem :=
  ⟨by decide, fun a b h => SemLoc.dma.inj h, fun k w s => w.elim0⟩

theorem share_eq (m : (ℓ : Loc nD τ sig) → Buf (Elt F) ℓ) (c : Dev nD) (w : Fin cfg0.W) : (dats m 0 c).share w = fullShare := w.elim0

/-- A DMA semaphore is the semaphore of its family and chunk. -/
def dsemEquiv : Fin 7 × Fin 16 ≃ DmaSem sig :=
  Equiv.ofBijective (fun jk => dsem jk.1 jk.2)
    ⟨dsem_injective, fun s => ⟨(famOf s, chOf s), Fin.ext (by
      show (dsem (famOf s) (chOf s)).val = s.val
      rw [dsem_val]; show 16 * (s.val / 16) + s.val % 16 = s.val; omega)⟩⟩

/-! ## Separating conjunctions over the cells of a device -/

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Over families and chunks: chunk by chunk, the seven families in order. -/
theorem bigSep_jk (Φ : Fin 7 × Fin 16 → sProp 𝕄) :
    bigSep Finset.univ Φ = bigSep Finset.univ fun k : Fin 16 => iprop(Φ (0, k) ∗ Φ (1, k) ∗ Φ (2, k) ∗ Φ (3, k) ∗ Φ (4, k) ∗ Φ (5, k) ∗ Φ (6, k)) := by
  rw [bigSep_univ_equiv (Equiv.prodComm (Fin 16) (Fin 7)) Φ, bigSep_univ_prod]
  exact bigSep_congr fun k _ => bigSep_seven _

omit [FloatOps F] in
/-- Over a device's cells: the barrier cell, then the DMA cells. -/
theorem bigSep_CI (Φ : CI → sProp 𝕄) : bigSep Finset.univ Φ = iprop(Φ none ∗ bigSep Finset.univ fun jk : Fin 7 × Fin 16 => Φ (some jk)) := by
  rw [bigSep_univ_equiv (Equiv.optionEquivSumPUnit.{0, 0} (Fin 7 × Fin 16)).symm Φ, bigSep_univ_sum, bigSep_univ_of_subsingleton PUnit.unit]
  show iprop((bigSep Finset.univ fun jk : Fin 7 × Fin 16 => Φ (some jk)) ∗ Φ none) = iprop(Φ none ∗ bigSep Finset.univ fun jk : Fin 7 × Fin 16 => Φ (some jk))
  exact BI.equiv_iff.mp ⟨BI.sep_comm, BI.sep_comm⟩

omit [FloatOps F] in
theorem bigSep_cells (c : Dev nD) (Φ : GSem nD τ sig → sProp 𝕄) :
    (bigSep Finset.univ fun ci : CI => Φ (kcell (c, ci)))
      = iprop(Φ (barCell c) ∗ bigSep Finset.univ fun k : Fin 16 => iprop(Φ (dCell c 0 k) ∗ Φ (dCell c 1 k) ∗ Φ (dCell c 2 k) ∗ Φ (dCell c 3 k)
          ∗ Φ (dCell c 4 k) ∗ Φ (dCell c 5 k) ∗ Φ (dCell c 6 k))) := by
  rw [bigSep_CI, bigSep_jk]

/-! ## All cells and all duty tokens -/

theorem kcell_injective : Function.Injective (kcell : Dev nD × CI → GSem nD τ sig) := by
  rintro ⟨c, _ | ⟨j, k⟩⟩ ⟨c', _ | ⟨j', k'⟩⟩ h
  · have h' : barCell c = barCell c' := h
    rw [barCell_eq_iff.mp h']
  · have h' : barCell c = dCell c' j' k' := h
    exact absurd h'.symm (dCell_ne_bar _ _ _ _)
  · have h' : dCell c j k = barCell c' := h
    exact absurd h' (dCell_ne_bar _ _ _ _)
  · have h' : dCell c j k = dCell c' j' k' := h
    obtain ⟨rfl, rfl, rfl⟩ := dCell_eq_iff.mp h'; rfl
def ringCells : Finset (GSem nD τ sig) := Finset.univ.map ⟨kcell, kcell_injective⟩

/-- A device's own cells' duties: the barrier cell's two, and one per DMA cell. -/
abbrev TI : Type := Bool ⊕ (Fin 7 × Fin 16)
abbrev tokOf (ct : Dev nD × TI) : GSem nD τ sig × ℕ × Bool := match ct.2 with
  | .inl b => (barCell ct.1, 0, b)
  | .inr jk => (dCell ct.1 jk.1 jk.2, 0, false)
theorem tokOf_injective : Function.Injective (tokOf : Dev nD × TI → GSem nD τ sig × ℕ × Bool) := by
  rintro ⟨c, b | ⟨j, k⟩⟩ ⟨c', b' | ⟨j', k'⟩⟩ h
  · have h1 : barCell c = barCell c' := congrArg Prod.fst h
    have h2 : b = b' := congrArg (fun x : GSem nD τ sig × ℕ × Bool => x.2.2) h
    rw [barCell_eq_iff.mp h1, h2]
  · have h1 : barCell c = dCell c' j' k' := congrArg Prod.fst h
    exact absurd h1.symm (dCell_ne_bar _ _ _ _)
  · have h1 : dCell c j k = barCell c' := congrArg Prod.fst h
    exact absurd h1 (dCell_ne_bar _ _ _ _)
  · have h1 : dCell c j k = dCell c' j' k' := congrArg Prod.fst h
    obtain ⟨rfl, rfl, rfl⟩ := dCell_eq_iff.mp h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true) ∗ bigSep Finset.univ fun jk : Fin 7 × Fin 16 => tok (dCell c jk.1 jk.2))

/-- The duty tokens device `c` pays with: its own cells' of the two loads, the store and the two sends, its
    y-neighbour's receive cells', its x-neighbour's receive cells', and one duty of each neighbour's barrier cell. -/
def payToks (c : Dev nD) : sProp 𝕄 :=
  iprop(dutyTok ER (barCell (yP c)) 0 false ∗ dutyTok ER (barCell (xP c)) 0 true
    ∗ bigSep Finset.univ fun k : Fin 16 => iprop(tok (dCell c jPeer k) ∗ tok (dCell c jMine k) ∗ tok (dCell c jSt k) ∗ tok (dCell c jYS k) ∗ tok (dCell c jXS k)
        ∗ tok (dCell (yP c) jYR k) ∗ tok (dCell (xP c) jXR k)))

/-- What stays with device `c`: its positions, and the tokens of the duties it pays. -/
def lin (c : Dev nD) : sProp 𝕄 :=
  iprop((bigSep Finset.univ fun ci : CI => atPos ER (kcell (c, ci)) 0 ∅ 0) ∗ payToks (F := F) c)

/-- What the launch element deals device `c`. -/
def G (m : (ℓ : Loc nD τ sig) → Buf (Elt F) ℓ) (c : Dev nD) : sProp 𝕄 :=
  iprop((bigSep Finset.univ fun ci : CI => roundState ER (ringRd m) (kcell (c, ci)) 0)
    ∗ (bigSep Finset.univ fun ci : CI => iprop(atPos ER (kcell (c, ci)) 0 ∅ 0 ∗ reached ER (kcell (c, ci)) 0)) ∗ toks (F := F) c)

/-- What the global step makes of it. -/
def G' (m : (ℓ : Loc nD τ sig) → Buf (Elt F) ℓ) (c : Dev nD) : sProp 𝕄 := iprop(∃ K, records m K ∗ lin (F := F) c)

omit [FloatOps F] in
theorem bigSep_TI (Φ : TI → sProp 𝕄) :
    bigSep Finset.univ Φ = iprop((Φ (.inl false) ∗ Φ (.inl true)) ∗ bigSep Finset.univ fun jk : Fin 7 × Fin 16 => Φ (.inr jk)) := by
  rw [bigSep_univ_sum, bigSep_univ_eq_bigSepL [false, true] (by decide) (by decide), bigSepL_cons_cons, bigSepL_singleton]
  rfl

theorem fund_ring (m : (ℓ : Loc nD τ sig) → Buf (Elt F) ℓ) :
    BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun ci : CI => Φ (kcell (c, ci)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TI]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun jk : Fin 7 × Fin 16 => semVal (dCell c jk.1 jk.2) 0 :=
  bigSep_univ_equiv dsemEquiv (fun s : DmaSem sig => (semVal ((c : Thread nD τ), SemLoc.dma s) 0 : sProp 𝕄))

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ci : CI => semVal (kcell (c, ci)) 0 : sProp 𝕄) := by
  rw [ownSems0_eq, unscopedSems0_eq, bigSep_CI]
  iintro ⟨HS, HB⟩
  isplitl [HB]; · iexact HB
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ci : CI => iprop(∃ κ : ℕ, cellInv ER (ringRd m) κ (kcell (c, ci))))
          ∗ (bigSep Finset.univ fun ci : CI => iprop(atPos ER (kcell (c, ci)) 0 ∅ 0 ∗ reached ER (kcell (c, ci)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun ci : CI => semVal (kcell (c, ci)) 0) ∗ bigSep Finset.univ fun ci : CI => roundState ER (ringRd m) (kcell (c, ci)) 0)
      ⊢ (|={Set.univ}=> bigSep Finset.univ fun ci : CI => iprop(∃ κ : ℕ, cellInv ER (ringRd m) κ (kcell (c, ci))) : sProp 𝕄) from by
        rw [← bigSep_sep']
        exact (bigSep_mono fun ci _ => (Rounds.body_intro ER (ringRd m) (kcell (c, ci))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (m : (ℓ : Loc nD τ sig) → Buf (Elt F) ℓ) (K : Dev nD × CI → ℕ) (c : Dev nD) :
    iprop(records m K ∗ lin (F := F) c) ⊢ G' m c := by
  unfold G'; iintro H; iexists K; iexact H

omit [FloatOps F] in
/-- The tokens dealt to the devices that pay them: a barrier's two tokens to the device's two neighbours, the tokens
    of the receive cells of the two exchanges to the neighbour that sends. -/
theorem toks_around : (bigSep Finset.univ fun c : Dev nD => (toks c : sProp 𝕄)) ⊢ bigSep Finset.univ fun c : Dev nD => payToks c := by
  unfold toks payToks
  simp only [bigSep_jk, bigSep_sep']
  iintro ⟨⟨HF, HT⟩, H0, H1, H2, H3, H4, H5, H6⟩
  ihave HF' := (Entails.of_eq (bigSep_univ_equiv yEquiv (fun c : Dev nD => (dutyTok ER (barCell c) 0 false : sProp 𝕄)))) $$ HF
  ihave HT' := (Entails.of_eq (bigSep_univ_equiv xEquiv (fun c : Dev nD => (dutyTok ER (barCell c) 0 true : sProp 𝕄)))) $$ HT
  ihave H3' := (Entails.of_eq (bigSep_univ_equiv yEquiv (fun c : Dev nD => bigSep Finset.univ fun k : Fin 16 => (tok (dCell c 3 k) : sProp 𝕄)))) $$ H3
  ihave H5' := (Entails.of_eq (bigSep_univ_equiv xEquiv (fun c : Dev nD => bigSep Finset.univ fun k : Fin 16 => (tok (dCell c 5 k) : sProp 𝕄)))) $$ H5
  isplitl [HF']; · iexact HF'
  isplitl [HT']; · iexact HT'
  isplitl [H0]; · iexact H0
  isplitl [H1]; · iexact H1
  isplitl [H6]; · iexact H6
  isplitl [H2]; · iexact H2
  isplitl [H4]; · iexact H4
  isplitl [H3']; · iexact H3'
  iexact H5'

theorem deal_regroup (m : (ℓ : Loc nD τ sig) → Buf (Elt F) ℓ) :
    (bigSep Finset.univ fun c : Dev nD => iprop((bigSep Finset.univ fun ci : CI => iprop(∃ κ : ℕ, cellInv ER (ringRd m) κ (kcell (c, ci))))
          ∗ (bigSep Finset.univ fun ci : CI => iprop(atPos ER (kcell (c, ci)) 0 ∅ 0 ∗ reached ER (kcell (c, ci)) 0)) ∗ toks (F := F) c) : sProp 𝕄)
      ⊢ bigSep Finset.univ (G' m) := by
  rw [bigSep_sep', bigSep_sep', ← bigSep_univ_prod (fun ck : Dev nD × CI => iprop(∃ κ : ℕ, cellInv ER (ringRd m) κ (kcell ck))),
    bigSep_congr (s := Finset.univ) (fun (c : Dev nD) _ => bigSep_sep' Finset.univ (fun ci : CI => (atPos ER (kcell (c, ci)) 0 ∅ 0 : sProp 𝕄)) (fun ci => reached ER (kcell (c, ci)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun ci : CI => (atPos ER (kcell (c, ci)) 0 ∅ 0 : sProp 𝕄)) (payToks (F := F))).symm)
    isplitl [Hat]; · iexact Hat
    iexact Htk

/-- The global step: own and unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (deal_regroup m))

/-! ## The launch credit -/

/-- The credit a device is dealt at launch: two units on its barrier cell, a chunk's worth on each of its receive cells. -/
def credRes (c : Dev nD) : sProp 𝕄 :=
  iprop(cred (tallyAt (barCell c) () 2) ∗ (bigSep Finset.univ fun k : Fin 16 => cred (tallyAt (dCell c jYR k) () NB))
    ∗ (bigSep Finset.univ fun k : Fin 16 => cred (tallyAt (dCell c jXR k) () NB)))

omit [FloatOps F] in
theorem creds_intro (c : Dev nD) : (Pipeline.launchCred O₀ c : sProp 𝕄) ⊢ credRes (F := F) c := by
  unfold credRes; exact launch_creds c

/-! ## What the body starts from, and what it leaves -/

/-- After the global step: the records, the device's positions and tokens, the level facts, its launch credit, and its
    argument block and result buffer whole as launched. -/
def X (m : (ℓ : Loc nD τ sig) → Buf (Elt F) ℓ) (c : Dev nD) : sProp 𝕄 :=
  iprop((∃ K, records m K ∗ lin (F := F) c) ∗ levAts L lv ∗ credRes (F := F) c
    ∗ ((c : Thread nD τ).loc main_arg0 ↦{fullShare} argOf m c) ∗ ((c : Thread nD τ).loc main_v1 ↦{fullShare} m ((c : Thread nD τ).loc main_v1)))

/-- At the end: the argument block unchanged and the result buffer at its final contents. -/
def Y (m : (ℓ : Loc nD τ sig) → Buf (Elt F) ℓ) (c : Dev nD) : sProp 𝕄 :=
  iprop(((c : Thread nD τ).loc main_arg0 ↦{fullShare} argOf m c) ∗ ((c : Thread nD τ).loc main_v1 ↦{fullShare} outFin m c))

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha, Ho⟩, Hlev, Hcr, -, HG⟩
  ihave Hc := (creds_intro (F := F) c) $$ Hcr
  imodintro
  unfold X G' argOf
  isplitl
  · isplitl [HG]; · iexact HG
    isplitl [Hlev]; · iexact Hlev
    isplitl [Hc]; · iexact Hc
    isplitl [Ha]; · iexact Ha
    iexact Ho
  · iempintro

omit [FloatOps F] in
theorem xsR_any (c : Dev nD) (f : Buf (Elt F) ((c : Thread nD τ).loc cc0_scratch0)) :
    (bigSep Finset.univ fun k : Fin 16 => ((xsR k).view.loc (c : Thread nD τ) ↦[(xsR k).view.set]{fullShare} f : sProp 𝕄))
      ⊢ bigSep Finset.univ fun k : Fin 16 => anyAt (F := F) (xsR k) c :=
  bigSep_mono fun k _ => show (_ : sProp 𝕄) ⊢ _ from by unfold anyAt; iintro H; iexists f; iexact H
omit [FloatOps F] in
theorem xsL_any (c : Dev nD) (f : Buf (Elt F) ((c : Thread nD τ).loc cc0_scratch0)) :
    (bigSep Finset.univ fun k : Fin 16 => ((xsL k).view.loc (c : Thread nD τ) ↦[(xsL k).view.set]{fullShare} f : sProp 𝕄))
      ⊢ bigSep Finset.univ fun k : Fin 16 => anyAt (F := F) (xsL k) c :=
  bigSep_mono fun k _ => show (_ : sProp 𝕄) ⊢ _ from by unfold anyAt; iintro H; iexists f; iexact H
omit [FloatOps F] in
theorem ys_any (c : Dev nD) (f : Buf (Elt F) ((c : Thread nD τ).loc cc0_scratch1)) :
    (bigSep Finset.univ fun k : Fin 16 => ((ysC k).view.loc (c : Thread nD τ) ↦[(ysC k).view.set]{fullShare} f : sProp 𝕄))
      ⊢ bigSep Finset.univ fun k : Fin 16 => anyAt (F := F) (ysC k) c :=
  bigSep_mono fun k _ => show (_ : sProp 𝕄) ⊢ _ from by unfold anyAt; iintro H; iexists f; iexact H
omit [FloatOps F] in
theorem yr_any (c : Dev nD) (f : Buf (Elt F) ((c : Thread nD τ).loc cc0_scratch2)) :
    (bigSep Finset.univ fun k : Fin 16 => ((yrC k).view.loc (c : Thread nD τ) ↦[(yrC k).view.set]{fullShare} f : sProp 𝕄))
      ⊢ bigSep Finset.univ fun k : Fin 16 => yrAny (F := F) c k :=
  bigSep_mono fun k _ => show (_ : sProp 𝕄) ⊢ _ from by unfold yrAny; iintro H; iexists f; iexact H
omit [FloatOps F] in
theorem oa_any (c : Dev nD) (f : Buf (Elt F) ((c : Thread nD τ).loc cc0_scratch3)) :
    (bigSep Finset.univ fun k : Fin 16 => ((oaC k).view.loc (c : Thread nD τ) ↦[(oaC k).view.set]{fullShare} f : sProp 𝕄))
      ⊢ bigSep Finset.univ fun k : Fin 16 => anyAt (F := F) (oaC k) c :=
  bigSep_mono fun k _ => show (_ : sProp 𝕄) ⊢ _ from by unfold anyAt; iintro H; iexists f; iexact H
omit [FloatOps F] in
theorem out_any (c d : Dev nD) (f : Buf (Elt F) ((c : Thread nD τ).loc main_v1)) :
    (bigSep Finset.univ fun k : Fin 16 => ((oC d k).view.loc (c : Thread nD τ) ↦[(oC d k).view.set]{fullShare} f : sProp 𝕄))
      ⊢ bigSep Finset.univ fun k : Fin 16 => outAny (F := F) c d k :=
  bigSep_mono fun k _ => show (_ : sProp 𝕄) ⊢ _ from by unfold outAny; iintro H; iexists f; iexact H

/-- The pieces of a device's launch holdings, chunk by chunk, are the barrier's resources and every chunk's first stage. -/
theorem start_regroup (m : (ℓ : Loc nD τ sig) → Buf (Elt F) ℓ) (c : Dev nD) :
    iprop((atPos ER (barCell c) 0 ∅ 0 ∗ bigSep Finset.univ fun k : Fin 16 => posAt (F := F) c k (fun _ => 0))
        ∗ payToks (F := F) c ∗ credRes (F := F) c
        ∗ (bigSep Finset.univ fun k : Fin 16 => anyAt (F := F) (xsR k) c) ∗ (bigSep Finset.univ fun k : Fin 16 => anyAt (F := F) (xsL k) c)
        ∗ (bigSep Finset.univ fun k : Fin 16 => anyAt (F := F) (ysC k) c) ∗ (bigSep Finset.univ fun k : Fin 16 => anyAt (F := F) (oaC k) c)
        ∗ (bigSep Finset.univ fun k : Fin 16 => yrAny (F := F) c k)
        ∗ (bigSep Finset.univ fun k : Fin 16 => outAny (F := F) c c k) ∗ (bigSep Finset.univ fun k : Fin 16 => outAny (F := F) c (xP c) k)
        ∗ (bigSep Finset.univ fun k : Fin 16 => aPrPts m c k) ∗ (bigSep Finset.univ fun k : Fin 16 => aMnPts m c k))
      ⊢ iprop(barRes (F := F) c ∗ bigSep Finset.univ fun k : Fin 16 => T0 m c k) := by
  unfold payToks credRes barRes T0
  simp only [bigSep_sep']
  iintro ⟨⟨Hpb, Hpk⟩, ⟨HtF, HtT, Ht0, Ht1, Ht6, Ht2, Ht4, Ht3, Ht5⟩, ⟨Hcb, Hcy, Hcx⟩, Hxr, Hxl, Hys, Hoa, Hyr, Hoo, Hox, Hap, Ham⟩
  isplitl [Hpb Hcb HtF HtT Hyr Hox]
  · isplitl [Hpb]; · iexact Hpb
    isplitl [Hcb]; · iexact Hcb
    isplitl [HtF]; · iexact HtF
    isplitl [HtT]; · iexact HtT
    isplitl [Hyr]; · iexact Hyr
    iexact Hox
  isplitl [Hxr]; · iexact Hxr
  isplitl [Hxl]; · iexact Hxl
  isplitl [Hys]; · iexact Hys
  isplitl [Hoa]; · iexact Hoa
  isplitl [Hoo]; · iexact Hoo
  isplitl [Hap]; · iexact Hap
  isplitl [Ham]; · iexact Ham
  isplitl [Hpk]; · iexact Hpk
  isplitl [Ht0]; · iexact Ht0
  isplitl [Ht1]; · iexact Ht1
  isplitl [Ht6]; · iexact Ht6
  isplitl [Ht2]; · iexact Ht2
  isplitl [Ht4]; · iexact Ht4
  isplitl [Ht3]; · iexact Ht3
  isplitl [Ht5]; · iexact Ht5
  isplitl [Hcy]; · iexact Hcy
  iexact Hcx

theorem phi0_intro (m : (ℓ : Loc nD τ sig) → Buf (Elt F) ℓ) (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X lin
  iintro ⟨⟨⟨%K, Hrec, Hpos, Htok⟩, Hlev, Hcr, Harg, Hout⟩, -, ⟨%f0, H0⟩, ⟨%f1, H1⟩, ⟨%f2, H2⟩, ⟨%f3, H3⟩⟩
  iexists K
  unfold start argRestPts
  isplitl [Hrec]; · iexact Hrec
  isplitl [Hlev]; · iexact Hlev
  ihave Hxs := (xs_tiling (F := F) c f0).1 $$ H0
  icases Hxs with ⟨HxsR, HxsL⟩
  ihave Hys := (ys_tiling (F := F) c f1).1 $$ H1
  ihave Hyr := (yr_tiling (F := F) c f2).1 $$ H2
  ihave Hoa := (oa_tiling (F := F) c f3).1 $$ H3
  ihave Ho := (out_tiling (F := F) c c (m ((c : Thread nD τ).loc main_v1))).1 $$ Hout
  icases Ho with ⟨Hoo, Hox⟩
  ihave Ha := (arg_tiling (F := F) c (argOf m c)).1 $$ Harg
  icases Ha with ⟨Hap, Ham, Har⟩
  ihave Hpos' := (Entails.of_eq (bigSep_cells (F := F) c fun g => atPos ER g 0 ∅ 0)) $$ Hpos
  ihave HxsR' := (xsR_any (F := F) c f0) $$ HxsR
  ihave HxsL' := (xsL_any (F := F) c f0) $$ HxsL
  ihave Hys' := (ys_any (F := F) c f1) $$ Hys
  ihave Hyr' := (yr_any (F := F) c f2) $$ Hyr
  ihave Hoa' := (oa_any (F := F) c f3) $$ Hoa
  ihave Hoo' := (out_any (F := F) c c (m ((c : Thread nD τ).loc main_v1))) $$ Hoo
  ihave Hox' := (out_any (F := F) c (xP c) (m ((c : Thread nD τ).loc main_v1))) $$ Hox
  ihave Hst := (start_regroup m c) $$ [Hpos' Htok Hcr HxsR' HxsL' Hys' Hoa' Hyr' Hoo' Hox' Hap Ham]
  · isplitl [Hpos']; · iexact Hpos'
    isplitl [Htok]; · iexact Htok
    isplitl [Hcr]; · iexact Hcr
    isplitl [HxsR']; · iexact HxsR'
    isplitl [HxsL']; · iexact HxsL'
    isplitl [Hys']; · iexact Hys'
    isplitl [Hoa']; · iexact Hoa'
    isplitl [Hyr']; · iexact Hyr'
    isplitl [Hoo']; · iexact Hoo'
    isplitl [Hox']; · iexact Hox'
    isplitl [Hap]; · iexact Hap
    iexact Ham
  icases Hst with ⟨Hbar, HT⟩
  isplitl [Hbar]; · iexact Hbar
  isplitl [Har]; · iexact Har
  iexact HT

theorem phi1_exit (m : (ℓ : Loc nD τ sig) → Buf (Elt F) ℓ) (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = finish m c from rfl, scopedRest0_eq, ownSems0_eq]
  unfold finish Y
  iintro ⟨Hs, Ha, Ho, H0, H1, H2, H3⟩
  isplitl [Ha Ho]
  · isplitl [Ha] <;> iassumption
  isplitl [Hs]; · iexact Hs
  isplitl [H0]; · iexists (xsFin m c); iexact H0
  isplitl [H1]; · iexists (ysFin m c); iexact H1
  isplitl [H2]; · iexists (yrFin m c); iexact H2
  iexists (oaFin m c); iexact H3

theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => w.elim0

theorem L_of_ne (g : GSem nD τ sig) (h : g.1.2 ≠ .tc) : L g = ∅ := if_neg h

/-! ## The run -/

set_option maxRecDepth 8000 in
/-- At the compiled mesh of four devices, for any float values, from any memory with zero counters: every weakly fair
    execution of the program terminates, and every final state has each device's result at the reduced and scattered
    contents and its argument block unchanged. -/
theorem run_main (m : (ℓ : Loc nD τ sig) → Buf (Elt F) ℓ) (ρ : Dev nD → PrngReg)
    (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outFin m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = outFin m c
        ∧ s.mem ((c.tc : Thread nD τ).loc main_arg0) = m ((c.tc : Thread nD τ).loc main_arg0))
    (hY := fun c s' => by
      unfold Y
      iintro ⟨⟨Ha, Ho⟩, -, HSI⟩
      icombine HSI Ha gives %ha
      icombine HSI Ho gives %ho
      imodintro
      isplitr
      · ipureintro; exact ⟨Buf.eq_of_forall_mem_univ ho, Buf.eq_of_forall_mem_univ ha⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.Loops.lean ====
/-
  A loop's state advances one chunk at a time: the generic step, and the passage from one loop to the next.
-/
import proofs.«900304_g7700000000000305_dist_rs_v7x_xy2x2_y_m2048_n512_bf16_1_alg».proof.Proof.State
import proofs.«900304_g7700000000000305_dist_rs_v7x_xy2x2_y_m2048_n512_bf16_1_alg».proof.Proof.LibSepFin

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Cert.LibSepFin

omit [FloatOps F] in
/-- If a chunk's step takes the chunk from stage `B` to stage `A` and what is owed from `O` to `O'`, the loop's state
    advances from `n` chunks done to `n + 1`. (`X` stands for what runs after the step, `Y` for the step itself.) -/
theorem LS_step (c : Dev nD) (A B : Fin 16 → sProp 𝕄) (O O' : CellTallies nD τ sig Unit) (n : ℕ) (hn : n < 16) (R X Y : sProp 𝕄)
    (hchunk : ∀ W, iprop(R ∗ B ⟨n, hn⟩ ∗ owes (c : Thread nD τ) O W ∗ ((A ⟨n, hn⟩ ∗ ∃ W', owes (c : Thread nD τ) O' W') -∗ X)) ⊢ Y) :
    iprop(R ∗ LS c A B O n ∗ (LS c A B O' (n + 1) -∗ X)) ⊢ Y := by
  unfold LS
  iintro ⟨HR, ⟨⟨%W, HO⟩, HS⟩, Hk⟩
  ihave H := (bigSep_prefix_take A B n hn) $$ HS
  icases H with ⟨HB, Hback⟩
  iapply (hchunk W)
  isplitl [HR]; · iexact HR
  isplitl [HB]; · iexact HB
  isplitl [HO]; · iexact HO
  iintro ⟨HA, HO'⟩
  iapply Hk
  isplitl [HO']; · iexact HO'
  iapply Hback
  iexact HA

omit [FloatOps F] in
theorem LS_start (c : Dev nD) (A B : Fin 16 → sProp 𝕄) (O : CellTallies nD τ sig Unit) :
    iprop((∃ W, owes (c : Thread nD τ) O W) ∗ bigSep Finset.univ B) ⊢ LS c A B O 0 := by
  unfold LS; rw [bigSep_prefix_zero]

omit [FloatOps F] in
theorem LS_end (c : Dev nD) (A B : Fin 16 → sProp 𝕄) (O : CellTallies nD τ sig Unit) :
    LS c A B O 16 ⊢ iprop((∃ W, owes (c : Thread nD τ) O W) ∗ bigSep Finset.univ A) := by
  unfold LS; rw [bigSep_prefix_full]

end Cert.KernelIdealProof

end
-- ==== Proof.StepsA.lean ====
/-
  The steps of one device's body that come before its loops: the two local loads of a chunk of the argument block
  into the staging buffer, and the handshake with the two neighbours on the barrier semaphore.
-/
import proofs.«900304_g7700000000000305_dist_rs_v7x_xy2x2_y_m2048_n512_bf16_1_alg».proof.Proof.State
import proofs.«900304_g7700000000000305_dist_rs_v7x_xy2x2_y_m2048_n512_bf16_1_alg».proof.Proof.SchedTab
import proofs.«900304_g7700000000000305_dist_rs_v7x_xy2x2_y_m2048_n512_bf16_1_alg».proof.Proof.Geom
import proofs.«900304_g7700000000000305_dist_rs_v7x_xy2x2_y_m2048_n512_bf16_1_alg».proof.Proof.Loops

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The load of the y-neighbour's columns of chunk `k` into the right half of the staging chunk: a local copy that
    pays the one duty of its own cell with the landed staging half and the source chunk of the argument block. -/
theorem chunkP (m : (ℓ : Loc nD τ sig) → Buf (Elt F) ℓ) (K : Dev nD × CI → ℕ) (c : Dev nD) (k : Fin 16)
    {hsrc : (aPr c k).view.WordExact} {hdst : (xsR k).view.WordExact}
    {hsem : DmaTarget.Typed (nD := nD) (τ := τ) (p := .tc) .hbm (.dma (dsem jPeer k)) (.here (xsR k))}
    {α : Type} {Kt : PUnit → Prog (TpuEff nD τ sig (Elt F) Λ₀ .tc) α} {Q : α → sProp 𝕄} :
    iprop(records m K ∗ T0 m c k
        ∗ (T1 m c k -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aPr c k) (.here (xsR k)) (.dma (dsem jPeer k)) hsrc hdst hsem) Kt) Q := by
  unfold T0 T1 anyAt aPrPts
  iintro ⟨#Hrec, ⟨⟨%fd, HxR⟩, HxL, Hys, Hoa, Hout, HaP, HaM, Hpos, HtP, HtM, HtS, HtYS, HtXS, HtYR, HtXR, HcYR, HcXR⟩, Hk⟩
  iapply (Rounds.wp_copy_pointsTo 𝒱₀ ER (ringRd m) (c : Thread nD τ) none (src := aPr c k) (dst := xsR k) (sem := .dma (dsem jPeer k))
      (q := fullShare) (fs := argOf m c) (fd := fd) (r := 0) (d := false) (κ := K (c, some (jPeer, k)))
      (by rw [duties_dma]; exact Finset.mem_singleton_self _) () NF (xsR_amount k _)
      ((amount_dma m c jPeer k false).trans amt_peer)
      (by rw [payload_dma, famPay_peer]; unfold xsRPts aPrPts; rw [xsR_landed])) $$ [HxR HaP HtP]
  · isplitr; · iapply (inv_dma m K c jPeer k); iexact Hrec
    isplitl [HaP]; · iexact HaP
    isplitl [HxR]; · iexact HxR
    isplitl [HtP]; · iexact HtP
    iapply (reached_dma m K c jPeer k); iexact Hrec
  iintro Hc
  iapply Hk
  isplitl [Hc]; · iexact Hc
  isplitl [HxL]; · iexact HxL
  isplitl [Hys]; · iexact Hys
  isplitl [Hoa]; · iexact Hoa
  isplitl [Hout]; · iexact Hout
  isplitl [HaM]; · iexact HaM
  isplitl [Hpos]; · iexact Hpos
  isplitl [HtM]; · iexact HtM
  isplitl [HtS]; · iexact HtS
  isplitl [HtYS]; · iexact HtYS
  isplitl [HtXS]; · iexact HtXS
  isplitl [HtYR]; · iexact HtYR
  isplitl [HtXR]; · iexact HtXR
  isplitl [HcYR]; · iexact HcYR
  iexact HcXR

/-- The load of the device's own columns of chunk `k` into the left half of the staging chunk: a local copy that pays
    the one duty of its own cell with the landed staging half and the source chunk of the argument block. -/
theorem chunkM (m : (ℓ : Loc nD τ sig) → Buf (Elt F) ℓ) (K : Dev nD × CI → ℕ) (c : Dev nD) (k : Fin 16)
    {hsrc : (aMn c k).view.WordExact} {hdst : (xsL k).view.WordExact}
    {hsem : DmaTarget.Typed (nD := nD) (τ := τ) (p := .tc) .hbm (.dma (dsem jMine k)) (.here (xsL k))}
    {α : Type} {Kt : PUnit → Prog (TpuEff nD τ sig (Elt F) Λ₀ .tc) α} {Q : α → sProp 𝕄} :
    iprop(records m K ∗ T1 m c k
        ∗ (T2 (F := F) c k -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aMn c k) (.here (xsL k)) (.dma (dsem jMine k)) hsrc hdst hsem) Kt) Q := by
  unfold T1 T2 anyAt aMnPts
  iintro ⟨#Hrec, ⟨HcP, ⟨%fd, HxL⟩, Hys, Hoa, Hout, HaM, Hpos, HtM, HtS, HtYS, HtXS, HtYR, HtXR, HcYR, HcXR⟩, Hk⟩
  iapply (Rounds.wp_copy_pointsTo 𝒱₀ ER (ringRd m) (c : Thread nD τ) none (src := aMn c k) (dst := xsL k) (sem := .dma (dsem jMine k))
      (q := fullShare) (fs := argOf m c) (fd := fd) (r := 0) (d := false) (κ := K (c, some (jMine, k)))
      (by rw [duties_dma]; exact Finset.mem_singleton_self _) () NF (xsL_amount k _)
      ((amount_dma m c jMine k false).trans amt_mine)
      (by rw [payload_dma, famPay_mine]; unfold xsLPts aMnPts; rw [xsL_landed])) $$ [HxL HaM HtM]
  · isplitr; · iapply (inv_dma m K c jMine k); iexact Hrec
    isplitl [HaM]; · iexact HaM
    isplitl [HxL]; · iexact HxL
    isplitl [HtM]; · iexact HtM
    iapply (reached_dma m K c jMine k); iexact Hrec
  iintro Hc
  iapply Hk
  isplitl [HcP]; · iexact HcP
  isplitl [Hc]; · iexact Hc
  isplitl [Hys]; · iexact Hys
  isplitl [Hoa]; · iexact Hoa
  isplitl [Hout]; · iexact Hout
  isplitl [Hpos]; · iexact Hpos
  isplitl [HtS]; · iexact HtS
  isplitl [HtYS]; · iexact HtYS
  isplitl [HtXS]; · iexact HtXS
  isplitl [HtYR]; · iexact HtYR
  isplitl [HtXR]; · iexact HtXR
  isplitl [HcYR]; · iexact HcYR
  iexact HcXR

/-! ## The handshake -/

/-- What the device still holds of the barrier's resources after its first signal. -/
def barRes1 (c : Dev nD) : sProp 𝕄 :=
  iprop(atPos ER (barCell c) 0 ∅ 0 ∗ cred (tallyAt (barCell c) () 2)
    ∗ dutyTok ER (barCell (xP c)) 0 true ∗ (bigSep Finset.univ fun k : Fin 16 => outAny (F := F) c (xP c) k))

/-- And after its second. -/
def barRes2 (c : Dev nD) : sProp 𝕄 :=
  iprop(atPos ER (barCell c) 0 ∅ 0 ∗ cred (tallyAt (barCell c) () 2))

/-- The signal to the y-neighbour: it pays duty `false` of the neighbour's barrier cell with the device's own receive
    buffer, chunk by chunk, and the fact that its receive cells of the y-exchange are at round 0. -/
theorem barSigY (m : (ℓ : Loc nD τ sig) → Buf (Elt F) ℓ) (K : Dev nD × CI → ℕ) (c n : Dev nD) (hn : n = yP c) {W : Waits sig Unit}
    {α : Type} {Kt : PUnit → Prog (TpuEff nD τ sig (Elt F) Λ₀ .tc) α} {Q : α → sProp 𝕄} :
    iprop(records m K ∗ barRes (F := F) c ∗ owes (c : Thread nD τ) (O₀ c) W
        ∗ ((barRes1 (F := F) c ∗ owes (c : Thread nD τ) (O₁ c) W) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semSignal ((n, .tc) : Thread nD τ) barS (1#32).toNat) Kt) Q := by
  subst hn
  unfold barRes barRes1
  iintro ⟨#Hrec, ⟨HatB, HcB, HtY, HtX, Hyr, Hout⟩, HO, Hk⟩
  iapply (Rounds.wp_signal 𝒱₀ ER (ringRd m) (c : Thread nD τ) none (dst := (yP c : Thread nD τ)) (κ := K (yP c, none))
      (d := false) (by rw [duties_bar]; exact Finset.mem_univ _) ((amount_bar m (yP c) false).trans (by decide)) () (O₁ c) rfl)
    $$ [HO HtY Hyr]
  · isplitr; · iapply (inv_bar m K (yP c)); iexact Hrec
    isplitl [HO]; · iexact HO
    isplitl [HtY]; · iexact HtY
    isplitl [Hyr]
    · rw [payload_bar_false]; unfold barPayY; rw [yP_yP]
      isplitl [Hyr]; · iexact Hyr
      iapply (bigSep_intro_persistent (R := records m K) (fun k _ => reached_dma m K c jYR k)); iexact Hrec
    · iapply (reached_bar m K (yP c)); iexact Hrec
  iintro HO
  iapply Hk
  isplitr [HO]
  · isplitl [HatB]; · iexact HatB
    isplitl [HcB]; · iexact HcB
    isplitl [HtX]; · iexact HtX
    iexact Hout
  iexact HO

/-- The signal to the x-neighbour: it pays duty `true` of the neighbour's barrier cell with the neighbour's row half of
    the device's result buffer, chunk by chunk, and the fact that its receive cells of the x-exchange are at round 0. -/
theorem barSigX (m : (ℓ : Loc nD τ sig) → Buf (Elt F) ℓ) (K : Dev nD × CI → ℕ) (c n : Dev nD) (hn : n = xP c) {W : Waits sig Unit}
    {α : Type} {Kt : PUnit → Prog (TpuEff nD τ sig (Elt F) Λ₀ .tc) α} {Q : α → sProp 𝕄} :
    iprop(records m K ∗ barRes1 (F := F) c ∗ owes (c : Thread nD τ) (O₁ c) W
        ∗ ((barRes2 (F := F) c ∗ owes (c : Thread nD τ) (O₂ c) W) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semSignal ((n, .tc) : Thread nD τ) barS (1#32).toNat) Kt) Q := by
  subst hn
  unfold barRes1 barRes2
  iintro ⟨#Hrec, ⟨HatB, HcB, HtX, Hout⟩, HO, Hk⟩
  iapply (Rounds.wp_signal 𝒱₀ ER (ringRd m) (c : Thread nD τ) none (dst := (xP c : Thread nD τ)) (κ := K (xP c, none))
      (d := true) (by rw [duties_bar]; exact Finset.mem_univ _) ((amount_bar m (xP c) true).trans (by decide)) () (O₂ c) rfl)
    $$ [HO HtX Hout]
  · isplitr; · iapply (inv_bar m K (xP c)); iexact Hrec
    isplitl [HO]; · iexact HO
    isplitl [HtX]; · iexact HtX
    isplitl [Hout]
    · rw [payload_bar_true]; unfold barPayX; rw [xP_xP]
      isplitl [Hout]; · iexact Hout
      iapply (bigSep_intro_persistent (R := records m K) (fun k _ => reached_dma m K c jXR k)); iexact Hrec
    · iapply (reached_bar m K (xP c)); iexact Hrec
  iintro HO
  iapply Hk
  isplitr [HO]
  · isplitl [HatB]; · iexact HatB
    iexact HcB
  iexact HO

/-- The wait for both neighbours' signals: they hand the device the y-neighbour's receive buffer and its own row half of
    the x-neighbour's result buffer, chunk by chunk. -/
theorem barWait (m : (ℓ : Loc nD τ sig) → Buf (Elt F) ℓ) (K : Dev nD × CI → ℕ) (c : Dev nD) {W : Waits sig Unit}
    {α : Type} {Kt : PUnit → Prog (TpuEff nD τ sig (Elt F) Λ₀ .tc) α} {Q : α → sProp 𝕄} :
    iprop(records m K ∗ levAts L lv ∗ barRes2 (F := F) c ∗ owes (c : Thread nD τ) (O₂ c) W
        ∗ (((∃ W', owes (c : Thread nD τ) (O₂ c) W') ∗ atPos ER (barCell c) 1 ∅ 0
              ∗ (bigSep Finset.univ fun k : Fin 16 => iprop(yrAny (F := F) (yP c) k ∗ outAny (F := F) (xP c) c k)))
            -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semWait barS (2#32).toNat) Kt) Q := by
  unfold barRes2
  iintro ⟨#Hrec, #Hlev, ⟨HatB, HcB⟩, HO, Hk⟩
  iapply (Rounds.wp_wait_rest_token 𝒱₀ ER (ringRd m) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPayY barPayX
  icases Hp with ⟨⟨Hyr, -⟩, Hout, -⟩
  iapply Hk
  isplitl [HO]; · iexists _; iexact HO
  isplitl [HatB]; · iexact HatB
  rw [bigSep_sep']
  isplitl [Hyr]; · iexact Hyr
  iexact Hout

/-- The whole handshake: the two signals and the wait. -/
theorem barrierStep (m : (ℓ : Loc nD τ sig) → Buf (Elt F) ℓ) (K : Dev nD × CI → ℕ) (c n₁ n₂ : Dev nD) (hn₁ : n₁ = yP c) (hn₂ : n₂ = xP c)
    {W : Waits sig Unit}
    {α : Type} {Kt : PUnit → Prog (TpuEff nD τ sig (Elt F) Λ₀ .tc) α} {Q : α → sProp 𝕄} :
    iprop(records m K ∗ levAts L lv ∗ barRes (F := F) c ∗ owes (c : Thread nD τ) (O₀ c) W
        ∗ (((∃ W', owes (c : Thread nD τ) (O₂ c) W') ∗ atPos ER (barCell c) 1 ∅ 0
              ∗ (bigSep Finset.univ fun k : Fin 16 => iprop(yrAny (F := F) (yP c) k ∗ outAny (F := F) (xP c) c k)))
            -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semSignal ((n₁, .tc) : Thread nD τ) barS (1#32).toNat) fun _ =>
            .op (.semSignal ((n₂, .tc) : Thread nD τ) barS (1#32).toNat) fun _ =>
              .op (.semWait barS (2#32).toNat) Kt) Q := by
  iintro ⟨#Hrec, #Hlev, Hbar, HO, Hk⟩
  iapply (barSigY m K c n₁ hn₁ (W := W))
  isplitr; · iexact Hrec
  isplitl [Hbar]; · iexact Hbar
  isplitl [HO]; · iexact HO
  iintro ⟨Hbar, HO⟩
  iapply (barSigX m K c n₂ hn₂ (W := W))
  isplitr; · iexact Hrec
  isplitl [Hbar]; · iexact Hbar
  isplitl [HO]; · iexact HO
  iintro ⟨Hbar, HO⟩
  iapply (barWait m K c (W := W))
  isplitr; · iexact Hrec
  isplitr; · iexact Hlev
  isplitl [Hbar]; · iexact Hbar
  isplitl [HO]; · iexact HO
  iexact Hk

/-! ## The two loads at the level of their loops -/

/-- The neighbour-columns load of chunk `n` advances the first loop of loads from `n` chunks done to `n + 1`. -/
theorem stepP (m : (ℓ : Loc nD τ sig) → Buf (Elt F) ℓ) (K : Dev nD × CI → ℕ) (c : Dev nD) (n : ℕ) (hn : n < 16)
    {hsrc : (aPr c ⟨n, hn⟩).view.WordExact} {hdst : (xsR ⟨n, hn⟩).view.WordExact}
    {hsem : DmaTarget.Typed (nD := nD) (τ := τ) (p := .tc) .hbm (.dma (dsem jPeer ⟨n, hn⟩)) (.here (xsR ⟨n, hn⟩))}
    {α : Type} {Kt : PUnit → Prog (TpuEff nD τ sig (Elt F) Λ₀ .tc) α} {Q : α → sProp 𝕄} :
    iprop(records m K ∗ LS c (T1 m c) (T0 m c) (O₀ c) n
        ∗ (LS c (T1 m c) (T0 m c) (O₀ c) (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aPr c ⟨n, hn⟩) (.here (xsR ⟨n, hn⟩)) (.dma (dsem jPeer ⟨n, hn⟩)) hsrc hdst hsem) Kt) Q :=
  LS_step c (T1 m c) (T0 m c) (O₀ c) (O₀ c) n hn (records m K) _ _ (fun W => by
    iintro ⟨#Hrec, HB, HO, Hk⟩
    iapply (chunkP m K c ⟨n, hn⟩)
    isplitr; · iexact Hrec
    isplitl [HB]; · iexact HB
    iintro HA
    iapply Hk
    isplitl [HA]; · iexact HA
    iexists W; iexact HO)

/-- The own-columns load of chunk `n` advances the second loop of loads from `n` chunks done to `n + 1`. -/
theorem stepM (m : (ℓ : Loc nD τ sig) → Buf (Elt F) ℓ) (K : Dev nD × CI → ℕ) (c : Dev nD) (n : ℕ) (hn : n < 16)
    {hsrc : (aMn c ⟨n, hn⟩).view.WordExact} {hdst : (xsL ⟨n, hn⟩).view.WordExact}
    {hsem : DmaTarget.Typed (nD := nD) (τ := τ) (p := .tc) .hbm (.dma (dsem jMine ⟨n, hn⟩)) (.here (xsL ⟨n, hn⟩))}
    {α : Type} {Kt : PUnit → Prog (TpuEff nD τ sig (Elt F) Λ₀ .tc) α} {Q : α → sProp 𝕄} :
    iprop(records m K ∗ LS c (fun k => T2 (F := F) c k) (T1 m c) (O₀ c) n
        ∗ (LS c (fun k => T2 (F := F) c k) (T1 m c) (O₀ c) (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aMn c ⟨n, hn⟩) (.here (xsL ⟨n, hn⟩)) (.dma (dsem jMine ⟨n, hn⟩)) hsrc hdst hsem) Kt) Q :=
  LS_step c (fun k => T2 (F := F) c k) (T1 m c) (O₀ c) (O₀ c) n hn (records m K) _ _ (fun W => by
    iintro ⟨#Hrec, HB, HO, Hk⟩
    iapply (chunkM m K c ⟨n, hn⟩)
    isplitr; · iexact Hrec
    isplitl [HB]; · iexact HB
    iintro HA
    iapply Hk
    isplitl [HA]; · iexact HA
    iexists W; iexact HO)

end Cert.KernelIdealProof

end
-- ==== Proof.StepsB.lean ====
/-
  The first loop's iteration, for a symbolic chunk `k` and a symbolic device `c`: the wait for the local load of the
  y-neighbour's columns of the chunk, the load of those columns from the staging buffer, their narrowing to bf16 and
  store into the send buffer, and the transfer of the stored chunk into the y-neighbour's receive buffer.

  Before it the chunk is at stage `T3` and the device owes the y-neighbour's receive cell of the chunk its credit;
  after it the chunk is at stage `T4` and that credit is paid.

  Then the same step on the loop's state: the chunks below the counter sent, the others not yet.
-/
import proofs.«900304_g7700000000000305_dist_rs_v7x_xy2x2_y_m2048_n512_bf16_1_alg».proof.Proof.State
import proofs.«900304_g7700000000000305_dist_rs_v7x_xy2x2_y_m2048_n512_bf16_1_alg».proof.Proof.SchedTab
import proofs.«900304_g7700000000000305_dist_rs_v7x_xy2x2_y_m2048_n512_bf16_1_alg».proof.Proof.Geom
import proofs.«900304_g7700000000000305_dist_rs_v7x_xy2x2_y_m2048_n512_bf16_1_alg».proof.Proof.Loops

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements the chunk's loads and stores touch -/

/-- A load of the right half of staging chunk `k` through the whole buffer touches the chunk's elements only. -/
private theorem sub_xsR (k : Fin 16) : xsW.view.setOn (rXR k).toLoadRect.set ⊆ (xsR k).view.set :=
  subset_of_eq (View.set_slice _ (rXR k)).symm

/-- A load of chunk `k` of the send buffer through the whole buffer touches the chunk's elements only. -/
private theorem sub_ysC (k : Fin 16) : ysW.view.setOn (rCh k).toLoadRect.set ⊆ (ysC k).view.set :=
  subset_of_eq (View.set_slice _ (rCh k)).symm

/-! ## The first loop's iteration -/

set_option maxHeartbeats 1600000 in
/-- Chunk `k` of the first loop: the neighbour-columns load is awaited, the chunk is read, narrowed and stored
    into the send buffer, and the stored chunk is sent to the y-neighbour's receive buffer, paying the device's
    send cell and the neighbour's receive cell of the chunk. -/
theorem chunk1 (m : (ℓ : Loc nD τ sig) → Buf (Elt F) ℓ) (K : Dev nD × CI → ℕ) (c n : Dev nD) (hn : n = yP c) (k : Fin 16)
    {h1 : (aPr c k).view.WordExact} {h2 : (xsR k).view.WordExact}
    {h3 : xsW.view.LoadsAt (rXR k).toLoadRect} {h4 : ysW.view.LoadsAt (rCh k).toLoadRect}
    {h5 : (ysW.access (rCh k)).Stores Finset.univ}
    {h6 : (Finset.univ : Finset (rCh k).shape.Idx) = Finset.univ ∨ ∀ a, (rCh k).stride a = 1}
    {hsc : (yrC k : Memref sig (Dev.tc n : Thread nD τ).2.kind .vmem S64x512 .bf16).view.ref.isScScratch = false}
    {h7 : (ysC k).view.WordExact} {h8 : (yrC k).view.WordExact}
    {h9 : DmaTarget.Typed .vmem (.dma (dsem jYR k)) (.remote (Dev.tc n : Thread nD τ) (yrC k) (.dma (dsem jYS k)) hsc)}
    {α : Type} {Kt : PUnit → Prog (TpuEff nD τ sig (Elt F) Λ₀ .tc) α} {Q : α → sProp 𝕄}
    (O : CellTallies nD τ sig Unit) (W : Waits sig Unit)
    (hmw : (levAts L lv : sProp 𝕄) ⊢ MayWait (c : Thread nD τ) (.dma (dsem jPeer k)) () (O + tallyAt (dCell (yP c) jYR k) () NB)) :
    iprop(records m K ∗ levAts L lv ∗ T3 (F := F) c k ∗ owes (c : Thread nD τ) (O + tallyAt (dCell (yP c) jYR k) () NB) W
        ∗ ((T4 m c k ∗ ∃ W', owes (c : Thread nD τ) O W') -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jPeer k) (aPr c k) (xsR k) h1 h2) fun _ =>
           .op (.load xsW (rXR k).toLoadRect h3) fun v =>
           .op (.load ysW (rCh k).toLoadRect h4) fun _ =>
           .op (.store ysW (rCh k) (ysVal v) Finset.univ h5 h6) fun _ =>
           .op (.enqueueDma (ysC k) (.remote (Dev.tc n : Thread nD τ) (yrC k) (.dma (dsem jYS k)) hsc) (.dma (dsem jYR k)) h7 h8 h9) Kt) Q := by
  subst hn
  unfold T3 T2 posAt anyAt yrAny
  iintro ⟨#HR, #Hlev, ⟨⟨HcP, HcM, ⟨%fy, Hys⟩, Hoa, Hout, ⟨HaP, Ha1, Ha2, Ha3, Ha4, Ha5, Ha6⟩, HtSt, HtYS, HtXS, HtYR, HtXR, HcYR, HcXR⟩, ⟨%fr, Hyr⟩, HoutX⟩, HO, Hk⟩
  -- the wait on the cell of the neighbour-columns load: the staging chunk's right half and the argument piece come back
  iapply (Rounds.wp_wait_rest_token 𝒱₀ ER (ringRd m) (c : Thread nD τ) none (κ := K (c, some (jPeer, k)))
      (wpE_waitDma2_eq 𝒱₀ (c : Thread nD τ) none Set.univ) (Set.mem_univ _) () (O := O + tallyAt (dCell (yP c) jYR k) () NB) (W := W) (R := 0) (m := 0) (T := ∅)
      (by rw [Nat.zero_add, expect_dma, amt_peer])) $$ [HcP HO HaP]
  · isplitr; · iapply (inv_dma m K c jPeer k); iexact HR
    isplitl [HcP]; · iexact HcP
    isplitl [HO]; · iexact HO
    isplitr; · iapply hmw; iexact Hlev
    iexact HaP
  iintro ⟨HO, HaP, -, Hpay⟩
  ihave Hp := (Entails.of_eq ((rest_dma m c jPeer k).trans (famPay_peer m c k))) $$ Hpay
  icases Hp with ⟨HxsR, HaPr⟩
  unfold xsRPts
  -- the load of the staging chunk reads the y-neighbour's columns
  iapply (wp_load 𝒱₀ (c : Thread nD τ) none Set.univ (m := xsW) (sub_xsR k)) $$ HxsR; iintro HxsR
  rw [read_xsR m c k (xsFin m c) (fun _ _ => rfl)]
  -- the load of the send buffer's chunk, whose value is not used
  iapply (wp_load 𝒱₀ (c : Thread nD τ) none Set.univ (m := ysW) (sub_ysC k)) $$ Hys; iintro Hys
  -- the store of the narrowed chunk
  iapply (wp_store 𝒱₀ (c : Thread nD τ) none Set.univ (m := ysW) (r := rCh k) (Mk := Finset.univ) (S := (ysC k).view.set)
      (subset_of_eq (access_set_ys k))) $$ Hys; iintro Hys
  ihave Hys' := (Entails.of_eq (ys_stored m c k fy fullShare)) $$ Hys
  -- the transfer of the stored chunk into the y-neighbour's receive chunk
  have hland := yr_landed m (yP c) k fr fullShare
  rw [yP_yP] at hland
  iapply (Rounds.wp_send_pointsTo 𝒱₀ ER (ringRd m) (c : Thread nD τ) none (c' := (yP c : Thread nD τ)) (src := ysC k) (dst := yrC k)
      (q := fullShare) (fs := ysFin m c) (fd := fr) (κ₁ := K (c, some (jYS, k))) (κ₂ := K (yP c, some (jYR, k)))
      (r₁ := 0) (r₂ := 0) (d₁ := false) (d₂ := false)
      (by rw [duties_dma]; exact Finset.mem_singleton_self _) (by rw [duties_dma]; exact Finset.mem_singleton_self _)
      () () NB (yrC_amount k (dsem jYR k)) ((amount_dma m c jYS k false).trans amt_ys) ((amount_dma m (yP c) jYR k false).trans amt_yr)
      O rfl (W := insert (SemLoc.dma (dsem jPeer k), ()) W)
      (by rw [payload_dma, famPay_ys]; exact BI.Entails.refl _)
      (by rw [payload_dma, famPay_yr]; exact Entails.of_eq hland)) $$ [Hys' Hyr HO HtYS HtYR]
  · isplitr; · iapply (inv_dma m K c jYS k); iexact HR
    isplitr; · iapply (inv_dma m K (yP c) jYR k); iexact HR
    isplitl [Hys']; · iexact Hys'
    isplitl [Hyr]; · iexact Hyr
    isplitl [HO]; · iexact HO
    isplitl [HtYS]; · iexact HtYS
    isplitr; · iapply (reached_dma m K c jYS k); iexact HR
    isplitl [HtYR]; · iexact HtYR
    iapply (reached_dma m K (yP c) jYR k); iexact HR
  iintro ⟨HcYS, HO⟩
  iapply Hk
  isplitr [HO]
  · unfold T4 posAt anyAt xsRPts
    isplitl [HxsR]; · iexact HxsR
    isplitl [HaPr]; · iexact HaPr
    isplitl [HcYS]; · iexact HcYS
    isplitl [HcM]; · iexact HcM
    isplitl [Hoa]; · iexact Hoa
    isplitl [Hout]; · iexact Hout
    isplitl [HoutX]; · iexact HoutX
    isplitl [HaP Ha1 Ha2 Ha3 Ha4 Ha5 Ha6]
    · isplitl [HaP]; · iexact HaP
      isplitl [Ha1]; · iexact Ha1
      isplitl [Ha2]; · iexact Ha2
      isplitl [Ha3]; · iexact Ha3
      isplitl [Ha4]; · iexact Ha4
      isplitl [Ha5]; · iexact Ha5
      iexact Ha6
    isplitl [HtSt]; · iexact HtSt
    isplitl [HtXS]; · iexact HtXS
    isplitl [HtXR]; · iexact HtXR
    isplitl [HcYR]; · iexact HcYR
    iexact HcXR
  · iexists _; iexact HO

/-! ## The first loop's iteration on the loop's state -/

/-- The iteration of the first loop at chunk `n`, on the loop's state: `n` chunks sent before, `n + 1` after, and the
    credit of the y-neighbour's receive cell of chunk `n` no longer owed. -/
theorem step1 (m : (ℓ : Loc nD τ sig) → Buf (Elt F) ℓ) (K : Dev nD × CI → ℕ) (c : Dev nD) (n : ℕ) (hn : n < 16) (d : Dev nD) (hd : d = yP c)
    {h1 : (aPr c ⟨n, hn⟩).view.WordExact} {h2 : (xsR ⟨n, hn⟩).view.WordExact}
    {h3 : xsW.view.LoadsAt (rXR ⟨n, hn⟩).toLoadRect} {h4 : ysW.view.LoadsAt (rCh ⟨n, hn⟩).toLoadRect}
    {h5 : (ysW.access (rCh ⟨n, hn⟩)).Stores Finset.univ}
    {h6 : (Finset.univ : Finset (rCh ⟨n, hn⟩).shape.Idx) = Finset.univ ∨ ∀ a, (rCh ⟨n, hn⟩).stride a = 1}
    {hsc : (yrC ⟨n, hn⟩ : Memref sig (Dev.tc d : Thread nD τ).2.kind .vmem S64x512 .bf16).view.ref.isScScratch = false}
    {h7 : (ysC ⟨n, hn⟩).view.WordExact} {h8 : (yrC ⟨n, hn⟩).view.WordExact}
    {h9 : DmaTarget.Typed .vmem (.dma (dsem jYR ⟨n, hn⟩)) (.remote (Dev.tc d : Thread nD τ) (yrC ⟨n, hn⟩) (.dma (dsem jYS ⟨n, hn⟩)) hsc)}
    {α : Type} {Kt : PUnit → Prog (TpuEff nD τ sig (Elt F) Λ₀ .tc) α} {Q : α → sProp 𝕄} :
    iprop((records m K ∗ levAts L lv) ∗ LS c (T4 m c) (fun k => T3 (F := F) c k) (owedX c 0 + owedY c n) n
        ∗ (LS c (T4 m c) (fun k => T3 (F := F) c k) (owedX c 0 + owedY c (n + 1)) (n + 1)
            -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jPeer ⟨n, hn⟩) (aPr c ⟨n, hn⟩) (xsR ⟨n, hn⟩) h1 h2) fun _ =>
           .op (.load xsW (rXR ⟨n, hn⟩).toLoadRect h3) fun v =>
           .op (.load ysW (rCh ⟨n, hn⟩).toLoadRect h4) fun _ =>
           .op (.store ysW (rCh ⟨n, hn⟩) (ysVal v) Finset.univ h5 h6) fun _ =>
           .op (.enqueueDma (ysC ⟨n, hn⟩) (.remote (Dev.tc d : Thread nD τ) (yrC ⟨n, hn⟩) (.dma (dsem jYS ⟨n, hn⟩)) hsc) (.dma (dsem jYR ⟨n, hn⟩)) h7 h8 h9) Kt) Q := by
  have hO : owedX c 0 + owedY c n = (owedX c 0 + owedY c (n + 1)) + tallyAt (dCell (yP c) jYR ⟨n, hn⟩) () NB := by
    rw [owedY_succ c n hn, add_assoc]
  have hmw : (levAts L lv : sProp 𝕄) ⊢ MayWait (c : Thread nD τ) (.dma (dsem jPeer ⟨n, hn⟩)) ()
      ((owedX c 0 + owedY c (n + 1)) + tallyAt (dCell (yP c) jYR ⟨n, hn⟩) () NB) := by
    rw [← hO]
    exact mayWait_low c (dsem jPeer ⟨n, hn⟩) ⟨by rw [famOf_dsem]; decide, by rw [famOf_dsem]; decide⟩ 0 n
  refine LS_step c (T4 m c) (fun k => T3 (F := F) c k) _ _ n hn iprop(records m K ∗ levAts L lv) _ _ (fun W => ?_)
  rw [hO]
  iintro ⟨⟨#HR, #Hlev⟩, HT, HO, Hk⟩
  iapply (chunk1 m K c d hd ⟨n, hn⟩ (owedX c 0 + owedY c (n + 1)) W hmw)
  isplitr; · iexact HR
  isplitr; · iexact Hlev
  isplitl [HT]; · iexact HT
  isplitl [HO]; · iexact HO
  iexact Hk

/-- info: 'Cert.KernelIdealProof.chunk1' depends on axioms: [propext, Classical.choice, Quot.sound] -/
#guard_msgs in #print axioms chunk1

/-- info: 'Cert.KernelIdealProof.step1' depends on axioms: [propext, Classical.choice, Quot.sound] -/
#guard_msgs in #print axioms step1

end Cert.KernelIdealProof

end
-- ==== Proof.StepsC.lean ====
/-
  The second loop's iteration, for a symbolic chunk `k` and a symbolic device `c`, and the loop's step.

  The device waits for its own-columns load of the chunk (the left half of the staging chunk and the argument piece
  come back) and for the chunk its y-neighbour narrowed and sent (the receive buffer's chunk at its final contents);
  it reads both, adds the neighbour's chunk to its own narrowed columns and stores the sum, which is the chunk of the
  reduced result. Half of the stored chunk's share goes with the local copy into the device's own rows of its result
  buffer, the other half with the remote copy into the same rows of the x-neighbour's result buffer; the remote copy
  pays the x-neighbour's receive cell of the chunk, one summand of what the device still owes.

  At the loop's level: with chunks below `n` reduced and sent and the others still waiting, and the device owing the
  x-neighbour's receive cells of chunks `n, n+1, …`, the iteration for chunk `n` leaves chunks below `n + 1` done
  and the cells of chunks `n+1, …` owed. The two waits are allowed because the cell of a local load sits below
  every receive cell and the y-exchange's receive cells sit below the x-exchange's.
-/
import proofs.«900304_g7700000000000305_dist_rs_v7x_xy2x2_y_m2048_n512_bf16_1_alg».proof.Proof.State
import proofs.«900304_g7700000000000305_dist_rs_v7x_xy2x2_y_m2048_n512_bf16_1_alg».proof.Proof.SchedTab
import proofs.«900304_g7700000000000305_dist_rs_v7x_xy2x2_y_m2048_n512_bf16_1_alg».proof.Proof.Geom
import proofs.«900304_g7700000000000305_dist_rs_v7x_xy2x2_y_m2048_n512_bf16_1_alg».proof.Proof.Loops

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements the chunk's loads and its store touch -/

/-- A load of the left half of staging chunk `k` through the whole buffer touches the chunk's elements only. -/
theorem sub_xsL (k : Fin 16) : xsW.view.setOn (rXL k).toLoadRect.set ⊆ (xsL k).view.set :=
  (View.set_slice xsW.view (rXL k)).ge

/-- A load of chunk `k` of the receive buffer through the whole buffer touches the chunk's elements only. -/
theorem sub_yrC (k : Fin 16) : yrW.view.setOn (rCh k).toLoadRect.set ⊆ (yrC k).view.set :=
  (View.set_slice yrW.view (rCh k)).ge

/-- So does a load of chunk `k` of the second exchange's send buffer. -/
theorem sub_oaC (k : Fin 16) : oaW.view.setOn (rCh k).toLoadRect.set ⊆ (oaC k).view.set :=
  (View.set_slice oaW.view (rCh k)).ge

/-! ## The second loop's iteration -/

set_option maxHeartbeats 800000 in
/-- Chunk `k` of the second loop: the own-columns load and the y-neighbour's chunk are awaited, the two are read
    and added, the sum is stored, and the stored chunk is copied into the device's own rows of the result and sent
    to the same rows of the x-neighbour's result, paying the device's store and send cells and the neighbour's
    receive cell of the chunk. -/
theorem chunk2 (m : (ℓ : Loc nD τ sig) → Buf (Elt F) ℓ) (K : Dev nD × CI → ℕ) (c n : Dev nD) (hn : n = xP c) (k : Fin 16)
    {h1 : (aMn c k).view.WordExact} {h2 : (xsL k).view.WordExact}
    {h3 : (ysC k).view.WordExact} {h4 : (yrC k).view.WordExact}
    {h5 : xsW.view.LoadsAt (rXL k).toLoadRect} {h6 : yrW.view.LoadsAt (rCh k).toLoadRect} {h7 : oaW.view.LoadsAt (rCh k).toLoadRect}
    {h8 : (oaW.access (rCh k)).Stores Finset.univ}
    {h9 : (Finset.univ : Finset (rCh k).shape.Idx) = Finset.univ ∨ ∀ a, (rCh k).stride a = 1}
    {h10 : (oaC k).view.WordExact} {h11 : (oC c k).view.WordExact}
    {h12 : DmaTarget.Typed (nD := nD) (τ := τ) (p := .tc) .vmem (.dma (dsem jSt k)) (.here (oC c k))}
    {hsc : (oC c k : Memref sig (Dev.tc n : Thread nD τ).2.kind .hbm S64x512 .bf16).view.ref.isScScratch = false}
    {h13 : (oaC k).view.WordExact} {h14 : (oC c k).view.WordExact}
    {h15 : DmaTarget.Typed .vmem (.dma (dsem jXR k)) (.remote (Dev.tc n : Thread nD τ) (oC c k) (.dma (dsem jXS k)) hsc)}
    {α : Type} {Kt : PUnit → Prog (TpuEff nD τ sig (Elt F) Λ₀ .tc) α} {Q : α → sProp 𝕄}
    (O : CellTallies nD τ sig Unit) (W : Waits sig Unit)
    (hmw₁ : (levAts L lv : sProp 𝕄) ⊢ MayWait (c : Thread nD τ) (.dma (dsem jMine k)) () (O + tallyAt (dCell (xP c) jXR k) () NB))
    (hmw₂ : (levAts L lv : sProp 𝕄) ⊢ MayWait (c : Thread nD τ) (.dma (dsem jYR k)) () (O + tallyAt (dCell (xP c) jXR k) () NB)) :
    iprop(records m K ∗ levAts L lv ∗ T4 m c k ∗ owes (c : Thread nD τ) (O + tallyAt (dCell (xP c) jXR k) () NB) W
        ∗ ((T5 m c k ∗ ∃ W', owes (c : Thread nD τ) O W') -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jMine k) (aMn c k) (xsL k) h1 h2) fun _ =>
           .op (.waitDma2 (dsem jYR k) (ysC k) (yrC k) h3 h4) fun _ =>
           .op (.load xsW (rXL k).toLoadRect h5) fun v =>
           .op (.load yrW (rCh k).toLoadRect h6) fun w =>
           .op (.load oaW (rCh k).toLoadRect h7) fun _ =>
           .op (.store oaW (rCh k) (oaVal v w) Finset.univ h8 h9) fun _ =>
           .op (.enqueueDma (oaC k) (.here (oC c k)) (.dma (dsem jSt k)) h10 h11 h12) fun _ =>
           .op (.enqueueDma (oaC k) (.remote (Dev.tc n : Thread nD τ) (oC c k) (.dma (dsem jXS k)) hsc) (.dma (dsem jXR k)) h13 h14 h15) Kt) Q := by
  subst hn
  unfold T4 posAt
  iintro ⟨#Hrec, #Hlev, ⟨HxsR, HaPr, HcYS, HcMn, Hoa, HoutC, HoutX, ⟨Hp0, Hp1, Hp2, Hp3, Hp4, Hp5, Hp6⟩, HtSt, HtXS, HtXR, HcYR, HcXR⟩, HO, Hk⟩
  -- the wait for the own-columns load: the left half of the staging chunk and the argument piece come back
  iapply (Rounds.wp_wait_rest_token 𝒱₀ ER (ringRd m) (c : Thread nD τ) none (κ := K (c, some (jMine, k)))
      (wpE_waitDma2_eq 𝒱₀ (c : Thread nD τ) none Set.univ) (Set.mem_univ _) () (O := O + tallyAt (dCell (xP c) jXR k) () NB) (W := W) (R := 0) (m := 0) (T := ∅)
      (by rw [Nat.zero_add, expect_dma, amt_mine])) $$ [HcMn HO Hp1]
  · isplitr; · iapply (inv_dma m K c jMine k); iexact Hrec
    isplitl [HcMn]; · iexact HcMn
    isplitl [HO]; · iexact HO
    isplitr; · iapply hmw₁; iexact Hlev
    iexact Hp1
  iintro ⟨HO, Hp1, -, Hpay⟩
  ihave Hpm := (Entails.of_eq ((rest_dma m c jMine k).trans (famPay_mine m c k))) $$ Hpay
  icases Hpm with ⟨HxsL, HaMn⟩
  -- the wait for the y-neighbour's chunk: the receive buffer's chunk at its final contents
  iapply (Rounds.wp_wait_rest_token 𝒱₀ ER (ringRd m) (c : Thread nD τ) none (κ := K (c, some (jYR, k)))
      (wpE_waitDma2_eq 𝒱₀ (c : Thread nD τ) none Set.univ) (Set.mem_univ _) () (O := O + tallyAt (dCell (xP c) jXR k) () NB)
      (W := insert (SemLoc.dma (dsem jMine k), ()) W) (R := 0) (m := 0) (T := ∅)
      (by rw [Nat.zero_add, expect_dma, amt_yr])) $$ [HcYR HO Hp3]
  · isplitr; · iapply (inv_dma m K c jYR k); iexact Hrec
    isplitl [HcYR]; · iexact HcYR
    isplitl [HO]; · iexact HO
    isplitr; · iapply hmw₂; iexact Hlev
    iexact Hp3
  iintro ⟨HO, Hp3, -, Hpay⟩
  ihave Hyr := (Entails.of_eq ((rest_dma m c jYR k).trans (famPay_yr m c k))) $$ Hpay
  unfold xsLPts yrPts anyAt outAny
  icases Hoa with ⟨%fo, Hoa⟩
  icases HoutC with ⟨%fO, HoutC⟩
  icases HoutX with ⟨%fX, HoutX⟩
  -- the loads: the device's own columns of the chunk, and what the y-neighbour narrowed and sent
  iapply (wp_load 𝒱₀ (c : Thread nD τ) none Set.univ (m := xsW) (sub_xsL k)) $$ HxsL; iintro HxsL
  rw [read_xsL m c k (xsFin m c) (fun _ _ => rfl)]
  iapply (wp_load 𝒱₀ (c : Thread nD τ) none Set.univ (m := yrW) (sub_yrC k)) $$ Hyr; iintro Hyr
  rw [read_yr m c k (yrFin m c) (fun _ _ => rfl)]
  iapply (wp_load 𝒱₀ (c : Thread nD τ) none Set.univ (m := oaW) (sub_oaC k)) $$ Hoa; iintro Hoa
  -- the store of the reduced chunk
  iapply (wp_store 𝒱₀ (c : Thread nD τ) none Set.univ (m := oaW) (r := rCh k) (Mk := Finset.univ) (S := (oaC k).view.set) subset_rfl) $$ Hoa; iintro Hoa
  ihave Hoa := (Entails.of_eq (oa_stored m c k fo fullShare)) $$ Hoa
  ihave Hoa := (oa_halves c k (oaFin m c)).1 $$ Hoa
  icases Hoa with ⟨HoaL, HoaR⟩
  -- the local copy of the reduced chunk into the device's own rows of the result
  iapply (Rounds.wp_copy_pointsTo 𝒱₀ ER (ringRd m) (c : Thread nD τ) none (src := oaC k) (dst := oC c k) (sem := .dma (dsem jSt k))
      (q := fullShare.left) (fs := oaFin m c) (fd := fO) (κ := K (c, some (jSt, k))) (r := 0) (d := false)
      (by rw [duties_dma]; exact Finset.mem_singleton_self _) () NB (oC_amount c k _) ((amount_dma m c jSt k false).trans amt_st)
      (by rw [payload_dma, famPay_st]; unfold outPts oaPts; rw [out_own_landed])) $$ [HoaL HoutC HtSt]
  · isplitr; · iapply (inv_dma m K c jSt k); iexact Hrec
    isplitl [HoaL]; · iexact HoaL
    isplitl [HoutC]; · iexact HoutC
    isplitl [HtSt]; · iexact HtSt
    iapply (reached_dma m K c jSt k); iexact Hrec
  iintro HcSt
  -- the remote copy of the reduced chunk into the same rows of the x-neighbour's result
  have hpeer : ((oC c k).view.loc (xP c : Thread nD τ) ↦[(oC c k).view.set]{fullShare}
        (oC c k).view.write (Elt F) fX ((oaC k).view.read (Elt F) (oaFin m c)) Finset.univ : sProp 𝕄)
      = ((oC c k).view.loc (xP c : Thread nD τ) ↦[(oC c k).view.set]{fullShare} outFin m (xP c)) := by
    have h := out_peer_landed m (xP c) k fX fullShare
    rw [xP_xP] at h
    exact h
  iapply (Rounds.wp_send_pointsTo 𝒱₀ ER (ringRd m) (c : Thread nD τ) none (c' := (xP c : Thread nD τ)) (src := oaC k) (dst := oC c k)
      (sS := .dma (dsem jXS k)) (sem := .dma (dsem jXR k))
      (q := fullShare.right) (fs := oaFin m c) (fd := fX) (κ₁ := K (c, some (jXS, k))) (κ₂ := K (xP c, some (jXR, k)))
      (r₁ := 0) (r₂ := 0) (d₁ := false) (d₂ := false)
      (by rw [duties_dma]; exact Finset.mem_singleton_self _) (by rw [duties_dma]; exact Finset.mem_singleton_self _)
      () () NB (oC_amount c k _) ((amount_dma m c jXS k false).trans amt_xs) ((amount_dma m (xP c) jXR k false).trans amt_xr)
      O rfl (W := insert (SemLoc.dma (dsem jYR k), ()) (insert (SemLoc.dma (dsem jMine k), ()) W))
      (by rw [payload_dma, famPay_xs]; exact BI.Entails.refl _)
      (by rw [payload_dma, famPay_xr, hpeer]; unfold outPts; rw [xP_xP])) $$ [HoaR HoutX HO HtXS HtXR]
  · isplitr; · iapply (inv_dma m K c jXS k); iexact Hrec
    isplitr; · iapply (inv_dma m K (xP c) jXR k); iexact Hrec
    isplitl [HoaR]; · iexact HoaR
    isplitl [HoutX]; · iexact HoutX
    isplitl [HO]; · iexact HO
    isplitl [HtXS]; · iexact HtXS
    isplitr; · iapply (reached_dma m K c jXS k); iexact Hrec
    isplitl [HtXR]; · iexact HtXR
    iapply (reached_dma m K (xP c) jXR k); iexact Hrec
  iintro ⟨HcXS, HO⟩
  -- the stage after
  iapply Hk
  isplitr [HO]
  · unfold T5 posAt xsLPts yrPts
    isplitl [HxsR]; · iexact HxsR
    isplitl [HaPr]; · iexact HaPr
    isplitl [HxsL]; · iexact HxsL
    isplitl [HaMn]; · iexact HaMn
    isplitl [Hyr]; · iexact Hyr
    isplitl [HcYS]; · iexact HcYS
    isplitl [HcSt]; · iexact HcSt
    isplitl [HcXS]; · iexact HcXS
    isplitr [HcXR]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      iexact Hp6
    · iexact HcXR
  · iexists (insert (SemLoc.dma (dsem jYR k), ()) (insert (SemLoc.dma (dsem jMine k), ()) W))
    iexact HO

/-! ## The loop's step -/

/-- The second loop's iteration for chunk `n` advances the loop's state from `n` chunks done to `n + 1`, and what
    the device owes from the x-neighbour's receive cells of chunks `n, n+1, …` to those of chunks `n+1, …`. -/
theorem step2 (m : (ℓ : Loc nD τ sig) → Buf (Elt F) ℓ) (K : Dev nD × CI → ℕ) (c : Dev nD) (n : ℕ) (hn : n < 16) (d : Dev nD) (hd : d = xP c)
    {h1 : (aMn c ⟨n, hn⟩).view.WordExact} {h2 : (xsL ⟨n, hn⟩).view.WordExact}
    {h3 : (ysC ⟨n, hn⟩).view.WordExact} {h4 : (yrC ⟨n, hn⟩).view.WordExact}
    {h5 : xsW.view.LoadsAt (rXL ⟨n, hn⟩).toLoadRect} {h6 : yrW.view.LoadsAt (rCh ⟨n, hn⟩).toLoadRect} {h7 : oaW.view.LoadsAt (rCh ⟨n, hn⟩).toLoadRect}
    {h8 : (oaW.access (rCh ⟨n, hn⟩)).Stores Finset.univ}
    {h9 : (Finset.univ : Finset (rCh ⟨n, hn⟩).shape.Idx) = Finset.univ ∨ ∀ a, (rCh ⟨n, hn⟩).stride a = 1}
    {h10 : (oaC ⟨n, hn⟩).view.WordExact} {h11 : (oC c ⟨n, hn⟩).view.WordExact}
    {h12 : DmaTarget.Typed (nD := nD) (τ := τ) (p := .tc) .vmem (.dma (dsem jSt ⟨n, hn⟩)) (.here (oC c ⟨n, hn⟩))}
    {hsc : (oC c ⟨n, hn⟩ : Memref sig (Dev.tc d : Thread nD τ).2.kind .hbm S64x512 .bf16).view.ref.isScScratch = false}
    {h13 : (oaC ⟨n, hn⟩).view.WordExact} {h14 : (oC c ⟨n, hn⟩).view.WordExact}
    {h15 : DmaTarget.Typed .vmem (.dma (dsem jXR ⟨n, hn⟩)) (.remote (Dev.tc d : Thread nD τ) (oC c ⟨n, hn⟩) (.dma (dsem jXS ⟨n, hn⟩)) hsc)}
    {α : Type} {Kt : PUnit → Prog (TpuEff nD τ sig (Elt F) Λ₀ .tc) α} {Q : α → sProp 𝕄} :
    iprop((records m K ∗ levAts L lv) ∗ LS c (T5 m c) (T4 m c) (owedX c n) n
        ∗ (LS c (T5 m c) (T4 m c) (owedX c (n + 1)) (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jMine ⟨n, hn⟩) (aMn c ⟨n, hn⟩) (xsL ⟨n, hn⟩) h1 h2) fun _ =>
           .op (.waitDma2 (dsem jYR ⟨n, hn⟩) (ysC ⟨n, hn⟩) (yrC ⟨n, hn⟩) h3 h4) fun _ =>
           .op (.load xsW (rXL ⟨n, hn⟩).toLoadRect h5) fun v =>
           .op (.load yrW (rCh ⟨n, hn⟩).toLoadRect h6) fun w =>
           .op (.load oaW (rCh ⟨n, hn⟩).toLoadRect h7) fun _ =>
           .op (.store oaW (rCh ⟨n, hn⟩) (oaVal v w) Finset.univ h8 h9) fun _ =>
           .op (.enqueueDma (oaC ⟨n, hn⟩) (.here (oC c ⟨n, hn⟩)) (.dma (dsem jSt ⟨n, hn⟩)) h10 h11 h12) fun _ =>
           .op (.enqueueDma (oaC ⟨n, hn⟩) (.remote (Dev.tc d : Thread nD τ) (oC c ⟨n, hn⟩) (.dma (dsem jXS ⟨n, hn⟩)) hsc) (.dma (dsem jXR ⟨n, hn⟩)) h13 h14 h15) Kt) Q := by
  have hO : owedX c n = owedX c (n + 1) + tallyAt (dCell (xP c) jXR ⟨n, hn⟩) () NB := owedX_succ c n hn
  have hmw₁ : (levAts L lv : sProp 𝕄) ⊢ MayWait (c : Thread nD τ) (.dma (dsem jMine ⟨n, hn⟩)) ()
      (owedX c (n + 1) + tallyAt (dCell (xP c) jXR ⟨n, hn⟩) () NB) := by
    have h := mayWait_low (F := F) c (dsem jMine ⟨n, hn⟩)
      ⟨by rw [famOf_dsem]; decide, by rw [famOf_dsem]; decide⟩ n 16
    rw [owedY_top, add_zero, hO] at h
    exact h
  have hmw₂ : (levAts L lv : sProp 𝕄) ⊢ MayWait (c : Thread nD τ) (.dma (dsem jYR ⟨n, hn⟩)) ()
      (owedX c (n + 1) + tallyAt (dCell (xP c) jXR ⟨n, hn⟩) () NB) := by
    have h := mayWait_yr (F := F) c ⟨n, hn⟩ n
    rw [hO] at h
    exact h
  refine LS_step c (T5 m c) (T4 m c) (owedX c n) (owedX c (n + 1)) n hn (iprop(records m K ∗ levAts L lv)) _ _ (fun W => ?_)
  rw [hO]
  iintro ⟨⟨Hrec, Hlev⟩, HB, HO, Hk⟩
  iapply (chunk2 m K c d hd ⟨n, hn⟩ (owedX c (n + 1)) W hmw₁ hmw₂)
  isplitl [Hrec]; · iexact Hrec
  isplitl [Hlev]; · iexact Hlev
  isplitl [HB]; · iexact HB
  isplitl [HO]; · iexact HO
  iexact Hk

/-- info: 'Cert.KernelIdealProof.chunk2' depends on axioms: [propext, Classical.choice, Quot.sound] -/
#guard_msgs in #print axioms chunk2

/-- info: 'Cert.KernelIdealProof.step2' depends on axioms: [propext, Classical.choice, Quot.sound] -/
#guard_msgs in #print axioms step2

end Cert.KernelIdealProof

end
-- ==== Proof.StepsD.lean ====
/-
  The third loop's iteration: for chunk `k` the device awaits the four completions that are still outstanding.

  The local store of the reduced chunk into the device's own rows of the result (family 6) hands back those rows and
  the left share of the reduced chunk; the y-exchange's send (family 2) hands back the narrowed chunk; the
  x-exchange's send (family 4) hands back the right share of the reduced chunk; the x-exchange's receive (family 5)
  hands over the x-neighbour's rows of the result. The device owes nothing by now, so each wait is allowed outright,
  and each takes the whole of its cell's one round: every cell of the chunk ends at round 1.
-/
import proofs.«900304_g7700000000000305_dist_rs_v7x_xy2x2_y_m2048_n512_bf16_1_alg».proof.Proof.State
import proofs.«900304_g7700000000000305_dist_rs_v7x_xy2x2_y_m2048_n512_bf16_1_alg».proof.Proof.SchedTab
import proofs.«900304_g7700000000000305_dist_rs_v7x_xy2x2_y_m2048_n512_bf16_1_alg».proof.Proof.Loops

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The positions of a chunk's seven cells once both loads and the y-neighbour's chunk have been awaited. -/
theorem posAt_T5 (c : Dev nD) (k : Fin 16) :
    (posAt c k (fun j => if j = jPeer ∨ j = jMine ∨ j = jYR then 1 else 0) : sProp 𝕄)
      = iprop(atPos ER (dCell c 0 k) 1 ∅ 0 ∗ atPos ER (dCell c 1 k) 1 ∅ 0 ∗ atPos ER (dCell c 2 k) 0 ∅ 0 ∗ atPos ER (dCell c 3 k) 1 ∅ 0
        ∗ atPos ER (dCell c 4 k) 0 ∅ 0 ∗ atPos ER (dCell c 5 k) 0 ∅ 0 ∗ atPos ER (dCell c 6 k) 0 ∅ 0) := rfl

/-- The third loop's iteration for chunk `k`: the four completions are awaited, owing nothing. -/
theorem chunk3 (m : (ℓ : Loc nD τ sig) → Buf (Elt F) ℓ) (K : Dev nD × CI → ℕ) (c : Dev nD) (k : Fin 16) {W : Waits sig Unit}
    {h1 : (oaC k).view.WordExact} {h2 : (oC c k).view.WordExact} {h3 : (yrC k).view.WordExact} {h4 : (ysC k).view.WordExact}
    {h5 : (oC c k).view.WordExact} {h6 : (oaC k).view.WordExact} {h7 : (oaC k).view.WordExact} {h8 : (oC c k).view.WordExact}
    {α : Type} {Kt : PUnit → Prog (TpuEff nD τ sig (Elt F) Λ₀ .tc) α} {Q : α → sProp 𝕄} :
    iprop(records m K ∗ T5 m c k ∗ owes (c : Thread nD τ) 0 W
        ∗ ((T6 m c k ∗ ∃ W', owes (c : Thread nD τ) 0 W') -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jSt k) (oaC k) (oC c k) h1 h2) fun _ =>
            .op (.waitDma2 (dsem jYS k) (yrC k) (ysC k) h3 h4) fun _ =>
            .op (.waitDma2 (dsem jXS k) (oC c k) (oaC k) h5 h6) fun _ =>
            .op (.waitDma2 (dsem jXR k) (oaC k) (oC c k) h7 h8) Kt) Q := by
  unfold T5; rw [posAt_T5]
  iintro ⟨#Hrec, HT, HO, Hk⟩
  icases HT with ⟨HxR, HaP, HxL, HaM, Hyr, HcYS, HcSt, HcXS, ⟨Hp0, Hp1, Hp2, Hp3, Hp4, Hp5, Hp6⟩, HcXR⟩
  -- the local store's completion: the device's own rows of the result, and the left share of the reduced chunk
  iapply (Rounds.wp_wait_rest_token 𝒱₀ ER (ringRd m) (c : Thread nD τ) none (κ := K (c, some (jSt, k)))
      (wpE_waitDma2_eq 𝒱₀ (c : Thread nD τ) none Set.univ) (Set.mem_univ _) () (O := 0) (W := W) (R := 0) (m := 0) (T := ∅)
      (by rw [Nat.zero_add, expect_dma, amt_st])) $$ [HcSt HO Hp6]
  · isplitr; · iapply (inv_dma m K c jSt k); iexact Hrec
    isplitl [HcSt]; · iexact HcSt
    isplitl [HO]; · iexact HO
    isplitr; · rw [MayWait_zero]; iempintro
    iexact Hp6
  iintro ⟨HO, Hp6, -, Hpay⟩
  ihave Hp := (Entails.of_eq ((rest_dma m c jSt k).trans (famPay_st m c k))) $$ Hpay
  icases Hp with ⟨HoutC, HoaL⟩
  -- the y-exchange's send: the narrowed chunk is the device's again
  iapply (Rounds.wp_wait_rest_token 𝒱₀ ER (ringRd m) (c : Thread nD τ) none (κ := K (c, some (jYS, k)))
      (wpE_waitDma2_eq 𝒱₀ (c : Thread nD τ) none Set.univ) (Set.mem_univ _) () (O := 0) (R := 0) (m := 0) (T := ∅)
      (by rw [Nat.zero_add, expect_dma, amt_ys])) $$ [HcYS HO Hp2]
  · isplitr; · iapply (inv_dma m K c jYS k); iexact Hrec
    isplitl [HcYS]; · iexact HcYS
    isplitl [HO]; · iexact HO
    isplitr; · rw [MayWait_zero]; iempintro
    iexact Hp2
  iintro ⟨HO, Hp2, -, Hpay⟩
  ihave Hys := (Entails.of_eq ((rest_dma m c jYS k).trans (famPay_ys m c k))) $$ Hpay
  -- the x-exchange's send: the right share of the reduced chunk
  iapply (Rounds.wp_wait_rest_token 𝒱₀ ER (ringRd m) (c : Thread nD τ) none (κ := K (c, some (jXS, k)))
      (wpE_waitDma2_eq 𝒱₀ (c : Thread nD τ) none Set.univ) (Set.mem_univ _) () (O := 0) (R := 0) (m := 0) (T := ∅)
      (by rw [Nat.zero_add, expect_dma, amt_xs])) $$ [HcXS HO Hp4]
  · isplitr; · iapply (inv_dma m K c jXS k); iexact Hrec
    isplitl [HcXS]; · iexact HcXS
    isplitl [HO]; · iexact HO
    isplitr; · rw [MayWait_zero]; iempintro
    iexact Hp4
  iintro ⟨HO, Hp4, -, Hpay⟩
  ihave HoaR := (Entails.of_eq ((rest_dma m c jXS k).trans (famPay_xs m c k))) $$ Hpay
  -- the x-exchange's receive: the x-neighbour's rows of the result
  iapply (Rounds.wp_wait_rest_token 𝒱₀ ER (ringRd m) (c : Thread nD τ) none (κ := K (c, some (jXR, k)))
      (wpE_waitDma2_eq 𝒱₀ (c : Thread nD τ) none Set.univ) (Set.mem_univ _) () (O := 0) (R := 0) (m := 0) (T := ∅)
      (by rw [Nat.zero_add, expect_dma, amt_xr])) $$ [HcXR HO Hp5]
  · isplitr; · iapply (inv_dma m K c jXR k); iexact Hrec
    isplitl [HcXR]; · iexact HcXR
    isplitl [HO]; · iexact HO
    isplitr; · rw [MayWait_zero]; iempintro
    iexact Hp5
  iintro ⟨HO, Hp5, -, Hpay⟩
  ihave HoutX := (Entails.of_eq ((rest_dma m c jXR k).trans (famPay_xr m c k))) $$ Hpay
  iapply Hk
  isplitr [HO]
  · unfold T6 posAt
    isplitl [HxR]; · iexact HxR
    isplitl [HaP]; · iexact HaP
    isplitl [HxL]; · iexact HxL
    isplitl [HaM]; · iexact HaM
    isplitl [Hyr]; · iexact Hyr
    isplitl [Hys]; · iexact Hys
    isplitl [HoaL]; · iexact HoaL
    isplitl [HoaR]; · iexact HoaR
    isplitl [HoutC]; · iexact HoutC
    isplitl [HoutX]; · iexact HoutX
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iexact Hp6
  · iexists _; iexact HO

/-- The third loop's step: with the chunks below `n` fully awaited and the others not yet, the iteration for chunk
    `n` moves the boundary to `n + 1`; nothing is owed before or after. -/
theorem step3 (m : (ℓ : Loc nD τ sig) → Buf (Elt F) ℓ) (K : Dev nD × CI → ℕ) (c : Dev nD) (n : ℕ) (hn : n < 16)
    {h1 : (oaC ⟨n, hn⟩).view.WordExact} {h2 : (oC c ⟨n, hn⟩).view.WordExact} {h3 : (yrC ⟨n, hn⟩).view.WordExact} {h4 : (ysC ⟨n, hn⟩).view.WordExact}
    {h5 : (oC c ⟨n, hn⟩).view.WordExact} {h6 : (oaC ⟨n, hn⟩).view.WordExact} {h7 : (oaC ⟨n, hn⟩).view.WordExact} {h8 : (oC c ⟨n, hn⟩).view.WordExact}
    {α : Type} {Kt : PUnit → Prog (TpuEff nD τ sig (Elt F) Λ₀ .tc) α} {Q : α → sProp 𝕄} :
    iprop(records m K ∗ LS c (T6 m c) (T5 m c) 0 n
        ∗ (LS c (T6 m c) (T5 m c) 0 (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jSt ⟨n, hn⟩) (oaC ⟨n, hn⟩) (oC c ⟨n, hn⟩) h1 h2) fun _ =>
            .op (.waitDma2 (dsem jYS ⟨n, hn⟩) (yrC ⟨n, hn⟩) (ysC ⟨n, hn⟩) h3 h4) fun _ =>
            .op (.waitDma2 (dsem jXS ⟨n, hn⟩) (oC c ⟨n, hn⟩) (oaC ⟨n, hn⟩) h5 h6) fun _ =>
            .op (.waitDma2 (dsem jXR ⟨n, hn⟩) (oaC ⟨n, hn⟩) (oC c ⟨n, hn⟩) h7 h8) Kt) Q :=
  LS_step c (T6 m c) (T5 m c) 0 0 n hn (records m K) _ _ fun W => chunk3 m K c ⟨n, hn⟩ (W := W)

/-- info: 'Cert.KernelIdealProof.chunk3' depends on axioms: [propext, Classical.choice, Quot.sound] -/
#guard_msgs in #print axioms chunk3

/-- info: 'Cert.KernelIdealProof.step3' depends on axioms: [propext, Classical.choice, Quot.sound] -/
#guard_msgs in #print axioms step3

end Cert.KernelIdealProof

end
-- ==== Proof.StepsE.lean ====
/-
  The end of the kernel on one device: with every chunk's four completions awaited, the seven cells of each
  chunk close — their counters are the device's again, at zero — and each buffer is whole again at its final
  contents, rejoined from its sixteen chunks.
-/
import proofs.«900304_g7700000000000305_dist_rs_v7x_xy2x2_y_m2048_n512_bf16_1_alg».proof.Proof.State
import proofs.«900304_g7700000000000305_dist_rs_v7x_xy2x2_y_m2048_n512_bf16_1_alg».proof.Proof.SchedTab
import proofs.«900304_g7700000000000305_dist_rs_v7x_xy2x2_y_m2048_n512_bf16_1_alg».proof.Proof.Geom

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One chunk: its seven cells close -/

/-- A chunk with its seven cells closed: their counters at zero, and every piece at its final contents. -/
def T7 (m : (ℓ : Loc nD τ sig) → Buf (Elt F) ℓ) (c : Dev nD) (k : Fin 16) : sProp 𝕄 :=
  iprop((bigSep Finset.univ fun j : Fin 7 => semVal (dCell c j k) 0)
    ∗ xsRPts m c k ∗ aPrPts m c k ∗ xsLPts m c k ∗ aMnPts m c k ∗ yrPts m c k
    ∗ ysPts m c k ∗ oaPts m fullShare.left c k ∗ oaPts m fullShare.right c k ∗ outPts m c c k ∗ outPts m c (xP c) k)

omit [FloatOps F] in
/-- Seven summands, one by one. -/
theorem bigSep_fin7 (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl

/-- The owner of a chunk's seven cells, each at round 1 with nothing taken — no cell has a duty after round 0 —
    closes them all and keeps their counters, at zero. -/
theorem close_chunk (m : (ℓ : Loc nD τ sig) → Buf (Elt F) ℓ) (K : Dev nD × CI → ℕ) (c : Dev nD) (k : Fin 16) :
    iprop(records m K ∗ T6 m c k) ⊢ |={Set.univ}=> T7 m c k := by
  unfold T6 T7 posAt
  iintro ⟨#Hrec, H1, H2, H3, H4, H5, H6, H7, H8, H9, H10, Hat0, Hat1, Hat2, Hat3, Hat4, Hat5, Hat6⟩
  imod (Rounds.cell_close ER (ringRd m) (Set.mem_univ (K (c, some (0, k)))) (fun h => h) (R := 1) (duties_later m (dCell c 0 k))) $$ [Hat0] with Hz0
  · isplitr
    · iapply (inv_dma m K c 0 k); iexact Hrec
    · iexact Hat0
  imod (Rounds.cell_close ER (ringRd m) (Set.mem_univ (K (c, some (1, k)))) (fun h => h) (R := 1) (duties_later m (dCell c 1 k))) $$ [Hat1] with Hz1
  · isplitr
    · iapply (inv_dma m K c 1 k); iexact Hrec
    · iexact Hat1
  imod (Rounds.cell_close ER (ringRd m) (Set.mem_univ (K (c, some (2, k)))) (fun h => h) (R := 1) (duties_later m (dCell c 2 k))) $$ [Hat2] with Hz2
  · isplitr
    · iapply (inv_dma m K c 2 k); iexact Hrec
    · iexact Hat2
  imod (Rounds.cell_close ER (ringRd m) (Set.mem_univ (K (c, some (3, k)))) (fun h => h) (R := 1) (duties_later m (dCell c 3 k))) $$ [Hat3] with Hz3
  · isplitr
    · iapply (inv_dma m K c 3 k); iexact Hrec
    · iexact Hat3
  imod (Rounds.cell_close ER (ringRd m) (Set.mem_univ (K (c, some (4, k)))) (fun h => h) (R := 1) (duties_later m (dCell c 4 k))) $$ [Hat4] with Hz4
  · isplitr
    · iapply (inv_dma m K c 4 k); iexact Hrec
    · iexact Hat4
  imod (Rounds.cell_close ER (ringRd m) (Set.mem_univ (K (c, some (5, k)))) (fun h => h) (R := 1) (duties_later m (dCell c 5 k))) $$ [Hat5] with Hz5
  · isplitr
    · iapply (inv_dma m K c 5 k); iexact Hrec
    · iexact Hat5
  imod (Rounds.cell_close ER (ringRd m) (Set.mem_univ (K (c, some (6, k)))) (fun h => h) (R := 1) (duties_later m (dCell c 6 k))) $$ [Hat6] with Hz6
  · isplitr
    · iapply (inv_dma m K c 6 k); iexact Hrec
    · iexact Hat6
  imodintro
  rw [bigSep_fin7]
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- info: 'Cert.KernelIdealProof.close_chunk' depends on axioms: [propext, Classical.choice, Quot.sound] -/
#guard_msgs in #print axioms close_chunk

/-! ## All sixteen chunks -/

/-- Every chunk's cells close, under one update. -/
theorem close_all (m : (ℓ : Loc nD τ sig) → Buf (Elt F) ℓ) (K : Dev nD × CI → ℕ) (c : Dev nD) :
    iprop((bigSep Finset.univ fun _ : Fin 16 => records m K) ∗ bigSep Finset.univ fun k : Fin 16 => T6 m c k)
      ⊢ |={Set.univ}=> bigSep Finset.univ fun k : Fin 16 => T7 m c k := by
  rw [← bigSep_sep']
  exact (bigSep_mono fun k _ => close_chunk m K c k).trans (bigSep_fupd _ _)

/-! ## The buffers whole again -/

omit [FloatOps F] in
/-- The cells of all chunks, chunk by chunk, are the cells by family and chunk. -/
theorem sems_regroup (c : Dev nD) :
    (bigSep Finset.univ fun k : Fin 16 => bigSep Finset.univ fun j : Fin 7 => (semVal (dCell c j k) 0 : sProp 𝕄))
      = bigSep Finset.univ fun jk : Fin 7 × Fin 16 => semVal (dCell c jk.1 jk.2) 0 := by
  rw [← bigSep_univ_prod (fun kj : Fin 16 × Fin 7 => (semVal (dCell c kj.2 kj.1) 0 : sProp 𝕄)),
    bigSep_univ_equiv (Equiv.prodComm (Fin 7) (Fin 16)) (fun kj : Fin 16 × Fin 7 => (semVal (dCell c kj.2 kj.1) 0 : sProp 𝕄))]
  rfl

theorem join_xs (m : (ℓ : Loc nD τ sig) → Buf (Elt F) ℓ) (c : Dev nD) :
    iprop((bigSep Finset.univ fun k : Fin 16 => xsRPts m c k) ∗ (bigSep Finset.univ fun k : Fin 16 => xsLPts m c k))
      ⊢ ((c : Thread nD τ).loc cc0_scratch0 ↦{fullShare} xsFin m c : sProp 𝕄) :=
  (xs_tiling c (xsFin m c)).2

theorem join_ys (m : (ℓ : Loc nD τ sig) → Buf (Elt F) ℓ) (c : Dev nD) :
    (bigSep Finset.univ fun k : Fin 16 => ysPts m c k)
      ⊢ ((c : Thread nD τ).loc cc0_scratch1 ↦{fullShare} ysFin m c : sProp 𝕄) :=
  (ys_tiling c (ysFin m c)).2

theorem join_yr (m : (ℓ : Loc nD τ sig) → Buf (Elt F) ℓ) (c : Dev nD) :
    (bigSep Finset.univ fun k : Fin 16 => yrPts m c k)
      ⊢ ((c : Thread nD τ).loc cc0_scratch2 ↦{fullShare} yrFin m c : sProp 𝕄) :=
  (yr_tiling c (yrFin m c)).2

/-- The second exchange's send buffer: each chunk's two half shares join, then the chunks. -/
theorem join_oa (m : (ℓ : Loc nD τ sig) → Buf (Elt F) ℓ) (c : Dev nD) :
    iprop((bigSep Finset.univ fun k : Fin 16 => oaPts m fullShare.left c k) ∗ (bigSep Finset.univ fun k : Fin 16 => oaPts m fullShare.right c k))
      ⊢ ((c : Thread nD τ).loc cc0_scratch3 ↦{fullShare} oaFin m c : sProp 𝕄) := by
  rw [← bigSep_sep']
  exact (bigSep_mono fun k _ => (oa_halves c k (oaFin m c)).2).trans (oa_tiling c (oaFin m c)).2

/-- The result buffer: the device's own row half and its x-neighbour's. -/
theorem join_out (m : (ℓ : Loc nD τ sig) → Buf (Elt F) ℓ) (c : Dev nD) :
    iprop((bigSep Finset.univ fun k : Fin 16 => outPts m c c k) ∗ (bigSep Finset.univ fun k : Fin 16 => outPts m c (xP c) k))
      ⊢ ((c : Thread nD τ).loc main_v1 ↦{fullShare} outFin m c : sProp 𝕄) :=
  (out_tiling c c (outFin m c)).2

/-- The argument block: the chunks the loads read, and the rest. -/
theorem join_arg (m : (ℓ : Loc nD τ sig) → Buf (Elt F) ℓ) (c : Dev nD) :
    iprop((bigSep Finset.univ fun k : Fin 16 => aPrPts m c k) ∗ (bigSep Finset.univ fun k : Fin 16 => aMnPts m c k) ∗ argRestPts m c)
      ⊢ ((c : Thread nD τ).loc main_arg0 ↦{fullShare} argOf m c : sProp 𝕄) :=
  (arg_tiling c (argOf m c)).2

/-- All chunks closed, and the unread rest of the argument: the device's exit state. -/
theorem regroup (m : (ℓ : Loc nD τ sig) → Buf (Elt F) ℓ) (c : Dev nD) :
    iprop((bigSep Finset.univ fun k : Fin 16 => T7 m c k) ∗ argRestPts m c) ⊢ finish m c := by
  unfold T7 finish
  rw [bigSep_sep', bigSep_sep', bigSep_sep', bigSep_sep', bigSep_sep', bigSep_sep', bigSep_sep', bigSep_sep', bigSep_sep', bigSep_sep',
    sems_regroup]
  iintro ⟨⟨Hs, HxR, HaP, HxL, HaM, Hyr, Hys, HoaL, HoaR, HoO, HoX⟩, Hrest⟩
  isplitl [Hs]; · iexact Hs
  isplitl [HaP HaM Hrest]
  · iapply (join_arg m c)
    isplitl [HaP]; · iexact HaP
    isplitl [HaM]; · iexact HaM
    iexact Hrest
  isplitl [HoO HoX]
  · iapply (join_out m c)
    isplitl [HoO]; · iexact HoO
    iexact HoX
  isplitl [HxR HxL]
  · iapply (join_xs m c)
    isplitl [HxR]; · iexact HxR
    iexact HxL
  isplitl [Hys]
  · iapply (join_ys m c); iexact Hys
  isplitl [Hyr]
  · iapply (join_yr m c); iexact Hyr
  iapply (join_oa m c)
  isplitl [HoaL]; · iexact HoaL
  iexact HoaR

/-! ## The end of the kernel -/

/-- With every chunk's completions awaited, the device's cells close and its buffers are whole at their final
    contents. -/
theorem finale (m : (ℓ : Loc nD τ sig) → Buf (Elt F) ℓ) (K : Dev nD × CI → ℕ) (c : Dev nD) :
    iprop(records m K ∗ (bigSep Finset.univ fun k : Fin 16 => T6 m c k) ∗ argRestPts m c) ⊢ |={Set.univ}=> finish m c := by
  iintro ⟨#Hrec, HT, Hrest⟩
  imod (close_all m K c) $$ [HT] with H
  · isplitr
    · iapply (bigSep_of_persistent (Finset.univ : Finset (Fin 16)) (records m K)); iexact Hrec
    · iexact HT
  imodintro
  iapply (regroup m c)
  isplitl [H]; · iexact H
  iexact Hrest

/-- info: 'Cert.KernelIdealProof.finale' depends on axioms: [propext, Classical.choice, Quot.sound] -/
#guard_msgs in #print axioms finale

end Cert.KernelIdealProof

end
-- ==== Proof.BodyMacros.lean ====
/-
  The steps of one device's body as tactics over the hypotheses of `sound_body` (`HR`: the records, `Hlev`: the levels,
  `HLS`: the current loop's state, `Hbar`: the barrier's resources, `HO`: what is owed, `Hrest`: the unread part of the
  argument block, `Hfin`: what runs after the body): opening a part of the printed program where it is reached, one
  step of each loop at a literal chunk, and the passages between the phases.
-/
import proofs.«900304_g7700000000000305_dist_rs_v7x_xy2x2_y_m2048_n512_bf16_1_alg».proof.Proof.StepsA
import proofs.«900304_g7700000000000305_dist_rs_v7x_xy2x2_y_m2048_n512_bf16_1_alg».proof.Proof.StepsB
import proofs.«900304_g7700000000000305_dist_rs_v7x_xy2x2_y_m2048_n512_bf16_1_alg».proof.Proof.StepsC
import proofs.«900304_g7700000000000305_dist_rs_v7x_xy2x2_y_m2048_n512_bf16_1_alg».proof.Proof.StepsD
import proofs.«900304_g7700000000000305_dist_rs_v7x_xy2x2_y_m2048_n512_bf16_1_alg».proof.Proof.StepsE
import proofs.«900304_g7700000000000305_dist_rs_v7x_xy2x2_y_m2048_n512_bf16_1_alg».proof.Proof.Gen.KernelIdeal.Skeleton
import proofs.«900304_g7700000000000305_dist_rs_v7x_xy2x2_y_m2048_n512_bf16_1_alg».proof.Proof.Gen.KernelIdeal.Points

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Lean in
/-- Lay open the part `k0_partN` where the program has reached it: its skeleton, as a chain of operations; the parts
    after it stay folded. -/
macro "open_part " n:num : tactic => do
  let e := mkIdent (Name.mkSimple s!"k0_part{n.getNat}_eq_skeleton")
  let s := mkIdent (Name.mkSimple s!"k0_part{n.getNat}_skel")
  `(tactic| (rw [$e:ident]; unfold $s:ident
             simp only [semSignalWord, semWaitWord, Prog.lift, Prog.bind_op, Prog.bind_ret, Prog.pure_eq_ret]))

/-- Bring the program back to a chain of operations after a part has returned. -/
macro "norm_prog" : tactic =>
  `(tactic| simp only [Prog.lift, Prog.bind_op, Prog.bind_ret, Prog.pure_eq_ret])

set_option hygiene false in
/-- The neighbour-columns load of chunk `n`. -/
macro "do_P " n:num : tactic =>
  `(tactic| (iapply (stepP m K c $n (by decide)); isplitr; (· iexact HR); isplitl [HLS]; (· iexact HLS); iintro HLS))

set_option hygiene false in
/-- The own-columns load of chunk `n`. -/
macro "do_M " n:num : tactic =>
  `(tactic| (iapply (stepM m K c $n (by decide)); isplitr; (· iexact HR); isplitl [HLS]; (· iexact HLS); iintro HLS))

open Lean in
set_option hygiene false in
/-- The first loop's iteration for chunk `n`, whose remote copy addresses the device the printed chain `k0_devD` names. -/
macro "do_1 " n:num d:num : tactic => do
  let dv := mkIdent (Name.mkSimple s!"k0_dev{d.getNat}")
  let dl := mkIdent (Name.mkSimple s!"k0_dev{d.getNat}_lt")
  let de := mkIdent (Name.mkSimple s!"k0_dev{d.getNat}_eq")
  `(tactic| (iapply (step1 m K c $n (by decide) ⟨$dv c, $dl c⟩ (Fin.ext ($de c)))
             isplitr; (· isplitr; (· iexact HR); iexact Hlev); isplitl [HLS]; (· iexact HLS); iintro HLS))

open Lean in
set_option hygiene false in
/-- The second loop's iteration for chunk `n`. -/
macro "do_2 " n:num d:num : tactic => do
  let dv := mkIdent (Name.mkSimple s!"k0_dev{d.getNat}")
  let dl := mkIdent (Name.mkSimple s!"k0_dev{d.getNat}_lt")
  let de := mkIdent (Name.mkSimple s!"k0_dev{d.getNat}_eq")
  `(tactic| (iapply (step2 m K c $n (by decide) ⟨$dv c, $dl c⟩ (Fin.ext ($de c)))
             isplitr; (· isplitr; (· iexact HR); iexact Hlev); isplitl [HLS]; (· iexact HLS); iintro HLS))

set_option hygiene false in
/-- The third loop's iteration for chunk `n`. -/
macro "do_3 " n:num : tactic =>
  `(tactic| (iapply (step3 m K c $n (by decide)); isplitr; (· iexact HR); isplitl [HLS]; (· iexact HLS); iintro HLS))

omit [FloatOps F] in
/-- After the handshake every chunk holds, beside what it held, the two neighbours' landing chunks. -/
theorem T3_all (c : Dev nD) :
    (bigSep Finset.univ fun k : Fin 16 => T3 (F := F) c k)
      = iprop((bigSep Finset.univ fun k : Fin 16 => T2 (F := F) c k)
          ∗ bigSep Finset.univ fun k : Fin 16 => iprop(yrAny (F := F) (yP c) k ∗ outAny (F := F) (xP c) c k)) := by
  rw [← bigSep_sep']; rfl

set_option hygiene false in
/-- Nothing is owed to the y-neighbour any more: the second loop begins. -/
macro "tr_122" : tactic => `(tactic| (
    ihave H := (LS_end c (T4 m c) (fun k => T3 (F := F) c k) (owedX c 0 + owedY c 16)) $$ HLS
    icases H with ⟨HO, HT⟩
    rw [owedY_top, add_zero]
    ihave HLS := (LS_start c (T5 m c) (T4 m c) (owedX c 0)) $$ [HO HT]
    · isplitl [HO]
      · iexact HO
      · iexact HT))

set_option hygiene false in
/-- Nothing is owed at all: the third loop begins. -/
macro "tr_223" : tactic => `(tactic| (
    ihave H := (LS_end c (T5 m c) (T4 m c) (owedX c 16)) $$ HLS
    icases H with ⟨HO, HT⟩
    rw [owedX_top]
    ihave HLS := (LS_start c (T6 m c) (T5 m c) 0) $$ [HO HT]
    · isplitl [HO]
      · iexact HO
      · iexact HT))

set_option hygiene false in
/-- Every neighbour-columns load is issued: on to the own-columns loads. -/
macro "tr_P2M" : tactic => `(tactic| (
    ihave H := (LS_end c (T1 m c) (T0 m c) (O₀ c)) $$ HLS
    icases H with ⟨HO, HT⟩
    ihave HLS := (LS_start c (fun k => T2 (F := F) c k) (T1 m c) (O₀ c)) $$ [HO HT]
    · isplitl [HO]
      · iexact HO
      · iexact HT))

set_option hygiene false in
/-- Every load is issued: the handshake begins; what is owed is named. -/
macro "tr_M2B" : tactic => `(tactic| (
    ihave H := (LS_end c (fun k => T2 (F := F) c k) (T1 m c) (O₀ c)) $$ HLS
    icases H with ⟨⟨%W, HO⟩, HT2⟩))

set_option hygiene false in
/-- The signal to the y-neighbour. -/
macro "tr_sigY" : tactic => `(tactic| (
    iapply (barSigY m K c ⟨k0_dev1 c, k0_dev1_lt c⟩ (Fin.ext (k0_dev1_eq c)) (W := W))
    isplitr; · iexact HR
    isplitl [Hbar]; · iexact Hbar
    isplitl [HO]; · iexact HO
    iintro ⟨Hbar, HO⟩))

set_option hygiene false in
/-- The signal to the x-neighbour. -/
macro "tr_sigX" : tactic => `(tactic| (
    iapply (barSigX m K c ⟨k0_dev2 c, k0_dev2_lt c⟩ (Fin.ext (k0_dev2_eq c)) (W := W))
    isplitr; · iexact HR
    isplitl [Hbar]; · iexact Hbar
    isplitl [HO]; · iexact HO
    iintro ⟨Hbar, HO⟩))

set_option hygiene false in
/-- The wait for both neighbours' signals. -/
macro "tr_wait" : tactic => `(tactic| (
    iapply (barWait m K c (W := W))
    isplitr; · iexact HR
    isplitr; · iexact Hlev
    isplitl [Hbar]; · iexact Hbar
    isplitl [HO]; · iexact HO
    iintro ⟨HO, Hat, Hnb⟩))

set_option hygiene false in
/-- Each chunk now also holds the two neighbours' landing chunks: the first loop begins. -/
macro "tr_B21" : tactic => `(tactic| (
    ihave HT3 := (Entails.of_eq (T3_all (F := F) c).symm) $$ [HT2 Hnb]
    · isplitl [HT2]
      · iexact HT2
      · iexact Hnb
    ihave HLS := (LS_start c (T4 m c) (fun k => T3 (F := F) c k) (owedX c 0 + owedY c 0)) $$ [HO HT3]
    · isplitl [HO]
      · iexact HO
      · iexact HT3))

set_option hygiene false in
/-- Every chunk is at its last stage: the buffers are rejoined, the semaphores read at zero, and the body returns. -/
macro "tr_end" : tactic => `(tactic| (
    ihave H := (LS_end c (T6 m c) (T5 m c) 0) $$ HLS
    icases H with ⟨HO, HT6⟩
    norm_prog
    rw [wp_ret]
    imod (finale m K c) $$ [HT6 Hrest] with Hf
    · isplitr; · iexact HR
      isplitl [HT6]
      · iexact HT6
      · iexact Hrest
    imodintro
    iapply Hfin
    isplitl [Hf]
    · iexact Hf
    · iexact HO))

end Cert.KernelIdealProof

end
-- ==== Proof.BodySeq.lean ====
import proofs.«900304_g7700000000000305_dist_rs_v7x_xy2x2_y_m2048_n512_bf16_1_alg».proof.Proof.BodyMacros

namespace Cert.KernelIdealProof

/-- The body's operations in program order: each part opened where the first step that needs it stands, the loads,
    the handshake and the three loops' iterations taken one after the other, with the passages between the phases. -/
macro "thread_body" : tactic => `(tactic| (
    do_P 0
    do_P 1
    do_P 2
    open_part 2
    do_P 3
    do_P 4
    do_P 5
    do_P 6
    do_P 7
    open_part 3
    do_P 8
    do_P 9
    do_P 10
    do_P 11
    do_P 12
    open_part 4
    do_P 13
    do_P 14
    do_P 15
    tr_P2M
    do_M 0
    do_M 1
    open_part 5
    do_M 2
    do_M 3
    do_M 4
    do_M 5
    do_M 6
    open_part 6
    do_M 7
    do_M 8
    do_M 9
    do_M 10
    do_M 11
    open_part 7
    do_M 12
    do_M 13
    do_M 14
    do_M 15
    tr_M2B
    tr_sigY
    open_part 8
    tr_sigX
    tr_wait
    tr_B21
    do_1 0 3
    open_part 9
    do_1 1 4
    open_part 10
    do_1 2 5
    do_1 3 6
    open_part 11
    do_1 4 7
    open_part 12
    do_1 5 8
    open_part 13
    do_1 6 9
    do_1 7 10
    open_part 14
    do_1 8 11
    open_part 15
    do_1 9 12
    do_1 10 13
    open_part 16
    do_1 11 14
    open_part 17
    do_1 12 15
    do_1 13 16
    open_part 18
    do_1 14 17
    open_part 19
    do_1 15 18
    tr_122
    open_part 20
    do_2 0 19
    open_part 21
    do_2 1 20
    open_part 22
    open_part 23
    do_2 2 21
    open_part 24
    do_2 3 22
    open_part 25
    do_2 4 23
    open_part 26
    do_2 5 24
    open_part 27
    open_part 28
    do_2 6 25
    open_part 29
    do_2 7 26
    open_part 30
    do_2 8 27
    open_part 31
    open_part 32
    do_2 9 28
    open_part 33
    do_2 10 29
    open_part 34
    do_2 11 30
    open_part 35
    do_2 12 31
    open_part 36
    open_part 37
    do_2 13 32
    open_part 38
    do_2 14 33
    open_part 39
    do_2 15 34
    tr_223
    open_part 40
    do_3 0
    open_part 41
    do_3 1
    open_part 42
    do_3 2
    do_3 3
    open_part 43
    do_3 4
    open_part 44
    do_3 5
    open_part 45
    do_3 6
    open_part 46
    do_3 7
    do_3 8
    open_part 47
    do_3 9
    open_part 48
    do_3 10
    open_part 49
    do_3 11
    open_part 50
    do_3 12
    open_part 51
    do_3 13
    do_3 14
    norm_prog
    do_3 15
    tr_end
  ))

end Cert.KernelIdealProof
-- ==== Proof.Body.lean ====
/-
  One device's body, from its state at entry to its state at exit, and the body obligation of the launch.

  The printed body is a sequence of fifty-two parts. The proof opens one part at a time where the program has
  reached it, so that at every step the goal holds the operations of one or two parts and the later parts as names.
  In program order: sixteen loads of the y-neighbour's columns (`stepP`), sixteen of the device's own (`stepM`), the
  handshake on the barrier semaphore (two signals and a wait), after which every chunk also holds the two neighbours'
  landing chunks; then the three loops over the chunks (`step1`, `step2`, `step3`), nothing being owed to the
  y-neighbour after the first and nothing at all after the second; at the end the chunks are rejoined into whole
  buffers and the semaphores read at zero (`finale`).
-/
import proofs.«900304_g7700000000000305_dist_rs_v7x_xy2x2_y_m2048_n512_bf16_1_alg».proof.Proof.BodySeq

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 8000000 in
/-- One device's body, from its state at entry to its state at exit. -/
theorem sound_body (K : Dev nD × CI → ℕ) (c : Dev nD) (t : Fin cfg0.N) (Q : PUnit → sProp 𝕄) :
    iprop(start m K c ∗ (∃ W, owes (c : Thread nD τ) (O₀ c) W) ∗ ((finish m c ∗ ∃ W, owes (c : Thread nD τ) 0 W) -∗ Q ⟨⟩))
      ⊢ wp frame (wpE (defs₀ (F := F)) 𝒱₀ (c : Thread nD τ) none) Set.univ (bodyAt0 (F := F) t) Q := by
  unfold start
  iintro ⟨⟨#HR, #Hlev, Hbar, Hrest, HT0⟩, HO, Hfin⟩
  ihave HLS := (LS_start c (T1 m c) (T0 m c) (O₀ c)) $$ [HO HT0]
  · isplitl [HO]
    · iexact HO
    · iexact HT0
  -- the body's first part, the device's own id read as `c`
  unfold bodyAt0
  rw [cc0_body_eq_skeleton]
  unfold cc0_body_skel
  rw [k0_part52_eq_skeleton]
  unfold k0_part52_skel
  rw [k0_part1_eq_skeleton]
  unfold k0_part1_skel
  simp only [Prog.lift, Prog.bind_op, Prog.bind_ret, Prog.pure_eq_ret, wp_deviceId]
  -- then every operation in program order
  thread_body

/-- info: 'Cert.KernelIdealProof.sound_body' depends on axioms: [propext, Classical.choice, Quot.sound] -/
#guard_msgs in #print axioms sound_body

/-- The kernel has one point. -/
theorem body_cfg0_N : cfg0.N = 1 := by decide

/-- The library's body obligation on device `c`: at the one point, from the state at entry and what the device owes at
    launch to the state at exit with nothing owed. -/
theorem body_obligation (c : Dev nD) : BodyObligation (dats (F := F) m 0 c) (defs₀ (F := F)) 𝒱₀ () Set.univ := fun t => by
  have ht : t = ⟨0, by rw [body_cfg0_N]; decide⟩ := Fin.ext (by have h1 := t.isLt; have h2 := body_cfg0_N; omega)
  subst ht
  show iprop(Φ₀ m c ∗ Pipeline.owesWithin c (O₀ c) _ ∗ bigSep (Finset.univ : Finset (Fin 0)) _)
    ⊢ wp frame (wpE (defs₀ (F := F)) 𝒱₀ (c : Thread nD τ) none) Set.univ (bodyAt0 (F := F) ⟨0, by rw [body_cfg0_N]; decide⟩)
        (fun _ => iprop(finish m c ∗ Pipeline.owesWithin c 0 _ ∗ bigSep (Finset.univ : Finset (Fin 0)) _))
  unfold Φ₀ Pipeline.owesWithin
  iintro ⟨⟨%K, Hst⟩, ⟨%W, %hW, HO⟩, -⟩
  iapply (sound_body m K c _ _)
  isplitl [Hst]; · iexact Hst
  isplitl [HO]; · iexists W; iexact HO
  iintro ⟨Hfin, ⟨%W', HO'⟩⟩
  isplitl [Hfin]; · iexact Hfin
  isplitl [HO']
  · iexists W'
    isplitr; · ipureintro; exact fun _ _ => Or.inl trivial
    iexact HO'
  · rw [Finset.univ_eq_empty, bigSep_empty]; iempintro

/-- info: 'Cert.KernelIdealProof.body_obligation' depends on axioms: [propext, Classical.choice, Quot.sound] -/
#guard_msgs in #print axioms body_obligation

end Cert.KernelIdealProof

end
-- ==== Proof.Bits.Base.lean ====
/-
  Names shared by the modules of this proof: the mesh's two neighbours of a device, the buffers and their
  sixteen 64-row chunks, the seven families of sixteen DMA semaphores, the barrier semaphore, and the cells.

  The mesh is 2 × 2: device `c` sits at `x = c / 2`, `y = c % 2`. Its y-neighbour `yP c` shares `x`, its
  x-neighbour `xP c` shares `y`. Device `c` works on rows `1024·x + 64·k …` (chunk `k`) of its argument block:
  the columns of the OTHER y go to the y-neighbour (which adds them to its own), the sums go to the x-neighbour.
-/
import proofs.«900304_g7700000000000305_dist_rs_v7x_xy2x2_y_m2048_n512_bf16_1_alg».proof.Proof.Gen.Kernel
import proofs.«900304_g7700000000000305_dist_rs_v7x_xy2x2_y_m2048_n512_bf16_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds' (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two neighbours -/

/-- The device with the same `x` and the other `y`. -/
def yP (c : Dev nD) : Dev nD := ⟨2 * (c.val / 2) + 1 - c.val % 2, by revert c; decide⟩
/-- The device with the same `y` and the other `x`. -/
def xP (c : Dev nD) : Dev nD := ⟨c.val % 2 + 2 - 2 * (c.val / 2), by revert c; decide⟩

theorem yP_yP (c : Dev nD) : yP (yP c) = c := by revert c; decide
theorem xP_xP (c : Dev nD) : xP (xP c) = c := by revert c; decide
theorem yP_ne (c : Dev nD) : yP c ≠ c := by revert c; decide
theorem xP_ne (c : Dev nD) : xP c ≠ c := by revert c; decide
theorem xP_ne_yP (c : Dev nD) : xP c ≠ yP c := by revert c; decide
/-- The y-neighbour sits in the same row half; the x-neighbour in the other. -/
theorem yP_x (c : Dev nD) : (yP c).val / 2 = c.val / 2 := by revert c; decide
theorem yP_y (c : Dev nD) : (yP c).val % 2 = 1 - c.val % 2 := by revert c; decide
theorem xP_x (c : Dev nD) : (xP c).val / 2 = 1 - c.val / 2 := by revert c; decide
theorem xP_y (c : Dev nD) : (xP c).val % 2 = c.val % 2 := by revert c; decide

def yEquiv : Dev nD ≃ Dev nD := ⟨yP, yP, yP_yP, yP_yP⟩
def xEquiv : Dev nD ≃ Dev nD := ⟨xP, xP, xP_xP, xP_xP⟩

/-! ## The buffers and their chunks -/

abbrev aW : Memref sig .tc .hbm S1x2048x1024 .f32 := Memref.whole main_arg0
abbrev oW : Memref sig .tc .hbm S2048x512 .bf16 := Memref.whole main_v1
abbrev xsW : Memref sig .tc .vmem S1024x1024 .f32 := Memref.whole cc0_scratch0
abbrev ysW : Memref sig .tc .vmem S1024x512 .bf16 := Memref.whole cc0_scratch1
abbrev yrW : Memref sig .tc .vmem S1024x512 .bf16 := Memref.whole cc0_scratch2
abbrev oaW : Memref sig .tc .vmem S1024x512 .bf16 := Memref.whole cc0_scratch3

theorem inb_xR (k : Fin 16) : ∀ a, (![64 * k.val, 512] : Fin 2 → Nat) a + S64x512.size a ≤ S1024x1024.size a := by revert k; decide
theorem inb_xL (k : Fin 16) : ∀ a, (![64 * k.val, 0] : Fin 2 → Nat) a + S64x512.size a ≤ S1024x1024.size a := by revert k; decide
theorem inb_ch (k : Fin 16) : ∀ a, (![64 * k.val, 0] : Fin 2 → Nat) a + S64x512.size a ≤ S1024x512.size a := by revert k; decide
theorem inb_sem (k : Fin 16) : ∀ a, (![k.val] : Fin 1 → Nat) a + S1.size a ≤ S16.size a := by revert k; decide

/-- Rows `64·k …` of the staging buffer, right half (the y-neighbour's columns) and left half (this device's). -/
abbrev rXR (k : Fin 16) : Rect S1024x1024 := Rect.unit (s := S1024x1024) ![64 * k.val, 512] S64x512.size (inb_xR k)
abbrev rXL (k : Fin 16) : Rect S1024x1024 := Rect.unit (s := S1024x1024) ![64 * k.val, 0] S64x512.size (inb_xL k)
/-- Rows `64·k …` of a 1024 × 512 scratch buffer. -/
abbrev rCh (k : Fin 16) : Rect S1024x512 := Rect.unit (s := S1024x512) ![64 * k.val, 0] S64x512.size (inb_ch k)

abbrev xsR (k : Fin 16) : Memref sig .tc .vmem S64x512 .f32 := xsW.slice (rXR k) (fun _ => rfl)
abbrev xsL (k : Fin 16) : Memref sig .tc .vmem S64x512 .f32 := xsW.slice (rXL k) (fun _ => rfl)
abbrev ysC (k : Fin 16) : Memref sig .tc .vmem S64x512 .bf16 := ysW.slice (rCh k) (fun _ => rfl)
abbrev yrC (k : Fin 16) : Memref sig .tc .vmem S64x512 .bf16 := yrW.slice (rCh k) (fun _ => rfl)
abbrev oaC (k : Fin 16) : Memref sig .tc .vmem S64x512 .bf16 := oaW.slice (rCh k) (fun _ => rfl)

/-- Chunk `k` of device `c`'s row half of its argument block: the y-neighbour's columns, and its own. -/
abbrev aPr (c : Dev nD) (k : Fin 16) : Memref sig .tc .hbm S64x512 .f32 :=
  (aW.slice (Rect.unit (s := S1x2048x1024) (k0_off1 c (BitVec.ofNat 32 (64 * k.val))) S1x64x512.size (k0_off1_inb c k)) (fun _ => rfl)).squeeze S64x512 squeezes_S1x64x512_S64x512
abbrev aMn (c : Dev nD) (k : Fin 16) : Memref sig .tc .hbm S64x512 .f32 :=
  (aW.slice (Rect.unit (s := S1x2048x1024) (k0_off2 c (BitVec.ofNat 32 (64 * k.val))) S1x64x512.size (k0_off2_inb c k)) (fun _ => rfl)).squeeze S64x512 squeezes_S1x64x512_S64x512
/-- Chunk `k` of device `c`'s row half of a RESULT buffer (its own, or its x-neighbour's). -/
abbrev oC (c : Dev nD) (k : Fin 16) : Memref sig .tc .hbm S64x512 .bf16 :=
  oW.slice (Rect.unit (s := S2048x512) (k0_off3 c (BitVec.ofNat 32 (64 * k.val))) S64x512.size (k0_off3_inb c k)) (fun _ => rfl)

/-! ## The semaphores and the cells -/

/-- The seven families of sixteen DMA semaphores, in the order of the kernel's scratch operands: the two local
    loads (neighbour's columns, own columns), the y-exchange's send and receive, the x-exchange's send and receive,
    the local store. -/
abbrev semArr : Fin 7 → DmaSems sig S16 := ![cc0_scratch4, cc0_scratch5, cc0_scratch6, cc0_scratch7, cc0_scratch8, cc0_scratch9, cc0_scratch10]

abbrev dsem (j : Fin 7) (k : Fin 16) : DmaSem sig :=
  (((semArr j).slice (Rect.unit (s := S16) ![k.val] S1.size (inb_sem k))).squeeze S_ squeezes_S1_S_).sem

theorem dsem_val (j : Fin 7) (k : Fin 16) : (dsem j k).val = 16 * j.val + k.val := by revert j k; decide

theorem dsem_injective : Function.Injective (fun jk : Fin 7 × Fin 16 => dsem jk.1 jk.2) := by
  rintro ⟨j, k⟩ ⟨j', k'⟩ h
  have h' : 16 * j.val + k.val = 16 * j'.val + k'.val := by rw [← dsem_val, ← dsem_val]; exact congrArg Fin.val h
  have hj : j = j' := Fin.ext (by omega)
  have hk : k = k' := Fin.ext (by omega)
  rw [hj, hk]

abbrev jPeer : Fin 7 := 0
abbrev jMine : Fin 7 := 1
abbrev jYS : Fin 7 := 2
abbrev jYR : Fin 7 := 3
abbrev jXS : Fin 7 := 4
abbrev jXR : Fin 7 := 5
abbrev jSt : Fin 7 := 6

/-- The runtime's barrier semaphore of collective id 0. -/
abbrev barS : Sem sig := (SemArray.scalar (sig.barrier 0 rfl) : Sems sig S_).sem

abbrev barCell (c : Dev nD) : GSem nD τ sig := ((c : Thread nD τ), .reg barS)
abbrev dCell (c : Dev nD) (j : Fin 7) (k : Fin 16) : GSem nD τ sig := ((c : Thread nD τ), .dma (dsem j k))

theorem dma_ne_bar (s : DmaSem sig) : (SemLoc.dma s : SemLoc sig) ≠ .reg barS := fun h => by cases h

theorem dCell_eq_iff {c c' : Dev nD} {j j' : Fin 7} {k k' : Fin 16} : dCell c j k = dCell c' j' k' ↔ c = c' ∧ j = j' ∧ k = k' := by
  constructor
  · intro h
    have h1 : c = c' := Fin.ext (congrArg (fun g : GSem nD τ sig => g.1.1.val) h)
    have h2 : (SemLoc.dma (dsem j k) : SemLoc sig) = .dma (dsem j' k') := congrArg Prod.snd h
    have h3 : dsem j k = dsem j' k' := by injection h2
    have h4 := dsem_injective (a₁ := (j, k)) (a₂ := (j', k')) h3
    exact ⟨h1, congrArg Prod.fst h4, congrArg Prod.snd h4⟩
  · rintro ⟨rfl, rfl, rfl⟩; rfl

theorem barCell_eq_iff {c c' : Dev nD} : barCell c = barCell c' ↔ c = c' :=
  ⟨fun h => Fin.ext (congrArg (fun g : GSem nD τ sig => g.1.1.val) h), fun h => h ▸ rfl⟩

theorem dCell_ne_bar (c c' : Dev nD) (j : Fin 7) (k : Fin 16) : dCell c j k ≠ barCell c' :=
  fun h => dma_ne_bar _ (congrArg Prod.snd h)

/-- The credit of a 64 × 512 chunk of f32 and of bf16. -/
abbrev NF : ℕ := (xsR 0).view.dmaCredit
abbrev NB : ℕ := (ysC 0).view.dmaCredit
theorem NF_pos : 0 < NF := View.dmaCredit_pos _ (by decide)
theorem NB_pos : 0 < NB := View.dmaCredit_pos _ (by decide)

/-- What a cell of family `j` counts: f32 chunks on the two load families, bf16 chunks on the others. -/
def amt (j : Fin 7) : ℕ := if j.val < 2 then NF else NB
theorem amt_pos (j : Fin 7) : 0 < amt j := by unfold amt; split; exact NF_pos; exact NB_pos

end Cert.KernelProof

end
-- ==== Proof.Bits.Vals.lean ====
/-
  What every buffer holds at the end of the kernel, as explicit functions of the devices' argument blocks.

  Chunk `k` (rows `64·k …`) of a device's row half: `vPeer` is the y-neighbour's columns of it, `vMine` the device's
  own columns; `ysVec` is `vPeer` narrowed to bf16 (what the device sends its y-neighbour), and `oaVec` is `vMine` narrowed
  plus what the y-neighbour sent (its `ysVec`): the chunk of the reduced result. The result buffer holds the device's own
  sixteen `oaVec`s in its row half and the x-neighbour's in the other.
-/
import proofs.«900304_g7700000000000305_dist_rs_v7x_xy2x2_y_m2048_n512_bf16_1_alg».proof.Proof.Bits.Base
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-- The value the first exchange stores: a chunk narrowed to bf16. -/
def ysVal (v : Vec F S64x512 .f32) : FVec F S64x512 .bf16 :=
  shapeCast S64x512 (truncf .bf16 v bitsLt_bf16_f32) shapeCasts_S64x512_S64x512
/-- The value the second exchange stores: a chunk narrowed to bf16 plus the received chunk. -/
def oaVal (v : Vec F S64x512 .f32) (w : Vec F S64x512 .bf16) : FVec F S64x512 .bf16 :=
  shapeCast S64x512 (addf (truncf .bf16 v bitsLt_bf16_f32) w) shapeCasts_S64x512_S64x512

/-- Which chunk a row of a 1024-row buffer lies in, and where in the chunk. -/
def chunkOf {n1 : Nat} (i : (⟨2, ![1024, n1]⟩ : Shape).Idx) : Fin 16 := ⟨(i 0).val / 64, by have := idx2_lt0 i; omega⟩
def rowIn {n1 : Nat} (i : (⟨2, ![1024, n1]⟩ : Shape).Idx) : Fin 64 := ⟨(i 0).val % 64, Nat.mod_lt _ (by decide)⟩

/-- A 1024 × 512 buffer from its sixteen 64 × 512 chunks. -/
def chunked {α : Type} (g : Fin 16 → S64x512.Idx → α) : S1024x512.Idx → α := fun i => g (chunkOf i) (ix2 (rowIn i) (i 1))

variable (m : (ℓ : Loc nD τ sig) → Buf (Elt F) ℓ)

/-- Device `c`'s argument block. -/
def argOf (c : Dev nD) : Buf (Elt F) ((c : Thread nD τ).loc main_arg0) := m ((c : Thread nD τ).loc main_arg0)

def vPeer (c : Dev nD) (k : Fin 16) : Vec F S64x512 .f32 := (aPr c k).view.read (Elt F) (argOf m c)
def vMine (c : Dev nD) (k : Fin 16) : Vec F S64x512 .f32 := (aMn c k).view.read (Elt F) (argOf m c)
def ysVec (c : Dev nD) (k : Fin 16) : FVec F S64x512 .bf16 := ysVal (vPeer m c k)
def oaVec (c : Dev nD) (k : Fin 16) : FVec F S64x512 .bf16 := oaVal (vMine m c k) (ysVec m (yP c) k)

/-- The staging buffer: own columns on the left, the y-neighbour's on the right. -/
def xsFin (c : Dev nD) : (cc0_scratch0 : Ref sig .tc).ty.Contents (Elt F) := fun i =>
  if h : (i 1).val < 512 then vMine m c (chunkOf i) (ix2 (rowIn i) ⟨(i 1).val, h⟩)
  else vPeer m c (chunkOf i) (ix2 (rowIn i) ⟨(i 1).val - 512, by have := idx2_lt1 i; omega⟩)
def ysFin (c : Dev nD) : (cc0_scratch1 : Ref sig .tc).ty.Contents (Elt F) := chunked (ysVec m c)
def yrFin (c : Dev nD) : (cc0_scratch2 : Ref sig .tc).ty.Contents (Elt F) := chunked (ysVec m (yP c))
def oaFin (c : Dev nD) : (cc0_scratch3 : Ref sig .tc).ty.Contents (Elt F) := chunked (oaVec m c)

/-- The result buffer: row half `X` holds the sixteen reduced chunks of the device at `(X, y)`. -/
def outFin (c : Dev nD) : (main_v1 : Ref sig .tc).ty.Contents (Elt F) := fun i =>
  oaVec m (if (i 0).val / 1024 = c.val / 2 then c else xP c) ⟨(i 0).val % 1024 / 64, by omega⟩
    (ix2 ⟨(i 0).val % 64, Nat.mod_lt _ (by decide)⟩ (i 1))

/-- The elements of a device's argument block that none of its thirty-two chunk loads reads (the other row half). -/
def argRest (c : Dev nD) : Finset (Idx ((c : Thread nD τ).loc main_arg0)) :=
  Finset.univ \ (Finset.univ.biUnion fun k : Fin 16 => (aPr c k).view.set ∪ (aMn c k).view.set)

end Cert.KernelProof

end
-- ==== Proof.Bits.Sched.lean ====
/-
  The protocol as a schedule of rounds. Every cell has one round.

  A DMA cell has one duty (`false`): the copy that completes on it, whose payload is what the copy leaves — the
  destination chunk at its final contents and, where the copy's source must come back to the device, the source.
  The barrier cell of device `c` has two duties of one unit each: `false`, the y-neighbour's signal, which hands `c` the
  y-neighbour's receive buffer chunk by chunk; `true`, the x-neighbour's signal, which hands `c` its own row half of the
  x-neighbour's result buffer chunk by chunk; each with the fact that the neighbour's receive cells are at round 0.

  Levels: the barrier cells below the y-exchange's receive cells below the x-exchange's; everything a device waits
  for while it still owes sits below what it owes.
-/
import proofs.«900304_g7700000000000305_dist_rs_v7x_xy2x2_y_m2048_n512_bf16_1_alg».proof.Proof.Bits.Vals

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Decoding a DMA semaphore: its family and its chunk -/

def famOf (s : DmaSem sig) : Fin 7 := ⟨s.val / 16, by have := s.isLt; have h : sig.nDmaSem = 112 := rfl; omega⟩
def chOf (s : DmaSem sig) : Fin 16 := ⟨s.val % 16, Nat.mod_lt _ (by decide)⟩
theorem famOf_dsem (j : Fin 7) (k : Fin 16) : famOf (dsem j k) = j := Fin.ext (by show (dsem j k).val / 16 = j.val; rw [dsem_val]; omega)
theorem chOf_dsem (j : Fin 7) (k : Fin 16) : chOf (dsem j k) = k := Fin.ext (by show (dsem j k).val % 16 = k.val; rw [dsem_val]; omega)

/-! ## What each copy leaves -/

/-- Chunk `k` of a buffer of device `c` at the buffer's final contents. -/
def xsRPts (c : Dev nD) (k : Fin 16) : sProp 𝕄 := (xsR k).view.loc (c : Thread nD τ) ↦[(xsR k).view.set]{fullShare} xsFin m c
def xsLPts (c : Dev nD) (k : Fin 16) : sProp 𝕄 := (xsL k).view.loc (c : Thread nD τ) ↦[(xsL k).view.set]{fullShare} xsFin m c
def ysPts (c : Dev nD) (k : Fin 16) : sProp 𝕄 := (ysC k).view.loc (c : Thread nD τ) ↦[(ysC k).view.set]{fullShare} ysFin m c
def yrPts (c : Dev nD) (k : Fin 16) : sProp 𝕄 := (yrC k).view.loc (c : Thread nD τ) ↦[(yrC k).view.set]{fullShare} yrFin m c
def oaPts (q : PosShare TreeShare) (c : Dev nD) (k : Fin 16) : sProp 𝕄 := (oaC k).view.loc (c : Thread nD τ) ↦[(oaC k).view.set]{q} oaFin m c
/-- Chunk `k` of device `d`'s row half of device `c`'s result buffer, at the final contents. -/
def outPts (c d : Dev nD) (k : Fin 16) : sProp 𝕄 := (oC d k).view.loc (c : Thread nD τ) ↦[(oC d k).view.set]{fullShare} outFin m c
/-- The two chunks of the argument block a device reads for chunk `k`, unchanged. -/
def aPrPts (c : Dev nD) (k : Fin 16) : sProp 𝕄 := (aPr c k).view.loc (c : Thread nD τ) ↦[(aPr c k).view.set]{fullShare} argOf m c
def aMnPts (c : Dev nD) (k : Fin 16) : sProp 𝕄 := (aMn c k).view.loc (c : Thread nD τ) ↦[(aMn c k).view.set]{fullShare} argOf m c

/-- Chunk `k` of a scratch or result buffer at SOME contents. -/
def yrAny (c : Dev nD) (k : Fin 16) : sProp 𝕄 := iprop(∃ f, (yrC k).view.loc (c : Thread nD τ) ↦[(yrC k).view.set]{fullShare} f)
def outAny (c d : Dev nD) (k : Fin 16) : sProp 𝕄 := iprop(∃ f, (oC d k).view.loc (c : Thread nD τ) ↦[(oC d k).view.set]{fullShare} f)

/-- The payload of the one duty of DMA cell `(c, family j, chunk k)`. -/
def famPay (c : Dev nD) (j : Fin 7) (k : Fin 16) : sProp 𝕄 :=
  match j with
  | 0 => iprop(xsRPts m c k ∗ aPrPts m c k)
  | 1 => iprop(xsLPts m c k ∗ aMnPts m c k)
  | 2 => ysPts m c k
  | 3 => yrPts m c k
  | 4 => oaPts m fullShare.right c k
  | 5 => outPts m c (xP c) k
  | 6 => iprop(outPts m c c k ∗ oaPts m fullShare.left c k)

/-- What the y-neighbour's barrier signal hands `c`: the neighbour's receive buffer by chunks, its receive cells at round 0. -/
def barPayY (c : Dev nD) : sProp 𝕄 :=
  iprop((bigSep Finset.univ fun k : Fin 16 => yrAny (F := F) (yP c) k) ∗ bigSep Finset.univ fun k : Fin 16 => reached ER (dCell (yP c) jYR k) 0)
/-- What the x-neighbour's barrier signal hands `c`: `c`'s row half of the neighbour's result buffer by chunks, the
    neighbour's receive cells at round 0. -/
def barPayX (c : Dev nD) : sProp 𝕄 :=
  iprop((bigSep Finset.univ fun k : Fin 16 => outAny (F := F) (xP c) c k) ∗ bigSep Finset.univ fun k : Fin 16 => reached ER (dCell (xP c) jXR k) 0)

/-! ## The schedule -/

def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt (famOf s)
  payload g _ d := match g.2 with
    | .reg _ => if d then barPayX g.1.1 else barPayY g.1.1
    | .dma s => famPay m g.1.1 (famOf s) (chOf s)
  amount_pos g _ _ _ := by
    cases h : g.2 with
    | reg s => simp only [h]; exact Nat.one_pos
    | dma s => simp only [h]; exact amt_pos _

instance famPay_storable (c : Dev nD) (j : Fin 7) (k : Fin 16) : BI.Storable (upEmb : UEmb _ 𝕄) (famPay m c j k) := by
  unfold famPay xsRPts xsLPts ysPts yrPts oaPts outPts aPrPts aMnPts
  split <;> infer_instance
instance barPayY_storable (c : Dev nD) : BI.Storable (upEmb : UEmb _ 𝕄) (barPayY (F := F) c) := by unfold barPayY yrAny; infer_instance
instance barPayX_storable (c : Dev nD) : BI.Storable (upEmb : UEmb _ 𝕄) (barPayX (F := F) c) := by unfold barPayX outAny; infer_instance

instance ringRd_payload_storable (g : GSem nD τ sig) (r : ℕ) (d : Bool) :
    BI.Storable (upEmb : UEmb _ 𝕄) ((ringRd (F := F) m).payload g r d) := by
  show BI.Storable upEmb (match g.2 with
    | .reg _ => if d then barPayX g.1.1 else barPayY g.1.1
    | .dma s => famPay m g.1.1 (famOf s) (chOf s))
  split
  · split <;> infer_instance
  · infer_instance

/-! ## Levels, and what each device owes at launch -/

def L (g : GSem nD τ sig) : Finset Unit := if g.1.2 = .tc then {()} else ∅
/-- Barrier cells at 1, the y-exchange's receive cells at 2, the x-exchange's at 3, all other cells at 0. -/
def lv (g : GSem nD τ sig) (_ : Unit) : ℕ :=
  match g.2 with
  | .reg _ => 1
  | .dma s => if famOf s = jYR then 2 else if famOf s = jXR then 3 else 0

/-- The credit device `c` owes its y-neighbour's receive cells of chunks `k, k+1, …`; likewise its x-neighbour's. -/
def owedY (c : Dev nD) (k : ℕ) : CellTallies nD τ sig Unit := ∑ j ∈ Finset.univ.filter (fun j : Fin 16 => k ≤ j.val), tallyAt (dCell (yP c) jYR j) () NB
def owedX (c : Dev nD) (k : ℕ) : CellTallies nD τ sig Unit := ∑ j ∈ Finset.univ.filter (fun j : Fin 16 => k ≤ j.val), tallyAt (dCell (xP c) jXR j) () NB

/-- At launch: every receive credit of both exchanges and one unit to each neighbour's barrier cell; the first
    signal (to the y-neighbour) peels the last summand, the second (to the x-neighbour) the one before. -/
def O₂ (c : Dev nD) : CellTallies nD τ sig Unit := owedX c 0 + owedY c 0
def O₁ (c : Dev nD) : CellTallies nD τ sig Unit := O₂ c + tallyAt (barCell (xP c)) () 1
def O₀ (c : Dev nD) : CellTallies nD τ sig Unit := O₁ c + tallyAt (barCell (yP c)) () 1

end Cert.KernelProof

end
-- ==== Proof.Bits.State.lean ====
/-
  The state of one device between the kernel's statements, chunk by chunk.

  Each of the sixteen chunks passes through seven stages: before anything (`T0`), its neighbour-columns load issued
  (`T1`), its own-columns load issued (`T2`), after the barrier, holding the two neighbours' landing chunks (`T3`),
  narrowed and sent to the y-neighbour (`T4`), reduced, stored locally and sent to the x-neighbour (`T5`), and with
  all four completions awaited (`T6`). A loop of the kernel moves the chunks from one stage to the next in order, so
  between its iterations the chunks below the counter are at the later stage and the others at the earlier (`LS`).
-/
import proofs.«900304_g7700000000000305_dist_rs_v7x_xy2x2_y_m2048_n512_bf16_1_alg».proof.Proof.Bits.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## All cells, and the invariants' names -/

/-- A cell of a device: the barrier cell (`none`) or the DMA cell of a family and a chunk. -/
abbrev CI : Type := Option (Fin 7 × Fin 16)
abbrev kcell (ck : Dev nD × CI) : GSem nD τ sig :=
  match ck.2 with
  | none => barCell ck.1
  | some jk => dCell ck.1 jk.1 jk.2

/-- Every cell's invariant at its name, and that round 0 of every cell is reached: what every device knows. -/
def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) :
    (bigSep Finset.univ fun ck : Dev nD × CI => (cellInv ER (ringRd m) (K ck) (kcell ck) : sProp 𝕄)) ⊢ cellInv ER (ringRd m) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)

theorem inv_bar (K : Dev nD × CI → ℕ) (c : Dev nD) : records m K ⊢ cellInv ER (ringRd m) (K (c, none)) (barCell c) := by
  unfold records; iintro ⟨H, -⟩; iapply (inv_at m K (c, none)); iexact H
theorem inv_dma (K : Dev nD × CI → ℕ) (c : Dev nD) (j : Fin 7) (k : Fin 16) :
    records m K ⊢ cellInv ER (ringRd m) (K (c, some (j, k))) (dCell c j k) := by
  unfold records; iintro ⟨H, -⟩; iapply (inv_at m K (c, some (j, k))); iexact H
theorem reached_bar (K : Dev nD × CI → ℕ) (c : Dev nD) : records m K ⊢ reached ER (barCell c) 0 := by
  unfold records; iintro ⟨-, H⟩; iapply (reached_at (F := F) (c, none)); iexact H
theorem reached_dma (K : Dev nD × CI → ℕ) (c : Dev nD) (j : Fin 7) (k : Fin 16) : records m K ⊢ reached ER (dCell c j k) 0 := by
  unfold records; iintro ⟨-, H⟩; iapply (reached_at (F := F) (c, some (j, k))); iexact H

/-! ## One chunk's resources, stage by stage -/

section Chunk
variable (c : Dev nD) (k : Fin 16)

def anyAt {sp : Space} {s : Shape} {e : EltTy} (M : Memref sig .tc sp s e) (c : Dev nD) : sProp 𝕄 :=
  iprop(∃ f, M.view.loc (c : Thread nD τ) ↦[M.view.set]{fullShare} f)

/-- The owner's position on the seven cells of chunk `k`, family `j` at round `r j`. -/
def posAt (r : Fin 7 → ℕ) : sProp 𝕄 :=
  iprop(atPos ER (dCell c 0 k) (r 0) ∅ 0 ∗ atPos ER (dCell c 1 k) (r 1) ∅ 0 ∗ atPos ER (dCell c 2 k) (r 2) ∅ 0 ∗ atPos ER (dCell c 3 k) (r 3) ∅ 0
    ∗ atPos ER (dCell c 4 k) (r 4) ∅ 0 ∗ atPos ER (dCell c 5 k) (r 5) ∅ 0 ∗ atPos ER (dCell c 6 k) (r 6) ∅ 0)

abbrev tok (g : GSem nD τ sig) : sProp 𝕄 := dutyTok ER g 0 false

/-- Before anything: the chunk's scratch and result pieces at some contents, the two argument pieces, the positions,
    the seven duty tokens the device pays for this chunk, and the two receive credits dealt at launch. -/
def T0 : sProp 𝕄 :=
  iprop(anyAt (F := F) (xsR k) c ∗ anyAt (F := F) (xsL k) c ∗ anyAt (F := F) (ysC k) c ∗ anyAt (F := F) (oaC k) c ∗ outAny (F := F) c c k
    ∗ aPrPts m c k ∗ aMnPts m c k ∗ posAt c k (fun _ => 0)
    ∗ tok (dCell c jPeer k) ∗ tok (dCell c jMine k) ∗ tok (dCell c jSt k) ∗ tok (dCell c jYS k) ∗ tok (dCell c jXS k)
    ∗ tok (dCell (yP c) jYR k) ∗ tok (dCell (xP c) jXR k)
    ∗ cred (tallyAt (dCell c jYR k) () NB) ∗ cred (tallyAt (dCell c jXR k) () NB))

/-- The neighbour-columns load issued: its destination, source and token gone, its credit in hand. -/
def T1 : sProp 𝕄 :=
  iprop(cred (tallyAt (dCell c jPeer k) () NF)
    ∗ anyAt (F := F) (xsL k) c ∗ anyAt (F := F) (ysC k) c ∗ anyAt (F := F) (oaC k) c ∗ outAny (F := F) c c k
    ∗ aMnPts m c k ∗ posAt c k (fun _ => 0)
    ∗ tok (dCell c jMine k) ∗ tok (dCell c jSt k) ∗ tok (dCell c jYS k) ∗ tok (dCell c jXS k)
    ∗ tok (dCell (yP c) jYR k) ∗ tok (dCell (xP c) jXR k)
    ∗ cred (tallyAt (dCell c jYR k) () NB) ∗ cred (tallyAt (dCell c jXR k) () NB))

/-- Both loads issued. (Nothing here depends on the contents `m`: `T2` and `T3` take no `m`.) -/
def T2 : sProp 𝕄 :=
  iprop(cred (tallyAt (dCell c jPeer k) () NF) ∗ cred (tallyAt (dCell c jMine k) () NF)
    ∗ anyAt (F := F) (ysC k) c ∗ anyAt (F := F) (oaC k) c ∗ outAny (F := F) c c k
    ∗ posAt c k (fun _ => 0)
    ∗ tok (dCell c jSt k) ∗ tok (dCell c jYS k) ∗ tok (dCell c jXS k)
    ∗ tok (dCell (yP c) jYR k) ∗ tok (dCell (xP c) jXR k)
    ∗ cred (tallyAt (dCell c jYR k) () NB) ∗ cred (tallyAt (dCell c jXR k) () NB))

/-- After the barrier: with the y-neighbour's landing chunk and this device's chunk of the x-neighbour's result. -/
def T3 : sProp 𝕄 := iprop(T2 (F := F) c k ∗ yrAny (F := F) (yP c) k ∗ outAny (F := F) (xP c) c k)

/-- The neighbour-columns load awaited, the chunk narrowed and on its way to the y-neighbour. -/
def T4 : sProp 𝕄 :=
  iprop(xsRPts m c k ∗ aPrPts m c k ∗ cred (tallyAt (dCell c jYS k) () NB)
    ∗ cred (tallyAt (dCell c jMine k) () NF)
    ∗ anyAt (F := F) (oaC k) c ∗ outAny (F := F) c c k ∗ outAny (F := F) (xP c) c k
    ∗ posAt c k (fun j => if j = jPeer then 1 else 0)
    ∗ tok (dCell c jSt k) ∗ tok (dCell c jXS k) ∗ tok (dCell (xP c) jXR k)
    ∗ cred (tallyAt (dCell c jYR k) () NB) ∗ cred (tallyAt (dCell c jXR k) () NB))

/-- Own-columns load and the y-neighbour's chunk awaited, the sum stored, its local store and its way to the
    x-neighbour issued. -/
def T5 : sProp 𝕄 :=
  iprop(xsRPts m c k ∗ aPrPts m c k ∗ xsLPts m c k ∗ aMnPts m c k ∗ yrPts m c k
    ∗ cred (tallyAt (dCell c jYS k) () NB) ∗ cred (tallyAt (dCell c jSt k) () NB) ∗ cred (tallyAt (dCell c jXS k) () NB)
    ∗ posAt c k (fun j => if j = jPeer ∨ j = jMine ∨ j = jYR then 1 else 0)
    ∗ cred (tallyAt (dCell c jXR k) () NB))

/-- Everything awaited: every piece of the chunk at its final contents, every cell at round 1. -/
def T6 : sProp 𝕄 :=
  iprop(xsRPts m c k ∗ aPrPts m c k ∗ xsLPts m c k ∗ aMnPts m c k ∗ yrPts m c k
    ∗ ysPts m c k ∗ oaPts m fullShare.left c k ∗ oaPts m fullShare.right c k ∗ outPts m c c k ∗ outPts m c (xP c) k
    ∗ posAt c k (fun _ => 1))

end Chunk

/-! ## A loop's state -/

/-- Chunks below `n` at the later stage `A`, the others at the earlier `B`, and what the device owes. -/
def LS (c : Dev nD) (A B : Fin 16 → sProp 𝕄) (O : CellTallies nD τ sig Unit) (n : ℕ) : sProp 𝕄 :=
  iprop((∃ W, owes (c : Thread nD τ) O W) ∗ bigSep Finset.univ fun j : Fin 16 => if j.val < n then A j else B j)

/-- The barrier's own resources on device `c`: its position and two units of credit on its own cell, the tokens of
    the duties it pays on the neighbours' cells, and what its two signals hand over. -/
def barRes (c : Dev nD) : sProp 𝕄 :=
  iprop(atPos ER (barCell c) 0 ∅ 0 ∗ cred (tallyAt (barCell c) () 2)
    ∗ dutyTok ER (barCell (yP c)) 0 false ∗ dutyTok ER (barCell (xP c)) 0 true
    ∗ (bigSep Finset.univ fun k : Fin 16 => yrAny (F := F) c k) ∗ (bigSep Finset.univ fun k : Fin 16 => outAny (F := F) c (xP c) k))

/-- The part of the argument block no chunk reads. -/
def argRestPts (c : Dev nD) : sProp 𝕄 :=
  (c : Thread nD τ).loc main_arg0 ↦[argRest c]{fullShare} argOf m c

/-- At entry. -/
def start (K : Dev nD × CI → ℕ) (c : Dev nD) : sProp 𝕄 :=
  iprop(records m K ∗ levAts L lv ∗ barRes (F := F) c ∗ argRestPts m c ∗ bigSep Finset.univ fun k : Fin 16 => T0 m c k)

/-- At exit: every own semaphore at zero and every buffer whole at its final contents. -/
def finish (c : Dev nD) : sProp 𝕄 :=
  iprop((bigSep Finset.univ fun jk : Fin 7 × Fin 16 => semVal (dCell c jk.1 jk.2) 0)
    ∗ ((c : Thread nD τ).loc main_arg0 ↦{fullShare} argOf m c) ∗ ((c : Thread nD τ).loc main_v1 ↦{fullShare} outFin m c)
    ∗ ((c : Thread nD τ).loc cc0_scratch0 ↦{fullShare} xsFin m c) ∗ ((c : Thread nD τ).loc cc0_scratch1 ↦{fullShare} ysFin m c)
    ∗ ((c : Thread nD τ).loc cc0_scratch2 ↦{fullShare} yrFin m c) ∗ ((c : Thread nD τ).loc cc0_scratch3 ↦{fullShare} oaFin m c))

/-! ## The pipeline's proof data: no windows, one point -/

def Φ₀ (c : Dev nD) : sProp 𝕄 := iprop(∃ K, start m K c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => finish m c
  q _ := fullShare
  owed t := match t with
    | ⟨0, _⟩ => O₀ c
    | ⟨_ + 1, _⟩ => 0

abbrev 𝒱₀ : Variants := Variants.none

end Cert.KernelProof

end
-- ==== Proof.Bits.Geom.lean ====
/-
  The geometry of the buffers: how each whole buffer is tiled by its sixteen 64-row chunks, what a transfer
  into a chunk credits, and what each chunk holds once the copy into it has landed, once it has been stored,
  and when it is loaded, in terms of the closed-form contents of `Vals`.

  Rows `64·k …` of a 1024-row scratch buffer are chunk `k`; the staging buffer's chunk has a right half (columns
  `512 …`, the y-neighbour's columns of the argument) and a left half (columns `0 …`, the device's own); the
  result buffer's 2048 rows are the row half of a device and the row half of its x-neighbour, sixteen chunks each.
-/
import proofs.«900304_g7700000000000305_dist_rs_v7x_xy2x2_y_m2048_n512_bf16_1_alg».proof.Proof.Bits.Vals
import proofs.«900304_g7700000000000305_dist_rs_v7x_xy2x2_y_m2048_n512_bf16_1_alg».proof.Proof.LibSepFin
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

/-! ## Coordinates -/

/-- An index of a 1024-row buffer at row `64·k + r`, `r < 64`, lies in chunk `k` at row `r`. -/
theorem chunkOf_eq {n1 : Nat} (i : (⟨2, ![1024, n1]⟩ : Shape).Idx) (k : Fin 16) (r : Nat) (hr : r < 64)
    (h0 : (i 0).val = 64 * k.val + r) : chunkOf i = k :=
  Fin.ext (by show (i 0).val / 64 = k.val; omega)

theorem rowIn_val {n1 : Nat} (i : (⟨2, ![1024, n1]⟩ : Shape).Idx) (k : Fin 16) (r : Nat) (hr : r < 64)
    (h0 : (i 0).val = 64 * k.val + r) : (rowIn i).val = r := by
  show (i 0).val % 64 = r; omega

/-- A chunked buffer at row `64·k + y₀`, column `y₁`, is chunk `k` at `(y₀, y₁)`. -/
theorem chunked_at {α : Type} (g : Fin 16 → S64x512.Idx → α) (i : S1024x512.Idx) (k : Fin 16) (y : S64x512.Idx)
    (h0 : (i 0).val = 64 * k.val + 1 * (y 0).val) (h1 : (i 1).val = 0 + 1 * (y 1).val) : chunked g i = g k y := by
  have hy0 := idx2_lt0 y
  have hk : chunkOf i = k := chunkOf_eq i k (y 0).val hy0 (by omega)
  have hy : ix2 (rowIn i) (i 1) = y :=
    Shape.idx_ext₂ (by show (rowIn i).val = (y 0).val; rw [rowIn_val i k (y 0).val hy0 (by omega)]) (by show (i 1).val = (y 1).val; omega)
  have key : ∀ (k' : Fin 16) (y' : S64x512.Idx), k' = k → y' = y → g k' y' = g k y := by
    rintro _ _ rfl rfl; rfl
  exact key _ _ hk hy

/-- The staging buffer's final contents at row `64·k + y₀`, column `512 + y₁`: the y-neighbour's columns of chunk `k`. -/
theorem xsFin_right (m : (ℓ : Loc nD τ sig) → Buf (Elt F) ℓ) (c : Dev nD) (i : S1024x1024.Idx) (k : Fin 16) (y : S64x512.Idx)
    (h0 : (i 0).val = 64 * k.val + 1 * (y 0).val) (h1 : (i 1).val = 512 + 1 * (y 1).val) : xsFin m c i = vPeer m c k y := by
  have hy0 := idx2_lt0 y
  have hlt : ¬ (i 1).val < 512 := by omega
  have key : ∀ (k' : Fin 16) (y' : S64x512.Idx), k' = k → y' = y → vPeer m c k' y' = vPeer m c k y := by
    rintro _ _ rfl rfl; rfl
  unfold xsFin
  rw [dif_neg hlt]
  refine key _ _ (chunkOf_eq i k (y 0).val hy0 (by omega)) (Shape.idx_ext₂ ?_ ?_)
  · show (rowIn i).val = (y 0).val; rw [rowIn_val i k (y 0).val hy0 (by omega)]
  · show (i 1).val - 512 = (y 1).val; omega

/-- At column `y₁ < 512`: the device's own columns of chunk `k`. -/
theorem xsFin_left (m : (ℓ : Loc nD τ sig) → Buf (Elt F) ℓ) (c : Dev nD) (i : S1024x1024.Idx) (k : Fin 16) (y : S64x512.Idx)
    (h0 : (i 0).val = 64 * k.val + 1 * (y 0).val) (h1 : (i 1).val = 0 + 1 * (y 1).val) : xsFin m c i = vMine m c k y := by
  have hy0 := idx2_lt0 y
  have hy1 := idx2_lt1 y
  have hlt : (i 1).val < 512 := by omega
  have key : ∀ (k' : Fin 16) (y' : S64x512.Idx), k' = k → y' = y → vMine m c k' y' = vMine m c k y := by
    rintro _ _ rfl rfl; rfl
  unfold xsFin
  rw [dif_pos hlt]
  refine key _ _ (chunkOf_eq i k (y 0).val hy0 (by omega)) (Shape.idx_ext₂ ?_ ?_)
  · show (rowIn i).val = (y 0).val; rw [rowIn_val i k (y 0).val hy0 (by omega)]
  · show (i 1).val = (y 1).val; omega

/-- The result's final contents on device `c` at row `1024·x + 64·k + y₀` where `x` is the row half of `d`, `d` being
    `c` or its x-neighbour: the reduced chunk `k` of `d`. -/
theorem outFin_at (m : (ℓ : Loc nD τ sig) → Buf (Elt F) ℓ) (c d : Dev nD) (hd : d = c ∨ d = xP c) (i : S2048x512.Idx) (k : Fin 16)
    (y : S64x512.Idx) (h0 : (i 0).val = 1024 * (d.val / 2) + 64 * k.val + 1 * (y 0).val) (h1 : (i 1).val = 0 + 1 * (y 1).val) :
    outFin m c i = oaVec m d k y := by
  have hy0 := idx2_lt0 y
  have hd4 : d.val < 4 := d.isLt
  have hc4 : c.val < 4 := c.isLt
  have key : ∀ (d' : Dev nD) (k' : Fin 16) (y' : S64x512.Idx), d' = d → k' = k → y' = y → oaVec m d' k' y' = oaVec m d k y := by
    rintro _ _ _ rfl rfl rfl; rfl
  unfold outFin
  refine key _ _ _ ?_ (Fin.ext ?_) (Shape.idx_ext₂ ?_ ?_)
  · have hq : (i 0).val / 1024 = d.val / 2 := by omega
    rcases hd with rfl | rfl
    · rw [if_pos hq]
    · rw [if_neg (by rw [hq, xP_x]; omega)]
  · show (i 0).val % 1024 / 64 = k.val; omega
  · show (i 0).val % 64 = (y 0).val; omega
  · show (i 1).val = (y 1).val; omega

/-! ## G2. Amounts -/

/-- A transfer into a right half of a staging chunk credits a DMA semaphore by the f32 chunk's amount. -/
theorem xsR_amount (k : Fin 16) (s : DmaSem sig) : (xsR k).view.amount (.dma s) = NF := rfl
/-- So does one into a left half. -/
theorem xsL_amount (k : Fin 16) (s : DmaSem sig) : (xsL k).view.amount (.dma s) = NF := rfl
/-- A transfer into a chunk of a bf16 scratch buffer credits a DMA semaphore by the bf16 chunk's amount. -/
theorem ysC_amount (k : Fin 16) (s : DmaSem sig) : (ysC k).view.amount (.dma s) = NB := rfl
theorem yrC_amount (k : Fin 16) (s : DmaSem sig) : (yrC k).view.amount (.dma s) = NB := rfl
theorem oaC_amount (k : Fin 16) (s : DmaSem sig) : (oaC k).view.amount (.dma s) = NB := rfl
/-- So does one into a chunk of the result buffer. -/
theorem oC_amount (d : Dev nD) (k : Fin 16) (s : DmaSem sig) : (oC d k).view.amount (.dma s) = NB := rfl

/-! ## G3. Contents -/

/-- The view a store at a chunk's rectangle of the first exchange's send buffer goes through is the chunk's. -/
theorem access_ys (k : Fin 16) : (ysW.access (rCh k) : View sig .tc _ _ _) = (ysC k).view := rfl
theorem access_oa (k : Fin 16) : (oaW.access (rCh k) : View sig .tc _ _ _) = (oaC k).view := rfl
theorem access_set_ys (k : Fin 16) : (ysW.access (rCh k) : View sig .tc _ _ _).set = (ysC k).view.set := rfl
theorem access_set_oa (k : Fin 16) : (oaW.access (rCh k) : View sig .tc _ _ _).set = (oaC k).view.set := rfl

/-- A write on every index through a view leaves, under the view, any contents that hold the payload at each of the
    view's indices. -/
theorem pointsTo_write_univ_eq {sp : Space} {s : Shape} {e : EltTy} (c : Dev nD) (v : View sig .tc sp s e) (q : PosShare TreeShare)
    (fd g : v.ty.Contents (Elt F)) (w : s.Idx → Elt F e)
    (h : ∀ y : s.Idx, g (v.emb y) = _root_.cast (congrArg (Elt F) v.elt_eq.symm) (w y)) :
    (v.loc (c : Thread nD τ) ↦[v.set]{q} v.write (Elt F) fd w Finset.univ : sProp 𝕄) = (v.loc (c : Thread nD τ) ↦[v.set]{q} g) := by
  refine BI.Region.is_congr fun i hi => ?_
  obtain ⟨y, rfl⟩ := View.exists_emb_of_mem_set v hi
  rw [View.write_emb_of_mem _ _ (Finset.mem_univ y)]; exact (h y).symm

/-- The row offset of a result chunk, in closed form. -/
theorem off3_row (d : Dev nD) (k : Fin 16) : (k0_off3 d (BitVec.ofNat 32 (64 * k.val))) 0 = 1024 * (d.val / 2) + 64 * k.val := by
  rw [k0_off3_eq d k]; rfl
theorem off3_col (d : Dev nD) (k : Fin 16) : (k0_off3 d (BitVec.ofNat 32 (64 * k.val))) 1 = 0 := by
  rw [k0_off3_eq d k]; rfl

/-- The final result on device `c` under the chunk `k` of the row half of `d` (`c` itself or its x-neighbour). -/
theorem outFin_chunk (m : (ℓ : Loc nD τ sig) → Buf (Elt F) ℓ) (c d : Dev nD) (hd : d = c ∨ d = xP c) (k : Fin 16) (y : S64x512.Idx) :
    outFin m c ((oC d k).view.emb y) = oaVec m d k y :=
  outFin_at m c d hd _ k y
    (by show (k0_off3 d (BitVec.ofNat 32 (64 * k.val))) 0 + 1 * (y 0).val = _; rw [off3_row])
    (by show (k0_off3 d (BitVec.ofNat 32 (64 * k.val))) 1 + 1 * (y 1).val = _; rw [off3_col])

/-- The local copy of the y-neighbour's columns of chunk `k` lands the final contents of the staging buffer's right half. -/
theorem xsR_landed (m : (ℓ : Loc nD τ sig) → Buf (Elt F) ℓ) (c : Dev nD) (k : Fin 16)
    (fd : Buf (Elt F) ((c : Thread nD τ).loc cc0_scratch0)) (q : PosShare TreeShare) :
    ((xsR k).view.loc (c : Thread nD τ) ↦[(xsR k).view.set]{q}
        (xsR k).view.write (Elt F) fd ((aPr c k).view.read (Elt F) (argOf m c)) Finset.univ : sProp 𝕄)
      = ((xsR k).view.loc (c : Thread nD τ) ↦[(xsR k).view.set]{q} xsFin m c) :=
  pointsTo_write_univ_eq c (xsR k).view q fd (xsFin m c) _ fun y => xsFin_right m c _ k y rfl rfl

/-- The local copy of the device's own columns of chunk `k` lands the final contents of the left half. -/
theorem xsL_landed (m : (ℓ : Loc nD τ sig) → Buf (Elt F) ℓ) (c : Dev nD) (k : Fin 16)
    (fd : Buf (Elt F) ((c : Thread nD τ).loc cc0_scratch0)) (q : PosShare TreeShare) :
    ((xsL k).view.loc (c : Thread nD τ) ↦[(xsL k).view.set]{q}
        (xsL k).view.write (Elt F) fd ((aMn c k).view.read (Elt F) (argOf m c)) Finset.univ : sProp 𝕄)
      = ((xsL k).view.loc (c : Thread nD τ) ↦[(xsL k).view.set]{q} xsFin m c) :=
  pointsTo_write_univ_eq c (xsL k).view q fd (xsFin m c) _ fun y => xsFin_left m c _ k y rfl rfl

/-- On device `c`, the chunk its y-neighbour sent lands the final contents of the receive buffer. -/
theorem yr_landed (m : (ℓ : Loc nD τ sig) → Buf (Elt F) ℓ) (c : Dev nD) (k : Fin 16)
    (fd : Buf (Elt F) ((c : Thread nD τ).loc cc0_scratch2)) (q : PosShare TreeShare) :
    ((yrC k).view.loc (c : Thread nD τ) ↦[(yrC k).view.set]{q}
        (yrC k).view.write (Elt F) fd ((ysC k).view.read (Elt F) (ysFin m (yP c))) Finset.univ : sProp 𝕄)
      = ((yrC k).view.loc (c : Thread nD τ) ↦[(yrC k).view.set]{q} yrFin m c) :=
  pointsTo_write_univ_eq c (yrC k).view q fd (yrFin m c) _ fun y =>
    (chunked_at (ysVec m (yP c)) ((yrC k).view.emb y) k y rfl rfl).trans
      (chunked_at (ysVec m (yP c)) ((ysC k).view.emb y) k y rfl rfl).symm

/-- The local copy of a reduced chunk into the device's own row half of the result lands the final result. -/
theorem out_own_landed (m : (ℓ : Loc nD τ sig) → Buf (Elt F) ℓ) (c : Dev nD) (k : Fin 16)
    (fd : Buf (Elt F) ((c : Thread nD τ).loc main_v1)) (q : PosShare TreeShare) :
    ((oC c k).view.loc (c : Thread nD τ) ↦[(oC c k).view.set]{q}
        (oC c k).view.write (Elt F) fd ((oaC k).view.read (Elt F) (oaFin m c)) Finset.univ : sProp 𝕄)
      = ((oC c k).view.loc (c : Thread nD τ) ↦[(oC c k).view.set]{q} outFin m c) :=
  pointsTo_write_univ_eq c (oC c k).view q fd (outFin m c) _ fun y =>
    (outFin_chunk m c c (.inl rfl) k y).trans (chunked_at (oaVec m c) ((oaC k).view.emb y) k y rfl rfl).symm

/-- On device `c`, the reduced chunk its x-neighbour sent into the neighbour's row half lands the final result. -/
theorem out_peer_landed (m : (ℓ : Loc nD τ sig) → Buf (Elt F) ℓ) (c : Dev nD) (k : Fin 16)
    (fd : Buf (Elt F) ((c : Thread nD τ).loc main_v1)) (q : PosShare TreeShare) :
    ((oC (xP c) k).view.loc (c : Thread nD τ) ↦[(oC (xP c) k).view.set]{q}
        (oC (xP c) k).view.write (Elt F) fd ((oaC k).view.read (Elt F) (oaFin m (xP c))) Finset.univ : sProp 𝕄)
      = ((oC (xP c) k).view.loc (c : Thread nD τ) ↦[(oC (xP c) k).view.set]{q} outFin m c) :=
  pointsTo_write_univ_eq c (oC (xP c) k).view q fd (outFin m c) _ fun y =>
    (outFin_chunk m c (xP c) (.inr rfl) k y).trans (chunked_at (oaVec m (xP c)) ((oaC k).view.emb y) k y rfl rfl).symm

/-- A load of the right half of staging chunk `k`, from contents that agree with the final ones there, reads the
    y-neighbour's columns of the chunk. -/
theorem read_xsR (m : (ℓ : Loc nD τ sig) → Buf (Elt F) ℓ) (c : Dev nD) (k : Fin 16)
    (f : (cc0_scratch0 : Ref sig .tc).ty.Contents (Elt F)) (h : ∀ i ∈ (xsR k).view.set, f i = xsFin m c i) :
    xsW.view.readAt (Elt F) (rXR k).toLoadRect f = vPeer m c k :=
  (View.read_congr (v := (xsR k).view) h).trans (funext fun y => xsFin_right m c ((xsR k).view.emb y) k y rfl rfl)

/-- A load of the left half reads the device's own columns of the chunk. -/
theorem read_xsL (m : (ℓ : Loc nD τ sig) → Buf (Elt F) ℓ) (c : Dev nD) (k : Fin 16)
    (f : (cc0_scratch0 : Ref sig .tc).ty.Contents (Elt F)) (h : ∀ i ∈ (xsL k).view.set, f i = xsFin m c i) :
    xsW.view.readAt (Elt F) (rXL k).toLoadRect f = vMine m c k :=
  (View.read_congr (v := (xsL k).view) h).trans (funext fun y => xsFin_left m c ((xsL k).view.emb y) k y rfl rfl)

/-- A load of chunk `k` of the receive buffer reads what the y-neighbour narrowed and sent. -/
theorem read_yr (m : (ℓ : Loc nD τ sig) → Buf (Elt F) ℓ) (c : Dev nD) (k : Fin 16)
    (f : (cc0_scratch2 : Ref sig .tc).ty.Contents (Elt F)) (h : ∀ i ∈ (yrC k).view.set, f i = yrFin m c i) :
    yrW.view.readAt (Elt F) (rCh k).toLoadRect f = ysVec m (yP c) k :=
  (View.read_congr (v := (yrC k).view) h).trans
    (funext fun y => chunked_at (ysVec m (yP c)) ((yrC k).view.emb y) k y rfl rfl)

/-- After the store of the narrowed chunk, chunk `k` of the first exchange's send buffer holds its final contents. -/
theorem ys_stored (m : (ℓ : Loc nD τ sig) → Buf (Elt F) ℓ) (c : Dev nD) (k : Fin 16)
    (f : Buf (Elt F) ((c : Thread nD τ).loc cc0_scratch1)) (q : PosShare TreeShare) :
    ((ysC k).view.loc (c : Thread nD τ) ↦[(ysC k).view.set]{q}
        (ysW.access (rCh k) : View sig .tc _ _ _).write (Elt F) f (ysVal (vPeer m c k)) Finset.univ : sProp 𝕄)
      = ((ysC k).view.loc (c : Thread nD τ) ↦[(ysC k).view.set]{q} ysFin m c) :=
  pointsTo_write_univ_eq c (ysC k).view q f (ysFin m c) _ fun y =>
    chunked_at (ysVec m c) ((ysC k).view.emb y) k y rfl rfl

/-- After the store of the reduced chunk, chunk `k` of the second exchange's send buffer holds its final contents. -/
theorem oa_stored (m : (ℓ : Loc nD τ sig) → Buf (Elt F) ℓ) (c : Dev nD) (k : Fin 16)
    (f : Buf (Elt F) ((c : Thread nD τ).loc cc0_scratch3)) (q : PosShare TreeShare) :
    ((oaC k).view.loc (c : Thread nD τ) ↦[(oaC k).view.set]{q}
        (oaW.access (rCh k) : View sig .tc _ _ _).write (Elt F) f (oaVal (vMine m c k) (ysVec m (yP c) k)) Finset.univ : sProp 𝕄)
      = ((oaC k).view.loc (c : Thread nD τ) ↦[(oaC k).view.set]{q} oaFin m c) :=
  pointsTo_write_univ_eq c (oaC k).view q f (oaFin m c) _ fun y =>
    chunked_at (oaVec m c) ((oaC k).view.emb y) k y rfl rfl

/-! ## G1. Tilings -/

/-- Equal assertions entail each other. -/
theorem biEntails_of_eq {P Q : sProp 𝕄} (h : P = Q) : P ⊣⊢ Q := h ▸ ⟨.rfl, .rfl⟩

/-- A whole buffer is the separating conjunction over any pairwise-disjoint family of element sets that covers it. -/
theorem whole_tiled {T : Type} [Fintype T] (c : Dev nD) (b : Ref sig .tc) (q : PosShare TreeShare)
    (f : Buf (Elt F) ((c : Thread nD τ).loc b)) (S : T → Finset (Idx ((c : Thread nD τ).loc b)))
    (hd : ∀ t t', t ≠ t' → Disjoint (S t) (S t')) (hcov : ∀ i, ∃ t, i ∈ S t) :
    ((c : Thread nD τ).loc b ↦{q} f : sProp 𝕄) = bigSep Finset.univ fun t => (c : Thread nD τ).loc b ↦[S t]{q} f := by
  have hU : Finset.univ.biUnion S = Finset.univ :=
    Finset.eq_univ_iff_forall.mpr fun i => let ⟨t, ht⟩ := hcov i; Finset.mem_biUnion.mpr ⟨t, Finset.mem_univ t, ht⟩
  have h : ((c : Thread nD τ).loc b ↦[Finset.univ.biUnion S]{q} f : sProp 𝕄)
      = bigSep Finset.univ fun t => (c : Thread nD τ).loc b ↦[S t]{q} f :=
    pointsTo_biUnion Finset.univ S (fun t _ t' _ h => hd t t' h)
  rw [hU] at h; exact h

/-- Chunks of a 1024 × 512 buffer at different `k` share no row. -/
theorem rCh_disjoint {k k' : Fin 16} (h : k ≠ k') : Disjoint (rCh k).set (rCh k').set :=
  Rect.unit_disjoint 0 (by
    show 64 * k.val + 64 ≤ 64 * k'.val ∨ 64 * k'.val + 64 ≤ 64 * k.val
    have : k.val ≠ k'.val := fun e => h (Fin.ext e)
    omega)

/-- Every element of a 1024 × 512 buffer lies in the chunk of its row. -/
theorem rCh_cover (i : S1024x512.Idx) : ∃ k : Fin 16, i ∈ (rCh k).set := by
  have h0 := idx2_lt0 i
  have h1 := idx2_lt1 i
  refine ⟨⟨(i 0).val / 64, by omega⟩, Rect.mem_set_unit.mpr fun a => ?_⟩
  match a with
  | ⟨0, _⟩ => exact ⟨by show 64 * ((i 0).val / 64) ≤ (i 0).val; omega, by show (i 0).val < 64 * ((i 0).val / 64) + 64; omega⟩
  | ⟨1, _⟩ => exact ⟨by show 0 ≤ (i 1).val; omega, by show (i 1).val < 0 + 512; omega⟩

/-- The first exchange's send buffer is its sixteen chunks. -/
theorem ys_tiling (c : Dev nD) (f : Buf (Elt F) ((c : Thread nD τ).loc cc0_scratch1)) :
    ((c : Thread nD τ).loc cc0_scratch1 ↦{fullShare} f : sProp 𝕄)
      ⊣⊢ bigSep Finset.univ fun k : Fin 16 => (ysC k).view.loc (c : Thread nD τ) ↦[(ysC k).view.set]{fullShare} f := by
  have e : ∀ k, (ysC k).view.set = (rCh k).set := fun k => View.set_slice_whole cc0_scratch1 (rCh k)
  exact biEntails_of_eq (whole_tiled c cc0_scratch1 fullShare f (fun k : Fin 16 => (ysC k).view.set)
    (fun k k' h => by show Disjoint (ysC k).view.set (ysC k').view.set; rw [e k, e k']; exact rCh_disjoint h)
    (fun i => let ⟨k, hk⟩ := rCh_cover i; ⟨k, by show i ∈ (ysC k).view.set; rw [e k]; exact hk⟩))

/-- The first exchange's receive buffer is its sixteen chunks. -/
theorem yr_tiling (c : Dev nD) (f : Buf (Elt F) ((c : Thread nD τ).loc cc0_scratch2)) :
    ((c : Thread nD τ).loc cc0_scratch2 ↦{fullShare} f : sProp 𝕄)
      ⊣⊢ bigSep Finset.univ fun k : Fin 16 => (yrC k).view.loc (c : Thread nD τ) ↦[(yrC k).view.set]{fullShare} f := by
  have e : ∀ k, (yrC k).view.set = (rCh k).set := fun k => View.set_slice_whole cc0_scratch2 (rCh k)
  exact biEntails_of_eq (whole_tiled c cc0_scratch2 fullShare f (fun k : Fin 16 => (yrC k).view.set)
    (fun k k' h => by show Disjoint (yrC k).view.set (yrC k').view.set; rw [e k, e k']; exact rCh_disjoint h)
    (fun i => let ⟨k, hk⟩ := rCh_cover i; ⟨k, by show i ∈ (yrC k).view.set; rw [e k]; exact hk⟩))

/-- The second exchange's send buffer is its sixteen chunks. -/
theorem oa_tiling (c : Dev nD) (f : Buf (Elt F) ((c : Thread nD τ).loc cc0_scratch3)) :
    ((c : Thread nD τ).loc cc0_scratch3 ↦{fullShare} f : sProp 𝕄)
      ⊣⊢ bigSep Finset.univ fun k : Fin 16 => (oaC k).view.loc (c : Thread nD τ) ↦[(oaC k).view.set]{fullShare} f := by
  have e : ∀ k, (oaC k).view.set = (rCh k).set := fun k => View.set_slice_whole cc0_scratch3 (rCh k)
  exact biEntails_of_eq (whole_tiled c cc0_scratch3 fullShare f (fun k : Fin 16 => (oaC k).view.set)
    (fun k k' h => by show Disjoint (oaC k).view.set (oaC k').view.set; rw [e k, e k']; exact rCh_disjoint h)
    (fun i => let ⟨k, hk⟩ := rCh_cover i; ⟨k, by show i ∈ (oaC k).view.set; rw [e k]; exact hk⟩))

/-- Right halves of staging chunks at different `k` share no row; so do left halves; a right and a left half share no column. -/
theorem rXR_disjoint {k k' : Fin 16} (h : k ≠ k') : Disjoint (rXR k).set (rXR k').set :=
  Rect.unit_disjoint 0 (by
    show 64 * k.val + 64 ≤ 64 * k'.val ∨ 64 * k'.val + 64 ≤ 64 * k.val
    have : k.val ≠ k'.val := fun e => h (Fin.ext e)
    omega)
theorem rXL_disjoint {k k' : Fin 16} (h : k ≠ k') : Disjoint (rXL k).set (rXL k').set :=
  Rect.unit_disjoint 0 (by
    show 64 * k.val + 64 ≤ 64 * k'.val ∨ 64 * k'.val + 64 ≤ 64 * k.val
    have : k.val ≠ k'.val := fun e => h (Fin.ext e)
    omega)
theorem rXR_rXL_disjoint (k k' : Fin 16) : Disjoint (rXR k).set (rXL k').set :=
  Rect.unit_disjoint 1 (by show 512 + 512 ≤ 0 ∨ 0 + 512 ≤ 512; omega)

/-- Every element of the staging buffer lies in the right or the left half of the chunk of its row. -/
theorem rX_cover (i : S1024x1024.Idx) : (∃ k : Fin 16, i ∈ (rXR k).set) ∨ (∃ k : Fin 16, i ∈ (rXL k).set) := by
  have h0 := idx2_lt0 i
  have h1 := idx2_lt1 i
  by_cases hc : (i 1).val < 512
  · refine .inr ⟨⟨(i 0).val / 64, by omega⟩, Rect.mem_set_unit.mpr fun a => ?_⟩
    match a with
    | ⟨0, _⟩ => exact ⟨by show 64 * ((i 0).val / 64) ≤ (i 0).val; omega, by show (i 0).val < 64 * ((i 0).val / 64) + 64; omega⟩
    | ⟨1, _⟩ => exact ⟨by show 0 ≤ (i 1).val; omega, by show (i 1).val < 0 + 512; omega⟩
  · refine .inl ⟨⟨(i 0).val / 64, by omega⟩, Rect.mem_set_unit.mpr fun a => ?_⟩
    match a with
    | ⟨0, _⟩ => exact ⟨by show 64 * ((i 0).val / 64) ≤ (i 0).val; omega, by show (i 0).val < 64 * ((i 0).val / 64) + 64; omega⟩
    | ⟨1, _⟩ => exact ⟨by show 512 ≤ (i 1).val; omega, by show (i 1).val < 512 + 512; omega⟩

/-- The staging buffer is the sixteen right halves and the sixteen left halves of its chunks. -/
theorem xs_tiling (c : Dev nD) (f : Buf (Elt F) ((c : Thread nD τ).loc cc0_scratch0)) :
    ((c : Thread nD τ).loc cc0_scratch0 ↦{fullShare} f : sProp 𝕄)
      ⊣⊢ iprop((bigSep Finset.univ fun k : Fin 16 => (xsR k).view.loc (c : Thread nD τ) ↦[(xsR k).view.set]{fullShare} f)
          ∗ (bigSep Finset.univ fun k : Fin 16 => (xsL k).view.loc (c : Thread nD τ) ↦[(xsL k).view.set]{fullShare} f)) := by
  have eR : ∀ k, (xsR k).view.set = (rXR k).set := fun k => View.set_slice_whole cc0_scratch0 (rXR k)
  have eL : ∀ k, (xsL k).view.set = (rXL k).set := fun k => View.set_slice_whole cc0_scratch0 (rXL k)
  refine biEntails_of_eq ((whole_tiled c cc0_scratch0 fullShare f
    (Sum.elim (fun k : Fin 16 => (xsR k).view.set) (fun k : Fin 16 => (xsL k).view.set)) ?_ ?_).trans (bigSep_univ_sum _))
  · rintro (k | k) (k' | k') hne
    · show Disjoint (xsR k).view.set (xsR k').view.set
      rw [eR k, eR k']; exact rXR_disjoint fun e => hne (congrArg Sum.inl e)
    · show Disjoint (xsR k).view.set (xsL k').view.set
      rw [eR k, eL k']; exact rXR_rXL_disjoint k k'
    · show Disjoint (xsL k).view.set (xsR k').view.set
      rw [eL k, eR k']; exact (rXR_rXL_disjoint k' k).symm
    · show Disjoint (xsL k).view.set (xsL k').view.set
      rw [eL k, eL k']; exact rXL_disjoint fun e => hne (congrArg Sum.inr e)
  · intro i
    rcases rX_cover i with ⟨k, hk⟩ | ⟨k, hk⟩
    · exact ⟨.inl k, by show i ∈ (xsR k).view.set; rw [eR k]; exact hk⟩
    · exact ⟨.inr k, by show i ∈ (xsL k).view.set; rw [eL k]; exact hk⟩

/-- The elements of a result chunk: the 64 rows from `1024·(d / 2) + 64·k`, every column. -/
theorem mem_oC_set (d : Dev nD) (k : Fin 16) (i : S2048x512.Idx) :
    i ∈ (oC d k).view.set ↔ 1024 * (d.val / 2) + 64 * k.val ≤ (i 0).val ∧ (i 0).val < 1024 * (d.val / 2) + 64 * k.val + 64 := by
  have e : (oC d k).view.set
      = (Rect.unit (s := S2048x512) (k0_off3 d (BitVec.ofNat 32 (64 * k.val))) S64x512.size (k0_off3_inb d k)).set :=
    View.set_slice_whole main_v1 _
  have h1 := idx2_lt1 i
  rw [e, Rect.mem_set_unit]
  constructor
  · intro h
    have h0 := h 0
    rw [off3_row] at h0
    exact h0
  · intro h a
    match a with
    | ⟨0, _⟩ =>
      show (k0_off3 d (BitVec.ofNat 32 (64 * k.val))) 0 ≤ (i 0).val ∧ (i 0).val < (k0_off3 d (BitVec.ofNat 32 (64 * k.val))) 0 + 64
      rw [off3_row]; exact h
    | ⟨1, _⟩ =>
      show (k0_off3 d (BitVec.ofNat 32 (64 * k.val))) 1 ≤ (i 1).val ∧ (i 1).val < (k0_off3 d (BitVec.ofNat 32 (64 * k.val))) 1 + 512
      rw [off3_col]; omega

/-- The result buffer on any device `c` is the sixteen chunks of a device `d`'s row half and the sixteen of
    its x-neighbour's. -/
theorem out_tiling (c d : Dev nD) (f : Buf (Elt F) ((c : Thread nD τ).loc main_v1)) :
    ((c : Thread nD τ).loc main_v1 ↦{fullShare} f : sProp 𝕄)
      ⊣⊢ iprop((bigSep Finset.univ fun k : Fin 16 => (oC d k).view.loc (c : Thread nD τ) ↦[(oC d k).view.set]{fullShare} f)
          ∗ (bigSep Finset.univ fun k : Fin 16 => (oC (xP d) k).view.loc (c : Thread nD τ) ↦[(oC (xP d) k).view.set]{fullShare} f)) := by
  have hd4 : d.val < 4 := d.isLt
  have hx := xP_x d
  refine biEntails_of_eq ((whole_tiled c main_v1 fullShare f
    (Sum.elim (fun k : Fin 16 => (oC d k).view.set) (fun k : Fin 16 => (oC (xP d) k).view.set)) ?_ ?_).trans (bigSep_univ_sum _))
  · rintro (k | k) (k' | k') hne
    · have : k.val ≠ k'.val := fun e => hne (congrArg Sum.inl (Fin.ext e))
      refine Finset.disjoint_left.mpr fun i hi hj => ?_
      have hi' := (mem_oC_set d k i).mp hi
      have hj' := (mem_oC_set d k' i).mp hj
      omega
    · refine Finset.disjoint_left.mpr fun i hi hj => ?_
      have hi' := (mem_oC_set d k i).mp hi
      have hj' := (mem_oC_set (xP d) k' i).mp hj
      have hk := k.isLt; have hk' := k'.isLt
      omega
    · refine Finset.disjoint_left.mpr fun i hi hj => ?_
      have hi' := (mem_oC_set (xP d) k i).mp hi
      have hj' := (mem_oC_set d k' i).mp hj
      have hk := k.isLt; have hk' := k'.isLt
      omega
    · have : k.val ≠ k'.val := fun e => hne (congrArg Sum.inr (Fin.ext e))
      refine Finset.disjoint_left.mpr fun i hi hj => ?_
      have hi' := (mem_oC_set (xP d) k i).mp hi
      have hj' := (mem_oC_set (xP d) k' i).mp hj
      omega
  · intro i
    have h0 := idx2_lt0 i
    have hk : (i 0).val % 1024 / 64 < 16 := by omega
    by_cases hq : (i 0).val / 1024 = d.val / 2
    · refine ⟨.inl ⟨(i 0).val % 1024 / 64, hk⟩, ?_⟩
      show i ∈ (oC d ⟨(i 0).val % 1024 / 64, hk⟩).view.set
      rw [mem_oC_set]
      show 1024 * (d.val / 2) + 64 * ((i 0).val % 1024 / 64) ≤ (i 0).val
        ∧ (i 0).val < 1024 * (d.val / 2) + 64 * ((i 0).val % 1024 / 64) + 64
      omega
    · refine ⟨.inr ⟨(i 0).val % 1024 / 64, hk⟩, ?_⟩
      show i ∈ (oC (xP d) ⟨(i 0).val % 1024 / 64, hk⟩).view.set
      rw [mem_oC_set]
      show 1024 * ((xP d).val / 2) + 64 * ((i 0).val % 1024 / 64) ≤ (i 0).val
        ∧ (i 0).val < 1024 * ((xP d).val / 2) + 64 * ((i 0).val % 1024 / 64) + 64
      omega

/-- The elements of a chunk of the y-neighbour's columns of the argument block, in closed form. -/
theorem mem_aPr_set (c : Dev nD) (k : Fin 16) (i : S1x2048x1024.Idx) :
    i ∈ (aPr c k).view.set
      ↔ (1024 * (c.val / 2) + 64 * k.val ≤ (i 1).val ∧ (i 1).val < 1024 * (c.val / 2) + 64 * k.val + 64)
        ∧ (512 - 512 * (c.val % 2) ≤ (i 2).val ∧ (i 2).val < 512 - 512 * (c.val % 2) + 512) := by
  have e : (aPr c k).view.set
      = (Rect.unit (s := S1x2048x1024) (k0_off1 c (BitVec.ofNat 32 (64 * k.val))) S1x64x512.size (k0_off1_inb c k)).set :=
    (View.set_reshape _ _).trans (View.set_slice_whole main_arg0 _)
  have o0 : (k0_off1 c (BitVec.ofNat 32 (64 * k.val))) 0 = 0 := by rw [k0_off1_eq c k]; rfl
  have o1 : (k0_off1 c (BitVec.ofNat 32 (64 * k.val))) 1 = 1024 * (c.val / 2) + 64 * k.val := by rw [k0_off1_eq c k]; rfl
  have o2 : (k0_off1 c (BitVec.ofNat 32 (64 * k.val))) 2 = 512 - 512 * (c.val % 2) := by rw [k0_off1_eq c k]; rfl
  rw [e, Rect.mem_set_unit]
  constructor
  · intro h
    have h1 := h 1
    have h2 := h 2
    rw [o1] at h1; rw [o2] at h2
    exact ⟨h1, h2⟩
  · intro h a
    match a with
    | ⟨0, _⟩ =>
      show (k0_off1 c (BitVec.ofNat 32 (64 * k.val))) 0 ≤ (i 0).val ∧ (i 0).val < (k0_off1 c (BitVec.ofNat 32 (64 * k.val))) 0 + 1
      have : (i 0).val < 1 := (i 0).isLt
      rw [o0]; omega
    | ⟨1, _⟩ =>
      show (k0_off1 c (BitVec.ofNat 32 (64 * k.val))) 1 ≤ (i 1).val ∧ (i 1).val < (k0_off1 c (BitVec.ofNat 32 (64 * k.val))) 1 + 64
      rw [o1]; exact h.1
    | ⟨2, _⟩ =>
      show (k0_off1 c (BitVec.ofNat 32 (64 * k.val))) 2 ≤ (i 2).val ∧ (i 2).val < (k0_off1 c (BitVec.ofNat 32 (64 * k.val))) 2 + 512
      rw [o2]; exact h.2

/-- The elements of a chunk of the device's own columns of the argument block, in closed form. -/
theorem mem_aMn_set (c : Dev nD) (k : Fin 16) (i : S1x2048x1024.Idx) :
    i ∈ (aMn c k).view.set
      ↔ (1024 * (c.val / 2) + 64 * k.val ≤ (i 1).val ∧ (i 1).val < 1024 * (c.val / 2) + 64 * k.val + 64)
        ∧ (512 * (c.val % 2) ≤ (i 2).val ∧ (i 2).val < 512 * (c.val % 2) + 512) := by
  have e : (aMn c k).view.set
      = (Rect.unit (s := S1x2048x1024) (k0_off2 c (BitVec.ofNat 32 (64 * k.val))) S1x64x512.size (k0_off2_inb c k)).set :=
    (View.set_reshape _ _).trans (View.set_slice_whole main_arg0 _)
  have o0 : (k0_off2 c (BitVec.ofNat 32 (64 * k.val))) 0 = 0 := by rw [k0_off2_eq c k]; rfl
  have o1 : (k0_off2 c (BitVec.ofNat 32 (64 * k.val))) 1 = 1024 * (c.val / 2) + 64 * k.val := by rw [k0_off2_eq c k]; rfl
  have o2 : (k0_off2 c (BitVec.ofNat 32 (64 * k.val))) 2 = 512 * (c.val % 2) := by rw [k0_off2_eq c k]; rfl
  rw [e, Rect.mem_set_unit]
  constructor
  · intro h
    have h1 := h 1
    have h2 := h 2
    rw [o1] at h1; rw [o2] at h2
    exact ⟨h1, h2⟩
  · intro h a
    match a with
    | ⟨0, _⟩ =>
      show (k0_off2 c (BitVec.ofNat 32 (64 * k.val))) 0 ≤ (i 0).val ∧ (i 0).val < (k0_off2 c (BitVec.ofNat 32 (64 * k.val))) 0 + 1
      have : (i 0).val < 1 := (i 0).isLt
      rw [o0]; omega
    | ⟨1, _⟩ =>
      show (k0_off2 c (BitVec.ofNat 32 (64 * k.val))) 1 ≤ (i 1).val ∧ (i 1).val < (k0_off2 c (BitVec.ofNat 32 (64 * k.val))) 1 + 64
      rw [o1]; exact h.1
    | ⟨2, _⟩ =>
      show (k0_off2 c (BitVec.ofNat 32 (64 * k.val))) 2 ≤ (i 2).val ∧ (i 2).val < (k0_off2 c (BitVec.ofNat 32 (64 * k.val))) 2 + 512
      rw [o2]; exact h.2

/-- The thirty-two chunk sets of a device's argument block, as one family. -/
abbrev argFam (c : Dev nD) : Fin 16 ⊕ Fin 16 → Finset (Idx ((c : Thread nD τ).loc main_arg0)) :=
  Sum.elim (fun k => (aPr c k).view.set) (fun k => (aMn c k).view.set)

/-- A device's argument block is the sixteen chunks of the y-neighbour's columns, the sixteen of its own, and the rest. -/
theorem arg_tiling (c : Dev nD) (f : Buf (Elt F) ((c : Thread nD τ).loc main_arg0)) :
    ((c : Thread nD τ).loc main_arg0 ↦{fullShare} f : sProp 𝕄)
      ⊣⊢ iprop((bigSep Finset.univ fun k : Fin 16 => (aPr c k).view.loc (c : Thread nD τ) ↦[(aPr c k).view.set]{fullShare} f)
          ∗ (bigSep Finset.univ fun k : Fin 16 => (aMn c k).view.loc (c : Thread nD τ) ↦[(aMn c k).view.set]{fullShare} f)
          ∗ ((c : Thread nD τ).loc main_arg0 ↦[argRest c]{fullShare} f)) := by
  have hdis : ∀ t t' : Fin 16 ⊕ Fin 16, t ≠ t' →
      Disjoint (argFam c t)
        (argFam c t') := by
    rintro (k | k) (k' | k') hne <;> refine Finset.disjoint_left.mpr fun i hi hj => ?_
    · have hi' := (mem_aPr_set c k i).mp hi
      have hj' := (mem_aPr_set c k' i).mp hj
      have : k.val ≠ k'.val := fun e => hne (congrArg Sum.inl (Fin.ext e))
      omega
    · have hi' := (mem_aPr_set c k i).mp hi
      have hj' := (mem_aMn_set c k' i).mp hj
      omega
    · have hi' := (mem_aMn_set c k i).mp hi
      have hj' := (mem_aPr_set c k' i).mp hj
      omega
    · have hi' := (mem_aMn_set c k i).mp hi
      have hj' := (mem_aMn_set c k' i).mp hj
      have : k.val ≠ k'.val := fun e => hne (congrArg Sum.inr (Fin.ext e))
      omega
  have hU : (Finset.univ : Finset (Fin 16 ⊕ Fin 16)).biUnion
        (argFam c)
      = Finset.univ.biUnion fun k : Fin 16 => (aPr c k).view.set ∪ (aMn c k).view.set := by
    ext i
    simp only [argFam, Finset.mem_biUnion, Finset.mem_univ, true_and, Finset.mem_union, Sum.exists, Sum.elim_inl, Sum.elim_inr]
    constructor
    · rintro (⟨k, h⟩ | ⟨k, h⟩)
      · exact ⟨k, .inl h⟩
      · exact ⟨k, .inr h⟩
    · rintro ⟨k, h | h⟩
      · exact .inl ⟨k, h⟩
      · exact .inr ⟨k, h⟩
  have e2 : ((c : Thread nD τ).loc main_arg0
        ↦[Finset.univ.biUnion fun k : Fin 16 => (aPr c k).view.set ∪ (aMn c k).view.set]{fullShare} f : sProp 𝕄)
      = bigSep Finset.univ fun t : Fin 16 ⊕ Fin 16 => (c : Thread nD τ).loc main_arg0
          ↦[argFam c t]{fullShare} f := by
    rw [← hU]
    exact pointsTo_biUnion Finset.univ _ (fun t _ t' _ h => hdis t t' h)
  have e1 : ((c : Thread nD τ).loc main_arg0 ↦{fullShare} f : sProp 𝕄)
      ⊣⊢ iprop(((c : Thread nD τ).loc main_arg0
            ↦[Finset.univ.biUnion fun k : Fin 16 => (aPr c k).view.set ∪ (aMn c k).view.set]{fullShare} f)
          ∗ ((c : Thread nD τ).loc main_arg0 ↦[argRest c]{fullShare} f)) :=
    pointsTo_split_subset (Finset.subset_univ _)
  rw [e2, bigSep_univ_sum] at e1
  exact e1.trans Laws.sep_assoc

/-- A chunk of the second exchange's send buffer, held in full, is its two half shares. -/
theorem oa_halves (c : Dev nD) (k : Fin 16) (f : Buf (Elt F) ((c : Thread nD τ).loc cc0_scratch3)) :
    ((oaC k).view.loc (c : Thread nD τ) ↦[(oaC k).view.set]{fullShare} f : sProp 𝕄)
      ⊣⊢ iprop(((oaC k).view.loc (c : Thread nD τ) ↦[(oaC k).view.set]{fullShare.left} f)
          ∗ ((oaC k).view.loc (c : Thread nD τ) ↦[(oaC k).view.set]{fullShare.right} f)) :=
  pointsTo_share (PosShare.mem_left_op_right fullShare)

/-- info: 'Cert.KernelProof.ys_tiling' depends on axioms: [propext, Classical.choice, Quot.sound] -/
#guard_msgs in #print axioms ys_tiling

/-- info: 'Cert.KernelProof.yr_tiling' depends on axioms: [propext, Classical.choice, Quot.sound] -/
#guard_msgs in #print axioms yr_tiling

/-- info: 'Cert.KernelProof.oa_tiling' depends on axioms: [propext, Classical.choice, Quot.sound] -/
#guard_msgs in #print axioms oa_tiling

/-- info: 'Cert.KernelProof.xs_tiling' depends on axioms: [propext, Classical.choice, Quot.sound] -/
#guard_msgs in #print axioms xs_tiling

/-- info: 'Cert.KernelProof.out_tiling' depends on axioms: [propext, Classical.choice, Quot.sound] -/
#guard_msgs in #print axioms out_tiling

/-- info: 'Cert.KernelProof.arg_tiling' depends on axioms: [propext, Classical.choice, Quot.sound] -/
#guard_msgs in #print axioms arg_tiling

/-- info: 'Cert.KernelProof.oa_halves' depends on axioms: [propext, Classical.choice, Quot.sound] -/
#guard_msgs in #print axioms oa_halves

/-- info: 'Cert.KernelProof.xsR_landed' depends on axioms: [propext, Classical.choice, Quot.sound] -/
#guard_msgs in #print axioms xsR_landed

/-- info: 'Cert.KernelProof.xsL_landed' depends on axioms: [propext, Classical.choice, Quot.sound] -/
#guard_msgs in #print axioms xsL_landed

/-- info: 'Cert.KernelProof.yr_landed' depends on axioms: [propext, Classical.choice, Quot.sound] -/
#guard_msgs in #print axioms yr_landed

/-- info: 'Cert.KernelProof.out_own_landed' depends on axioms: [propext, Classical.choice, Quot.sound] -/
#guard_msgs in #print axioms out_own_landed

/-- info: 'Cert.KernelProof.out_peer_landed' depends on axioms: [propext, Classical.choice, Quot.sound] -/
#guard_msgs in #print axioms out_peer_landed

/-- info: 'Cert.KernelProof.read_xsR' depends on axioms: [propext, Classical.choice, Quot.sound] -/
#guard_msgs in #print axioms read_xsR

/-- info: 'Cert.KernelProof.read_xsL' depends on axioms: [propext, Classical.choice, Quot.sound] -/
#guard_msgs in #print axioms read_xsL

/-- info: 'Cert.KernelProof.read_yr' depends on axioms: [propext, Classical.choice, Quot.sound] -/
#guard_msgs in #print axioms read_yr

/-- info: 'Cert.KernelProof.ys_stored' depends on axioms: [propext, Classical.choice, Quot.sound] -/
#guard_msgs in #print axioms ys_stored

/-- info: 'Cert.KernelProof.oa_stored' depends on axioms: [propext, Classical.choice, Quot.sound] -/
#guard_msgs in #print axioms oa_stored

end Cert.KernelProof

end
-- ==== Proof.Bits.SchedTab.lean ====
/-
  The schedule's tables, cell by cell: the duties, amounts, expected units and payloads of the barrier cell and of
  the DMA cells; the arithmetic of the credit a device still owes its two neighbours' receive cells; and the level
  facts that let a device wait while it owes.
-/
import proofs.«900304_g7700000000000305_dist_rs_v7x_xy2x2_y_m2048_n512_bf16_1_alg».proof.Proof.Bits.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Duties -/

theorem duties_bar (m : (ℓ : Loc nD τ sig) → Buf (Elt F) ℓ) (c : Dev nD) : (ringRd (F := F) m).duties (barCell c) 0 = Finset.univ := by
  dsimp only [ringRd]; exact if_pos ⟨rfl, rfl⟩
theorem duties_dma (m : (ℓ : Loc nD τ sig) → Buf (Elt F) ℓ) (c : Dev nD) (j : Fin 7) (k : Fin 16) : (ringRd (F := F) m).duties (dCell c j k) 0 = {false} := by
  dsimp only [ringRd]; exact if_pos ⟨rfl, rfl⟩
theorem duties_later (m : (ℓ : Loc nD τ sig) → Buf (Elt F) ℓ) (g : GSem nD τ sig) : ∀ r, 1 ≤ r → (ringRd (F := F) m).duties g r = ∅ :=
  fun r hr => by dsimp only [ringRd]; rw [if_neg fun h => by omega]

/-! ## Amounts -/

theorem amount_bar (m : (ℓ : Loc nD τ sig) → Buf (Elt F) ℓ) (c : Dev nD) (b : Bool) : (ringRd (F := F) m).amount (barCell c) 0 b = 1 := rfl
theorem amount_dma (m : (ℓ : Loc nD τ sig) → Buf (Elt F) ℓ) (c : Dev nD) (j : Fin 7) (k : Fin 16) (b : Bool) : (ringRd (F := F) m).amount (dCell c j k) 0 b = amt j := by
  show amt (famOf (dsem j k)) = amt j; rw [famOf_dsem]

theorem amt_peer : amt jPeer = NF := by unfold amt; exact if_pos (by decide)
theorem amt_mine : amt jMine = NF := by unfold amt; exact if_pos (by decide)
theorem amt_ys : amt jYS = NB := by unfold amt; exact if_neg (by decide)
theorem amt_yr : amt jYR = NB := by unfold amt; exact if_neg (by decide)
theorem amt_xs : amt jXS = NB := by unfold amt; exact if_neg (by decide)
theorem amt_xr : amt jXR = NB := by unfold amt; exact if_neg (by decide)
theorem amt_st : amt jSt = NB := by unfold amt; exact if_neg (by decide)

/-! ## Expected units -/

theorem expect_bar (m : (ℓ : Loc nD τ sig) → Buf (Elt F) ℓ) (c : Dev nD) : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (m : (ℓ : Loc nD τ sig) → Buf (Elt F) ℓ) (c : Dev nD) (j : Fin 7) (k : Fin 16) : (ringRd (F := F) m).expect (dCell c j k) 0 = amt j := by
  unfold Schedule.expect Schedule.amountOf; rw [duties_dma, Finset.sum_singleton, amount_dma]

/-! ## Payloads -/

theorem payload_bar_false (m : (ℓ : Loc nD τ sig) → Buf (Elt F) ℓ) (c : Dev nD) : (ringRd (F := F) m).payload (barCell c) 0 false = barPayY c := by
  dsimp only [ringRd]; exact if_neg Bool.false_ne_true
theorem payload_bar_true (m : (ℓ : Loc nD τ sig) → Buf (Elt F) ℓ) (c : Dev nD) : (ringRd (F := F) m).payload (barCell c) 0 true = barPayX c := by
  dsimp only [ringRd]; exact if_pos rfl
theorem payload_dma (m : (ℓ : Loc nD τ sig) → Buf (Elt F) ℓ) (c : Dev nD) (j : Fin 7) (k : Fin 16) (b : Bool) : (ringRd (F := F) m).payload (dCell c j k) 0 b = famPay m c j k := by
  show famPay m c (famOf (dsem j k)) (chOf (dsem j k)) = famPay m c j k; rw [famOf_dsem, chOf_dsem]

theorem famPay_peer (m : (ℓ : Loc nD τ sig) → Buf (Elt F) ℓ) (c : Dev nD) (k : Fin 16) : famPay m c jPeer k = iprop(xsRPts m c k ∗ aPrPts m c k) := rfl
theorem famPay_mine (m : (ℓ : Loc nD τ sig) → Buf (Elt F) ℓ) (c : Dev nD) (k : Fin 16) : famPay m c jMine k = iprop(xsLPts m c k ∗ aMnPts m c k) := rfl
theorem famPay_ys (m : (ℓ : Loc nD τ sig) → Buf (Elt F) ℓ) (c : Dev nD) (k : Fin 16) : famPay m c jYS k = ysPts m c k := rfl
theorem famPay_yr (m : (ℓ : Loc nD τ sig) → Buf (Elt F) ℓ) (c : Dev nD) (k : Fin 16) : famPay m c jYR k = yrPts m c k := rfl
theorem famPay_xs (m : (ℓ : Loc nD τ sig) → Buf (Elt F) ℓ) (c : Dev nD) (k : Fin 16) : famPay m c jXS k = oaPts m fullShare.right c k := rfl
theorem famPay_xr (m : (ℓ : Loc nD τ sig) → Buf (Elt F) ℓ) (c : Dev nD) (k : Fin 16) : famPay m c jXR k = outPts m c (xP c) k := rfl
theorem famPay_st (m : (ℓ : Loc nD τ sig) → Buf (Elt F) ℓ) (c : Dev nD) (k : Fin 16) : famPay m c jSt k = iprop(outPts m c c k ∗ oaPts m fullShare.left c k) := rfl

/-! ## The rest of a round of which no duty has been taken -/

theorem rest_bar (m : (ℓ : Loc nD τ sig) → Buf (Elt F) ℓ) (c : Dev nD) :
    bigSep ((ringRd (F := F) m).duties (barCell c) 0 \ ∅) (fun d => (ringRd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (m : (ℓ : Loc nD τ sig) → Buf (Elt F) ℓ) (c : Dev nD) (j : Fin 7) (k : Fin 16) :
    bigSep ((ringRd (F := F) m).duties (dCell c j k) 0 \ ∅) (fun d => (ringRd (F := F) m).payload (dCell c j k) 0 d) = famPay m c j k := by
  rw [Finset.sdiff_empty, duties_dma, bigSep_singleton, payload_dma]

/-! ## What is still owed to the neighbours' receive cells -/

/-- The chunks from `n` on are chunk `n` and the chunks from `n + 1` on. -/
theorem filter_ge_succ (n : ℕ) (h : n < 16) :
    Finset.univ.filter (fun j : Fin 16 => n ≤ j.val) = insert (⟨n, h⟩ : Fin 16) (Finset.univ.filter (fun j : Fin 16 => n + 1 ≤ j.val)) := by
  ext j
  simp only [Finset.mem_filter, Finset.mem_univ, true_and, Finset.mem_insert, Fin.ext_iff]
  omega
theorem not_mem_filter_succ (n : ℕ) (h : n < 16) : (⟨n, h⟩ : Fin 16) ∉ Finset.univ.filter (fun j : Fin 16 => n + 1 ≤ j.val) := by
  simp only [Finset.mem_filter, Finset.mem_univ, true_and]; omega
theorem filter_ge_top : Finset.univ.filter (fun j : Fin 16 => 16 ≤ j.val) = ∅ :=
  Finset.filter_eq_empty_iff.mpr fun j _ => by have := j.isLt; omega

theorem owedY_succ (c : Dev nD) (n : ℕ) (h : n < 16) : owedY c n = owedY c (n + 1) + tallyAt (dCell (yP c) jYR ⟨n, h⟩) () NB := by
  unfold owedY; rw [filter_ge_succ n h, Finset.sum_insert (not_mem_filter_succ n h), add_comm]
theorem owedY_top (c : Dev nD) : owedY c 16 = 0 := by unfold owedY; rw [filter_ge_top, Finset.sum_empty]
theorem owedX_succ (c : Dev nD) (n : ℕ) (h : n < 16) : owedX c n = owedX c (n + 1) + tallyAt (dCell (xP c) jXR ⟨n, h⟩) () NB := by
  unfold owedX; rw [filter_ge_succ n h, Finset.sum_insert (not_mem_filter_succ n h), add_comm]
theorem owedX_top (c : Dev nD) : owedX c 16 = 0 := by unfold owedX; rw [filter_ge_top, Finset.sum_empty]

/-! ## What a device owes a cell at launch -/

theorem owedY_apply (c : Dev nD) (n : ℕ) (g : GSem nD τ sig) (u : Unit) :
    owedY c n g u = ∑ j ∈ Finset.univ.filter (fun j : Fin 16 => n ≤ j.val), tallyAt (dCell (yP c) jYR j) () NB g u := by
  unfold owedY; rw [Finset.sum_apply, Finsupp.finsetSum_apply]
theorem owedX_apply (c : Dev nD) (n : ℕ) (g : GSem nD τ sig) (u : Unit) :
    owedX c n g u = ∑ j ∈ Finset.univ.filter (fun j : Fin 16 => n ≤ j.val), tallyAt (dCell (xP c) jXR j) () NB g u := by
  unfold owedX; rw [Finset.sum_apply, Finsupp.finsetSum_apply]

/-- A tally at one DMA cell, read at another: the chunk is compared first. -/
theorem tallyAt_dCell (c c' : Dev nD) (j j' : Fin 7) (k k' : Fin 16) (N : ℕ) :
    (tallyAt (dCell c j k) () N : CellTallies nD τ sig Unit) (dCell c' j' k') () = if k' = k then (if c' = c ∧ j' = j then N else 0) else 0 := by
  rw [tallyAt_apply]
  by_cases h1 : c' = c ∧ j' = j
  · by_cases h2 : k' = k
    · rw [if_pos ⟨dCell_eq_iff.mpr ⟨h1.1, h1.2, h2⟩, rfl⟩, if_pos h2, if_pos h1]
    · rw [if_neg (fun h => h2 (dCell_eq_iff.mp h.1).2.2), if_neg h2]
  · rw [if_neg (fun h => h1 ⟨(dCell_eq_iff.mp h.1).1, (dCell_eq_iff.mp h.1).2.1⟩), if_neg h1, ite_self]

theorem owedY_dma (c c' : Dev nD) (n : ℕ) (j' : Fin 7) (k : Fin 16) :
    owedY c n (dCell c' j' k) () = if n ≤ k.val then (if c' = yP c ∧ j' = jYR then NB else 0) else 0 := by
  rw [owedY_apply, Finset.sum_congr rfl (fun j _ => tallyAt_dCell (yP c) c' jYR j' j k NB), Finset.sum_ite_eq]
  by_cases hn : n ≤ k.val
  · have hm : k ∈ Finset.univ.filter (fun j : Fin 16 => n ≤ j.val) := Finset.mem_filter.mpr ⟨Finset.mem_univ _, hn⟩
    rw [if_pos hm, if_pos hn]
  · have hm : k ∉ Finset.univ.filter (fun j : Fin 16 => n ≤ j.val) := fun h => hn (Finset.mem_filter.mp h).2
    rw [if_neg hm, if_neg hn]
theorem owedX_dma (c c' : Dev nD) (n : ℕ) (j' : Fin 7) (k : Fin 16) :
    owedX c n (dCell c' j' k) () = if n ≤ k.val then (if c' = xP c ∧ j' = jXR then NB else 0) else 0 := by
  rw [owedX_apply, Finset.sum_congr rfl (fun j _ => tallyAt_dCell (xP c) c' jXR j' j k NB), Finset.sum_ite_eq]
  by_cases hn : n ≤ k.val
  · have hm : k ∈ Finset.univ.filter (fun j : Fin 16 => n ≤ j.val) := Finset.mem_filter.mpr ⟨Finset.mem_univ _, hn⟩
    rw [if_pos hm, if_pos hn]
  · have hm : k ∉ Finset.univ.filter (fun j : Fin 16 => n ≤ j.val) := fun h => hn (Finset.mem_filter.mp h).2
    rw [if_neg hm, if_neg hn]

theorem owedY_bar (c c' : Dev nD) (n : ℕ) : owedY c n (barCell c') () = 0 := by
  rw [owedY_apply]; exact Finset.sum_eq_zero fun j _ => by rw [tallyAt_ne_cell (dCell_ne_bar _ _ _ _).symm, Finsupp.zero_apply]
theorem owedX_bar (c c' : Dev nD) (n : ℕ) : owedX c n (barCell c') () = 0 := by
  rw [owedX_apply]; exact Finset.sum_eq_zero fun j _ => by rw [tallyAt_ne_cell (dCell_ne_bar _ _ _ _).symm, Finsupp.zero_apply]

theorem bar_owes_y (d c : Dev nD) : (if barCell c = barCell (yP d) ∧ () = () then (1 : ℕ) else 0) = if d = yP c then 1 else 0 := by
  by_cases h : d = yP c
  · subst h; rw [yP_yP, if_pos ⟨rfl, rfl⟩, if_pos rfl]
  · rw [if_neg (fun h' => h (by rw [barCell_eq_iff.mp h'.1, yP_yP])), if_neg h]
theorem bar_owes_x (d c : Dev nD) : (if barCell c = barCell (xP d) ∧ () = () then (1 : ℕ) else 0) = if d = xP c then 1 else 0 := by
  by_cases h : d = xP c
  · subst h; rw [xP_xP, if_pos ⟨rfl, rfl⟩, if_pos rfl]
  · rw [if_neg (fun h' => h (by rw [barCell_eq_iff.mp h'.1, xP_xP])), if_neg h]

/-- Device `d` owes device `c`'s barrier cell one unit if `c` is its y-neighbour and one if `c` is its x-neighbour. -/
theorem O₀_bar (d c : Dev nD) : O₀ d (barCell c) () = (if d = yP c then 1 else 0) + (if d = xP c then 1 else 0) := by
  unfold O₀ O₁ O₂
  rw [Pi.add_apply, Finsupp.add_apply, Pi.add_apply, Finsupp.add_apply, Pi.add_apply, Finsupp.add_apply, owedX_bar, owedY_bar,
    tallyAt_apply, tallyAt_apply, bar_owes_x, bar_owes_y]
  omega

theorem O₀_dma (d c : Dev nD) (j : Fin 7) (k : Fin 16) :
    O₀ d (dCell c j k) () = (if c = xP d ∧ j = jXR then NB else 0) + (if c = yP d ∧ j = jYR then NB else 0) := by
  unfold O₀ O₁ O₂
  rw [Pi.add_apply, Finsupp.add_apply, Pi.add_apply, Finsupp.add_apply, Pi.add_apply, Finsupp.add_apply, owedX_dma, owedY_dma,
    tallyAt_ne_cell (dCell_ne_bar _ _ _ _), tallyAt_ne_cell (dCell_ne_bar _ _ _ _), Finsupp.zero_apply, Nat.add_zero, Nat.add_zero,
    if_pos (Nat.zero_le _), if_pos (Nat.zero_le _)]

theorem O₀_yr (d c : Dev nD) (k : Fin 16) : O₀ d (dCell c jYR k) () = if d = yP c then NB else 0 := by
  rw [O₀_dma, if_neg (fun h => absurd h.2 (by decide)), Nat.zero_add]
  by_cases h : d = yP c
  · subst h; rw [yP_yP, if_pos ⟨rfl, rfl⟩, if_pos rfl]
  · rw [if_neg (fun h' => h (by rw [h'.1, yP_yP])), if_neg h]
theorem O₀_xr (d c : Dev nD) (k : Fin 16) : O₀ d (dCell c jXR k) () = if d = xP c then NB else 0 := by
  rw [O₀_dma, if_neg (fun h => absurd h.2 (by decide) : ¬ (c = yP d ∧ jXR = jYR)), Nat.add_zero]
  by_cases h : d = xP c
  · subst h; rw [xP_xP, if_pos ⟨rfl, rfl⟩, if_pos rfl]
  · rw [if_neg (fun h' => h (by rw [h'.1, xP_xP])), if_neg h]
theorem O₀_other (d c : Dev nD) (j : Fin 7) (k : Fin 16) (hj : j ≠ jYR ∧ j ≠ jXR) : O₀ d (dCell c j k) () = 0 := by
  rw [O₀_dma, if_neg (fun h => hj.2 h.2), if_neg (fun h => hj.1 h.2)]

/-! ## Where the owed tallies are positive -/

theorem owedX_pos {c : Dev nD} {a : ℕ} {g : GSem nD τ sig} {u : Unit} (h : 0 < owedX c a g u) : ∃ k, g = dCell (xP c) jXR k := by
  unfold owedX at h
  obtain ⟨k, _, hk⟩ := Pipeline.sum_pos_exists h
  rw [tallyAt_apply] at hk
  by_cases hg : g = dCell (xP c) jXR k ∧ u = ()
  · exact ⟨k, hg.1⟩
  · rw [if_neg hg] at hk; exact absurd hk (Nat.lt_irrefl 0)
theorem owedY_pos {c : Dev nD} {a : ℕ} {g : GSem nD τ sig} {u : Unit} (h : 0 < owedY c a g u) : ∃ k, g = dCell (yP c) jYR k := by
  unfold owedY at h
  obtain ⟨k, _, hk⟩ := Pipeline.sum_pos_exists h
  rw [tallyAt_apply] at hk
  by_cases hg : g = dCell (yP c) jYR k ∧ u = ()
  · exact ⟨k, hg.1⟩
  · rw [if_neg hg] at hk; exact absurd hk (Nat.lt_irrefl 0)
theorem owed_pos {c : Dev nD} {a b : ℕ} {g : GSem nD τ sig} {u : Unit} (h : 0 < (owedX c a + owedY c b) g u) :
    (∃ k, g = dCell (yP c) jYR k) ∨ (∃ k, g = dCell (xP c) jXR k) := by
  rcases Pipeline.add_pos_cases h with h | h
  · exact .inr (owedX_pos h)
  · exact .inl (owedY_pos h)

/-! ## Waiting while owing -/

theorem L_tc (c : Dev nD) (sm : SemLoc sig) : L ((c : Thread nD τ), sm) = {()} := if_pos rfl

theorem lv_bar (c : Dev nD) : lv (barCell c) () = 1 := rfl
theorem lv_yr (c : Dev nD) (k : Fin 16) : lv (dCell c jYR k) () = 2 := by
  show (if famOf (dsem jYR k) = jYR then 2 else if famOf (dsem jYR k) = jXR then 3 else 0) = 2
  rw [famOf_dsem, if_pos rfl]
theorem lv_xr (c : Dev nD) (k : Fin 16) : lv (dCell c jXR k) () = 3 := by
  show (if famOf (dsem jXR k) = jYR then 2 else if famOf (dsem jXR k) = jXR then 3 else 0) = 3
  rw [famOf_dsem, if_neg (by decide), if_pos rfl]
theorem lv_low (c : Dev nD) (s : DmaSem sig) (hs : famOf s ≠ jYR ∧ famOf s ≠ jXR) : lv ((c : Thread nD τ), .dma s) () = 0 := by
  show (if famOf s = jYR then 2 else if famOf s = jXR then 3 else 0) = 0
  rw [if_neg hs.1, if_neg hs.2]

omit [FloatOps F] in
/-- The cells of the local copies and of the sends sit at level 0, below every receive cell. -/
theorem mayWait_low (c : Dev nD) (s : DmaSem sig) (hs : famOf s ≠ jYR ∧ famOf s ≠ jXR) (a b : ℕ) :
    (levAts L lv : sProp 𝕄) ⊢ MayWait (c : Thread nD τ) (.dma s) () (owedX c a + owedY c b) :=
  MayOwe.of_cut (L := L) (lev := lv) 0
    (fun p hp => by rw [Finset.mem_singleton.mp hp, L_tc]; exact Finset.mem_singleton_self _)
    (fun g u hg => by rcases owed_pos hg with ⟨k, rfl⟩ | ⟨k, rfl⟩ <;> exact Finset.mem_singleton_self _)
    (fun p hp => by rw [Finset.mem_singleton.mp hp]; exact Nat.le_of_eq (lv_low c s hs))
    (fun g u hg => by
      rcases owed_pos hg with ⟨k, rfl⟩ | ⟨k, rfl⟩
      · rw [lv_yr]; decide
      · rw [lv_xr]; decide)

omit [FloatOps F] in
/-- The barrier cell sits at level 1, below both exchanges' receive cells. -/
theorem mayWait_bar (c : Dev nD) : (levAts L lv : sProp 𝕄) ⊢ MayWait (c : Thread nD τ) (.reg barS) () (O₂ c) :=
  MayOwe.of_cut (L := L) (lev := lv) 1
    (fun p hp => by rw [Finset.mem_singleton.mp hp, L_tc]; exact Finset.mem_singleton_self _)
    (fun g u hg => by rcases owed_pos (a := 0) (b := 0) hg with ⟨k, rfl⟩ | ⟨k, rfl⟩ <;> exact Finset.mem_singleton_self _)
    (fun p hp => by rw [Finset.mem_singleton.mp hp]; exact Nat.le_of_eq (lv_bar c))
    (fun g u hg => by
      rcases owed_pos (a := 0) (b := 0) hg with ⟨k, rfl⟩ | ⟨k, rfl⟩
      · rw [lv_yr]; decide
      · rw [lv_xr]; decide)

omit [FloatOps F] in
/-- The y-exchange's receive cells sit at level 2, below the x-exchange's. -/
theorem mayWait_yr (c : Dev nD) (k : Fin 16) (a : ℕ) :
    (levAts L lv : sProp 𝕄) ⊢ MayWait (c : Thread nD τ) (.dma (dsem jYR k)) () (owedX c a) :=
  MayOwe.of_cut (L := L) (lev := lv) 2
    (fun p hp => by rw [Finset.mem_singleton.mp hp, L_tc]; exact Finset.mem_singleton_self _)
    (fun g u hg => by obtain ⟨k', rfl⟩ := owedX_pos hg; exact Finset.mem_singleton_self _)
    (fun p hp => by rw [Finset.mem_singleton.mp hp]; exact Nat.le_of_eq (lv_yr c k))
    (fun g u hg => by obtain ⟨k', rfl⟩ := owedX_pos hg; rw [lv_xr]; decide)

/-! ## Axioms -/

/-- info: 'Cert.KernelProof.rest_bar' depends on axioms: [propext, Classical.choice, Quot.sound] -/
#guard_msgs in #print axioms rest_bar

/-- info: 'Cert.KernelProof.rest_dma' depends on axioms: [propext, Classical.choice, Quot.sound] -/
#guard_msgs in #print axioms rest_dma

/-- info: 'Cert.KernelProof.expect_bar' depends on axioms: [propext, Classical.choice, Quot.sound] -/
#guard_msgs in #print axioms expect_bar

/-- info: 'Cert.KernelProof.expect_dma' depends on axioms: [propext, Classical.choice, Quot.sound] -/
#guard_msgs in #print axioms expect_dma

/-- info: 'Cert.KernelProof.owedY_succ' depends on axioms: [propext, Classical.choice, Quot.sound] -/
#guard_msgs in #print axioms owedY_succ

/-- info: 'Cert.KernelProof.owedX_succ' depends on axioms: [propext, Classical.choice, Quot.sound] -/
#guard_msgs in #print axioms owedX_succ

/-- info: 'Cert.KernelProof.O₀_bar' depends on axioms: [propext, Classical.choice, Quot.sound] -/
#guard_msgs in #print axioms O₀_bar

/-- info: 'Cert.KernelProof.O₀_yr' depends on axioms: [propext, Classical.choice, Quot.sound] -/
#guard_msgs in #print axioms O₀_yr

/-- info: 'Cert.KernelProof.O₀_xr' depends on axioms: [propext, Classical.choice, Quot.sound] -/
#guard_msgs in #print axioms O₀_xr

/-- info: 'Cert.KernelProof.O₀_other' depends on axioms: [propext, Classical.choice, Quot.sound] -/
#guard_msgs in #print axioms O₀_other

/-- info: 'Cert.KernelProof.owed_pos' depends on axioms: [propext, Classical.choice, Quot.sound] -/
#guard_msgs in #print axioms owed_pos

/-- info: 'Cert.KernelProof.mayWait_low' depends on axioms: [propext, Classical.choice, Quot.sound] -/
#guard_msgs in #print axioms mayWait_low

/-- info: 'Cert.KernelProof.mayWait_bar' depends on axioms: [propext, Classical.choice, Quot.sound] -/
#guard_msgs in #print axioms mayWait_bar

/-- info: 'Cert.KernelProof.mayWait_yr' depends on axioms: [propext, Classical.choice, Quot.sound] -/
#guard_msgs in #print axioms mayWait_yr

end Cert.KernelProof

end
-- ==== Proof.Bits.LaunchCred.lean ====
/-
  The credit a device holds at launch: what all devices together owe each of its cells. Two units on its barrier
  cell (one from each neighbour), one chunk's credit on each receive cell of the two exchanges.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.SchedTab

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit of one cell -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (yP c) fun _ => 1, Finset.sum_ite_eq' Finset.univ (xP c) fun _ => 1, if_pos (Finset.mem_univ _), if_pos (Finset.mem_univ _)]

theorem launch_yr (c : Dev nD) (k : Fin 16) :
    tallyOn (dCell c jYR k) (launchCredit (Pipeline.owing O₀) 0 (dCell c jYR k)) = (tallyAt (dCell c jYR k) () NB : CellTallies nD τ sig Unit) := by
  unfold tallyAt; refine congrArg _ (Finsupp.ext fun u => ?_); cases u
  rw [Pipeline.launchCredit_owing, Finsupp.single_eq_same, Finset.sum_congr rfl fun d _ => O₀_yr d c k,
    Finset.sum_ite_eq' Finset.univ (yP c) fun _ => NB, if_pos (Finset.mem_univ _)]

theorem launch_xr (c : Dev nD) (k : Fin 16) :
    tallyOn (dCell c jXR k) (launchCredit (Pipeline.owing O₀) 0 (dCell c jXR k)) = (tallyAt (dCell c jXR k) () NB : CellTallies nD τ sig Unit) := by
  unfold tallyAt; refine congrArg _ (Finsupp.ext fun u => ?_); cases u
  rw [Pipeline.launchCredit_owing, Finsupp.single_eq_same, Finset.sum_congr rfl fun d _ => O₀_xr d c k,
    Finset.sum_ite_eq' Finset.univ (xP c) fun _ => NB, if_pos (Finset.mem_univ _)]

/-! ## The cells that hold credit at launch, out of all of a device's semaphores -/

/-- The barrier semaphore, the sixteen receive semaphores of the y-exchange, the sixteen of the x-exchange. -/
def credSem : Unit ⊕ (Fin 16 ⊕ Fin 16) → Option (SemLoc sig)
  | .inl _ => some (.reg barS)
  | .inr (.inl k) => some (.dma (dsem jYR k))
  | .inr (.inr k) => some (.dma (dsem jXR k))

theorem credSem_inj : ∀ (j j' : Unit ⊕ (Fin 16 ⊕ Fin 16)) (i : SemLoc sig), credSem j = some i → credSem j' = some i → j = j' := by
  intro j j' i h h'
  have e : credSem j = credSem j' := h.trans h'.symm
  rcases j with u | k | k <;> rcases j' with u' | k' | k' <;> simp only [credSem, Option.some.injEq] at e
  · rfl
  · cases e
  · cases e
  · cases e
  · have hk : k = k' := congrArg Prod.snd (dsem_injective (a₁ := (jYR, k)) (a₂ := (jYR, k')) (by injection e)); rw [hk]
  · have hj : jYR = jXR := congrArg Prod.fst (dsem_injective (a₁ := (jYR, k)) (a₂ := (jXR, k')) (by injection e)); exact absurd hj (by decide)
  · cases e
  · have hj : jXR = jYR := congrArg Prod.fst (dsem_injective (a₁ := (jXR, k)) (a₂ := (jYR, k')) (by injection e)); exact absurd hj (by decide)
  · have hk : k = k' := congrArg Prod.snd (dsem_injective (a₁ := (jXR, k)) (a₂ := (jXR, k')) (by injection e)); rw [hk]

/-! ## A device's launch credit -/

omit [FloatOps F] in
/-- Out of a device's launch credit: two units on its barrier cell and a chunk's credit on each of its receive cells. -/
theorem launch_creds (c : Dev nD) :
    (Pipeline.launchCred O₀ c : sProp 𝕄) ⊢ iprop(cred (tallyAt (barCell c) () 2) ∗ (bigSep Finset.univ fun k : Fin 16 => cred (tallyAt (dCell c jYR k) () NB))
      ∗ (bigSep Finset.univ fun k : Fin 16 => cred (tallyAt (dCell c jXR k) () NB))) := by
  unfold Pipeline.launchCred
  refine (bigSep_along credSem credSem_inj _).trans ?_
  rw [bigSep_univ_sum, bigSep_univ_sum, bigSep_univ_of_subsingleton ()]
  refine sep_mono ?_ (sep_mono (bigSep_mono fun k _ => ?_) (bigSep_mono fun k _ => ?_))
  · show cred (tallyOn (barCell c) (launchCredit (Pipeline.owing O₀) 0 (barCell c))) ⊢ _; rw [launch_bar]
  · show cred (tallyOn (dCell c jYR k) (launchCredit (Pipeline.owing O₀) 0 (dCell c jYR k))) ⊢ _; rw [launch_yr]
  · show cred (tallyOn (dCell c jXR k) (launchCredit (Pipeline.owing O₀) 0 (dCell c jXR k))) ⊢ _; rw [launch_xr]

omit [FloatOps F] in
/-- The same with each chunk's two receive credits side by side. -/
theorem launch_creds_paired (c : Dev nD) :
    (Pipeline.launchCred O₀ c : sProp 𝕄) ⊢ iprop(cred (tallyAt (barCell c) () 2)
      ∗ bigSep Finset.univ fun k : Fin 16 => iprop(cred (tallyAt (dCell c jYR k) () NB) ∗ cred (tallyAt (dCell c jXR k) () NB))) := by
  refine (launch_creds c).trans (sep_mono_r ?_)
  have h : bigSep (Finset.univ : Finset (Fin 16)) (fun k => (iprop(cred (tallyAt (dCell c jYR k) () NB) ∗ cred (tallyAt (dCell c jXR k) () NB)) : sProp 𝕄))
      = iprop((bigSep Finset.univ fun k : Fin 16 => cred (tallyAt (dCell c jYR k) () NB)) ∗ (bigSep Finset.univ fun k : Fin 16 => cred (tallyAt (dCell c jXR k) () NB))) :=
    bigSep_sep _ _ _
  rw [h]; exact .refl _

/-! ## Axioms -/

/-- info: 'Cert.KernelProof.launch_bar' depends on axioms: [propext, Classical.choice, Quot.sound] -/
#guard_msgs in #print axioms launch_bar

/-- info: 'Cert.KernelProof.launch_yr' depends on axioms: [propext, Classical.choice, Quot.sound] -/
#guard_msgs in #print axioms launch_yr

/-- info: 'Cert.KernelProof.launch_xr' depends on axioms: [propext, Classical.choice, Quot.sound] -/
#guard_msgs in #print axioms launch_xr

/-- info: 'Cert.KernelProof.launch_creds' depends on axioms: [propext, Classical.choice, Quot.sound] -/
#guard_msgs in #print axioms launch_creds

/-- info: 'Cert.KernelProof.launch_creds_paired' depends on axioms: [propext, Classical.choice, Quot.sound] -/
#guard_msgs in #print axioms launch_creds_paired

end Cert.KernelProof

end
-- ==== Proof.Bits.Launch.lean ====
/-
  The launch: the ghost state of all cells allocated at once for the four devices, the duty tokens dealt to the
  devices that pay them, the launch credit, the buffers cut into their chunks, and the run of the program from the
  body's obligation.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.Geom
import proofs.«900304_g7700000000000305_dist_rs_v7x_xy2x2_y_m2048_n512_bf16_1_alg».proof.Proof.Bits.SchedTab
import proofs.«900304_g7700000000000305_dist_rs_v7x_xy2x2_y_m2048_n512_bf16_1_alg».proof.Proof.Bits.LaunchCred

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

/-- All DMA semaphores are the kernel's scoped scratch. -/
abbrev osem : DmaSem sig → SemLoc sig := fun s => .dma s

theorem ownSemFacts : Pipeline.OwnSemFacts cfg0.spec osem :=
  ⟨by decide, fun a b h => SemLoc.dma.inj h, fun k w s => w.elim0⟩

theorem share_eq (m : (ℓ : Loc nD τ sig) → Buf (Elt F) ℓ) (c : Dev nD) (w : Fin cfg0.W) : (dats m 0 c).share w = fullShare := w.elim0

/-- A DMA semaphore is the semaphore of its family and chunk. -/
def dsemEquiv : Fin 7 × Fin 16 ≃ DmaSem sig :=
  Equiv.ofBijective (fun jk => dsem jk.1 jk.2)
    ⟨dsem_injective, fun s => ⟨(famOf s, chOf s), Fin.ext (by
      show (dsem (famOf s) (chOf s)).val = s.val
      rw [dsem_val]; show 16 * (s.val / 16) + s.val % 16 = s.val; omega)⟩⟩

/-! ## Separating conjunctions over the cells of a device -/

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Over families and chunks: chunk by chunk, the seven families in order. -/
theorem bigSep_jk (Φ : Fin 7 × Fin 16 → sProp 𝕄) :
    bigSep Finset.univ Φ = bigSep Finset.univ fun k : Fin 16 => iprop(Φ (0, k) ∗ Φ (1, k) ∗ Φ (2, k) ∗ Φ (3, k) ∗ Φ (4, k) ∗ Φ (5, k) ∗ Φ (6, k)) := by
  rw [bigSep_univ_equiv (Equiv.prodComm (Fin 16) (Fin 7)) Φ, bigSep_univ_prod]
  exact bigSep_congr fun k _ => bigSep_seven _

omit [FloatOps F] in
/-- Over a device's cells: the barrier cell, then the DMA cells. -/
theorem bigSep_CI (Φ : CI → sProp 𝕄) : bigSep Finset.univ Φ = iprop(Φ none ∗ bigSep Finset.univ fun jk : Fin 7 × Fin 16 => Φ (some jk)) := by
  rw [bigSep_univ_equiv (Equiv.optionEquivSumPUnit.{0, 0} (Fin 7 × Fin 16)).symm Φ, bigSep_univ_sum, bigSep_univ_of_subsingleton PUnit.unit]
  show iprop((bigSep Finset.univ fun jk : Fin 7 × Fin 16 => Φ (some jk)) ∗ Φ none) = iprop(Φ none ∗ bigSep Finset.univ fun jk : Fin 7 × Fin 16 => Φ (some jk))
  exact BI.equiv_iff.mp ⟨BI.sep_comm, BI.sep_comm⟩

omit [FloatOps F] in
theorem bigSep_cells (c : Dev nD) (Φ : GSem nD τ sig → sProp 𝕄) :
    (bigSep Finset.univ fun ci : CI => Φ (kcell (c, ci)))
      = iprop(Φ (barCell c) ∗ bigSep Finset.univ fun k : Fin 16 => iprop(Φ (dCell c 0 k) ∗ Φ (dCell c 1 k) ∗ Φ (dCell c 2 k) ∗ Φ (dCell c 3 k)
          ∗ Φ (dCell c 4 k) ∗ Φ (dCell c 5 k) ∗ Φ (dCell c 6 k))) := by
  rw [bigSep_CI, bigSep_jk]

/-! ## All cells and all duty tokens -/

theorem kcell_injective : Function.Injective (kcell : Dev nD × CI → GSem nD τ sig) := by
  rintro ⟨c, _ | ⟨j, k⟩⟩ ⟨c', _ | ⟨j', k'⟩⟩ h
  · have h' : barCell c = barCell c' := h
    rw [barCell_eq_iff.mp h']
  · have h' : barCell c = dCell c' j' k' := h
    exact absurd h'.symm (dCell_ne_bar _ _ _ _)
  · have h' : dCell c j k = barCell c' := h
    exact absurd h' (dCell_ne_bar _ _ _ _)
  · have h' : dCell c j k = dCell c' j' k' := h
    obtain ⟨rfl, rfl, rfl⟩ := dCell_eq_iff.mp h'; rfl
def ringCells : Finset (GSem nD τ sig) := Finset.univ.map ⟨kcell, kcell_injective⟩

/-- A device's own cells' duties: the barrier cell's two, and one per DMA cell. -/
abbrev TI : Type := Bool ⊕ (Fin 7 × Fin 16)
abbrev tokOf (ct : Dev nD × TI) : GSem nD τ sig × ℕ × Bool := match ct.2 with
  | .inl b => (barCell ct.1, 0, b)
  | .inr jk => (dCell ct.1 jk.1 jk.2, 0, false)
theorem tokOf_injective : Function.Injective (tokOf : Dev nD × TI → GSem nD τ sig × ℕ × Bool) := by
  rintro ⟨c, b | ⟨j, k⟩⟩ ⟨c', b' | ⟨j', k'⟩⟩ h
  · have h1 : barCell c = barCell c' := congrArg Prod.fst h
    have h2 : b = b' := congrArg (fun x : GSem nD τ sig × ℕ × Bool => x.2.2) h
    rw [barCell_eq_iff.mp h1, h2]
  · have h1 : barCell c = dCell c' j' k' := congrArg Prod.fst h
    exact absurd h1.symm (dCell_ne_bar _ _ _ _)
  · have h1 : dCell c j k = barCell c' := congrArg Prod.fst h
    exact absurd h1 (dCell_ne_bar _ _ _ _)
  · have h1 : dCell c j k = dCell c' j' k' := congrArg Prod.fst h
    obtain ⟨rfl, rfl, rfl⟩ := dCell_eq_iff.mp h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true) ∗ bigSep Finset.univ fun jk : Fin 7 × Fin 16 => tok (dCell c jk.1 jk.2))

/-- The duty tokens device `c` pays with: its own cells' of the two loads, the store and the two sends, its
    y-neighbour's receive cells', its x-neighbour's receive cells', and one duty of each neighbour's barrier cell. -/
def payToks (c : Dev nD) : sProp 𝕄 :=
  iprop(dutyTok ER (barCell (yP c)) 0 false ∗ dutyTok ER (barCell (xP c)) 0 true
    ∗ bigSep Finset.univ fun k : Fin 16 => iprop(tok (dCell c jPeer k) ∗ tok (dCell c jMine k) ∗ tok (dCell c jSt k) ∗ tok (dCell c jYS k) ∗ tok (dCell c jXS k)
        ∗ tok (dCell (yP c) jYR k) ∗ tok (dCell (xP c) jXR k)))

/-- What stays with device `c`: its positions, and the tokens of the duties it pays. -/
def lin (c : Dev nD) : sProp 𝕄 :=
  iprop((bigSep Finset.univ fun ci : CI => atPos ER (kcell (c, ci)) 0 ∅ 0) ∗ payToks (F := F) c)

/-- What the launch element deals device `c`. -/
def G (m : (ℓ : Loc nD τ sig) → Buf (Elt F) ℓ) (c : Dev nD) : sProp 𝕄 :=
  iprop((bigSep Finset.univ fun ci : CI => roundState ER (ringRd m) (kcell (c, ci)) 0)
    ∗ (bigSep Finset.univ fun ci : CI => iprop(atPos ER (kcell (c, ci)) 0 ∅ 0 ∗ reached ER (kcell (c, ci)) 0)) ∗ toks (F := F) c)

/-- What the global step makes of it. -/
def G' (m : (ℓ : Loc nD τ sig) → Buf (Elt F) ℓ) (c : Dev nD) : sProp 𝕄 := iprop(∃ K, records m K ∗ lin (F := F) c)

omit [FloatOps F] in
theorem bigSep_TI (Φ : TI → sProp 𝕄) :
    bigSep Finset.univ Φ = iprop((Φ (.inl false) ∗ Φ (.inl true)) ∗ bigSep Finset.univ fun jk : Fin 7 × Fin 16 => Φ (.inr jk)) := by
  rw [bigSep_univ_sum, bigSep_univ_eq_bigSepL [false, true] (by decide) (by decide), bigSepL_cons_cons, bigSepL_singleton]
  rfl

theorem fund_ring (m : (ℓ : Loc nD τ sig) → Buf (Elt F) ℓ) :
    BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun ci : CI => Φ (kcell (c, ci)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TI]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun jk : Fin 7 × Fin 16 => semVal (dCell c jk.1 jk.2) 0 :=
  bigSep_univ_equiv dsemEquiv (fun s : DmaSem sig => (semVal ((c : Thread nD τ), SemLoc.dma s) 0 : sProp 𝕄))

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ci : CI => semVal (kcell (c, ci)) 0 : sProp 𝕄) := by
  rw [ownSems0_eq, unscopedSems0_eq, bigSep_CI]
  iintro ⟨HS, HB⟩
  isplitl [HB]; · iexact HB
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ci : CI => iprop(∃ κ : ℕ, cellInv ER (ringRd m) κ (kcell (c, ci))))
          ∗ (bigSep Finset.univ fun ci : CI => iprop(atPos ER (kcell (c, ci)) 0 ∅ 0 ∗ reached ER (kcell (c, ci)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun ci : CI => semVal (kcell (c, ci)) 0) ∗ bigSep Finset.univ fun ci : CI => roundState ER (ringRd m) (kcell (c, ci)) 0)
      ⊢ (|={Set.univ}=> bigSep Finset.univ fun ci : CI => iprop(∃ κ : ℕ, cellInv ER (ringRd m) κ (kcell (c, ci))) : sProp 𝕄) from by
        rw [← bigSep_sep']
        exact (bigSep_mono fun ci _ => (Rounds.body_intro ER (ringRd m) (kcell (c, ci))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (m : (ℓ : Loc nD τ sig) → Buf (Elt F) ℓ) (K : Dev nD × CI → ℕ) (c : Dev nD) :
    iprop(records m K ∗ lin (F := F) c) ⊢ G' m c := by
  unfold G'; iintro H; iexists K; iexact H

omit [FloatOps F] in
/-- The tokens dealt to the devices that pay them: a barrier's two tokens to the device's two neighbours, the tokens
    of the receive cells of the two exchanges to the neighbour that sends. -/
theorem toks_around : (bigSep Finset.univ fun c : Dev nD => (toks c : sProp 𝕄)) ⊢ bigSep Finset.univ fun c : Dev nD => payToks c := by
  unfold toks payToks
  simp only [bigSep_jk, bigSep_sep']
  iintro ⟨⟨HF, HT⟩, H0, H1, H2, H3, H4, H5, H6⟩
  ihave HF' := (Entails.of_eq (bigSep_univ_equiv yEquiv (fun c : Dev nD => (dutyTok ER (barCell c) 0 false : sProp 𝕄)))) $$ HF
  ihave HT' := (Entails.of_eq (bigSep_univ_equiv xEquiv (fun c : Dev nD => (dutyTok ER (barCell c) 0 true : sProp 𝕄)))) $$ HT
  ihave H3' := (Entails.of_eq (bigSep_univ_equiv yEquiv (fun c : Dev nD => bigSep Finset.univ fun k : Fin 16 => (tok (dCell c 3 k) : sProp 𝕄)))) $$ H3
  ihave H5' := (Entails.of_eq (bigSep_univ_equiv xEquiv (fun c : Dev nD => bigSep Finset.univ fun k : Fin 16 => (tok (dCell c 5 k) : sProp 𝕄)))) $$ H5
  isplitl [HF']; · iexact HF'
  isplitl [HT']; · iexact HT'
  isplitl [H0]; · iexact H0
  isplitl [H1]; · iexact H1
  isplitl [H6]; · iexact H6
  isplitl [H2]; · iexact H2
  isplitl [H4]; · iexact H4
  isplitl [H3']; · iexact H3'
  iexact H5'

theorem deal_regroup (m : (ℓ : Loc nD τ sig) → Buf (Elt F) ℓ) :
    (bigSep Finset.univ fun c : Dev nD => iprop((bigSep Finset.univ fun ci : CI => iprop(∃ κ : ℕ, cellInv ER (ringRd m) κ (kcell (c, ci))))
          ∗ (bigSep Finset.univ fun ci : CI => iprop(atPos ER (kcell (c, ci)) 0 ∅ 0 ∗ reached ER (kcell (c, ci)) 0)) ∗ toks (F := F) c) : sProp 𝕄)
      ⊢ bigSep Finset.univ (G' m) := by
  rw [bigSep_sep', bigSep_sep', ← bigSep_univ_prod (fun ck : Dev nD × CI => iprop(∃ κ : ℕ, cellInv ER (ringRd m) κ (kcell ck))),
    bigSep_congr (s := Finset.univ) (fun (c : Dev nD) _ => bigSep_sep' Finset.univ (fun ci : CI => (atPos ER (kcell (c, ci)) 0 ∅ 0 : sProp 𝕄)) (fun ci => reached ER (kcell (c, ci)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun ci : CI => (atPos ER (kcell (c, ci)) 0 ∅ 0 : sProp 𝕄)) (payToks (F := F))).symm)
    isplitl [Hat]; · iexact Hat
    iexact Htk

/-- The global step: own and unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (deal_regroup m))

/-! ## The launch credit -/

/-- The credit a device is dealt at launch: two units on its barrier cell, a chunk's worth on each of its receive cells. -/
def credRes (c : Dev nD) : sProp 𝕄 :=
  iprop(cred (tallyAt (barCell c) () 2) ∗ (bigSep Finset.univ fun k : Fin 16 => cred (tallyAt (dCell c jYR k) () NB))
    ∗ (bigSep Finset.univ fun k : Fin 16 => cred (tallyAt (dCell c jXR k) () NB)))

omit [FloatOps F] in
theorem creds_intro (c : Dev nD) : (Pipeline.launchCred O₀ c : sProp 𝕄) ⊢ credRes (F := F) c := by
  unfold credRes; exact launch_creds c

/-! ## What the body starts from, and what it leaves -/

/-- After the global step: the records, the device's positions and tokens, the level facts, its launch credit, and its
    argument block and result buffer whole as launched. -/
def X (m : (ℓ : Loc nD τ sig) → Buf (Elt F) ℓ) (c : Dev nD) : sProp 𝕄 :=
  iprop((∃ K, records m K ∗ lin (F := F) c) ∗ levAts L lv ∗ credRes (F := F) c
    ∗ ((c : Thread nD τ).loc main_arg0 ↦{fullShare} argOf m c) ∗ ((c : Thread nD τ).loc main_v1 ↦{fullShare} m ((c : Thread nD τ).loc main_v1)))

/-- At the end: the argument block unchanged and the result buffer at its final contents. -/
def Y (m : (ℓ : Loc nD τ sig) → Buf (Elt F) ℓ) (c : Dev nD) : sProp 𝕄 :=
  iprop(((c : Thread nD τ).loc main_arg0 ↦{fullShare} argOf m c) ∗ ((c : Thread nD τ).loc main_v1 ↦{fullShare} outFin m c))

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha, Ho⟩, Hlev, Hcr, -, HG⟩
  ihave Hc := (creds_intro (F := F) c) $$ Hcr
  imodintro
  unfold X G' argOf
  isplitl
  · isplitl [HG]; · iexact HG
    isplitl [Hlev]; · iexact Hlev
    isplitl [Hc]; · iexact Hc
    isplitl [Ha]; · iexact Ha
    iexact Ho
  · iempintro

omit [FloatOps F] in
theorem xsR_any (c : Dev nD) (f : Buf (Elt F) ((c : Thread nD τ).loc cc0_scratch0)) :
    (bigSep Finset.univ fun k : Fin 16 => ((xsR k).view.loc (c : Thread nD τ) ↦[(xsR k).view.set]{fullShare} f : sProp 𝕄))
      ⊢ bigSep Finset.univ fun k : Fin 16 => anyAt (F := F) (xsR k) c :=
  bigSep_mono fun k _ => show (_ : sProp 𝕄) ⊢ _ from by unfold anyAt; iintro H; iexists f; iexact H
omit [FloatOps F] in
theorem xsL_any (c : Dev nD) (f : Buf (Elt F) ((c : Thread nD τ).loc cc0_scratch0)) :
    (bigSep Finset.univ fun k : Fin 16 => ((xsL k).view.loc (c : Thread nD τ) ↦[(xsL k).view.set]{fullShare} f : sProp 𝕄))
      ⊢ bigSep Finset.univ fun k : Fin 16 => anyAt (F := F) (xsL k) c :=
  bigSep_mono fun k _ => show (_ : sProp 𝕄) ⊢ _ from by unfold anyAt; iintro H; iexists f; iexact H
omit [FloatOps F] in
theorem ys_any (c : Dev nD) (f : Buf (Elt F) ((c : Thread nD τ).loc cc0_scratch1)) :
    (bigSep Finset.univ fun k : Fin 16 => ((ysC k).view.loc (c : Thread nD τ) ↦[(ysC k).view.set]{fullShare} f : sProp 𝕄))
      ⊢ bigSep Finset.univ fun k : Fin 16 => anyAt (F := F) (ysC k) c :=
  bigSep_mono fun k _ => show (_ : sProp 𝕄) ⊢ _ from by unfold anyAt; iintro H; iexists f; iexact H
omit [FloatOps F] in
theorem yr_any (c : Dev nD) (f : Buf (Elt F) ((c : Thread nD τ).loc cc0_scratch2)) :
    (bigSep Finset.univ fun k : Fin 16 => ((yrC k).view.loc (c : Thread nD τ) ↦[(yrC k).view.set]{fullShare} f : sProp 𝕄))
      ⊢ bigSep Finset.univ fun k : Fin 16 => yrAny (F := F) c k :=
  bigSep_mono fun k _ => show (_ : sProp 𝕄) ⊢ _ from by unfold yrAny; iintro H; iexists f; iexact H
omit [FloatOps F] in
theorem oa_any (c : Dev nD) (f : Buf (Elt F) ((c : Thread nD τ).loc cc0_scratch3)) :
    (bigSep Finset.univ fun k : Fin 16 => ((oaC k).view.loc (c : Thread nD τ) ↦[(oaC k).view.set]{fullShare} f : sProp 𝕄))
      ⊢ bigSep Finset.univ fun k : Fin 16 => anyAt (F := F) (oaC k) c :=
  bigSep_mono fun k _ => show (_ : sProp 𝕄) ⊢ _ from by unfold anyAt; iintro H; iexists f; iexact H
omit [FloatOps F] in
theorem out_any (c d : Dev nD) (f : Buf (Elt F) ((c : Thread nD τ).loc main_v1)) :
    (bigSep Finset.univ fun k : Fin 16 => ((oC d k).view.loc (c : Thread nD τ) ↦[(oC d k).view.set]{fullShare} f : sProp 𝕄))
      ⊢ bigSep Finset.univ fun k : Fin 16 => outAny (F := F) c d k :=
  bigSep_mono fun k _ => show (_ : sProp 𝕄) ⊢ _ from by unfold outAny; iintro H; iexists f; iexact H

/-- The pieces of a device's launch holdings, chunk by chunk, are the barrier's resources and every chunk's first stage. -/
theorem start_regroup (m : (ℓ : Loc nD τ sig) → Buf (Elt F) ℓ) (c : Dev nD) :
    iprop((atPos ER (barCell c) 0 ∅ 0 ∗ bigSep Finset.univ fun k : Fin 16 => posAt (F := F) c k (fun _ => 0))
        ∗ payToks (F := F) c ∗ credRes (F := F) c
        ∗ (bigSep Finset.univ fun k : Fin 16 => anyAt (F := F) (xsR k) c) ∗ (bigSep Finset.univ fun k : Fin 16 => anyAt (F := F) (xsL k) c)
        ∗ (bigSep Finset.univ fun k : Fin 16 => anyAt (F := F) (ysC k) c) ∗ (bigSep Finset.univ fun k : Fin 16 => anyAt (F := F) (oaC k) c)
        ∗ (bigSep Finset.univ fun k : Fin 16 => yrAny (F := F) c k)
        ∗ (bigSep Finset.univ fun k : Fin 16 => outAny (F := F) c c k) ∗ (bigSep Finset.univ fun k : Fin 16 => outAny (F := F) c (xP c) k)
        ∗ (bigSep Finset.univ fun k : Fin 16 => aPrPts m c k) ∗ (bigSep Finset.univ fun k : Fin 16 => aMnPts m c k))
      ⊢ iprop(barRes (F := F) c ∗ bigSep Finset.univ fun k : Fin 16 => T0 m c k) := by
  unfold payToks credRes barRes T0
  simp only [bigSep_sep']
  iintro ⟨⟨Hpb, Hpk⟩, ⟨HtF, HtT, Ht0, Ht1, Ht6, Ht2, Ht4, Ht3, Ht5⟩, ⟨Hcb, Hcy, Hcx⟩, Hxr, Hxl, Hys, Hoa, Hyr, Hoo, Hox, Hap, Ham⟩
  isplitl [Hpb Hcb HtF HtT Hyr Hox]
  · isplitl [Hpb]; · iexact Hpb
    isplitl [Hcb]; · iexact Hcb
    isplitl [HtF]; · iexact HtF
    isplitl [HtT]; · iexact HtT
    isplitl [Hyr]; · iexact Hyr
    iexact Hox
  isplitl [Hxr]; · iexact Hxr
  isplitl [Hxl]; · iexact Hxl
  isplitl [Hys]; · iexact Hys
  isplitl [Hoa]; · iexact Hoa
  isplitl [Hoo]; · iexact Hoo
  isplitl [Hap]; · iexact Hap
  isplitl [Ham]; · iexact Ham
  isplitl [Hpk]; · iexact Hpk
  isplitl [Ht0]; · iexact Ht0
  isplitl [Ht1]; · iexact Ht1
  isplitl [Ht6]; · iexact Ht6
  isplitl [Ht2]; · iexact Ht2
  isplitl [Ht4]; · iexact Ht4
  isplitl [Ht3]; · iexact Ht3
  isplitl [Ht5]; · iexact Ht5
  isplitl [Hcy]; · iexact Hcy
  iexact Hcx

theorem phi0_intro (m : (ℓ : Loc nD τ sig) → Buf (Elt F) ℓ) (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X lin
  iintro ⟨⟨⟨%K, Hrec, Hpos, Htok⟩, Hlev, Hcr, Harg, Hout⟩, -, ⟨%f0, H0⟩, ⟨%f1, H1⟩, ⟨%f2, H2⟩, ⟨%f3, H3⟩⟩
  iexists K
  unfold start argRestPts
  isplitl [Hrec]; · iexact Hrec
  isplitl [Hlev]; · iexact Hlev
  ihave Hxs := (xs_tiling (F := F) c f0).1 $$ H0
  icases Hxs with ⟨HxsR, HxsL⟩
  ihave Hys := (ys_tiling (F := F) c f1).1 $$ H1
  ihave Hyr := (yr_tiling (F := F) c f2).1 $$ H2
  ihave Hoa := (oa_tiling (F := F) c f3).1 $$ H3
  ihave Ho := (out_tiling (F := F) c c (m ((c : Thread nD τ).loc main_v1))).1 $$ Hout
  icases Ho with ⟨Hoo, Hox⟩
  ihave Ha := (arg_tiling (F := F) c (argOf m c)).1 $$ Harg
  icases Ha with ⟨Hap, Ham, Har⟩
  ihave Hpos' := (Entails.of_eq (bigSep_cells (F := F) c fun g => atPos ER g 0 ∅ 0)) $$ Hpos
  ihave HxsR' := (xsR_any (F := F) c f0) $$ HxsR
  ihave HxsL' := (xsL_any (F := F) c f0) $$ HxsL
  ihave Hys' := (ys_any (F := F) c f1) $$ Hys
  ihave Hyr' := (yr_any (F := F) c f2) $$ Hyr
  ihave Hoa' := (oa_any (F := F) c f3) $$ Hoa
  ihave Hoo' := (out_any (F := F) c c (m ((c : Thread nD τ).loc main_v1))) $$ Hoo
  ihave Hox' := (out_any (F := F) c (xP c) (m ((c : Thread nD τ).loc main_v1))) $$ Hox
  ihave Hst := (start_regroup m c) $$ [Hpos' Htok Hcr HxsR' HxsL' Hys' Hoa' Hyr' Hoo' Hox' Hap Ham]
  · isplitl [Hpos']; · iexact Hpos'
    isplitl [Htok]; · iexact Htok
    isplitl [Hcr]; · iexact Hcr
    isplitl [HxsR']; · iexact HxsR'
    isplitl [HxsL']; · iexact HxsL'
    isplitl [Hys']; · iexact Hys'
    isplitl [Hoa']; · iexact Hoa'
    isplitl [Hyr']; · iexact Hyr'
    isplitl [Hoo']; · iexact Hoo'
    isplitl [Hox']; · iexact Hox'
    isplitl [Hap]; · iexact Hap
    iexact Ham
  icases Hst with ⟨Hbar, HT⟩
  isplitl [Hbar]; · iexact Hbar
  isplitl [Har]; · iexact Har
  iexact HT

theorem phi1_exit (m : (ℓ : Loc nD τ sig) → Buf (Elt F) ℓ) (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = finish m c from rfl, scopedRest0_eq, ownSems0_eq]
  unfold finish Y
  iintro ⟨Hs, Ha, Ho, H0, H1, H2, H3⟩
  isplitl [Ha Ho]
  · isplitl [Ha] <;> iassumption
  isplitl [Hs]; · iexact Hs
  isplitl [H0]; · iexists (xsFin m c); iexact H0
  isplitl [H1]; · iexists (ysFin m c); iexact H1
  isplitl [H2]; · iexists (yrFin m c); iexact H2
  iexists (oaFin m c); iexact H3

theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => w.elim0

theorem L_of_ne (g : GSem nD τ sig) (h : g.1.2 ≠ .tc) : L g = ∅ := if_neg h

/-! ## The run -/

set_option maxRecDepth 8000 in
/-- At the compiled mesh of four devices, for any float values, from any memory with zero counters: every weakly fair
    execution of the program terminates, and every final state has each device's result at the reduced and scattered
    contents and its argument block unchanged. -/
theorem run_main (m : (ℓ : Loc nD τ sig) → Buf (Elt F) ℓ) (ρ : Dev nD → PrngReg)
    (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outFin m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = outFin m c
        ∧ s.mem ((c.tc : Thread nD τ).loc main_arg0) = m ((c.tc : Thread nD τ).loc main_arg0))
    (hY := fun c s' => by
      unfold Y
      iintro ⟨⟨Ha, Ho⟩, -, HSI⟩
      icombine HSI Ha gives %ha
      icombine HSI Ho gives %ho
      imodintro
      isplitr
      · ipureintro; exact ⟨Buf.eq_of_forall_mem_univ ho, Buf.eq_of_forall_mem_univ ha⟩
      iexact HSI)
    (hQ := fun _ h c => (h c).2.2)

/-- info: 'Cert.KernelProof.run_main' depends on axioms: [propext, Classical.choice, Quot.sound] -/
#guard_msgs in #print axioms run_main

end Cert.KernelProof

end
-- ==== Proof.Bits.Loops.lean ====
/-
  A loop's state advances one chunk at a time: the generic step, and the passage from one loop to the next.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.LibSepFin

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Cert.LibSepFin

omit [FloatOps F] in
/-- If a chunk's step takes the chunk from stage `B` to stage `A` and what is owed from `O` to `O'`, the loop's state
    advances from `n` chunks done to `n + 1`. (`X` stands for what runs after the step, `Y` for the step itself.) -/
theorem LS_step (c : Dev nD) (A B : Fin 16 → sProp 𝕄) (O O' : CellTallies nD τ sig Unit) (n : ℕ) (hn : n < 16) (R X Y : sProp 𝕄)
    (hchunk : ∀ W, iprop(R ∗ B ⟨n, hn⟩ ∗ owes (c : Thread nD τ) O W ∗ ((A ⟨n, hn⟩ ∗ ∃ W', owes (c : Thread nD τ) O' W') -∗ X)) ⊢ Y) :
    iprop(R ∗ LS c A B O n ∗ (LS c A B O' (n + 1) -∗ X)) ⊢ Y := by
  unfold LS
  iintro ⟨HR, ⟨⟨%W, HO⟩, HS⟩, Hk⟩
  ihave H := (bigSep_prefix_take A B n hn) $$ HS
  icases H with ⟨HB, Hback⟩
  iapply (hchunk W)
  isplitl [HR]; · iexact HR
  isplitl [HB]; · iexact HB
  isplitl [HO]; · iexact HO
  iintro ⟨HA, HO'⟩
  iapply Hk
  isplitl [HO']; · iexact HO'
  iapply Hback
  iexact HA

omit [FloatOps F] in
theorem LS_start (c : Dev nD) (A B : Fin 16 → sProp 𝕄) (O : CellTallies nD τ sig Unit) :
    iprop((∃ W, owes (c : Thread nD τ) O W) ∗ bigSep Finset.univ B) ⊢ LS c A B O 0 := by
  unfold LS; rw [bigSep_prefix_zero]

omit [FloatOps F] in
theorem LS_end (c : Dev nD) (A B : Fin 16 → sProp 𝕄) (O : CellTallies nD τ sig Unit) :
    LS c A B O 16 ⊢ iprop((∃ W, owes (c : Thread nD τ) O W) ∗ bigSep Finset.univ A) := by
  unfold LS; rw [bigSep_prefix_full]

end Cert.KernelProof

end
-- ==== Proof.Bits.StepsA.lean ====
/-
  The steps of one device's body that come before its loops: the two local loads of a chunk of the argument block
  into the staging buffer, and the handshake with the two neighbours on the barrier semaphore.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.SchedTab
import proofs.«900304_g7700000000000305_dist_rs_v7x_xy2x2_y_m2048_n512_bf16_1_alg».proof.Proof.Bits.Geom
import proofs.«900304_g7700000000000305_dist_rs_v7x_xy2x2_y_m2048_n512_bf16_1_alg».proof.Proof.Bits.Loops

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The load of the y-neighbour's columns of chunk `k` into the right half of the staging chunk: a local copy that
    pays the one duty of its own cell with the landed staging half and the source chunk of the argument block. -/
theorem chunkP (m : (ℓ : Loc nD τ sig) → Buf (Elt F) ℓ) (K : Dev nD × CI → ℕ) (c : Dev nD) (k : Fin 16)
    {hsrc : (aPr c k).view.WordExact} {hdst : (xsR k).view.WordExact}
    {hsem : DmaTarget.Typed (nD := nD) (τ := τ) (p := .tc) .hbm (.dma (dsem jPeer k)) (.here (xsR k))}
    {α : Type} {Kt : PUnit → Prog (TpuEff nD τ sig (Elt F) Λ₀ .tc) α} {Q : α → sProp 𝕄} :
    iprop(records m K ∗ T0 m c k
        ∗ (T1 m c k -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aPr c k) (.here (xsR k)) (.dma (dsem jPeer k)) hsrc hdst hsem) Kt) Q := by
  unfold T0 T1 anyAt aPrPts
  iintro ⟨#Hrec, ⟨⟨%fd, HxR⟩, HxL, Hys, Hoa, Hout, HaP, HaM, Hpos, HtP, HtM, HtS, HtYS, HtXS, HtYR, HtXR, HcYR, HcXR⟩, Hk⟩
  iapply (Rounds.wp_copy_pointsTo 𝒱₀ ER (ringRd m) (c : Thread nD τ) none (src := aPr c k) (dst := xsR k) (sem := .dma (dsem jPeer k))
      (q := fullShare) (fs := argOf m c) (fd := fd) (r := 0) (d := false) (κ := K (c, some (jPeer, k)))
      (by rw [duties_dma]; exact Finset.mem_singleton_self _) () NF (xsR_amount k _)
      ((amount_dma m c jPeer k false).trans amt_peer)
      (by rw [payload_dma, famPay_peer]; unfold xsRPts aPrPts; rw [xsR_landed])) $$ [HxR HaP HtP]
  · isplitr; · iapply (inv_dma m K c jPeer k); iexact Hrec
    isplitl [HaP]; · iexact HaP
    isplitl [HxR]; · iexact HxR
    isplitl [HtP]; · iexact HtP
    iapply (reached_dma m K c jPeer k); iexact Hrec
  iintro Hc
  iapply Hk
  isplitl [Hc]; · iexact Hc
  isplitl [HxL]; · iexact HxL
  isplitl [Hys]; · iexact Hys
  isplitl [Hoa]; · iexact Hoa
  isplitl [Hout]; · iexact Hout
  isplitl [HaM]; · iexact HaM
  isplitl [Hpos]; · iexact Hpos
  isplitl [HtM]; · iexact HtM
  isplitl [HtS]; · iexact HtS
  isplitl [HtYS]; · iexact HtYS
  isplitl [HtXS]; · iexact HtXS
  isplitl [HtYR]; · iexact HtYR
  isplitl [HtXR]; · iexact HtXR
  isplitl [HcYR]; · iexact HcYR
  iexact HcXR

/-- The load of the device's own columns of chunk `k` into the left half of the staging chunk: a local copy that pays
    the one duty of its own cell with the landed staging half and the source chunk of the argument block. -/
theorem chunkM (m : (ℓ : Loc nD τ sig) → Buf (Elt F) ℓ) (K : Dev nD × CI → ℕ) (c : Dev nD) (k : Fin 16)
    {hsrc : (aMn c k).view.WordExact} {hdst : (xsL k).view.WordExact}
    {hsem : DmaTarget.Typed (nD := nD) (τ := τ) (p := .tc) .hbm (.dma (dsem jMine k)) (.here (xsL k))}
    {α : Type} {Kt : PUnit → Prog (TpuEff nD τ sig (Elt F) Λ₀ .tc) α} {Q : α → sProp 𝕄} :
    iprop(records m K ∗ T1 m c k
        ∗ (T2 (F := F) c k -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aMn c k) (.here (xsL k)) (.dma (dsem jMine k)) hsrc hdst hsem) Kt) Q := by
  unfold T1 T2 anyAt aMnPts
  iintro ⟨#Hrec, ⟨HcP, ⟨%fd, HxL⟩, Hys, Hoa, Hout, HaM, Hpos, HtM, HtS, HtYS, HtXS, HtYR, HtXR, HcYR, HcXR⟩, Hk⟩
  iapply (Rounds.wp_copy_pointsTo 𝒱₀ ER (ringRd m) (c : Thread nD τ) none (src := aMn c k) (dst := xsL k) (sem := .dma (dsem jMine k))
      (q := fullShare) (fs := argOf m c) (fd := fd) (r := 0) (d := false) (κ := K (c, some (jMine, k)))
      (by rw [duties_dma]; exact Finset.mem_singleton_self _) () NF (xsL_amount k _)
      ((amount_dma m c jMine k false).trans amt_mine)
      (by rw [payload_dma, famPay_mine]; unfold xsLPts aMnPts; rw [xsL_landed])) $$ [HxL HaM HtM]
  · isplitr; · iapply (inv_dma m K c jMine k); iexact Hrec
    isplitl [HaM]; · iexact HaM
    isplitl [HxL]; · iexact HxL
    isplitl [HtM]; · iexact HtM
    iapply (reached_dma m K c jMine k); iexact Hrec
  iintro Hc
  iapply Hk
  isplitl [HcP]; · iexact HcP
  isplitl [Hc]; · iexact Hc
  isplitl [Hys]; · iexact Hys
  isplitl [Hoa]; · iexact Hoa
  isplitl [Hout]; · iexact Hout
  isplitl [Hpos]; · iexact Hpos
  isplitl [HtS]; · iexact HtS
  isplitl [HtYS]; · iexact HtYS
  isplitl [HtXS]; · iexact HtXS
  isplitl [HtYR]; · iexact HtYR
  isplitl [HtXR]; · iexact HtXR
  isplitl [HcYR]; · iexact HcYR
  iexact HcXR

/-! ## The handshake -/

/-- What the device still holds of the barrier's resources after its first signal. -/
def barRes1 (c : Dev nD) : sProp 𝕄 :=
  iprop(atPos ER (barCell c) 0 ∅ 0 ∗ cred (tallyAt (barCell c) () 2)
    ∗ dutyTok ER (barCell (xP c)) 0 true ∗ (bigSep Finset.univ fun k : Fin 16 => outAny (F := F) c (xP c) k))

/-- And after its second. -/
def barRes2 (c : Dev nD) : sProp 𝕄 :=
  iprop(atPos ER (barCell c) 0 ∅ 0 ∗ cred (tallyAt (barCell c) () 2))

/-- The signal to the y-neighbour: it pays duty `false` of the neighbour's barrier cell with the device's own receive
    buffer, chunk by chunk, and the fact that its receive cells of the y-exchange are at round 0. -/
theorem barSigY (m : (ℓ : Loc nD τ sig) → Buf (Elt F) ℓ) (K : Dev nD × CI → ℕ) (c n : Dev nD) (hn : n = yP c) {W : Waits sig Unit}
    {α : Type} {Kt : PUnit → Prog (TpuEff nD τ sig (Elt F) Λ₀ .tc) α} {Q : α → sProp 𝕄} :
    iprop(records m K ∗ barRes (F := F) c ∗ owes (c : Thread nD τ) (O₀ c) W
        ∗ ((barRes1 (F := F) c ∗ owes (c : Thread nD τ) (O₁ c) W) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semSignal ((n, .tc) : Thread nD τ) barS (1#32).toNat) Kt) Q := by
  subst hn
  unfold barRes barRes1
  iintro ⟨#Hrec, ⟨HatB, HcB, HtY, HtX, Hyr, Hout⟩, HO, Hk⟩
  iapply (Rounds.wp_signal 𝒱₀ ER (ringRd m) (c : Thread nD τ) none (dst := (yP c : Thread nD τ)) (κ := K (yP c, none))
      (d := false) (by rw [duties_bar]; exact Finset.mem_univ _) ((amount_bar m (yP c) false).trans (by decide)) () (O₁ c) rfl)
    $$ [HO HtY Hyr]
  · isplitr; · iapply (inv_bar m K (yP c)); iexact Hrec
    isplitl [HO]; · iexact HO
    isplitl [HtY]; · iexact HtY
    isplitl [Hyr]
    · rw [payload_bar_false]; unfold barPayY; rw [yP_yP]
      isplitl [Hyr]; · iexact Hyr
      iapply (bigSep_intro_persistent (R := records m K) (fun k _ => reached_dma m K c jYR k)); iexact Hrec
    · iapply (reached_bar m K (yP c)); iexact Hrec
  iintro HO
  iapply Hk
  isplitr [HO]
  · isplitl [HatB]; · iexact HatB
    isplitl [HcB]; · iexact HcB
    isplitl [HtX]; · iexact HtX
    iexact Hout
  iexact HO

/-- The signal to the x-neighbour: it pays duty `true` of the neighbour's barrier cell with the neighbour's row half of
    the device's result buffer, chunk by chunk, and the fact that its receive cells of the x-exchange are at round 0. -/
theorem barSigX (m : (ℓ : Loc nD τ sig) → Buf (Elt F) ℓ) (K : Dev nD × CI → ℕ) (c n : Dev nD) (hn : n = xP c) {W : Waits sig Unit}
    {α : Type} {Kt : PUnit → Prog (TpuEff nD τ sig (Elt F) Λ₀ .tc) α} {Q : α → sProp 𝕄} :
    iprop(records m K ∗ barRes1 (F := F) c ∗ owes (c : Thread nD τ) (O₁ c) W
        ∗ ((barRes2 (F := F) c ∗ owes (c : Thread nD τ) (O₂ c) W) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semSignal ((n, .tc) : Thread nD τ) barS (1#32).toNat) Kt) Q := by
  subst hn
  unfold barRes1 barRes2
  iintro ⟨#Hrec, ⟨HatB, HcB, HtX, Hout⟩, HO, Hk⟩
  iapply (Rounds.wp_signal 𝒱₀ ER (ringRd m) (c : Thread nD τ) none (dst := (xP c : Thread nD τ)) (κ := K (xP c, none))
      (d := true) (by rw [duties_bar]; exact Finset.mem_univ _) ((amount_bar m (xP c) true).trans (by decide)) () (O₂ c) rfl)
    $$ [HO HtX Hout]
  · isplitr; · iapply (inv_bar m K (xP c)); iexact Hrec
    isplitl [HO]; · iexact HO
    isplitl [HtX]; · iexact HtX
    isplitl [Hout]
    · rw [payload_bar_true]; unfold barPayX; rw [xP_xP]
      isplitl [Hout]; · iexact Hout
      iapply (bigSep_intro_persistent (R := records m K) (fun k _ => reached_dma m K c jXR k)); iexact Hrec
    · iapply (reached_bar m K (xP c)); iexact Hrec
  iintro HO
  iapply Hk
  isplitr [HO]
  · isplitl [HatB]; · iexact HatB
    iexact HcB
  iexact HO

/-- The wait for both neighbours' signals: they hand the device the y-neighbour's receive buffer and its own row half of
    the x-neighbour's result buffer, chunk by chunk. -/
theorem barWait (m : (ℓ : Loc nD τ sig) → Buf (Elt F) ℓ) (K : Dev nD × CI → ℕ) (c : Dev nD) {W : Waits sig Unit}
    {α : Type} {Kt : PUnit → Prog (TpuEff nD τ sig (Elt F) Λ₀ .tc) α} {Q : α → sProp 𝕄} :
    iprop(records m K ∗ levAts L lv ∗ barRes2 (F := F) c ∗ owes (c : Thread nD τ) (O₂ c) W
        ∗ (((∃ W', owes (c : Thread nD τ) (O₂ c) W') ∗ atPos ER (barCell c) 1 ∅ 0
              ∗ (bigSep Finset.univ fun k : Fin 16 => iprop(yrAny (F := F) (yP c) k ∗ outAny (F := F) (xP c) c k)))
            -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semWait barS (2#32).toNat) Kt) Q := by
  unfold barRes2
  iintro ⟨#Hrec, #Hlev, ⟨HatB, HcB⟩, HO, Hk⟩
  iapply (Rounds.wp_wait_rest_token 𝒱₀ ER (ringRd m) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPayY barPayX
  icases Hp with ⟨⟨Hyr, -⟩, Hout, -⟩
  iapply Hk
  isplitl [HO]; · iexists _; iexact HO
  isplitl [HatB]; · iexact HatB
  rw [bigSep_sep']
  isplitl [Hyr]; · iexact Hyr
  iexact Hout

/-- The whole handshake: the two signals and the wait. -/
theorem barrierStep (m : (ℓ : Loc nD τ sig) → Buf (Elt F) ℓ) (K : Dev nD × CI → ℕ) (c n₁ n₂ : Dev nD) (hn₁ : n₁ = yP c) (hn₂ : n₂ = xP c)
    {W : Waits sig Unit}
    {α : Type} {Kt : PUnit → Prog (TpuEff nD τ sig (Elt F) Λ₀ .tc) α} {Q : α → sProp 𝕄} :
    iprop(records m K ∗ levAts L lv ∗ barRes (F := F) c ∗ owes (c : Thread nD τ) (O₀ c) W
        ∗ (((∃ W', owes (c : Thread nD τ) (O₂ c) W') ∗ atPos ER (barCell c) 1 ∅ 0
              ∗ (bigSep Finset.univ fun k : Fin 16 => iprop(yrAny (F := F) (yP c) k ∗ outAny (F := F) (xP c) c k)))
            -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.semSignal ((n₁, .tc) : Thread nD τ) barS (1#32).toNat) fun _ =>
            .op (.semSignal ((n₂, .tc) : Thread nD τ) barS (1#32).toNat) fun _ =>
              .op (.semWait barS (2#32).toNat) Kt) Q := by
  iintro ⟨#Hrec, #Hlev, Hbar, HO, Hk⟩
  iapply (barSigY m K c n₁ hn₁ (W := W))
  isplitr; · iexact Hrec
  isplitl [Hbar]; · iexact Hbar
  isplitl [HO]; · iexact HO
  iintro ⟨Hbar, HO⟩
  iapply (barSigX m K c n₂ hn₂ (W := W))
  isplitr; · iexact Hrec
  isplitl [Hbar]; · iexact Hbar
  isplitl [HO]; · iexact HO
  iintro ⟨Hbar, HO⟩
  iapply (barWait m K c (W := W))
  isplitr; · iexact Hrec
  isplitr; · iexact Hlev
  isplitl [Hbar]; · iexact Hbar
  isplitl [HO]; · iexact HO
  iexact Hk

/-! ## The two loads at the level of their loops -/

/-- The neighbour-columns load of chunk `n` advances the first loop of loads from `n` chunks done to `n + 1`. -/
theorem stepP (m : (ℓ : Loc nD τ sig) → Buf (Elt F) ℓ) (K : Dev nD × CI → ℕ) (c : Dev nD) (n : ℕ) (hn : n < 16)
    {hsrc : (aPr c ⟨n, hn⟩).view.WordExact} {hdst : (xsR ⟨n, hn⟩).view.WordExact}
    {hsem : DmaTarget.Typed (nD := nD) (τ := τ) (p := .tc) .hbm (.dma (dsem jPeer ⟨n, hn⟩)) (.here (xsR ⟨n, hn⟩))}
    {α : Type} {Kt : PUnit → Prog (TpuEff nD τ sig (Elt F) Λ₀ .tc) α} {Q : α → sProp 𝕄} :
    iprop(records m K ∗ LS c (T1 m c) (T0 m c) (O₀ c) n
        ∗ (LS c (T1 m c) (T0 m c) (O₀ c) (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aPr c ⟨n, hn⟩) (.here (xsR ⟨n, hn⟩)) (.dma (dsem jPeer ⟨n, hn⟩)) hsrc hdst hsem) Kt) Q :=
  LS_step c (T1 m c) (T0 m c) (O₀ c) (O₀ c) n hn (records m K) _ _ (fun W => by
    iintro ⟨#Hrec, HB, HO, Hk⟩
    iapply (chunkP m K c ⟨n, hn⟩)
    isplitr; · iexact Hrec
    isplitl [HB]; · iexact HB
    iintro HA
    iapply Hk
    isplitl [HA]; · iexact HA
    iexists W; iexact HO)

/-- The own-columns load of chunk `n` advances the second loop of loads from `n` chunks done to `n + 1`. -/
theorem stepM (m : (ℓ : Loc nD τ sig) → Buf (Elt F) ℓ) (K : Dev nD × CI → ℕ) (c : Dev nD) (n : ℕ) (hn : n < 16)
    {hsrc : (aMn c ⟨n, hn⟩).view.WordExact} {hdst : (xsL ⟨n, hn⟩).view.WordExact}
    {hsem : DmaTarget.Typed (nD := nD) (τ := τ) (p := .tc) .hbm (.dma (dsem jMine ⟨n, hn⟩)) (.here (xsL ⟨n, hn⟩))}
    {α : Type} {Kt : PUnit → Prog (TpuEff nD τ sig (Elt F) Λ₀ .tc) α} {Q : α → sProp 𝕄} :
    iprop(records m K ∗ LS c (fun k => T2 (F := F) c k) (T1 m c) (O₀ c) n
        ∗ (LS c (fun k => T2 (F := F) c k) (T1 m c) (O₀ c) (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.enqueueDma (aMn c ⟨n, hn⟩) (.here (xsL ⟨n, hn⟩)) (.dma (dsem jMine ⟨n, hn⟩)) hsrc hdst hsem) Kt) Q :=
  LS_step c (fun k => T2 (F := F) c k) (T1 m c) (O₀ c) (O₀ c) n hn (records m K) _ _ (fun W => by
    iintro ⟨#Hrec, HB, HO, Hk⟩
    iapply (chunkM m K c ⟨n, hn⟩)
    isplitr; · iexact Hrec
    isplitl [HB]; · iexact HB
    iintro HA
    iapply Hk
    isplitl [HA]; · iexact HA
    iexists W; iexact HO)

end Cert.KernelProof

end
-- ==== Proof.Bits.StepsB.lean ====
/-
  The first loop's iteration, for a symbolic chunk `k` and a symbolic device `c`: the wait for the local load of the
  y-neighbour's columns of the chunk, the load of those columns from the staging buffer, their narrowing to bf16 and
  store into the send buffer, and the transfer of the stored chunk into the y-neighbour's receive buffer.

  Before it the chunk is at stage `T3` and the device owes the y-neighbour's receive cell of the chunk its credit;
  after it the chunk is at stage `T4` and that credit is paid.

  Then the same step on the loop's state: the chunks below the counter sent, the others not yet.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.SchedTab
import proofs.«900304_g7700000000000305_dist_rs_v7x_xy2x2_y_m2048_n512_bf16_1_alg».proof.Proof.Bits.Geom
import proofs.«900304_g7700000000000305_dist_rs_v7x_xy2x2_y_m2048_n512_bf16_1_alg».proof.Proof.Bits.Loops

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements the chunk's loads and stores touch -/

/-- A load of the right half of staging chunk `k` through the whole buffer touches the chunk's elements only. -/
private theorem sub_xsR (k : Fin 16) : xsW.view.setOn (rXR k).toLoadRect.set ⊆ (xsR k).view.set :=
  subset_of_eq (View.set_slice _ (rXR k)).symm

/-- A load of chunk `k` of the send buffer through the whole buffer touches the chunk's elements only. -/
private theorem sub_ysC (k : Fin 16) : ysW.view.setOn (rCh k).toLoadRect.set ⊆ (ysC k).view.set :=
  subset_of_eq (View.set_slice _ (rCh k)).symm

/-! ## The first loop's iteration -/

set_option maxHeartbeats 1600000 in
/-- Chunk `k` of the first loop: the neighbour-columns load is awaited, the chunk is read, narrowed and stored
    into the send buffer, and the stored chunk is sent to the y-neighbour's receive buffer, paying the device's
    send cell and the neighbour's receive cell of the chunk. -/
theorem chunk1 (m : (ℓ : Loc nD τ sig) → Buf (Elt F) ℓ) (K : Dev nD × CI → ℕ) (c n : Dev nD) (hn : n = yP c) (k : Fin 16)
    {h1 : (aPr c k).view.WordExact} {h2 : (xsR k).view.WordExact}
    {h3 : xsW.view.LoadsAt (rXR k).toLoadRect} {h4 : ysW.view.LoadsAt (rCh k).toLoadRect}
    {h5 : (ysW.access (rCh k)).Stores Finset.univ}
    {h6 : (Finset.univ : Finset (rCh k).shape.Idx) = Finset.univ ∨ ∀ a, (rCh k).stride a = 1}
    {hsc : (yrC k : Memref sig (Dev.tc n : Thread nD τ).2.kind .vmem S64x512 .bf16).view.ref.isScScratch = false}
    {h7 : (ysC k).view.WordExact} {h8 : (yrC k).view.WordExact}
    {h9 : DmaTarget.Typed .vmem (.dma (dsem jYR k)) (.remote (Dev.tc n : Thread nD τ) (yrC k) (.dma (dsem jYS k)) hsc)}
    {α : Type} {Kt : PUnit → Prog (TpuEff nD τ sig (Elt F) Λ₀ .tc) α} {Q : α → sProp 𝕄}
    (O : CellTallies nD τ sig Unit) (W : Waits sig Unit)
    (hmw : (levAts L lv : sProp 𝕄) ⊢ MayWait (c : Thread nD τ) (.dma (dsem jPeer k)) () (O + tallyAt (dCell (yP c) jYR k) () NB)) :
    iprop(records m K ∗ levAts L lv ∗ T3 (F := F) c k ∗ owes (c : Thread nD τ) (O + tallyAt (dCell (yP c) jYR k) () NB) W
        ∗ ((T4 m c k ∗ ∃ W', owes (c : Thread nD τ) O W') -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jPeer k) (aPr c k) (xsR k) h1 h2) fun _ =>
           .op (.load xsW (rXR k).toLoadRect h3) fun v =>
           .op (.load ysW (rCh k).toLoadRect h4) fun _ =>
           .op (.store ysW (rCh k) (ysVal v) Finset.univ h5 h6) fun _ =>
           .op (.enqueueDma (ysC k) (.remote (Dev.tc n : Thread nD τ) (yrC k) (.dma (dsem jYS k)) hsc) (.dma (dsem jYR k)) h7 h8 h9) Kt) Q := by
  subst hn
  unfold T3 T2 posAt anyAt yrAny
  iintro ⟨#HR, #Hlev, ⟨⟨HcP, HcM, ⟨%fy, Hys⟩, Hoa, Hout, ⟨HaP, Ha1, Ha2, Ha3, Ha4, Ha5, Ha6⟩, HtSt, HtYS, HtXS, HtYR, HtXR, HcYR, HcXR⟩, ⟨%fr, Hyr⟩, HoutX⟩, HO, Hk⟩
  -- the wait on the cell of the neighbour-columns load: the staging chunk's right half and the argument piece come back
  iapply (Rounds.wp_wait_rest_token 𝒱₀ ER (ringRd m) (c : Thread nD τ) none (κ := K (c, some (jPeer, k)))
      (wpE_waitDma2_eq 𝒱₀ (c : Thread nD τ) none Set.univ) (Set.mem_univ _) () (O := O + tallyAt (dCell (yP c) jYR k) () NB) (W := W) (R := 0) (m := 0) (T := ∅)
      (by rw [Nat.zero_add, expect_dma, amt_peer])) $$ [HcP HO HaP]
  · isplitr; · iapply (inv_dma m K c jPeer k); iexact HR
    isplitl [HcP]; · iexact HcP
    isplitl [HO]; · iexact HO
    isplitr; · iapply hmw; iexact Hlev
    iexact HaP
  iintro ⟨HO, HaP, -, Hpay⟩
  ihave Hp := (Entails.of_eq ((rest_dma m c jPeer k).trans (famPay_peer m c k))) $$ Hpay
  icases Hp with ⟨HxsR, HaPr⟩
  unfold xsRPts
  -- the load of the staging chunk reads the y-neighbour's columns
  iapply (wp_load 𝒱₀ (c : Thread nD τ) none Set.univ (m := xsW) (sub_xsR k)) $$ HxsR; iintro HxsR
  rw [read_xsR m c k (xsFin m c) (fun _ _ => rfl)]
  -- the load of the send buffer's chunk, whose value is not used
  iapply (wp_load 𝒱₀ (c : Thread nD τ) none Set.univ (m := ysW) (sub_ysC k)) $$ Hys; iintro Hys
  -- the store of the narrowed chunk
  iapply (wp_store 𝒱₀ (c : Thread nD τ) none Set.univ (m := ysW) (r := rCh k) (Mk := Finset.univ) (S := (ysC k).view.set)
      (subset_of_eq (access_set_ys k))) $$ Hys; iintro Hys
  ihave Hys' := (Entails.of_eq (ys_stored m c k fy fullShare)) $$ Hys
  -- the transfer of the stored chunk into the y-neighbour's receive chunk
  have hland := yr_landed m (yP c) k fr fullShare
  rw [yP_yP] at hland
  iapply (Rounds.wp_send_pointsTo 𝒱₀ ER (ringRd m) (c : Thread nD τ) none (c' := (yP c : Thread nD τ)) (src := ysC k) (dst := yrC k)
      (q := fullShare) (fs := ysFin m c) (fd := fr) (κ₁ := K (c, some (jYS, k))) (κ₂ := K (yP c, some (jYR, k)))
      (r₁ := 0) (r₂ := 0) (d₁ := false) (d₂ := false)
      (by rw [duties_dma]; exact Finset.mem_singleton_self _) (by rw [duties_dma]; exact Finset.mem_singleton_self _)
      () () NB (yrC_amount k (dsem jYR k)) ((amount_dma m c jYS k false).trans amt_ys) ((amount_dma m (yP c) jYR k false).trans amt_yr)
      O rfl (W := insert (SemLoc.dma (dsem jPeer k), ()) W)
      (by rw [payload_dma, famPay_ys]; exact BI.Entails.refl _)
      (by rw [payload_dma, famPay_yr]; exact Entails.of_eq hland)) $$ [Hys' Hyr HO HtYS HtYR]
  · isplitr; · iapply (inv_dma m K c jYS k); iexact HR
    isplitr; · iapply (inv_dma m K (yP c) jYR k); iexact HR
    isplitl [Hys']; · iexact Hys'
    isplitl [Hyr]; · iexact Hyr
    isplitl [HO]; · iexact HO
    isplitl [HtYS]; · iexact HtYS
    isplitr; · iapply (reached_dma m K c jYS k); iexact HR
    isplitl [HtYR]; · iexact HtYR
    iapply (reached_dma m K (yP c) jYR k); iexact HR
  iintro ⟨HcYS, HO⟩
  iapply Hk
  isplitr [HO]
  · unfold T4 posAt anyAt xsRPts
    isplitl [HxsR]; · iexact HxsR
    isplitl [HaPr]; · iexact HaPr
    isplitl [HcYS]; · iexact HcYS
    isplitl [HcM]; · iexact HcM
    isplitl [Hoa]; · iexact Hoa
    isplitl [Hout]; · iexact Hout
    isplitl [HoutX]; · iexact HoutX
    isplitl [HaP Ha1 Ha2 Ha3 Ha4 Ha5 Ha6]
    · isplitl [HaP]; · iexact HaP
      isplitl [Ha1]; · iexact Ha1
      isplitl [Ha2]; · iexact Ha2
      isplitl [Ha3]; · iexact Ha3
      isplitl [Ha4]; · iexact Ha4
      isplitl [Ha5]; · iexact Ha5
      iexact Ha6
    isplitl [HtSt]; · iexact HtSt
    isplitl [HtXS]; · iexact HtXS
    isplitl [HtXR]; · iexact HtXR
    isplitl [HcYR]; · iexact HcYR
    iexact HcXR
  · iexists _; iexact HO

/-! ## The first loop's iteration on the loop's state -/

/-- The iteration of the first loop at chunk `n`, on the loop's state: `n` chunks sent before, `n + 1` after, and the
    credit of the y-neighbour's receive cell of chunk `n` no longer owed. -/
theorem step1 (m : (ℓ : Loc nD τ sig) → Buf (Elt F) ℓ) (K : Dev nD × CI → ℕ) (c : Dev nD) (n : ℕ) (hn : n < 16) (d : Dev nD) (hd : d = yP c)
    {h1 : (aPr c ⟨n, hn⟩).view.WordExact} {h2 : (xsR ⟨n, hn⟩).view.WordExact}
    {h3 : xsW.view.LoadsAt (rXR ⟨n, hn⟩).toLoadRect} {h4 : ysW.view.LoadsAt (rCh ⟨n, hn⟩).toLoadRect}
    {h5 : (ysW.access (rCh ⟨n, hn⟩)).Stores Finset.univ}
    {h6 : (Finset.univ : Finset (rCh ⟨n, hn⟩).shape.Idx) = Finset.univ ∨ ∀ a, (rCh ⟨n, hn⟩).stride a = 1}
    {hsc : (yrC ⟨n, hn⟩ : Memref sig (Dev.tc d : Thread nD τ).2.kind .vmem S64x512 .bf16).view.ref.isScScratch = false}
    {h7 : (ysC ⟨n, hn⟩).view.WordExact} {h8 : (yrC ⟨n, hn⟩).view.WordExact}
    {h9 : DmaTarget.Typed .vmem (.dma (dsem jYR ⟨n, hn⟩)) (.remote (Dev.tc d : Thread nD τ) (yrC ⟨n, hn⟩) (.dma (dsem jYS ⟨n, hn⟩)) hsc)}
    {α : Type} {Kt : PUnit → Prog (TpuEff nD τ sig (Elt F) Λ₀ .tc) α} {Q : α → sProp 𝕄} :
    iprop((records m K ∗ levAts L lv) ∗ LS c (T4 m c) (fun k => T3 (F := F) c k) (owedX c 0 + owedY c n) n
        ∗ (LS c (T4 m c) (fun k => T3 (F := F) c k) (owedX c 0 + owedY c (n + 1)) (n + 1)
            -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jPeer ⟨n, hn⟩) (aPr c ⟨n, hn⟩) (xsR ⟨n, hn⟩) h1 h2) fun _ =>
           .op (.load xsW (rXR ⟨n, hn⟩).toLoadRect h3) fun v =>
           .op (.load ysW (rCh ⟨n, hn⟩).toLoadRect h4) fun _ =>
           .op (.store ysW (rCh ⟨n, hn⟩) (ysVal v) Finset.univ h5 h6) fun _ =>
           .op (.enqueueDma (ysC ⟨n, hn⟩) (.remote (Dev.tc d : Thread nD τ) (yrC ⟨n, hn⟩) (.dma (dsem jYS ⟨n, hn⟩)) hsc) (.dma (dsem jYR ⟨n, hn⟩)) h7 h8 h9) Kt) Q := by
  have hO : owedX c 0 + owedY c n = (owedX c 0 + owedY c (n + 1)) + tallyAt (dCell (yP c) jYR ⟨n, hn⟩) () NB := by
    rw [owedY_succ c n hn, add_assoc]
  have hmw : (levAts L lv : sProp 𝕄) ⊢ MayWait (c : Thread nD τ) (.dma (dsem jPeer ⟨n, hn⟩)) ()
      ((owedX c 0 + owedY c (n + 1)) + tallyAt (dCell (yP c) jYR ⟨n, hn⟩) () NB) := by
    rw [← hO]
    exact mayWait_low c (dsem jPeer ⟨n, hn⟩) ⟨by rw [famOf_dsem]; decide, by rw [famOf_dsem]; decide⟩ 0 n
  refine LS_step c (T4 m c) (fun k => T3 (F := F) c k) _ _ n hn iprop(records m K ∗ levAts L lv) _ _ (fun W => ?_)
  rw [hO]
  iintro ⟨⟨#HR, #Hlev⟩, HT, HO, Hk⟩
  iapply (chunk1 m K c d hd ⟨n, hn⟩ (owedX c 0 + owedY c (n + 1)) W hmw)
  isplitr; · iexact HR
  isplitr; · iexact Hlev
  isplitl [HT]; · iexact HT
  isplitl [HO]; · iexact HO
  iexact Hk

/-- info: 'Cert.KernelProof.chunk1' depends on axioms: [propext, Classical.choice, Quot.sound] -/
#guard_msgs in #print axioms chunk1

/-- info: 'Cert.KernelProof.step1' depends on axioms: [propext, Classical.choice, Quot.sound] -/
#guard_msgs in #print axioms step1

end Cert.KernelProof

end
-- ==== Proof.Bits.StepsC.lean ====
/-
  The second loop's iteration, for a symbolic chunk `k` and a symbolic device `c`, and the loop's step.

  The device waits for its own-columns load of the chunk (the left half of the staging chunk and the argument piece
  come back) and for the chunk its y-neighbour narrowed and sent (the receive buffer's chunk at its final contents);
  it reads both, adds the neighbour's chunk to its own narrowed columns and stores the sum, which is the chunk of the
  reduced result. Half of the stored chunk's share goes with the local copy into the device's own rows of its result
  buffer, the other half with the remote copy into the same rows of the x-neighbour's result buffer; the remote copy
  pays the x-neighbour's receive cell of the chunk, one summand of what the device still owes.

  At the loop's level: with chunks below `n` reduced and sent and the others still waiting, and the device owing the
  x-neighbour's receive cells of chunks `n, n+1, …`, the iteration for chunk `n` leaves chunks below `n + 1` done
  and the cells of chunks `n+1, …` owed. The two waits are allowed because the cell of a local load sits below
  every receive cell and the y-exchange's receive cells sit below the x-exchange's.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.SchedTab
import proofs.«900304_g7700000000000305_dist_rs_v7x_xy2x2_y_m2048_n512_bf16_1_alg».proof.Proof.Bits.Geom
import proofs.«900304_g7700000000000305_dist_rs_v7x_xy2x2_y_m2048_n512_bf16_1_alg».proof.Proof.Bits.Loops

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which elements the chunk's loads and its store touch -/

/-- A load of the left half of staging chunk `k` through the whole buffer touches the chunk's elements only. -/
theorem sub_xsL (k : Fin 16) : xsW.view.setOn (rXL k).toLoadRect.set ⊆ (xsL k).view.set :=
  (View.set_slice xsW.view (rXL k)).ge

/-- A load of chunk `k` of the receive buffer through the whole buffer touches the chunk's elements only. -/
theorem sub_yrC (k : Fin 16) : yrW.view.setOn (rCh k).toLoadRect.set ⊆ (yrC k).view.set :=
  (View.set_slice yrW.view (rCh k)).ge

/-- So does a load of chunk `k` of the second exchange's send buffer. -/
theorem sub_oaC (k : Fin 16) : oaW.view.setOn (rCh k).toLoadRect.set ⊆ (oaC k).view.set :=
  (View.set_slice oaW.view (rCh k)).ge

/-! ## The second loop's iteration -/

set_option maxHeartbeats 800000 in
/-- Chunk `k` of the second loop: the own-columns load and the y-neighbour's chunk are awaited, the two are read
    and added, the sum is stored, and the stored chunk is copied into the device's own rows of the result and sent
    to the same rows of the x-neighbour's result, paying the device's store and send cells and the neighbour's
    receive cell of the chunk. -/
theorem chunk2 (m : (ℓ : Loc nD τ sig) → Buf (Elt F) ℓ) (K : Dev nD × CI → ℕ) (c n : Dev nD) (hn : n = xP c) (k : Fin 16)
    {h1 : (aMn c k).view.WordExact} {h2 : (xsL k).view.WordExact}
    {h3 : (ysC k).view.WordExact} {h4 : (yrC k).view.WordExact}
    {h5 : xsW.view.LoadsAt (rXL k).toLoadRect} {h6 : yrW.view.LoadsAt (rCh k).toLoadRect} {h7 : oaW.view.LoadsAt (rCh k).toLoadRect}
    {h8 : (oaW.access (rCh k)).Stores Finset.univ}
    {h9 : (Finset.univ : Finset (rCh k).shape.Idx) = Finset.univ ∨ ∀ a, (rCh k).stride a = 1}
    {h10 : (oaC k).view.WordExact} {h11 : (oC c k).view.WordExact}
    {h12 : DmaTarget.Typed (nD := nD) (τ := τ) (p := .tc) .vmem (.dma (dsem jSt k)) (.here (oC c k))}
    {hsc : (oC c k : Memref sig (Dev.tc n : Thread nD τ).2.kind .hbm S64x512 .bf16).view.ref.isScScratch = false}
    {h13 : (oaC k).view.WordExact} {h14 : (oC c k).view.WordExact}
    {h15 : DmaTarget.Typed .vmem (.dma (dsem jXR k)) (.remote (Dev.tc n : Thread nD τ) (oC c k) (.dma (dsem jXS k)) hsc)}
    {α : Type} {Kt : PUnit → Prog (TpuEff nD τ sig (Elt F) Λ₀ .tc) α} {Q : α → sProp 𝕄}
    (O : CellTallies nD τ sig Unit) (W : Waits sig Unit)
    (hmw₁ : (levAts L lv : sProp 𝕄) ⊢ MayWait (c : Thread nD τ) (.dma (dsem jMine k)) () (O + tallyAt (dCell (xP c) jXR k) () NB))
    (hmw₂ : (levAts L lv : sProp 𝕄) ⊢ MayWait (c : Thread nD τ) (.dma (dsem jYR k)) () (O + tallyAt (dCell (xP c) jXR k) () NB)) :
    iprop(records m K ∗ levAts L lv ∗ T4 m c k ∗ owes (c : Thread nD τ) (O + tallyAt (dCell (xP c) jXR k) () NB) W
        ∗ ((T5 m c k ∗ ∃ W', owes (c : Thread nD τ) O W') -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jMine k) (aMn c k) (xsL k) h1 h2) fun _ =>
           .op (.waitDma2 (dsem jYR k) (ysC k) (yrC k) h3 h4) fun _ =>
           .op (.load xsW (rXL k).toLoadRect h5) fun v =>
           .op (.load yrW (rCh k).toLoadRect h6) fun w =>
           .op (.load oaW (rCh k).toLoadRect h7) fun _ =>
           .op (.store oaW (rCh k) (oaVal v w) Finset.univ h8 h9) fun _ =>
           .op (.enqueueDma (oaC k) (.here (oC c k)) (.dma (dsem jSt k)) h10 h11 h12) fun _ =>
           .op (.enqueueDma (oaC k) (.remote (Dev.tc n : Thread nD τ) (oC c k) (.dma (dsem jXS k)) hsc) (.dma (dsem jXR k)) h13 h14 h15) Kt) Q := by
  subst hn
  unfold T4 posAt
  iintro ⟨#Hrec, #Hlev, ⟨HxsR, HaPr, HcYS, HcMn, Hoa, HoutC, HoutX, ⟨Hp0, Hp1, Hp2, Hp3, Hp4, Hp5, Hp6⟩, HtSt, HtXS, HtXR, HcYR, HcXR⟩, HO, Hk⟩
  -- the wait for the own-columns load: the left half of the staging chunk and the argument piece come back
  iapply (Rounds.wp_wait_rest_token 𝒱₀ ER (ringRd m) (c : Thread nD τ) none (κ := K (c, some (jMine, k)))
      (wpE_waitDma2_eq 𝒱₀ (c : Thread nD τ) none Set.univ) (Set.mem_univ _) () (O := O + tallyAt (dCell (xP c) jXR k) () NB) (W := W) (R := 0) (m := 0) (T := ∅)
      (by rw [Nat.zero_add, expect_dma, amt_mine])) $$ [HcMn HO Hp1]
  · isplitr; · iapply (inv_dma m K c jMine k); iexact Hrec
    isplitl [HcMn]; · iexact HcMn
    isplitl [HO]; · iexact HO
    isplitr; · iapply hmw₁; iexact Hlev
    iexact Hp1
  iintro ⟨HO, Hp1, -, Hpay⟩
  ihave Hpm := (Entails.of_eq ((rest_dma m c jMine k).trans (famPay_mine m c k))) $$ Hpay
  icases Hpm with ⟨HxsL, HaMn⟩
  -- the wait for the y-neighbour's chunk: the receive buffer's chunk at its final contents
  iapply (Rounds.wp_wait_rest_token 𝒱₀ ER (ringRd m) (c : Thread nD τ) none (κ := K (c, some (jYR, k)))
      (wpE_waitDma2_eq 𝒱₀ (c : Thread nD τ) none Set.univ) (Set.mem_univ _) () (O := O + tallyAt (dCell (xP c) jXR k) () NB)
      (W := insert (SemLoc.dma (dsem jMine k), ()) W) (R := 0) (m := 0) (T := ∅)
      (by rw [Nat.zero_add, expect_dma, amt_yr])) $$ [HcYR HO Hp3]
  · isplitr; · iapply (inv_dma m K c jYR k); iexact Hrec
    isplitl [HcYR]; · iexact HcYR
    isplitl [HO]; · iexact HO
    isplitr; · iapply hmw₂; iexact Hlev
    iexact Hp3
  iintro ⟨HO, Hp3, -, Hpay⟩
  ihave Hyr := (Entails.of_eq ((rest_dma m c jYR k).trans (famPay_yr m c k))) $$ Hpay
  unfold xsLPts yrPts anyAt outAny
  icases Hoa with ⟨%fo, Hoa⟩
  icases HoutC with ⟨%fO, HoutC⟩
  icases HoutX with ⟨%fX, HoutX⟩
  -- the loads: the device's own columns of the chunk, and what the y-neighbour narrowed and sent
  iapply (wp_load 𝒱₀ (c : Thread nD τ) none Set.univ (m := xsW) (sub_xsL k)) $$ HxsL; iintro HxsL
  rw [read_xsL m c k (xsFin m c) (fun _ _ => rfl)]
  iapply (wp_load 𝒱₀ (c : Thread nD τ) none Set.univ (m := yrW) (sub_yrC k)) $$ Hyr; iintro Hyr
  rw [read_yr m c k (yrFin m c) (fun _ _ => rfl)]
  iapply (wp_load 𝒱₀ (c : Thread nD τ) none Set.univ (m := oaW) (sub_oaC k)) $$ Hoa; iintro Hoa
  -- the store of the reduced chunk
  iapply (wp_store 𝒱₀ (c : Thread nD τ) none Set.univ (m := oaW) (r := rCh k) (Mk := Finset.univ) (S := (oaC k).view.set) subset_rfl) $$ Hoa; iintro Hoa
  ihave Hoa := (Entails.of_eq (oa_stored m c k fo fullShare)) $$ Hoa
  ihave Hoa := (oa_halves c k (oaFin m c)).1 $$ Hoa
  icases Hoa with ⟨HoaL, HoaR⟩
  -- the local copy of the reduced chunk into the device's own rows of the result
  iapply (Rounds.wp_copy_pointsTo 𝒱₀ ER (ringRd m) (c : Thread nD τ) none (src := oaC k) (dst := oC c k) (sem := .dma (dsem jSt k))
      (q := fullShare.left) (fs := oaFin m c) (fd := fO) (κ := K (c, some (jSt, k))) (r := 0) (d := false)
      (by rw [duties_dma]; exact Finset.mem_singleton_self _) () NB (oC_amount c k _) ((amount_dma m c jSt k false).trans amt_st)
      (by rw [payload_dma, famPay_st]; unfold outPts oaPts; rw [out_own_landed])) $$ [HoaL HoutC HtSt]
  · isplitr; · iapply (inv_dma m K c jSt k); iexact Hrec
    isplitl [HoaL]; · iexact HoaL
    isplitl [HoutC]; · iexact HoutC
    isplitl [HtSt]; · iexact HtSt
    iapply (reached_dma m K c jSt k); iexact Hrec
  iintro HcSt
  -- the remote copy of the reduced chunk into the same rows of the x-neighbour's result
  have hpeer : ((oC c k).view.loc (xP c : Thread nD τ) ↦[(oC c k).view.set]{fullShare}
        (oC c k).view.write (Elt F) fX ((oaC k).view.read (Elt F) (oaFin m c)) Finset.univ : sProp 𝕄)
      = ((oC c k).view.loc (xP c : Thread nD τ) ↦[(oC c k).view.set]{fullShare} outFin m (xP c)) := by
    have h := out_peer_landed m (xP c) k fX fullShare
    rw [xP_xP] at h
    exact h
  iapply (Rounds.wp_send_pointsTo 𝒱₀ ER (ringRd m) (c : Thread nD τ) none (c' := (xP c : Thread nD τ)) (src := oaC k) (dst := oC c k)
      (sS := .dma (dsem jXS k)) (sem := .dma (dsem jXR k))
      (q := fullShare.right) (fs := oaFin m c) (fd := fX) (κ₁ := K (c, some (jXS, k))) (κ₂ := K (xP c, some (jXR, k)))
      (r₁ := 0) (r₂ := 0) (d₁ := false) (d₂ := false)
      (by rw [duties_dma]; exact Finset.mem_singleton_self _) (by rw [duties_dma]; exact Finset.mem_singleton_self _)
      () () NB (oC_amount c k _) ((amount_dma m c jXS k false).trans amt_xs) ((amount_dma m (xP c) jXR k false).trans amt_xr)
      O rfl (W := insert (SemLoc.dma (dsem jYR k), ()) (insert (SemLoc.dma (dsem jMine k), ()) W))
      (by rw [payload_dma, famPay_xs]; exact BI.Entails.refl _)
      (by rw [payload_dma, famPay_xr, hpeer]; unfold outPts; rw [xP_xP])) $$ [HoaR HoutX HO HtXS HtXR]
  · isplitr; · iapply (inv_dma m K c jXS k); iexact Hrec
    isplitr; · iapply (inv_dma m K (xP c) jXR k); iexact Hrec
    isplitl [HoaR]; · iexact HoaR
    isplitl [HoutX]; · iexact HoutX
    isplitl [HO]; · iexact HO
    isplitl [HtXS]; · iexact HtXS
    isplitr; · iapply (reached_dma m K c jXS k); iexact Hrec
    isplitl [HtXR]; · iexact HtXR
    iapply (reached_dma m K (xP c) jXR k); iexact Hrec
  iintro ⟨HcXS, HO⟩
  -- the stage after
  iapply Hk
  isplitr [HO]
  · unfold T5 posAt xsLPts yrPts
    isplitl [HxsR]; · iexact HxsR
    isplitl [HaPr]; · iexact HaPr
    isplitl [HxsL]; · iexact HxsL
    isplitl [HaMn]; · iexact HaMn
    isplitl [Hyr]; · iexact Hyr
    isplitl [HcYS]; · iexact HcYS
    isplitl [HcSt]; · iexact HcSt
    isplitl [HcXS]; · iexact HcXS
    isplitr [HcXR]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      iexact Hp6
    · iexact HcXR
  · iexists (insert (SemLoc.dma (dsem jYR k), ()) (insert (SemLoc.dma (dsem jMine k), ()) W))
    iexact HO

/-! ## The loop's step -/

/-- The second loop's iteration for chunk `n` advances the loop's state from `n` chunks done to `n + 1`, and what
    the device owes from the x-neighbour's receive cells of chunks `n, n+1, …` to those of chunks `n+1, …`. -/
theorem step2 (m : (ℓ : Loc nD τ sig) → Buf (Elt F) ℓ) (K : Dev nD × CI → ℕ) (c : Dev nD) (n : ℕ) (hn : n < 16) (d : Dev nD) (hd : d = xP c)
    {h1 : (aMn c ⟨n, hn⟩).view.WordExact} {h2 : (xsL ⟨n, hn⟩).view.WordExact}
    {h3 : (ysC ⟨n, hn⟩).view.WordExact} {h4 : (yrC ⟨n, hn⟩).view.WordExact}
    {h5 : xsW.view.LoadsAt (rXL ⟨n, hn⟩).toLoadRect} {h6 : yrW.view.LoadsAt (rCh ⟨n, hn⟩).toLoadRect} {h7 : oaW.view.LoadsAt (rCh ⟨n, hn⟩).toLoadRect}
    {h8 : (oaW.access (rCh ⟨n, hn⟩)).Stores Finset.univ}
    {h9 : (Finset.univ : Finset (rCh ⟨n, hn⟩).shape.Idx) = Finset.univ ∨ ∀ a, (rCh ⟨n, hn⟩).stride a = 1}
    {h10 : (oaC ⟨n, hn⟩).view.WordExact} {h11 : (oC c ⟨n, hn⟩).view.WordExact}
    {h12 : DmaTarget.Typed (nD := nD) (τ := τ) (p := .tc) .vmem (.dma (dsem jSt ⟨n, hn⟩)) (.here (oC c ⟨n, hn⟩))}
    {hsc : (oC c ⟨n, hn⟩ : Memref sig (Dev.tc d : Thread nD τ).2.kind .hbm S64x512 .bf16).view.ref.isScScratch = false}
    {h13 : (oaC ⟨n, hn⟩).view.WordExact} {h14 : (oC c ⟨n, hn⟩).view.WordExact}
    {h15 : DmaTarget.Typed .vmem (.dma (dsem jXR ⟨n, hn⟩)) (.remote (Dev.tc d : Thread nD τ) (oC c ⟨n, hn⟩) (.dma (dsem jXS ⟨n, hn⟩)) hsc)}
    {α : Type} {Kt : PUnit → Prog (TpuEff nD τ sig (Elt F) Λ₀ .tc) α} {Q : α → sProp 𝕄} :
    iprop((records m K ∗ levAts L lv) ∗ LS c (T5 m c) (T4 m c) (owedX c n) n
        ∗ (LS c (T5 m c) (T4 m c) (owedX c (n + 1)) (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jMine ⟨n, hn⟩) (aMn c ⟨n, hn⟩) (xsL ⟨n, hn⟩) h1 h2) fun _ =>
           .op (.waitDma2 (dsem jYR ⟨n, hn⟩) (ysC ⟨n, hn⟩) (yrC ⟨n, hn⟩) h3 h4) fun _ =>
           .op (.load xsW (rXL ⟨n, hn⟩).toLoadRect h5) fun v =>
           .op (.load yrW (rCh ⟨n, hn⟩).toLoadRect h6) fun w =>
           .op (.load oaW (rCh ⟨n, hn⟩).toLoadRect h7) fun _ =>
           .op (.store oaW (rCh ⟨n, hn⟩) (oaVal v w) Finset.univ h8 h9) fun _ =>
           .op (.enqueueDma (oaC ⟨n, hn⟩) (.here (oC c ⟨n, hn⟩)) (.dma (dsem jSt ⟨n, hn⟩)) h10 h11 h12) fun _ =>
           .op (.enqueueDma (oaC ⟨n, hn⟩) (.remote (Dev.tc d : Thread nD τ) (oC c ⟨n, hn⟩) (.dma (dsem jXS ⟨n, hn⟩)) hsc) (.dma (dsem jXR ⟨n, hn⟩)) h13 h14 h15) Kt) Q := by
  have hO : owedX c n = owedX c (n + 1) + tallyAt (dCell (xP c) jXR ⟨n, hn⟩) () NB := owedX_succ c n hn
  have hmw₁ : (levAts L lv : sProp 𝕄) ⊢ MayWait (c : Thread nD τ) (.dma (dsem jMine ⟨n, hn⟩)) ()
      (owedX c (n + 1) + tallyAt (dCell (xP c) jXR ⟨n, hn⟩) () NB) := by
    have h := mayWait_low (F := F) c (dsem jMine ⟨n, hn⟩)
      ⟨by rw [famOf_dsem]; decide, by rw [famOf_dsem]; decide⟩ n 16
    rw [owedY_top, add_zero, hO] at h
    exact h
  have hmw₂ : (levAts L lv : sProp 𝕄) ⊢ MayWait (c : Thread nD τ) (.dma (dsem jYR ⟨n, hn⟩)) ()
      (owedX c (n + 1) + tallyAt (dCell (xP c) jXR ⟨n, hn⟩) () NB) := by
    have h := mayWait_yr (F := F) c ⟨n, hn⟩ n
    rw [hO] at h
    exact h
  refine LS_step c (T5 m c) (T4 m c) (owedX c n) (owedX c (n + 1)) n hn (iprop(records m K ∗ levAts L lv)) _ _ (fun W => ?_)
  rw [hO]
  iintro ⟨⟨Hrec, Hlev⟩, HB, HO, Hk⟩
  iapply (chunk2 m K c d hd ⟨n, hn⟩ (owedX c (n + 1)) W hmw₁ hmw₂)
  isplitl [Hrec]; · iexact Hrec
  isplitl [Hlev]; · iexact Hlev
  isplitl [HB]; · iexact HB
  isplitl [HO]; · iexact HO
  iexact Hk

/-- info: 'Cert.KernelProof.chunk2' depends on axioms: [propext, Classical.choice, Quot.sound] -/
#guard_msgs in #print axioms chunk2

/-- info: 'Cert.KernelProof.step2' depends on axioms: [propext, Classical.choice, Quot.sound] -/
#guard_msgs in #print axioms step2

end Cert.KernelProof

end
-- ==== Proof.Bits.StepsD.lean ====
/-
  The third loop's iteration: for chunk `k` the device awaits the four completions that are still outstanding.

  The local store of the reduced chunk into the device's own rows of the result (family 6) hands back those rows and
  the left share of the reduced chunk; the y-exchange's send (family 2) hands back the narrowed chunk; the
  x-exchange's send (family 4) hands back the right share of the reduced chunk; the x-exchange's receive (family 5)
  hands over the x-neighbour's rows of the result. The device owes nothing by now, so each wait is allowed outright,
  and each takes the whole of its cell's one round: every cell of the chunk ends at round 1.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.SchedTab
import proofs.«900304_g7700000000000305_dist_rs_v7x_xy2x2_y_m2048_n512_bf16_1_alg».proof.Proof.Bits.Loops

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The positions of a chunk's seven cells once both loads and the y-neighbour's chunk have been awaited. -/
theorem posAt_T5 (c : Dev nD) (k : Fin 16) :
    (posAt c k (fun j => if j = jPeer ∨ j = jMine ∨ j = jYR then 1 else 0) : sProp 𝕄)
      = iprop(atPos ER (dCell c 0 k) 1 ∅ 0 ∗ atPos ER (dCell c 1 k) 1 ∅ 0 ∗ atPos ER (dCell c 2 k) 0 ∅ 0 ∗ atPos ER (dCell c 3 k) 1 ∅ 0
        ∗ atPos ER (dCell c 4 k) 0 ∅ 0 ∗ atPos ER (dCell c 5 k) 0 ∅ 0 ∗ atPos ER (dCell c 6 k) 0 ∅ 0) := rfl

/-- The third loop's iteration for chunk `k`: the four completions are awaited, owing nothing. -/
theorem chunk3 (m : (ℓ : Loc nD τ sig) → Buf (Elt F) ℓ) (K : Dev nD × CI → ℕ) (c : Dev nD) (k : Fin 16) {W : Waits sig Unit}
    {h1 : (oaC k).view.WordExact} {h2 : (oC c k).view.WordExact} {h3 : (yrC k).view.WordExact} {h4 : (ysC k).view.WordExact}
    {h5 : (oC c k).view.WordExact} {h6 : (oaC k).view.WordExact} {h7 : (oaC k).view.WordExact} {h8 : (oC c k).view.WordExact}
    {α : Type} {Kt : PUnit → Prog (TpuEff nD τ sig (Elt F) Λ₀ .tc) α} {Q : α → sProp 𝕄} :
    iprop(records m K ∗ T5 m c k ∗ owes (c : Thread nD τ) 0 W
        ∗ ((T6 m c k ∗ ∃ W', owes (c : Thread nD τ) 0 W') -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jSt k) (oaC k) (oC c k) h1 h2) fun _ =>
            .op (.waitDma2 (dsem jYS k) (yrC k) (ysC k) h3 h4) fun _ =>
            .op (.waitDma2 (dsem jXS k) (oC c k) (oaC k) h5 h6) fun _ =>
            .op (.waitDma2 (dsem jXR k) (oaC k) (oC c k) h7 h8) Kt) Q := by
  unfold T5; rw [posAt_T5]
  iintro ⟨#Hrec, HT, HO, Hk⟩
  icases HT with ⟨HxR, HaP, HxL, HaM, Hyr, HcYS, HcSt, HcXS, ⟨Hp0, Hp1, Hp2, Hp3, Hp4, Hp5, Hp6⟩, HcXR⟩
  -- the local store's completion: the device's own rows of the result, and the left share of the reduced chunk
  iapply (Rounds.wp_wait_rest_token 𝒱₀ ER (ringRd m) (c : Thread nD τ) none (κ := K (c, some (jSt, k)))
      (wpE_waitDma2_eq 𝒱₀ (c : Thread nD τ) none Set.univ) (Set.mem_univ _) () (O := 0) (W := W) (R := 0) (m := 0) (T := ∅)
      (by rw [Nat.zero_add, expect_dma, amt_st])) $$ [HcSt HO Hp6]
  · isplitr; · iapply (inv_dma m K c jSt k); iexact Hrec
    isplitl [HcSt]; · iexact HcSt
    isplitl [HO]; · iexact HO
    isplitr; · rw [MayWait_zero]; iempintro
    iexact Hp6
  iintro ⟨HO, Hp6, -, Hpay⟩
  ihave Hp := (Entails.of_eq ((rest_dma m c jSt k).trans (famPay_st m c k))) $$ Hpay
  icases Hp with ⟨HoutC, HoaL⟩
  -- the y-exchange's send: the narrowed chunk is the device's again
  iapply (Rounds.wp_wait_rest_token 𝒱₀ ER (ringRd m) (c : Thread nD τ) none (κ := K (c, some (jYS, k)))
      (wpE_waitDma2_eq 𝒱₀ (c : Thread nD τ) none Set.univ) (Set.mem_univ _) () (O := 0) (R := 0) (m := 0) (T := ∅)
      (by rw [Nat.zero_add, expect_dma, amt_ys])) $$ [HcYS HO Hp2]
  · isplitr; · iapply (inv_dma m K c jYS k); iexact Hrec
    isplitl [HcYS]; · iexact HcYS
    isplitl [HO]; · iexact HO
    isplitr; · rw [MayWait_zero]; iempintro
    iexact Hp2
  iintro ⟨HO, Hp2, -, Hpay⟩
  ihave Hys := (Entails.of_eq ((rest_dma m c jYS k).trans (famPay_ys m c k))) $$ Hpay
  -- the x-exchange's send: the right share of the reduced chunk
  iapply (Rounds.wp_wait_rest_token 𝒱₀ ER (ringRd m) (c : Thread nD τ) none (κ := K (c, some (jXS, k)))
      (wpE_waitDma2_eq 𝒱₀ (c : Thread nD τ) none Set.univ) (Set.mem_univ _) () (O := 0) (R := 0) (m := 0) (T := ∅)
      (by rw [Nat.zero_add, expect_dma, amt_xs])) $$ [HcXS HO Hp4]
  · isplitr; · iapply (inv_dma m K c jXS k); iexact Hrec
    isplitl [HcXS]; · iexact HcXS
    isplitl [HO]; · iexact HO
    isplitr; · rw [MayWait_zero]; iempintro
    iexact Hp4
  iintro ⟨HO, Hp4, -, Hpay⟩
  ihave HoaR := (Entails.of_eq ((rest_dma m c jXS k).trans (famPay_xs m c k))) $$ Hpay
  -- the x-exchange's receive: the x-neighbour's rows of the result
  iapply (Rounds.wp_wait_rest_token 𝒱₀ ER (ringRd m) (c : Thread nD τ) none (κ := K (c, some (jXR, k)))
      (wpE_waitDma2_eq 𝒱₀ (c : Thread nD τ) none Set.univ) (Set.mem_univ _) () (O := 0) (R := 0) (m := 0) (T := ∅)
      (by rw [Nat.zero_add, expect_dma, amt_xr])) $$ [HcXR HO Hp5]
  · isplitr; · iapply (inv_dma m K c jXR k); iexact Hrec
    isplitl [HcXR]; · iexact HcXR
    isplitl [HO]; · iexact HO
    isplitr; · rw [MayWait_zero]; iempintro
    iexact Hp5
  iintro ⟨HO, Hp5, -, Hpay⟩
  ihave HoutX := (Entails.of_eq ((rest_dma m c jXR k).trans (famPay_xr m c k))) $$ Hpay
  iapply Hk
  isplitr [HO]
  · unfold T6 posAt
    isplitl [HxR]; · iexact HxR
    isplitl [HaP]; · iexact HaP
    isplitl [HxL]; · iexact HxL
    isplitl [HaM]; · iexact HaM
    isplitl [Hyr]; · iexact Hyr
    isplitl [Hys]; · iexact Hys
    isplitl [HoaL]; · iexact HoaL
    isplitl [HoaR]; · iexact HoaR
    isplitl [HoutC]; · iexact HoutC
    isplitl [HoutX]; · iexact HoutX
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iexact Hp6
  · iexists _; iexact HO

/-- The third loop's step: with the chunks below `n` fully awaited and the others not yet, the iteration for chunk
    `n` moves the boundary to `n + 1`; nothing is owed before or after. -/
theorem step3 (m : (ℓ : Loc nD τ sig) → Buf (Elt F) ℓ) (K : Dev nD × CI → ℕ) (c : Dev nD) (n : ℕ) (hn : n < 16)
    {h1 : (oaC ⟨n, hn⟩).view.WordExact} {h2 : (oC c ⟨n, hn⟩).view.WordExact} {h3 : (yrC ⟨n, hn⟩).view.WordExact} {h4 : (ysC ⟨n, hn⟩).view.WordExact}
    {h5 : (oC c ⟨n, hn⟩).view.WordExact} {h6 : (oaC ⟨n, hn⟩).view.WordExact} {h7 : (oaC ⟨n, hn⟩).view.WordExact} {h8 : (oC c ⟨n, hn⟩).view.WordExact}
    {α : Type} {Kt : PUnit → Prog (TpuEff nD τ sig (Elt F) Λ₀ .tc) α} {Q : α → sProp 𝕄} :
    iprop(records m K ∗ LS c (T6 m c) (T5 m c) 0 n
        ∗ (LS c (T6 m c) (T5 m c) 0 (n + 1) -∗ wp frame (wpE (defs₀ (F := F)) 𝒱₀ (c : Thread nD τ) none) Set.univ (Kt ⟨⟩) Q))
      ⊢ wp frame (wpE (defs₀ (F := F)) 𝒱₀ (c : Thread nD τ) none) Set.univ
          (.op (.waitDma2 (dsem jSt ⟨n, hn⟩) (oaC ⟨n, hn⟩) (oC c ⟨n, hn⟩) h1 h2) fun _ =>
            .op (.waitDma2 (dsem jYS ⟨n, hn⟩) (yrC ⟨n, hn⟩) (ysC ⟨n, hn⟩) h3 h4) fun _ =>
            .op (.waitDma2 (dsem jXS ⟨n, hn⟩) (oC c ⟨n, hn⟩) (oaC ⟨n, hn⟩) h5 h6) fun _ =>
            .op (.waitDma2 (dsem jXR ⟨n, hn⟩) (oaC ⟨n, hn⟩) (oC c ⟨n, hn⟩) h7 h8) Kt) Q :=
  LS_step c (T6 m c) (T5 m c) 0 0 n hn (records m K) _ _ fun W => chunk3 m K c ⟨n, hn⟩ (W := W)

/-- info: 'Cert.KernelProof.chunk3' depends on axioms: [propext, Classical.choice, Quot.sound] -/
#guard_msgs in #print axioms chunk3

/-- info: 'Cert.KernelProof.step3' depends on axioms: [propext, Classical.choice, Quot.sound] -/
#guard_msgs in #print axioms step3

end Cert.KernelProof

end
-- ==== Proof.Bits.StepsE.lean ====
/-
  The end of the kernel on one device: with every chunk's four completions awaited, the seven cells of each
  chunk close — their counters are the device's again, at zero — and each buffer is whole again at its final
  contents, rejoined from its sixteen chunks.
-/
import proofs.«900304_g7700000000000305_dist_rs_v7x_xy2x2_y_m2048_n512_bf16_1_alg».proof.Proof.Bits.State
import proofs.«900304_g7700000000000305_dist_rs_v7x_xy2x2_y_m2048_n512_bf16_1_alg».proof.Proof.Bits.SchedTab
import proofs.«900304_g7700000000000305_dist_rs_v7x_xy2x2_y_m2048_n512_bf16_1_alg».proof.Proof.Bits.Geom

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One chunk: its seven cells close -/

/-- A chunk with its seven cells closed: their counters at zero, and every piece at its final contents. -/
def T7 (m : (ℓ : Loc nD τ sig) → Buf (Elt F) ℓ) (c : Dev nD) (k : Fin 16) : sProp 𝕄 :=
  iprop((bigSep Finset.univ fun j : Fin 7 => semVal (dCell c j k) 0)
    ∗ xsRPts m c k ∗ aPrPts m c k ∗ xsLPts m c k ∗ aMnPts m c k ∗ yrPts m c k
    ∗ ysPts m c k ∗ oaPts m fullShare.left c k ∗ oaPts m fullShare.right c k ∗ outPts m c c k ∗ outPts m c (xP c) k)

omit [FloatOps F] in
/-- Seven summands, one by one. -/
theorem bigSep_fin7 (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl

/-- The owner of a chunk's seven cells, each at round 1 with nothing taken — no cell has a duty after round 0 —
    closes them all and keeps their counters, at zero. -/
theorem close_chunk (m : (ℓ : Loc nD τ sig) → Buf (Elt F) ℓ) (K : Dev nD × CI → ℕ) (c : Dev nD) (k : Fin 16) :
    iprop(records m K ∗ T6 m c k) ⊢ |={Set.univ}=> T7 m c k := by
  unfold T6 T7 posAt
  iintro ⟨#Hrec, H1, H2, H3, H4, H5, H6, H7, H8, H9, H10, Hat0, Hat1, Hat2, Hat3, Hat4, Hat5, Hat6⟩
  imod (Rounds.cell_close ER (ringRd m) (Set.mem_univ (K (c, some (0, k)))) (fun h => h) (R := 1) (duties_later m (dCell c 0 k))) $$ [Hat0] with Hz0
  · isplitr
    · iapply (inv_dma m K c 0 k); iexact Hrec
    · iexact Hat0
  imod (Rounds.cell_close ER (ringRd m) (Set.mem_univ (K (c, some (1, k)))) (fun h => h) (R := 1) (duties_later m (dCell c 1 k))) $$ [Hat1] with Hz1
  · isplitr
    · iapply (inv_dma m K c 1 k); iexact Hrec
    · iexact Hat1
  imod (Rounds.cell_close ER (ringRd m) (Set.mem_univ (K (c, some (2, k)))) (fun h => h) (R := 1) (duties_later m (dCell c 2 k))) $$ [Hat2] with Hz2
  · isplitr
    · iapply (inv_dma m K c 2 k); iexact Hrec
    · iexact Hat2
  imod (Rounds.cell_close ER (ringRd m) (Set.mem_univ (K (c, some (3, k)))) (fun h => h) (R := 1) (duties_later m (dCell c 3 k))) $$ [Hat3] with Hz3
  · isplitr
    · iapply (inv_dma m K c 3 k); iexact Hrec
    · iexact Hat3
  imod (Rounds.cell_close ER (ringRd m) (Set.mem_univ (K (c, some (4, k)))) (fun h => h) (R := 1) (duties_later m (dCell c 4 k))) $$ [Hat4] with Hz4
  · isplitr
    · iapply (inv_dma m K c 4 k); iexact Hrec
    · iexact Hat4
  imod (Rounds.cell_close ER (ringRd m) (Set.mem_univ (K (c, some (5, k)))) (fun h => h) (R := 1) (duties_later m (dCell c 5 k))) $$ [Hat5] with Hz5
  · isplitr
    · iapply (inv_dma m K c 5 k); iexact Hrec
    · iexact Hat5
  imod (Rounds.cell_close ER (ringRd m) (Set.mem_univ (K (c, some (6, k)))) (fun h => h) (R := 1) (duties_later m (dCell c 6 k))) $$ [Hat6] with Hz6
  · isplitr
    · iapply (inv_dma m K c 6 k); iexact Hrec
    · iexact Hat6
  imodintro
  rw [bigSep_fin7]
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- info: 'Cert.KernelProof.close_chunk' depends on axioms: [propext, Classical.choice, Quot.sound] -/
#guard_msgs in #print axioms close_chunk

/-! ## All sixteen chunks -/

/-- Every chunk's cells close, under one update. -/
theorem close_all (m : (ℓ : Loc nD τ sig) → Buf (Elt F) ℓ) (K : Dev nD × CI → ℕ) (c : Dev nD) :
    iprop((bigSep Finset.univ fun _ : Fin 16 => records m K) ∗ bigSep Finset.univ fun k : Fin 16 => T6 m c k)
      ⊢ |={Set.univ}=> bigSep Finset.univ fun k : Fin 16 => T7 m c k := by
  rw [← bigSep_sep']
  exact (bigSep_mono fun k _ => close_chunk m K c k).trans (bigSep_fupd _ _)

/-! ## The buffers whole again -/

omit [FloatOps F] in
/-- The cells of all chunks, chunk by chunk, are the cells by family and chunk. -/
theorem sems_regroup (c : Dev nD) :
    (bigSep Finset.univ fun k : Fin 16 => bigSep Finset.univ fun j : Fin 7 => (semVal (dCell c j k) 0 : sProp 𝕄))
      = bigSep Finset.univ fun jk : Fin 7 × Fin 16 => semVal (dCell c jk.1 jk.2) 0 := by
  rw [← bigSep_univ_prod (fun kj : Fin 16 × Fin 7 => (semVal (dCell c kj.2 kj.1) 0 : sProp 𝕄)),
    bigSep_univ_equiv (Equiv.prodComm (Fin 7) (Fin 16)) (fun kj : Fin 16 × Fin 7 => (semVal (dCell c kj.2 kj.1) 0 : sProp 𝕄))]
  rfl

theorem join_xs (m : (ℓ : Loc nD τ sig) → Buf (Elt F) ℓ) (c : Dev nD) :
    iprop((bigSep Finset.univ fun k : Fin 16 => xsRPts m c k) ∗ (bigSep Finset.univ fun k : Fin 16 => xsLPts m c k))
      ⊢ ((c : Thread nD τ).loc cc0_scratch0 ↦{fullShare} xsFin m c : sProp 𝕄) :=
  (xs_tiling c (xsFin m c)).2

theorem join_ys (m : (ℓ : Loc nD τ sig) → Buf (Elt F) ℓ) (c : Dev nD) :
    (bigSep Finset.univ fun k : Fin 16 => ysPts m c k)
      ⊢ ((c : Thread nD τ).loc cc0_scratch1 ↦{fullShare} ysFin m c : sProp 𝕄) :=
  (ys_tiling c (ysFin m c)).2

theorem join_yr (m : (ℓ : Loc nD τ sig) → Buf (Elt F) ℓ) (c : Dev nD) :
    (bigSep Finset.univ fun k : Fin 16 => yrPts m c k)
      ⊢ ((c : Thread nD τ).loc cc0_scratch2 ↦{fullShare} yrFin m c : sProp 𝕄) :=
  (yr_tiling c (yrFin m c)).2

/-- The second exchange's send buffer: each chunk's two half shares join, then the chunks. -/
theorem join_oa (m : (ℓ : Loc nD τ sig) → Buf (Elt F) ℓ) (c : Dev nD) :
    iprop((bigSep Finset.univ fun k : Fin 16 => oaPts m fullShare.left c k) ∗ (bigSep Finset.univ fun k : Fin 16 => oaPts m fullShare.right c k))
      ⊢ ((c : Thread nD τ).loc cc0_scratch3 ↦{fullShare} oaFin m c : sProp 𝕄) := by
  rw [← bigSep_sep']
  exact (bigSep_mono fun k _ => (oa_halves c k (oaFin m c)).2).trans (oa_tiling c (oaFin m c)).2

/-- The result buffer: the device's own row half and its x-neighbour's. -/
theorem join_out (m : (ℓ : Loc nD τ sig) → Buf (Elt F) ℓ) (c : Dev nD) :
    iprop((bigSep Finset.univ fun k : Fin 16 => outPts m c c k) ∗ (bigSep Finset.univ fun k : Fin 16 => outPts m c (xP c) k))
      ⊢ ((c : Thread nD τ).loc main_v1 ↦{fullShare} outFin m c : sProp 𝕄) :=
  (out_tiling c c (outFin m c)).2

/-- The argument block: the chunks the loads read, and the rest. -/
theorem join_arg (m : (ℓ : Loc nD τ sig) → Buf (Elt F) ℓ) (c : Dev nD) :
    iprop((bigSep Finset.univ fun k : Fin 16 => aPrPts m c k) ∗ (bigSep Finset.univ fun k : Fin 16 => aMnPts m c k) ∗ argRestPts m c)
      ⊢ ((c : Thread nD τ).loc main_arg0 ↦{fullShare} argOf m c : sProp 𝕄) :=
  (arg_tiling c (argOf m c)).2

/-- All chunks closed, and the unread rest of the argument: the device's exit state. -/
theorem regroup (m : (ℓ : Loc nD τ sig) → Buf (Elt F) ℓ) (c : Dev nD) :
    iprop((bigSep Finset.univ fun k : Fin 16 => T7 m c k) ∗ argRestPts m c) ⊢ finish m c := by
  unfold T7 finish
  rw [bigSep_sep', bigSep_sep', bigSep_sep', bigSep_sep', bigSep_sep', bigSep_sep', bigSep_sep', bigSep_sep', bigSep_sep', bigSep_sep',
    sems_regroup]
  iintro ⟨⟨Hs, HxR, HaP, HxL, HaM, Hyr, Hys, HoaL, HoaR, HoO, HoX⟩, Hrest⟩
  isplitl [Hs]; · iexact Hs
  isplitl [HaP HaM Hrest]
  · iapply (join_arg m c)
    isplitl [HaP]; · iexact HaP
    isplitl [HaM]; · iexact HaM
    iexact Hrest
  isplitl [HoO HoX]
  · iapply (join_out m c)
    isplitl [HoO]; · iexact HoO
    iexact HoX
  isplitl [HxR HxL]
  · iapply (join_xs m c)
    isplitl [HxR]; · iexact HxR
    iexact HxL
  isplitl [Hys]
  · iapply (join_ys m c); iexact Hys
  isplitl [Hyr]
  · iapply (join_yr m c); iexact Hyr
  iapply (join_oa m c)
  isplitl [HoaL]; · iexact HoaL
  iexact HoaR

/-! ## The end of the kernel -/

/-- With every chunk's completions awaited, the device's cells close and its buffers are whole at their final
    contents. -/
theorem finale (m : (ℓ : Loc nD τ sig) → Buf (Elt F) ℓ) (K : Dev nD × CI → ℕ) (c : Dev nD) :
    iprop(records m K ∗ (bigSep Finset.univ fun k : Fin 16 => T6 m c k) ∗ argRestPts m c) ⊢ |={Set.univ}=> finish m c := by
  iintro ⟨#Hrec, HT, Hrest⟩
  imod (close_all m K c) $$ [HT] with H
  · isplitr
    · iapply (bigSep_of_persistent (Finset.univ : Finset (Fin 16)) (records m K)); iexact Hrec
    · iexact HT
  imodintro
  iapply (regroup m c)
  isplitl [H]; · iexact H
  iexact Hrest

/-- info: 'Cert.KernelProof.finale' depends on axioms: [propext, Classical.choice, Quot.sound] -/
#guard_msgs in #print axioms finale

end Cert.KernelProof

end
-- ==== Proof.Bits.BodyMacros.lean ====
/-
  The steps of one device's body as tactics over the hypotheses of `sound_body` (`HR`: the records, `Hlev`: the levels,
  `HLS`: the current loop's state, `Hbar`: the barrier's resources, `HO`: what is owed, `Hrest`: the unread part of the
  argument block, `Hfin`: what runs after the body): opening a part of the printed program where it is reached, one
  step of each loop at a literal chunk, and the passages between the phases.
-/
import proofs.«900304_g7700000000000305_dist_rs_v7x_xy2x2_y_m2048_n512_bf16_1_alg».proof.Proof.Bits.StepsA
import proofs.«900304_g7700000000000305_dist_rs_v7x_xy2x2_y_m2048_n512_bf16_1_alg».proof.Proof.Bits.StepsB
import proofs.«900304_g7700000000000305_dist_rs_v7x_xy2x2_y_m2048_n512_bf16_1_alg».proof.Proof.Bits.StepsC
import proofs.«900304_g7700000000000305_dist_rs_v7x_xy2x2_y_m2048_n512_bf16_1_alg».proof.Proof.Bits.StepsD
import proofs.«900304_g7700000000000305_dist_rs_v7x_xy2x2_y_m2048_n512_bf16_1_alg».proof.Proof.Bits.StepsE
import proofs.«900304_g7700000000000305_dist_rs_v7x_xy2x2_y_m2048_n512_bf16_1_alg».proof.Proof.Gen.Kernel.Skeleton
import proofs.«900304_g7700000000000305_dist_rs_v7x_xy2x2_y_m2048_n512_bf16_1_alg».proof.Proof.Gen.Kernel.Points

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Lean in
/-- Lay open the part `k0_partN` where the program has reached it: its skeleton, as a chain of operations; the parts
    after it stay folded. -/
macro "open_part " n:num : tactic => do
  let e := mkIdent (Name.mkSimple s!"k0_part{n.getNat}_eq_skeleton")
  let s := mkIdent (Name.mkSimple s!"k0_part{n.getNat}_skel")
  `(tactic| (rw [$e:ident]; unfold $s:ident
             simp only [semSignalWord, semWaitWord, Prog.lift, Prog.bind_op, Prog.bind_ret, Prog.pure_eq_ret]))

/-- Bring the program back to a chain of operations after a part has returned. -/
macro "norm_prog" : tactic =>
  `(tactic| simp only [Prog.lift, Prog.bind_op, Prog.bind_ret, Prog.pure_eq_ret])

set_option hygiene false in
/-- The neighbour-columns load of chunk `n`. -/
macro "do_P " n:num : tactic =>
  `(tactic| (iapply (stepP m K c $n (by decide)); isplitr; (· iexact HR); isplitl [HLS]; (· iexact HLS); iintro HLS))

set_option hygiene false in
/-- The own-columns load of chunk `n`. -/
macro "do_M " n:num : tactic =>
  `(tactic| (iapply (stepM m K c $n (by decide)); isplitr; (· iexact HR); isplitl [HLS]; (· iexact HLS); iintro HLS))

open Lean in
set_option hygiene false in
/-- The first loop's iteration for chunk `n`, whose remote copy addresses the device the printed chain `k0_devD` names. -/
macro "do_1 " n:num d:num : tactic => do
  let dv := mkIdent (Name.mkSimple s!"k0_dev{d.getNat}")
  let dl := mkIdent (Name.mkSimple s!"k0_dev{d.getNat}_lt")
  let de := mkIdent (Name.mkSimple s!"k0_dev{d.getNat}_eq")
  `(tactic| (iapply (step1 m K c $n (by decide) ⟨$dv c, $dl c⟩ (Fin.ext ($de c)))
             isplitr; (· isplitr; (· iexact HR); iexact Hlev); isplitl [HLS]; (· iexact HLS); iintro HLS))

open Lean in
set_option hygiene false in
/-- The second loop's iteration for chunk `n`. -/
macro "do_2 " n:num d:num : tactic => do
  let dv := mkIdent (Name.mkSimple s!"k0_dev{d.getNat}")
  let dl := mkIdent (Name.mkSimple s!"k0_dev{d.getNat}_lt")
  let de := mkIdent (Name.mkSimple s!"k0_dev{d.getNat}_eq")
  `(tactic| (iapply (step2 m K c $n (by decide) ⟨$dv c, $dl c⟩ (Fin.ext ($de c)))
             isplitr; (· isplitr; (· iexact HR); iexact Hlev); isplitl [HLS]; (· iexact HLS); iintro HLS))

set_option hygiene false in
/-- The third loop's iteration for chunk `n`. -/
macro "do_3 " n:num : tactic =>
  `(tactic| (iapply (step3 m K c $n (by decide)); isplitr; (· iexact HR); isplitl [HLS]; (· iexact HLS); iintro HLS))

omit [FloatOps F] in
/-- After the handshake every chunk holds, beside what it held, the two neighbours' landing chunks. -/
theorem T3_all (c : Dev nD) :
    (bigSep Finset.univ fun k : Fin 16 => T3 (F := F) c k)
      = iprop((bigSep Finset.univ fun k : Fin 16 => T2 (F := F) c k)
          ∗ bigSep Finset.univ fun k : Fin 16 => iprop(yrAny (F := F) (yP c) k ∗ outAny (F := F) (xP c) c k)) := by
  rw [← bigSep_sep']; rfl

set_option hygiene false in
/-- Nothing is owed to the y-neighbour any more: the second loop begins. -/
macro "tr_122" : tactic => `(tactic| (
    ihave H := (LS_end c (T4 m c) (fun k => T3 (F := F) c k) (owedX c 0 + owedY c 16)) $$ HLS
    icases H with ⟨HO, HT⟩
    rw [owedY_top, add_zero]
    ihave HLS := (LS_start c (T5 m c) (T4 m c) (owedX c 0)) $$ [HO HT]
    · isplitl [HO]
      · iexact HO
      · iexact HT))

set_option hygiene false in
/-- Nothing is owed at all: the third loop begins. -/
macro "tr_223" : tactic => `(tactic| (
    ihave H := (LS_end c (T5 m c) (T4 m c) (owedX c 16)) $$ HLS
    icases H with ⟨HO, HT⟩
    rw [owedX_top]
    ihave HLS := (LS_start c (T6 m c) (T5 m c) 0) $$ [HO HT]
    · isplitl [HO]
      · iexact HO
      · iexact HT))

set_option hygiene false in
/-- Every neighbour-columns load is issued: on to the own-columns loads. -/
macro "tr_P2M" : tactic => `(tactic| (
    ihave H := (LS_end c (T1 m c) (T0 m c) (O₀ c)) $$ HLS
    icases H with ⟨HO, HT⟩
    ihave HLS := (LS_start c (fun k => T2 (F := F) c k) (T1 m c) (O₀ c)) $$ [HO HT]
    · isplitl [HO]
      · iexact HO
      · iexact HT))

set_option hygiene false in
/-- Every load is issued: the handshake begins; what is owed is named. -/
macro "tr_M2B" : tactic => `(tactic| (
    ihave H := (LS_end c (fun k => T2 (F := F) c k) (T1 m c) (O₀ c)) $$ HLS
    icases H with ⟨⟨%W, HO⟩, HT2⟩))

set_option hygiene false in
/-- The signal to the y-neighbour. -/
macro "tr_sigY" : tactic => `(tactic| (
    iapply (barSigY m K c ⟨k0_dev1 c, k0_dev1_lt c⟩ (Fin.ext (k0_dev1_eq c)) (W := W))
    isplitr; · iexact HR
    isplitl [Hbar]; · iexact Hbar
    isplitl [HO]; · iexact HO
    iintro ⟨Hbar, HO⟩))

set_option hygiene false in
/-- The signal to the x-neighbour. -/
macro "tr_sigX" : tactic => `(tactic| (
    iapply (barSigX m K c ⟨k0_dev2 c, k0_dev2_lt c⟩ (Fin.ext (k0_dev2_eq c)) (W := W))
    isplitr; · iexact HR
    isplitl [Hbar]; · iexact Hbar
    isplitl [HO]; · iexact HO
    iintro ⟨Hbar, HO⟩))

set_option hygiene false in
/-- The wait for both neighbours' signals. -/
macro "tr_wait" : tactic => `(tactic| (
    iapply (barWait m K c (W := W))
    isplitr; · iexact HR
    isplitr; · iexact Hlev
    isplitl [Hbar]; · iexact Hbar
    isplitl [HO]; · iexact HO
    iintro ⟨HO, Hat, Hnb⟩))

set_option hygiene false in
/-- Each chunk now also holds the two neighbours' landing chunks: the first loop begins. -/
macro "tr_B21" : tactic => `(tactic| (
    ihave HT3 := (Entails.of_eq (T3_all (F := F) c).symm) $$ [HT2 Hnb]
    · isplitl [HT2]
      · iexact HT2
      · iexact Hnb
    ihave HLS := (LS_start c (T4 m c) (fun k => T3 (F := F) c k) (owedX c 0 + owedY c 0)) $$ [HO HT3]
    · isplitl [HO]
      · iexact HO
      · iexact HT3))

set_option hygiene false in
/-- Every chunk is at its last stage: the buffers are rejoined, the semaphores read at zero, and the body returns. -/
macro "tr_end" : tactic => `(tactic| (
    ihave H := (LS_end c (T6 m c) (T5 m c) 0) $$ HLS
    icases H with ⟨HO, HT6⟩
    norm_prog
    rw [wp_ret]
    imod (finale m K c) $$ [HT6 Hrest] with Hf
    · isplitr; · iexact HR
      isplitl [HT6]
      · iexact HT6
      · iexact Hrest
    imodintro
    iapply Hfin
    isplitl [Hf]
    · iexact Hf
    · iexact HO))

end Cert.KernelProof

end
-- ==== Proof.Bits.BodySeq.lean ====
import proofs.«900304_g7700000000000305_dist_rs_v7x_xy2x2_y_m2048_n512_bf16_1_alg».proof.Proof.Bits.BodyMacros

namespace Cert.KernelProof

/-- The body's operations in program order: each part opened where the first step that needs it stands, the loads,
    the handshake and the three loops' iterations taken one after the other, with the passages between the phases. -/
macro "thread_body" : tactic => `(tactic| (
    do_P 0
    do_P 1
    do_P 2
    open_part 2
    do_P 3
    do_P 4
    do_P 5
    do_P 6
    do_P 7
    open_part 3
    do_P 8
    do_P 9
    do_P 10
    do_P 11
    do_P 12
    open_part 4
    do_P 13
    do_P 14
    do_P 15
    tr_P2M
    do_M 0
    do_M 1
    open_part 5
    do_M 2
    do_M 3
    do_M 4
    do_M 5
    do_M 6
    open_part 6
    do_M 7
    do_M 8
    do_M 9
    do_M 10
    do_M 11
    open_part 7
    do_M 12
    do_M 13
    do_M 14
    do_M 15
    tr_M2B
    tr_sigY
    open_part 8
    tr_sigX
    tr_wait
    tr_B21
    do_1 0 3
    open_part 9
    do_1 1 4
    open_part 10
    do_1 2 5
    do_1 3 6
    open_part 11
    do_1 4 7
    open_part 12
    do_1 5 8
    open_part 13
    do_1 6 9
    do_1 7 10
    open_part 14
    do_1 8 11
    open_part 15
    do_1 9 12
    do_1 10 13
    open_part 16
    do_1 11 14
    open_part 17
    do_1 12 15
    do_1 13 16
    open_part 18
    do_1 14 17
    open_part 19
    do_1 15 18
    tr_122
    open_part 20
    do_2 0 19
    open_part 21
    do_2 1 20
    open_part 22
    open_part 23
    do_2 2 21
    open_part 24
    do_2 3 22
    open_part 25
    do_2 4 23
    open_part 26
    do_2 5 24
    open_part 27
    open_part 28
    do_2 6 25
    open_part 29
    do_2 7 26
    open_part 30
    do_2 8 27
    open_part 31
    open_part 32
    do_2 9 28
    open_part 33
    do_2 10 29
    open_part 34
    do_2 11 30
    open_part 35
    do_2 12 31
    open_part 36
    open_part 37
    do_2 13 32
    open_part 38
    do_2 14 33
    open_part 39
    do_2 15 34
    tr_223
    open_part 40
    do_3 0
    open_part 41
    do_3 1
    open_part 42
    do_3 2
    do_3 3
    open_part 43
    do_3 4
    open_part 44
    do_3 5
    open_part 45
    do_3 6
    open_part 46
    do_3 7
    do_3 8
    open_part 47
    do_3 9
    open_part 48
    do_3 10
    open_part 49
    do_3 11
    open_part 50
    do_3 12
    open_part 51
    do_3 13
    do_3 14
    norm_prog
    do_3 15
    tr_end
  ))

end Cert.KernelProof
-- ==== Proof.Bits.Body.lean ====
/-
  One device's body, from its state at entry to its state at exit, and the body obligation of the launch.

  The printed body is a sequence of fifty-two parts. The proof opens one part at a time where the program has
  reached it, so that at every step the goal holds the operations of one or two parts and the later parts as names.
  In program order: sixteen loads of the y-neighbour's columns (`stepP`), sixteen of the device's own (`stepM`), the
  handshake on the barrier semaphore (two signals and a wait), after which every chunk also holds the two neighbours'
  landing chunks; then the three loops over the chunks (`step1`, `step2`, `step3`), nothing being owed to the
  y-neighbour after the first and nothing at all after the second; at the end the chunks are rejoined into whole
  buffers and the semaphores read at zero (`finale`).
-/
import proofs.«900304_g7700000000000305_dist_rs_v7x_xy2x2_y_m2048_n512_bf16_1_alg».proof.Proof.Bits.BodySeq

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 8000000 in
/-- One device's body, from its state at entry to its state at exit. -/
theorem sound_body (K : Dev nD × CI → ℕ) (c : Dev nD) (t : Fin cfg0.N) (Q : PUnit → sProp 𝕄) :
    iprop(start m K c ∗ (∃ W, owes (c : Thread nD τ) (O₀ c) W) ∗ ((finish m c ∗ ∃ W, owes (c : Thread nD τ) 0 W) -∗ Q ⟨⟩))
      ⊢ wp frame (wpE (defs₀ (F := F)) 𝒱₀ (c : Thread nD τ) none) Set.univ (bodyAt0 (F := F) t) Q := by
  unfold start
  iintro ⟨⟨#HR, #Hlev, Hbar, Hrest, HT0⟩, HO, Hfin⟩
  ihave HLS := (LS_start c (T1 m c) (T0 m c) (O₀ c)) $$ [HO HT0]
  · isplitl [HO]
    · iexact HO
    · iexact HT0
  -- the body's first part, the device's own id read as `c`
  unfold bodyAt0
  rw [cc0_body_eq_skeleton]
  unfold cc0_body_skel
  rw [k0_part52_eq_skeleton]
  unfold k0_part52_skel
  rw [k0_part1_eq_skeleton]
  unfold k0_part1_skel
  simp only [Prog.lift, Prog.bind_op, Prog.bind_ret, Prog.pure_eq_ret, wp_deviceId]
  -- then every operation in program order
  thread_body

/-- info: 'Cert.KernelProof.sound_body' depends on axioms: [propext, Classical.choice, Quot.sound] -/
#guard_msgs in #print axioms sound_body

/-- The kernel has one point. -/
theorem body_cfg0_N : cfg0.N = 1 := by decide

/-- The library's body obligation on device `c`: at the one point, from the state at entry and what the device owes at
    launch to the state at exit with nothing owed. -/
theorem body_obligation (c : Dev nD) : BodyObligation (dats (F := F) m 0 c) (defs₀ (F := F)) 𝒱₀ () Set.univ := fun t => by
  have ht : t = ⟨0, by rw [body_cfg0_N]; decide⟩ := Fin.ext (by have h1 := t.isLt; have h2 := body_cfg0_N; omega)
  subst ht
  show iprop(Φ₀ m c ∗ Pipeline.owesWithin c (O₀ c) _ ∗ bigSep (Finset.univ : Finset (Fin 0)) _)
    ⊢ wp frame (wpE (defs₀ (F := F)) 𝒱₀ (c : Thread nD τ) none) Set.univ (bodyAt0 (F := F) ⟨0, by rw [body_cfg0_N]; decide⟩)
        (fun _ => iprop(finish m c ∗ Pipeline.owesWithin c 0 _ ∗ bigSep (Finset.univ : Finset (Fin 0)) _))
  unfold Φ₀ Pipeline.owesWithin
  iintro ⟨⟨%K, Hst⟩, ⟨%W, %hW, HO⟩, -⟩
  iapply (sound_body m K c _ _)
  isplitl [Hst]; · iexact Hst
  isplitl [HO]; · iexists W; iexact HO
  iintro ⟨Hfin, ⟨%W', HO'⟩⟩
  isplitl [Hfin]; · iexact Hfin
  isplitl [HO']
  · iexists W'
    isplitr; · ipureintro; exact fun _ _ => Or.inl trivial
    iexact HO'
  · rw [Finset.univ_eq_empty, bigSep_empty]; iempintro

/-- info: 'Cert.KernelProof.body_obligation' depends on axioms: [propext, Classical.choice, Quot.sound] -/
#guard_msgs in #print axioms body_obligation

end Cert.KernelProof

end
-- ==== Proof.RefMath.lean ====
import Idealize.ShloMosaic.Lib.Layout
import Idealize.ShloMosaic.Lib.ValueIdx

/-!
The value of a two-block sum, block by block.

The whole argument is an array `X : [2, 2048, 1024]`; the whole result is `R[r, l] = X[0, r, l] + X[1, r, l]`.
On a 2 × 2 mesh device `c` has coordinates `(c / 2, c % 2)`; with `y = c % 2` it holds the block `X[y, ·, ·]`
of the argument, and is to hold columns `[512 y, 512 y + 512)` of `R`. That block of `R` is the device's own
block plus the block of the device with the same first coordinate and the other `y`, both read at column
`512 y + l`.
-/

noncomputable section

namespace Cert.RefValue

open Idealize.ShloMosaic Idealize.ShloMosaic.ValueIdx

/-- The whole argument array's contents, at the extended reals. -/
abbrev WholeArg : Type := (⟨⟨3, ![2, 2048, 1024]⟩, .f32⟩ : BufTy).Contents (Elt Ideal)
/-- The whole result array's contents. -/
abbrev WholeOut : Type := (⟨⟨2, ![2048, 1024]⟩, .bf16⟩ : BufTy).Contents (Elt Ideal)
/-- One device's block of the argument. -/
abbrev DevArg : Type := (⟨⟨3, ![1, 2048, 1024]⟩, .f32⟩ : BufTy).Contents (Elt Ideal)
/-- One device's block of the result. -/
abbrev DevOut : Type := (⟨⟨2, ![2048, 512]⟩, .bf16⟩ : BufTy).Contents (Elt Ideal)

/-- The whole result: the sum of the argument's two slabs along dimension 0. -/
def refOut (X : WholeArg) : WholeOut :=
  fun i => (show EReal from X (ix3 (n0 := 2) (n1 := 2048) (n2 := 1024) 0 (i 0) (i 1)))
    + (show EReal from X (ix3 (n0 := 2) (n1 := 2048) (n2 := 1024) 1 (i 0) (i 1)))

theorem refOut_apply (X : WholeArg) (r : Fin 2048) (l : Fin 1024) :
    refOut X (ix2 r l) = (show EReal from X (ix3 0 r l)) + (show EReal from X (ix3 1 r l)) := rfl

/-- The device with the same first mesh coordinate and the other second one. -/
def yPeer (c : Dev 4) : Dev 4 := ⟨2 * (c.val / 2) + 1 - c.val % 2, by have := c.isLt; omega⟩

theorem yPeer_val (c : Dev 4) : (yPeer c).val = 2 * (c.val / 2) + 1 - c.val % 2 := rfl

/-- Column `512 y + l` of a row of 1024, for `y = c % 2`. -/
def col (c : Dev 4) (l : Fin 512) : Fin 1024 := ⟨512 * (c.val % 2) + l.val, by have := l.isLt; omega⟩

/-- What device `c` is to end with, from the devices' argument blocks: its own block plus its
    peer's, both at column `512 y + l`. -/
def kernOut (a : Dev 4 → DevArg) (c : Dev 4) : DevOut :=
  fun i => (show EReal from a c (ix3 (n0 := 1) (n1 := 2048) (n2 := 1024) 0 (i 0) (col c (i 1))))
    + (show EReal from a (yPeer c) (ix3 (n0 := 1) (n1 := 2048) (n2 := 1024) 0 (i 0) (col c (i 1))))

/-! ### Where the blocks lie -/

open Layout in
/-- Device `c`'s block coordinate along a dimension cut by the mesh's second axis is `c % 2`. -/
theorem meshLin_y (c : Dev 4) : Layout.meshLin [2, 2] c.val [1] = c.val % 2 := by
  revert c; decide

/-- An array read at two indices with the same coordinates reads the same element. -/
theorem read_congr {S : Shape} {α : Type} (X : S.Idx → α) (j j' : S.Idx) (h : ∀ b, (j b).val = (j' b).val) :
    X j = X j' := congrArg X (funext fun b => Fin.ext (h b))

/-- A device's argument block, read at `[0, r, l]`, is the whole argument at `[c % 2, r, l]`. -/
theorem argBlock_apply (X : WholeArg) (c : Dev 4) (r : Fin 2048) (l : Fin 1024) :
    (Layout.blockN ⟨3, ![1, 2048, 1024]⟩ ⟨3, ![2, 2048, 1024]⟩ (Layout.meshBlock [2, 2] ![[1], [], []] c) X)
        (ix3 (n0 := 1) (n1 := 2048) (n2 := 1024) 0 r l)
      = X (ix3 (n0 := 2) (n1 := 2048) (n2 := 1024) ⟨c.val % 2, Nat.mod_lt _ (by decide)⟩ r l) := by
  rw [Layout.blockN_apply]
  refine read_congr X _ _ fun b => ?_
  match b with
  | ⟨0, _⟩ =>
    show Layout.meshLin [2, 2] c.val [1] * 1 + 0 = c.val % 2
    rw [meshLin_y]; omega
  | ⟨1, _⟩ =>
    show 0 * 2048 + r.val = r.val
    omega
  | ⟨2, _⟩ =>
    show 0 * 1024 + l.val = l.val
    omega

/-- A device's block of the result, read at `[r, l]`, is the whole result at `[r, 512 (c % 2) + l]`. -/
theorem outBlock_apply (R : WholeOut) (c : Dev 4) (r : Fin 2048) (l : Fin 512) :
    (Layout.blockN ⟨2, ![2048, 512]⟩ ⟨2, ![2048, 1024]⟩ (Layout.meshBlock [2, 2] ![[], [1]] c) R)
        (ix2 (n0 := 2048) (n1 := 512) r l)
      = R (ix2 (n0 := 2048) (n1 := 1024) r (col c l)) := by
  rw [Layout.blockN_apply]
  refine read_congr R _ _ fun b => ?_
  match b with
  | ⟨0, _⟩ =>
    show 0 * 2048 + r.val = r.val
    omega
  | ⟨1, _⟩ =>
    show Layout.meshLin [2, 2] c.val [1] * 512 + l.val = 512 * (c.val % 2) + l.val
    rw [meshLin_y]; omega

/-- The peer's second coordinate is the other one. -/
theorem yPeer_y (c : Dev 4) : (yPeer c).val % 2 = 1 - c.val % 2 := by
  revert c; decide

/-- THE BLOCKS OF THE SUM: when every device's argument is its block of `X`, a device's own block plus
    its peer's, at column `512 y + l`, is its block of the two-slab sum of `X`. -/
theorem kernOut_eq_block (a : Dev 4 → DevArg) (X : WholeArg)
    (hagree : ∀ c : Dev 4, a c = Layout.blockN ⟨3, ![1, 2048, 1024]⟩ ⟨3, ![2, 2048, 1024]⟩
      (Layout.meshBlock [2, 2] ![[1], [], []] c) X) (c : Dev 4) :
    kernOut a c = Layout.blockN ⟨2, ![2048, 512]⟩ ⟨2, ![2048, 1024]⟩ (Layout.meshBlock [2, 2] ![[], [1]] c) (refOut X) := by
  funext i
  obtain ⟨r, l, rfl⟩ : ∃ (r : Fin 2048) (l : Fin 512), i = ix2 r l := ⟨i 0, i 1, eq_ix2 i⟩
  rw [outBlock_apply, refOut_apply]
  show (show EReal from a c (ix3 0 r (col c l))) + (show EReal from a (yPeer c) (ix3 0 r (col c l))) = _
  rw [hagree c, hagree (yPeer c), argBlock_apply, argBlock_apply]
  have hy : c.val % 2 = 0 ∨ c.val % 2 = 1 := by omega
  rcases hy with hy | hy
  · have e0 : X (ix3 (n0 := 2) (n1 := 2048) (n2 := 1024) ⟨c.val % 2, Nat.mod_lt _ (by decide)⟩ r (col c l))
        = X (ix3 0 r (col c l)) :=
      read_congr X _ _ fun b => by
        match b with
        | ⟨0, _⟩ => exact hy
        | ⟨1, _⟩ => rfl
        | ⟨2, _⟩ => rfl
    have e1 : X (ix3 (n0 := 2) (n1 := 2048) (n2 := 1024) ⟨(yPeer c).val % 2, Nat.mod_lt _ (by decide)⟩ r (col c l))
        = X (ix3 1 r (col c l)) :=
      read_congr X _ _ fun b => by
        match b with
        | ⟨0, _⟩ => show (yPeer c).val % 2 = 1; rw [yPeer_y, hy]
        | ⟨1, _⟩ => rfl
        | ⟨2, _⟩ => rfl
    rw [e0, e1]
  · have e0 : X (ix3 (n0 := 2) (n1 := 2048) (n2 := 1024) ⟨c.val % 2, Nat.mod_lt _ (by decide)⟩ r (col c l))
        = X (ix3 1 r (col c l)) :=
      read_congr X _ _ fun b => by
        match b with
        | ⟨0, _⟩ => exact hy
        | ⟨1, _⟩ => rfl
        | ⟨2, _⟩ => rfl
    have e1 : X (ix3 (n0 := 2) (n1 := 2048) (n2 := 1024) ⟨(yPeer c).val % 2, Nat.mod_lt _ (by decide)⟩ r (col c l))
        = X (ix3 0 r (col c l)) :=
      read_congr X _ _ fun b => by
        match b with
        | ⟨0, _⟩ => show (yPeer c).val % 2 = 0; rw [yPeer_y, hy]
        | ⟨1, _⟩ => rfl
        | ⟨2, _⟩ => rfl
    rw [e0, e1]
    exact add_comm (G := EReal) _ _

/-- info: 'Cert.RefValue.kernOut_eq_block' depends on axioms: [propext, Classical.choice, Quot.sound] -/
#guard_msgs in #print axioms kernOut_eq_block

end Cert.RefValue

end
-- ==== Proof.RefValue.lean ====
import proofs.«900304_g7700000000000305_dist_rs_v7x_xy2x2_y_m2048_n512_bf16_1_alg».proof.Proof.Gen.ReferenceIdeal.Run
import proofs.«900304_g7700000000000305_dist_rs_v7x_xy2x2_y_m2048_n512_bf16_1_alg».proof.Proof.Gen.ReferenceIdeal.Read
import proofs.«900304_g7700000000000305_dist_rs_v7x_xy2x2_y_m2048_n512_bf16_1_alg».proof.Proof.Gen.Pre_finite_inputs_ReferenceIdeal
import proofs.«900304_g7700000000000305_dist_rs_v7x_xy2x2_y_m2048_n512_bf16_1_alg».proof.Defs
import proofs.«900304_g7700000000000305_dist_rs_v7x_xy2x2_y_m2048_n512_bf16_1_alg».proof.Proof.RefMath

/-!
The reference's run and its value.

The reference reduces its argument `X : [2, 2048, 1024]` over dimension 0 from the initial value `0` and
changes the format; at the extended reals the format change is the identity and the reduction is
`0 + (X[0, r, l] + X[1, r, l])`: the two-slab sum `refOut X`. Each device's block of that result is its own
argument block plus its peer's (`kernOut_eq_block`), here stated over the two programs' memories.
-/

noncomputable section

namespace Cert.RefValue

open Idealize.ShloMosaic Idealize.ShloMosaic.ValueIdx Idealize.SL.Sem

/-- The reference runs, and its argument ends unchanged. -/
theorem frame_ri : Cert.frame_ReferenceIdeal :=
  fun m ρ _ => (θ_run Cert.ReferenceIdeal.defs _ _).mono (fun _ h c => (h c).2)
    (Cert.ReferenceIdeal.Value.run (F := Ideal) m ρ)

/-- The reference's result, as the generated reading states it, is the two-slab sum. -/
theorem val_eq_refOut (X : WholeArg) : Cert.ReferenceIdeal.Read.val_main_v1 (F := Ideal) X = refOut X := by
  funext i
  obtain ⟨r, l, rfl⟩ : ∃ (r : Fin 2048) (l : Fin 1024), i = ix2 r l := ⟨i 0, i 1, eq_ix2 i⟩
  rw [Cert.ReferenceIdeal.Read.val_main_v1_apply, Cert.ReferenceIdeal.Read.val_main_v0_apply,
    Cert.ReferenceIdeal.Read.val_main_cst_apply, refOut_apply]
  simp only [Ideal.truncf_def, Ideal.ofBits_def, Ideal.ofBits_zero_f32, Fin.sum_univ_two]
  rw [zero_add]
  have e0 : X (Cert.ReferenceIdeal.Read.idx_main_v0 (ix2 r l) 0) = X (ix3 0 r l) :=
    read_congr X _ _ fun b => by
      match b with
      | ⟨0, _⟩ => rfl
      | ⟨1, _⟩ => rfl
      | ⟨2, _⟩ => rfl
  have e1 : X (Cert.ReferenceIdeal.Read.idx_main_v0 (ix2 r l) 1) = X (ix3 1 r l) :=
    read_congr X _ _ fun b => by
      match b with
      | ⟨0, _⟩ => rfl
      | ⟨1, _⟩ => rfl
      | ⟨2, _⟩ => rfl
  rw [e0, e1]

/-- THE REFERENCE'S RUN: it terminates with its result the two-slab sum of its argument, the argument
    unchanged. -/
theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans ((Cert.ReferenceIdeal.Read.val_main_v1_eq _).trans (val_eq_refOut _)), (h 0).2⟩)
    (Cert.ReferenceIdeal.Value.run (F := Ideal) m' g')

/-- THE BRIDGE: from memories where each device's argument is its block of the reference's argument, each
    device's own block plus its peer's is its block of the reference's result. -/
theorem bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0)))
    (c : Dev 4) :
    kernOut (fun d => m ((d.tc : Thread Cert.KernelIdeal.nD Cert.KernelIdeal.τ).loc Cert.KernelIdeal.main_arg0)) c
      = Layout.blockN ⟨2, ![2048, 512]⟩ ⟨2, ![2048, 1024]⟩ (Layout.meshBlock [2, 2] ![[], [1]] c)
          (refOut (m' (((0 : Dev Cert.ReferenceIdeal.nD).tc : Thread Cert.ReferenceIdeal.nD Cert.ReferenceIdeal.τ).loc Cert.ReferenceIdeal.main_arg0))) :=
  kernOut_eq_block _ _ hagree c

/-- info: 'Cert.RefValue.frame_ri' depends on axioms: [propext, Classical.choice, Quot.sound] -/
#guard_msgs in #print axioms frame_ri
/-- info: 'Cert.RefValue.ref_run' depends on axioms: [propext, Classical.choice, Quot.sound] -/
#guard_msgs in #print axioms ref_run
/-- info: 'Cert.RefValue.bridge' depends on axioms: [propext, Classical.choice, Quot.sound] -/
#guard_msgs in #print axioms bridge

end Cert.RefValue

end
-- ==== Proof.OutIdeal.lean ====
import proofs.«900304_g7700000000000305_dist_rs_v7x_xy2x2_y_m2048_n512_bf16_1_alg».proof.Proof.Vals
import proofs.«900304_g7700000000000305_dist_rs_v7x_xy2x2_y_m2048_n512_bf16_1_alg».proof.Proof.RefMath
import proofs.«900304_g7700000000000305_dist_rs_v7x_xy2x2_y_m2048_n512_bf16_1_alg».proof.ReferenceIdeal
import Idealize.ShloMosaic.Lib.ValueLayout
import Idealize.ShloMosaic.PureOps.Ideal.Laws

/-!
What the result buffer holds, as a function of the devices' argument blocks, at the extended reals.

A chunk memref is a unit-stride slice of the argument block at offsets `[0, 1024 x + 64 k, ·]` with its
leading unit axis dropped, so its element `(r, l)` is the block's element `[0, 1024 x + 64 k + r, off + l]`.
At the extended reals the narrowing is the identity and the addition is the sum, so a reduced chunk is the
device's own columns plus its y-neighbour's columns `512 y …`. The other row half of the result holds the
x-neighbour's reduced chunks; the x-neighbour and its y-neighbour hold the same argument blocks as the device
and its y-neighbour (a block depends on `y` alone), so every row is the device's block plus its peer's.
-/

noncomputable section

namespace Cert.RefValue

open Cert.KernelIdeal Cert.KernelIdeal.Gen Cert.KernelIdealProof
open Idealize.ShloMosaic Idealize.ShloMosaic.TcCoe Idealize.ShloMosaic.ValueIdx

/-! ### A chunk's element in the argument block -/

/-- The device's own columns of chunk `k`: element `(r, l)` is the block at `[0, 1024 x + 64 k + r, 512 y + l]`. -/
theorem vMine_apply {F : FTy → Type} [FloatOps F] (m : (ℓ : Loc nD τ sig) → Buf (Elt F) ℓ) (c : Dev nD) (k : Fin 16) (r : Fin 64) (l : Fin 512) :
    vMine m c k (ix2 r l)
      = argOf m c (ix3 (n0 := 1) (n1 := 2048) (n2 := 1024) 0
          ⟨1024 * (c.val / 2) + 64 * k.val + r.val, by have hc : c.val < 4 := c.isLt; have := k.isLt; have := r.isLt; omega⟩
          ⟨512 * (c.val % 2) + l.val, by have := l.isLt; omega⟩) := by
  unfold vMine
  rw [View.read_apply, cast_eq]
  refine read_congr (argOf m c) _ _ fun b => ?_
  have hb : (((aMn c k).view.emb (ix2 r l)) b).val
      = (k0_off2 c (BitVec.ofNat 32 (64 * k.val))) b + 1 * ((Shape.reshapeEquiv squeezes_S1x64x512_S64x512.numel_eq (ix2 r l)) b).val := rfl
  rw [hb, k0_off2_eq, reshapeEquiv_ix2_1ab]
  clear hb
  match b with
  | ⟨0, _⟩ => rfl
  | ⟨1, _⟩ => show 1024 * (c.val / 2) + 64 * k.val + 1 * r.val = 1024 * (c.val / 2) + 64 * k.val + r.val; omega
  | ⟨2, _⟩ => show 512 * (c.val % 2) + 1 * l.val = 512 * (c.val % 2) + l.val; omega

/-- The y-neighbour's columns of chunk `k`: element `(r, l)` is the block at `[0, 1024 x + 64 k + r, 512 (1 - y) + l]`. -/
theorem vPeer_apply {F : FTy → Type} [FloatOps F] (m : (ℓ : Loc nD τ sig) → Buf (Elt F) ℓ) (c : Dev nD) (k : Fin 16) (r : Fin 64) (l : Fin 512) :
    vPeer m c k (ix2 r l)
      = argOf m c (ix3 (n0 := 1) (n1 := 2048) (n2 := 1024) 0
          ⟨1024 * (c.val / 2) + 64 * k.val + r.val, by have hc : c.val < 4 := c.isLt; have := k.isLt; have := r.isLt; omega⟩
          ⟨512 - 512 * (c.val % 2) + l.val, by have := l.isLt; omega⟩) := by
  unfold vPeer
  rw [View.read_apply, cast_eq]
  refine read_congr (argOf m c) _ _ fun b => ?_
  have hb : (((aPr c k).view.emb (ix2 r l)) b).val
      = (k0_off1 c (BitVec.ofNat 32 (64 * k.val))) b + 1 * ((Shape.reshapeEquiv squeezes_S1x64x512_S64x512.numel_eq (ix2 r l)) b).val := rfl
  rw [hb, k0_off1_eq, reshapeEquiv_ix2_1ab]
  clear hb
  match b with
  | ⟨0, _⟩ => rfl
  | ⟨1, _⟩ => show 1024 * (c.val / 2) + 64 * k.val + 1 * r.val = 1024 * (c.val / 2) + 64 * k.val + r.val; omega
  | ⟨2, _⟩ => show 512 - 512 * (c.val % 2) + 1 * l.val = 512 - 512 * (c.val % 2) + l.val; omega

/-! ### A reduced chunk at the extended reals -/

/-- Row `1024 x + 64 k + r` of the argument block: row `r` of chunk `k` of the device's row half. -/
def rowOf (c : Dev 4) (k : Fin 16) (r : Fin 64) : Fin 2048 :=
  ⟨1024 * (c.val / 2) + 64 * k.val + r.val, by have := c.isLt; have := k.isLt; have := r.isLt; omega⟩

/-- A reduced chunk is the device's own columns plus its y-neighbour's block at the same columns. -/
theorem oaVec_apply (m : (ℓ : Loc nD τ sig) → Buf (Elt Ideal) ℓ) (c : Dev nD) (k : Fin 16) (r : Fin 64) (l : Fin 512) :
    oaVec (F := Ideal) m c k (ix2 r l)
      = (show EReal from argOf m c (ix3 (n0 := 1) (n1 := 2048) (n2 := 1024) 0 (rowOf c k r) (col c l)))
        + (show EReal from argOf m (yP c) (ix3 (n0 := 1) (n1 := 2048) (n2 := 1024) 0 (rowOf c k r) (col c l))) := by
  unfold oaVec oaVal ysVec ysVal
  rw [shapeCast_self, shapeCast_self]
  show (show EReal from vMine m c k (ix2 r l)) + (show EReal from vPeer m (yP c) k (ix2 r l)) = _
  rw [vMine_apply, vPeer_apply]
  refine congrArg₂ (fun a b : EReal => a + b) rfl (read_congr (argOf m (yP c)) _ _ fun b => ?_)
  match b with
  | ⟨0, _⟩ => rfl
  | ⟨1, _⟩ =>
    show 1024 * ((yP c).val / 2) + 64 * k.val + r.val = 1024 * (c.val / 2) + 64 * k.val + r.val
    rw [yP_x]
  | ⟨2, _⟩ =>
    show 512 - 512 * ((yP c).val % 2) + l.val = 512 * (c.val % 2) + l.val
    rw [yP_y]
    have := Nat.mod_lt c.val (show 0 < 2 by decide)
    omega

/-! ### The result buffer is the device's block plus its peer's -/

/-- The y-neighbour is the peer. -/
theorem yP_eq_yPeer (d : Dev 4) : yP d = yPeer d := Fin.ext rfl

/-- When a device's argument block depends on its `y` alone, every row of the result buffer — the device's own
    row half and the x-neighbour's — is the device's block plus its peer's, at columns `512 y …`. -/
theorem outFin_eq_kernOut (m : (ℓ : Loc nD τ sig) → Buf (Elt Ideal) ℓ)
    (hsame : ∀ d d' : Dev 4, d.val % 2 = d'.val % 2 →
      m ((d.tc : Thread Cert.KernelIdeal.nD Cert.KernelIdeal.τ).loc Cert.KernelIdeal.main_arg0)
        = m ((d'.tc : Thread Cert.KernelIdeal.nD Cert.KernelIdeal.τ).loc Cert.KernelIdeal.main_arg0))
    (c : Dev 4) :
    outFin (F := Ideal) m c
      = kernOut (fun d => m ((d.tc : Thread Cert.KernelIdeal.nD Cert.KernelIdeal.τ).loc Cert.KernelIdeal.main_arg0)) c := by
  funext i
  obtain ⟨R, l, rfl⟩ : ∃ (R : Fin 2048) (l : Fin 512), i = ix2 R l := ⟨i 0, i 1, eq_ix2 i⟩
  -- the device whose reduced chunks this row holds: same `y`, and its `x` is the row's half
  obtain ⟨d, hd, hd2, hdx⟩ : ∃ d : Dev 4, d = (if R.val / 1024 = c.val / 2 then c else xP c)
      ∧ d.val % 2 = c.val % 2 ∧ d.val / 2 = R.val / 1024 := by
    by_cases hx : R.val / 1024 = c.val / 2
    · exact ⟨c, (if_pos hx).symm, rfl, hx.symm⟩
    · refine ⟨xP c, (if_neg hx).symm, xP_y c, ?_⟩
      rw [xP_x]
      have := R.isLt
      have := c.isLt
      omega
  show oaVec (F := Ideal) m (if R.val / 1024 = c.val / 2 then c else xP c) ⟨R.val % 1024 / 64, by omega⟩
      (ix2 ⟨R.val % 64, Nat.mod_lt _ (by decide)⟩ l)
    = (show EReal from m ((c.tc : Thread Cert.KernelIdeal.nD Cert.KernelIdeal.τ).loc Cert.KernelIdeal.main_arg0)
          (ix3 (n0 := 1) (n1 := 2048) (n2 := 1024) 0 R (col c l)))
      + (show EReal from m (((yPeer c).tc : Thread Cert.KernelIdeal.nD Cert.KernelIdeal.τ).loc Cert.KernelIdeal.main_arg0)
          (ix3 (n0 := 1) (n1 := 2048) (n2 := 1024) 0 R (col c l)))
  rw [← hd, oaVec_apply]
  have h1 : argOf m d = m ((c.tc : Thread Cert.KernelIdeal.nD Cert.KernelIdeal.τ).loc Cert.KernelIdeal.main_arg0) :=
    hsame d c hd2
  have h2 : argOf m (yP d) = m (((yPeer c).tc : Thread Cert.KernelIdeal.nD Cert.KernelIdeal.τ).loc Cert.KernelIdeal.main_arg0) :=
    hsame (yP d) (yPeer c) (by rw [yP_y, yPeer_y, hd2])
  rw [h1, h2]
  have hrow : ∀ b, ((ix3 (n0 := 1) (n1 := 2048) (n2 := 1024) 0
        (rowOf d ⟨R.val % 1024 / 64, by omega⟩ ⟨R.val % 64, Nat.mod_lt _ (by decide)⟩) (col d l)) b).val
      = ((ix3 (n0 := 1) (n1 := 2048) (n2 := 1024) 0 R (col c l)) b).val := fun b => by
    match b with
    | ⟨0, _⟩ => rfl
    | ⟨1, _⟩ =>
      show 1024 * (d.val / 2) + 64 * (R.val % 1024 / 64) + R.val % 64 = R.val
      rw [hdx]; omega
    | ⟨2, _⟩ =>
      show 512 * (d.val % 2) + l.val = 512 * (c.val % 2) + l.val
      rw [hd2]
  exact congrArg₂ (fun a b : EReal => a + b) (read_congr _ _ _ hrow) (read_congr _ _ _ hrow)

/-! ### From the claim's agreement to the result's block -/

/-- A device's block of the argument depends on its `y` alone: devices with the same `y` hold the same block. -/
theorem same_of_agree (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0)))
    (d d' : Dev 4) (h : d.val % 2 = d'.val % 2) :
    m ((d.tc : Thread Cert.KernelIdeal.nD Cert.KernelIdeal.τ).loc Cert.KernelIdeal.main_arg0)
      = m ((d'.tc : Thread Cert.KernelIdeal.nD Cert.KernelIdeal.τ).loc Cert.KernelIdeal.main_arg0) := by
  have hb : Layout.meshBlock [2, 2] ![[1], [], []] d = Layout.meshBlock [2, 2] ![[1], [], []] d' := by
    funext b
    refine Fin.ext ?_
    match b with
    | ⟨0, _⟩ =>
      show Layout.meshLin [2, 2] d.val [1] = Layout.meshLin [2, 2] d'.val [1]
      rw [meshLin_y, meshLin_y, h]
    | ⟨1, _⟩ => rfl
    | ⟨2, _⟩ => rfl
  rw [hagree d, hagree d', hb]

/-- THE RESULT BUFFER IS THE REFERENCE'S BLOCK: from memories where each device's argument is its block of the
    reference's argument, the result buffer's final contents are the device's block of the two-slab sum. -/
theorem out_bridge (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0)))
    (c : Dev 4) :
    outFin (F := Ideal) m c
      = Layout.blockN ⟨2, ![2048, 512]⟩ ⟨2, ![2048, 1024]⟩ (Layout.meshBlock [2, 2] ![[], [1]] c)
          (refOut (m' (((0 : Dev Cert.ReferenceIdeal.nD).tc : Thread Cert.ReferenceIdeal.nD Cert.ReferenceIdeal.τ).loc Cert.ReferenceIdeal.main_arg0))) :=
  (outFin_eq_kernOut m (same_of_agree m m' hagree) c).trans (kernOut_eq_block _ _ hagree c)

/-- info: 'Cert.RefValue.out_bridge' depends on axioms: [propext, Classical.choice, Quot.sound] -/
#guard_msgs in #print axioms out_bridge

end Cert.RefValue

end
-- ==== Proof.Claims.lean ====
/-
  The five claims of the certificate, from the launch theorem of the kernel (at the word level and over the extended
  reals), the body's proof, the reference's run and the bridge between the kernel's final result and the reference's.

  Each frame is the run with the statement about the result dropped. The algebraic claim takes the reference's
  result, the sum of the argument's two slabs, as the common value: the kernel's run leaves on each device the
  contents `outFin`, which from memories that agree on the argument is that device's block of the sum.
-/
import proofs.«900304_g7700000000000305_dist_rs_v7x_xy2x2_y_m2048_n512_bf16_1_alg».proof.Defs
import proofs.«900304_g7700000000000305_dist_rs_v7x_xy2x2_y_m2048_n512_bf16_1_alg».proof.Proof.Launch
import proofs.«900304_g7700000000000305_dist_rs_v7x_xy2x2_y_m2048_n512_bf16_1_alg».proof.Proof.Body
import proofs.«900304_g7700000000000305_dist_rs_v7x_xy2x2_y_m2048_n512_bf16_1_alg».proof.Proof.Bits.Launch
import proofs.«900304_g7700000000000305_dist_rs_v7x_xy2x2_y_m2048_n512_bf16_1_alg».proof.Proof.Bits.Body
import proofs.«900304_g7700000000000305_dist_rs_v7x_xy2x2_y_m2048_n512_bf16_1_alg».proof.Proof.RefValue
import proofs.«900304_g7700000000000305_dist_rs_v7x_xy2x2_y_m2048_n512_bf16_1_alg».proof.Proof.OutIdeal
import proofs.«900304_g7700000000000305_dist_rs_v7x_xy2x2_y_m2048_n512_bf16_1_alg».proof.Proof.Gen.Pre_finite_inputs_Kernel

noncomputable section

namespace Cert.Proof.Claims

open Idealize.ShloMosaic Idealize.SL.Sem

/-- The kernel as printed runs to the end on all four devices and leaves every device's argument block as it was. -/
theorem frame_k : Cert.frame_Kernel :=
  fun m ρ _ => (θ_run _ _ _).mono (fun _ h c => (h c).2)
    (Cert.KernelProof.run_main (F := Bits) m ρ (Cert.KernelProof.body_obligation m))

/-- So does the kernel read over the extended reals. -/
theorem frame_ki : Cert.frame_KernelIdeal :=
  fun m ρ _ => (θ_run _ _ _).mono (fun _ h c => (h c).2)
    (Cert.KernelIdealProof.run_main (F := Ideal) m ρ (Cert.KernelIdealProof.body_obligation m))

/-- The idealization rewrote no operation. -/
theorem preserves : Cert.preserves_Kernel_KernelIdeal := trivial

/-- Over the extended reals each device's result is its block of the reference's result: the reference's result
    is the sum of the argument's two slabs, and device `(x, y)` ends with rows `1024·x …`, columns `512·y …` of
    that sum, its own slab's part added to the part its y-neighbour sent. -/
theorem algebraic : Cert.algebraic_KernelIdeal_ReferenceIdeal := by
  intro m g m' g' _ hagree
  refine ⟨Cert.RefValue.refOut (m' (((0 : Dev Cert.ReferenceIdeal.nD).tc : Thread Cert.ReferenceIdeal.nD Cert.ReferenceIdeal.τ).loc Cert.ReferenceIdeal.main_arg0)), ?_, Cert.RefValue.ref_run m' g'⟩
  exact (θ_run _ _ _).mono (fun _ h c => ⟨(h c).1.trans (Cert.RefValue.out_bridge m m' hagree c), (h c).2⟩)
    (Cert.KernelIdealProof.run_main (F := Ideal) m g (Cert.KernelIdealProof.body_obligation m))

end Cert.Proof.Claims

/-- info: 'Cert.Proof.Claims.frame_k' depends on axioms: [propext, Classical.choice, Quot.sound] -/
#guard_msgs in #print axioms Cert.Proof.Claims.frame_k

/-- info: 'Cert.Proof.Claims.frame_ki' depends on axioms: [propext, Classical.choice, Quot.sound] -/
#guard_msgs in #print axioms Cert.Proof.Claims.frame_ki

/-- info: 'Cert.Proof.Claims.algebraic' depends on axioms: [propext, Classical.choice, Quot.sound] -/
#guard_msgs in #print axioms Cert.Proof.Claims.algebraic

end
-- ==== Proof.lean ====
/-
  A reduce-scatter on a 2 × 2 mesh. The whole argument is two slabs of 2048 × 1024 numbers; the reference's result is
  their sum, entry by entry. Device `(x, y)` holds slab `y` and must end with columns `512·y …` of the sum, narrowed to
  bf16 (over the extended reals narrowing changes no value, and the sum of two numbers does not depend on their order).

  Device `(x, y)` works on rows `1024·x …` of its slab, in sixteen chunks of 64 rows. Of each chunk it sends the OTHER
  `y`'s columns to its y-neighbour `(x, 1 − y)`, which holds the other slab; it adds its own columns to the chunk its
  y-neighbour sent it — the same rows and columns of the other slab —, so that the chunk now holds rows `1024·x …`,
  columns `512·y …` of the sum; it stores that chunk into those rows of its own result and sends it to the same rows of
  the result of its x-neighbour `(1 − x, y)`, which needs the same columns and computes the other half of the rows. At
  the end every device holds all 2048 rows of its columns of the sum: one half computed, the other received.

  The devices meet through semaphores only. Before any remote copy each device signals both neighbours' barrier
  semaphore and waits for two units, so that a chunk lands only in a buffer whose owner has entered the kernel. Every
  copy is awaited before its destination is read and before the kernel ends. A device waits for a semaphore only while
  everything it still owes lies at a higher level (barrier below the y-exchange's receive semaphores below the
  x-exchange's), so no cycle of waiting devices can form and every fair execution terminates.

  The modules: Proof/Base, Vals, Sched, SchedTab, State (names, final contents, the schedule of the semaphores' rounds and
  its tables, the per-chunk state of a device), Proof/Geom, Loops, Steps*, Body (one device's body), Proof/LaunchCred,
  Launch (the launch over all four devices), Proof/RefMath, RefValue, OutIdeal (the reference's sum and the kernel's
  final result as its block), Proof/Bits/* (the same text for the program as printed at the word level), and
  Proof/Claims (the five claims).
-/
import proofs.«900304_g7700000000000305_dist_rs_v7x_xy2x2_y_m2048_n512_bf16_1_alg».proof.Defs
import proofs.«900304_g7700000000000305_dist_rs_v7x_xy2x2_y_m2048_n512_bf16_1_alg».proof.Proof.Claims
import proofs.«900304_g7700000000000305_dist_rs_v7x_xy2x2_y_m2048_n512_bf16_1_alg».proof.Proof.RefValue
import proofs.«900304_g7700000000000305_dist_rs_v7x_xy2x2_y_m2048_n512_bf16_1_alg».proof.Proof.Gen.Kernel
import proofs.«900304_g7700000000000305_dist_rs_v7x_xy2x2_y_m2048_n512_bf16_1_alg».proof.Proof.Gen.KernelIdeal
import proofs.«900304_g7700000000000305_dist_rs_v7x_xy2x2_y_m2048_n512_bf16_1_alg».proof.Proof.Gen.ReferenceIdeal
import proofs.«900304_g7700000000000305_dist_rs_v7x_xy2x2_y_m2048_n512_bf16_1_alg».proof.Proof.Gen.Pre_finite_inputs_Kernel
import proofs.«900304_g7700000000000305_dist_rs_v7x_xy2x2_y_m2048_n512_bf16_1_alg».proof.Proof.Gen.Pre_finite_inputs_ReferenceIdeal

noncomputable section

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_k, Claims.frame_ki, Cert.RefValue.frame_ri, Claims.preserves, Claims.algebraic⟩

end Cert.Proof

end
